-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x4096x2048 : Shape := ⟨3, ![1, 4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel

variable [Facts]

def fn {F : FTy → Type} [FloatOps F] (main_arg0 : FVec F S1x4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  main_v3
-- ==== Pre_finite_inputs_ReferenceIdeal.lean ====
abbrev S2x4096x2048 : Shape := ⟨3, ![2, 4096, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  main_v3
-- ==== Kernel.lean ====
abbrev S1x4096x2048 : Shape := ⟨3, ![1, 4096, 2048]⟩
abbrev S4096x1024 : Shape := ⟨2, ![4096, 1024]⟩
abbrev S8 : Shape := ⟨1, ![8]⟩
abbrev S_ : Shape := ⟨0, ![]⟩
abbrev S1 : Shape := ⟨1, ![1]⟩
abbrev S512x1024 : Shape := ⟨2, ![512, 1024]⟩
abbrev S1x512x1024 : Shape := ⟨3, ![1, 512, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v17 : BitVec 1 := Scalar.cmpi .eq v2 c0_i32_8
  let v18 : BitVec 32 := Scalar.extui v17
  let c0_i32_9 : BitVec 32 := 0#32
  let v19 : BitVec 1 := Scalar.cmpi .ne v18 c0_i32_9
  v19

def k0_dev2 (d0 : Dev nD) : Nat :=
  let c0_i32_106 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_105 : BitVec 32 := 16#32
  let v108 : BitVec 32 := Scalar.muli v9 c16_i32_105
  let v109 : BitVec 32 := Scalar.addi c0_i32_106 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v110 : BitVec 32 := Scalar.muli v5 c4_i32_107
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v112 : BitVec 32 := Scalar.muli v8 c1_i32_108
  let v113 : BitVec 32 := Scalar.addi v111 v112
  v113.toNat
def k0_dev3 (d0 : Dev nD) : Nat :=
  let c0_i32_122 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_121 : BitVec 32 := 16#32
  let v125 : BitVec 32 := Scalar.muli v9 c16_i32_121
  let v126 : BitVec 32 := Scalar.addi c0_i32_122 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_123 : BitVec 32 := 4#32
  let v127 : BitVec 32 := Scalar.muli v5 c4_i32_123
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v129 : BitVec 32 := Scalar.muli v8 c1_i32_124
  let v130 : BitVec 32 := Scalar.addi v128 v129
  v130.toNat
def k0_dev4 (d0 : Dev nD) : Nat :=
  let c0_i32_138 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_137 : BitVec 32 := 16#32
  let v142 : BitVec 32 := Scalar.muli v9 c16_i32_137
  let v143 : BitVec 32 := Scalar.addi c0_i32_138 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v144 : BitVec 32 := Scalar.muli v5 c4_i32_139
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v146 : BitVec 32 := Scalar.muli v8 c1_i32_140
  let v147 : BitVec 32 := Scalar.addi v145 v146
  v147.toNat
def k0_dev5 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v159 : BitVec 32 := Scalar.muli v9 c16_i32_153
  let v160 : BitVec 32 := Scalar.addi c0_i32_154 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v161 : BitVec 32 := Scalar.muli v5 c4_i32_155
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v163 : BitVec 32 := Scalar.muli v8 c1_i32_156
  let v164 : BitVec 32 := Scalar.addi v162 v163
  v164.toNat
def k0_dev6 (d0 : Dev nD) : Nat :=
  let c0_i32_170 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_169 : BitVec 32 := 16#32
  let v176 : BitVec 32 := Scalar.muli v9 c16_i32_169
  let v177 : BitVec 32 := Scalar.addi c0_i32_170 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v178 : BitVec 32 := Scalar.muli v5 c4_i32_171
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v180 : BitVec 32 := Scalar.muli v8 c1_i32_172
  let v181 : BitVec 32 := Scalar.addi v179 v180
  v181.toNat
def k0_dev7 (d0 : Dev nD) : Nat :=
  let c0_i32_186 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_185 : BitVec 32 := 16#32
  let v193 : BitVec 32 := Scalar.muli v9 c16_i32_185
  let v194 : BitVec 32 := Scalar.addi c0_i32_186 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_187 : BitVec 32 := 4#32
  let v195 : BitVec 32 := Scalar.muli v5 c4_i32_187
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v197 : BitVec 32 := Scalar.muli v8 c1_i32_188
  let v198 : BitVec 32 := Scalar.addi v196 v197
  v198.toNat
def k0_dev8 (d0 : Dev nD) : Nat :=
  let c0_i32_202 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_201 : BitVec 32 := 16#32
  let v210 : BitVec 32 := Scalar.muli v9 c16_i32_201
  let v211 : BitVec 32 := Scalar.addi c0_i32_202 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v212 : BitVec 32 := Scalar.muli v5 c4_i32_203
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v214 : BitVec 32 := Scalar.muli v8 c1_i32_204
  let v215 : BitVec 32 := Scalar.addi v213 v214
  v215.toNat
def k0_dev9 (d0 : Dev nD) : Nat :=
  let c0_i32_218 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_217 : BitVec 32 := 16#32
  let v227 : BitVec 32 := Scalar.muli v9 c16_i32_217
  let v228 : BitVec 32 := Scalar.addi c0_i32_218 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_219 : BitVec 32 := 4#32
  let v229 : BitVec 32 := Scalar.muli v5 c4_i32_219
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v231 : BitVec 32 := Scalar.muli v8 c1_i32_220
  let v232 : BitVec 32 := Scalar.addi v230 v231
  v232.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_10 : BitVec 32 := 1#32
  let v20 : BitVec 1 := Scalar.cmpi .eq v2 c1_i32_10
  let v21 : BitVec 32 := Scalar.extui v20
  let c0_i32_11 : BitVec 32 := 0#32
  let v22 : BitVec 1 := Scalar.cmpi .ne v21 c0_i32_11
  v22

def k0_dev10 (d0 : Dev nD) : Nat :=
  let c0_i32_106 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_105 : BitVec 32 := 16#32
  let v108 : BitVec 32 := Scalar.muli v9 c16_i32_105
  let v109 : BitVec 32 := Scalar.addi c0_i32_106 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v110 : BitVec 32 := Scalar.muli v5 c4_i32_107
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v112 : BitVec 32 := Scalar.muli v8 c1_i32_108
  let v113 : BitVec 32 := Scalar.addi v111 v112
  v113.toNat
def k0_dev11 (d0 : Dev nD) : Nat :=
  let c0_i32_122 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_121 : BitVec 32 := 16#32
  let v125 : BitVec 32 := Scalar.muli v9 c16_i32_121
  let v126 : BitVec 32 := Scalar.addi c0_i32_122 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_123 : BitVec 32 := 4#32
  let v127 : BitVec 32 := Scalar.muli v5 c4_i32_123
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v129 : BitVec 32 := Scalar.muli v8 c1_i32_124
  let v130 : BitVec 32 := Scalar.addi v128 v129
  v130.toNat
def k0_dev12 (d0 : Dev nD) : Nat :=
  let c0_i32_138 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_137 : BitVec 32 := 16#32
  let v142 : BitVec 32 := Scalar.muli v9 c16_i32_137
  let v143 : BitVec 32 := Scalar.addi c0_i32_138 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v144 : BitVec 32 := Scalar.muli v5 c4_i32_139
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v146 : BitVec 32 := Scalar.muli v8 c1_i32_140
  let v147 : BitVec 32 := Scalar.addi v145 v146
  v147.toNat
def k0_dev13 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v159 : BitVec 32 := Scalar.muli v9 c16_i32_153
  let v160 : BitVec 32 := Scalar.addi c0_i32_154 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v161 : BitVec 32 := Scalar.muli v5 c4_i32_155
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v163 : BitVec 32 := Scalar.muli v8 c1_i32_156
  let v164 : BitVec 32 := Scalar.addi v162 v163
  v164.toNat
def k0_dev14 (d0 : Dev nD) : Nat :=
  let c0_i32_170 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_169 : BitVec 32 := 16#32
  let v176 : BitVec 32 := Scalar.muli v9 c16_i32_169
  let v177 : BitVec 32 := Scalar.addi c0_i32_170 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v178 : BitVec 32 := Scalar.muli v5 c4_i32_171
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v180 : BitVec 32 := Scalar.muli v8 c1_i32_172
  let v181 : BitVec 32 := Scalar.addi v179 v180
  v181.toNat
def k0_dev15 (d0 : Dev nD) : Nat :=
  let c0_i32_186 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_185 : BitVec 32 := 16#32
  let v193 : BitVec 32 := Scalar.muli v9 c16_i32_185
  let v194 : BitVec 32 := Scalar.addi c0_i32_186 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_187 : BitVec 32 := 4#32
  let v195 : BitVec 32 := Scalar.muli v5 c4_i32_187
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v197 : BitVec 32 := Scalar.muli v8 c1_i32_188
  let v198 : BitVec 32 := Scalar.addi v196 v197
  v198.toNat
def k0_dev16 (d0 : Dev nD) : Nat :=
  let c0_i32_202 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_201 : BitVec 32 := 16#32
  let v210 : BitVec 32 := Scalar.muli v9 c16_i32_201
  let v211 : BitVec 32 := Scalar.addi c0_i32_202 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v212 : BitVec 32 := Scalar.muli v5 c4_i32_203
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v214 : BitVec 32 := Scalar.muli v8 c1_i32_204
  let v215 : BitVec 32 := Scalar.addi v213 v214
  v215.toNat
def k0_dev17 (d0 : Dev nD) : Nat :=
  let c0_i32_218 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_217 : BitVec 32 := 16#32
  let v227 : BitVec 32 := Scalar.muli v9 c16_i32_217
  let v228 : BitVec 32 := Scalar.addi c0_i32_218 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_219 : BitVec 32 := 4#32
  let v229 : BitVec 32 := Scalar.muli v5 c4_i32_219
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v231 : BitVec 32 := Scalar.muli v8 c1_i32_220
  let v232 : BitVec 32 := Scalar.addi v230 v231
  v232.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S8_S1_0 : ∀ a, (![0] : Fin 1 → Nat) a + S1.size a ≤ S8.size a
  squeezes_S1_S_ : S1.Squeezes S_
  inb_S4096x1024_S512x1024_0_0 : ∀ a, (![0, 0] : Fin 2 → Nat) a + S512x1024.size a ≤ S4096x1024.size a
  inb_S1x4096x2048_S1x512x1024_0_0_1024 : ∀ a, (![0, 0, 1024] : Fin 3 → Nat) a + S1x512x1024.size a ≤ S1x4096x2048.size a
  squeezes_S1x512x1024_S512x1024 : S1x512x1024.Squeezes S512x1024
  inb_S8_S1_1 : ∀ a, (![1] : Fin 1 → Nat) a + S1.size a ≤ S8.size a
  inb_S4096x1024_S512x1024_512_0 : ∀ a, (![512, 0] : Fin 2 → Nat) a + S512x1024.size a ≤ S4096x1024.size a
  inb_S1x4096x2048_S1x512x1024_0_512_1024 : ∀ a, (![0, 512, 1024] : Fin 3 → Nat) a + S1x512x1024.size a ≤ S1x4096x2048.size a
  inb_S8_S1_2 : ∀ a, (![2] : Fin 1 → Nat) a + S1.size a ≤ S8.size a
  inb_S4096x1024_S512x1024_1024_0 : ∀ a, (![1024, 0] : Fin 2 → Nat) a + S512x1024.size a ≤ S4096x1024.size a
  inb_S1x4096x2048_S1x512x1024_0_1024_1024 : ∀ a, (![0, 1024, 1024] : Fin 3 → Nat) a + S1x512x1024.size a ≤ S1x4096x2048.size a
  inb_S8_S1_3 : ∀ a, (![3] : Fin 1 → Nat) a + S1.size a ≤ S8.size a
  inb_S4096x1024_S512x1024_1536_0 : ∀ a, (![1536, 0] : Fin 2 → Nat) a + S512x1024.size a ≤ S4096x1024.size a
  inb_S1x4096x2048_S1x512x1024_0_1536_1024 : ∀ a, (![0, 1536, 1024] : Fin 3 → Nat) a + S1x512x1024.size a ≤ S1x4096x2048.size a
  inb_S8_S1_4 : ∀ a, (![4] : Fin 1 → Nat) a + S1.size a ≤ S8.size a
  inb_S4096x1024_S512x1024_2048_0 : ∀ a, (![2048, 0] : Fin 2 → Nat) a + S512x1024.size a ≤ S4096x1024.size a
  inb_S1x4096x2048_S1x512x1024_0_2048_1024 : ∀ a, (![0, 2048, 1024] : Fin 3 → Nat) a + S1x512x1024.size a ≤ S1x4096x2048.size a
  inb_S8_S1_5 : ∀ a, (![5] : Fin 1 → Nat) a + S1.size a ≤ S8.size a
  inb_S4096x1024_S512x1024_2560_0 : ∀ a, (![2560, 0] : Fin 2 → Nat) a + S512x1024.size a ≤ S4096x1024.size a
  inb_S1x4096x2048_S1x512x1024_0_2560_1024 : ∀ a, (![0, 2560, 1024] : Fin 3 → Nat) a + S1x512x1024.size a ≤ S1x4096x2048.size a
  inb_S8_S1_6 : ∀ a, (![6] : Fin 1 → Nat) a + S1.size a ≤ S8.size a
  inb_S4096x1024_S512x1024_3072_0 : ∀ a, (![3072, 0] : Fin 2 → Nat) a + S512x1024.size a ≤ S4096x1024.size a
  inb_S1x4096x2048_S1x512x1024_0_3072_1024 : ∀ a, (![0, 3072, 1024] : Fin 3 → Nat) a + S1x512x1024.size a ≤ S1x4096x2048.size a
  inb_S8_S1_7 : ∀ a, (![7] : Fin 1 → Nat) a + S1.size a ≤ S8.size a
  inb_S4096x1024_S512x1024_3584_0 : ∀ a, (![3584, 0] : Fin 2 → Nat) a + S512x1024.size a ≤ S4096x1024.size a
  inb_S1x4096x2048_S1x512x1024_0_3584_1024 : ∀ a, (![0, 3584, 1024] : Fin 3 → Nat) a + S1x512x1024.size a ≤ S1x4096x2048.size a
  inb_S1x4096x2048_S1x512x1024_0_0_0 : ∀ a, (![0, 0, 0] : Fin 3 → Nat) a + S1x512x1024.size a ≤ S1x4096x2048.size a
  inb_S1x4096x2048_S1x512x1024_0_512_0 : ∀ a, (![0, 512, 0] : Fin 3 → Nat) a + S1x512x1024.size a ≤ S1x4096x2048.size a
  inb_S1x4096x2048_S1x512x1024_0_1024_0 : ∀ a, (![0, 1024, 0] : Fin 3 → Nat) a + S1x512x1024.size a ≤ S1x4096x2048.size a
  inb_S1x4096x2048_S1x512x1024_0_1536_0 : ∀ a, (![0, 1536, 0] : Fin 3 → Nat) a + S1x512x1024.size a ≤ S1x4096x2048.size a
  inb_S1x4096x2048_S1x512x1024_0_2048_0 : ∀ a, (![0, 2048, 0] : Fin 3 → Nat) a + S1x512x1024.size a ≤ S1x4096x2048.size a
  inb_S1x4096x2048_S1x512x1024_0_2560_0 : ∀ a, (![0, 2560, 0] : Fin 3 → Nat) a + S1x512x1024.size a ≤ S1x4096x2048.size a
  inb_S1x4096x2048_S1x512x1024_0_3072_0 : ∀ a, (![0, 3072, 0] : Fin 3 → Nat) a + S1x512x1024.size a ≤ S1x4096x2048.size a
  inb_S1x4096x2048_S1x512x1024_0_3584_0 : ∀ a, (![0, 3584, 0] : Fin 3 → Nat) a + S1x512x1024.size a ≤ S1x4096x2048.size a
  h_S512x1024 : 0 < S512x1024.numel
  shapeCasts_S512x1024_S512x1024 : S512x1024.ShapeCasts S512x1024
  hcc0_scratch2 : 1 + S8.numel ≤ 33
  hcc0_scratch3 : 9 + S8.numel ≤ 33
  hcc0_scratch4 : 17 + S8.numel ≤ 33
  hcc0_scratch5 : 25 + S8.numel ≤ 33
  k0_dev1_lt : ∀ d0 : Dev nD, (k0_dev1 d0) < nD
  k0_dev2_lt : ∀ d0 : Dev nD, ∀ (k0_h1 : k0_cond1 d0 = 1#1), (k0_dev2 d0) < nD
  k0_dev3_lt : ∀ d0 : Dev nD, ∀ (k0_h1 : k0_cond1 d0 = 1#1), (k0_dev3 d0) < nD
  k0_dev4_lt : ∀ d0 : Dev nD, ∀ (k0_h1 : k0_cond1 d0 = 1#1), (k0_dev4 d0) < nD
  k0_dev5_lt : ∀ d0 : Dev nD, ∀ (k0_h1 : k0_cond1 d0 = 1#1), (k0_dev5 d0) < nD
  k0_dev6_lt : ∀ d0 : Dev nD, ∀ (k0_h1 : k0_cond1 d0 = 1#1), (k0_dev6 d0) < nD
  k0_dev7_lt : ∀ d0 : Dev nD, ∀ (k0_h1 : k0_cond1 d0 = 1#1), (k0_dev7 d0) < nD
  k0_dev8_lt : ∀ d0 : Dev nD, ∀ (k0_h1 : k0_cond1 d0 = 1#1), (k0_dev8 d0) < nD
  k0_dev9_lt : ∀ d0 : Dev nD, ∀ (k0_h1 : k0_cond1 d0 = 1#1), (k0_dev9 d0) < nD
  k0_dev10_lt : ∀ d0 : Dev nD, ∀ (k0_h2 : k0_cond2 d0 = 1#1), (k0_dev10 d0) < nD
  k0_dev11_lt : ∀ d0 : Dev nD, ∀ (k0_h2 : k0_cond2 d0 = 1#1), (k0_dev11 d0) < nD
  k0_dev12_lt : ∀ d0 : Dev nD, ∀ (k0_h2 : k0_cond2 d0 = 1#1), (k0_dev12 d0) < nD
  k0_dev13_lt : ∀ d0 : Dev nD, ∀ (k0_h2 : k0_cond2 d0 = 1#1), (k0_dev13 d0) < nD
  k0_dev14_lt : ∀ d0 : Dev nD, ∀ (k0_h2 : k0_cond2 d0 = 1#1), (k0_dev14 d0) < nD
  k0_dev15_lt : ∀ d0 : Dev nD, ∀ (k0_h2 : k0_cond2 d0 = 1#1), (k0_dev15 d0) < nD
  k0_dev16_lt : ∀ d0 : Dev nD, ∀ (k0_h2 : k0_cond2 d0 = 1#1), (k0_dev16 d0) < nD
  k0_dev17_lt : ∀ d0 : Dev nD, ∀ (k0_h2 : k0_cond2 d0 = 1#1), (k0_dev17 d0) < nD
  hstage0_0 : ∀ j, (stage0_0 j).IsWhole

variable [Facts₀]

abbrev cc0_scratch2 : DmaSems sig S8 := SemArray.consecutive 1 S8 hcc0_scratch2
abbrev cc0_scratch3 : DmaSems sig S8 := SemArray.consecutive 9 S8 hcc0_scratch3
abbrev cc0_scratch4 : DmaSems sig S8 := SemArray.consecutive 17 S8 hcc0_scratch4
abbrev cc0_scratch5 : DmaSems sig S8 := SemArray.consecutive 25 S8 hcc0_scratch5

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x4096x2048_S4096x2048_d0 : S2x4096x2048.ReducesTo [0] S4096x2048
  h_S_ : 0 < S_.numel

variable [Facts₀]

class Facts : Prop extends Facts₀ where

variable [Facts]
-- ==== Proof.Kernel.Proto.lean ====
/-
  Reduce-scatter over the mesh axis x of a 2 × 4 × 4 mesh: device c (logical id 16·x + 4·y + z) holds X c, its
  block [1, 4096, 2048] of the array; its partner is the device with the other x and the same y, z, id (c + 16) mod 32.
  Each device keeps the column half it will own (half x of its block) and sends the other half to its partner, in
  eight chunks of 512 rows; the result is its kept half plus the half received, chunk by chunk.

  This module fixes the vocabulary: the partner, the thirty-three semaphore cells of a device (the barrier cell and
  eight each for staging, keeping, sending and receiving), the eight row chunks of a 4096 × 1024 buffer and the
  sixteen chunks of the block, the contents every buffer ends at, the schedule of duties (one round, one duty a
  cell, every payload naming the contents it lands), what a device owes at launch and the levels.
-/
import proofs.«901041_g7700000000001042_dist_rs_v7x_xyz2x4x4_x_m4096_n1024_f32_1_alg».proof.Proof.Gen.Kernel
import proofs.«901041_g7700000000001042_dist_rs_v7x_xyz2x4x4_x_m4096_n1024_f32_1_alg».proof.Proof.Gen.Kernel.Launch
import Idealize.ShloMosaic.Lib.Pipeline.Launch
import Idealize.ShloMosaic.Lib.Pipeline.Kit
import Idealize.ShloMosaic.Lib.Tactic

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, both with one duty a round -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The device with the other coordinate on axis x: id (c + 16) mod 32. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- The partnering as a permutation of the devices. -/
def swap : Dev nD ≃ Dev nD := ⟨peer, peer, peer_peer, peer_peer⟩

theorem dev_closed : ∀ c : Dev nD, (4 * ((c.val / 4) % 4) + (c.val % 4) + 16) - 16 * (c.val / 16) = (c.val + 16) % 32 := by decide

/-- The coordinate on axis x: 0 for ids below 16, 1 from 16 on. It is the column half a device keeps. -/
def kpH (c : Dev nD) : Fin 2 := ⟨c.val / 16, by have : c.val < 32 := c.isLt; omega⟩
/-- The column half a device sends: the other one. -/
def sdH (c : Dev nD) : Fin 2 := ⟨1 - c.val / 16, by omega⟩

theorem sdH_peer (c : Dev nD) : sdH (peer c) = kpH c := by revert c; decide
theorem kpH_peer (c : Dev nD) : kpH (peer c) = sdH c := by revert c; decide

/-- The first branch is taken exactly by the devices with x = 0, the second by those with x = 1. -/
theorem cond1_iff : ∀ c : Dev nD, k0_cond1 c = 1#1 ↔ c.val < 16 := by decide +kernel
theorem cond2_iff : ∀ c : Dev nD, k0_cond2 c = 1#1 ↔ 16 ≤ c.val := by decide +kernel

/-! ## The semaphores and cells -/

/-- The runtime's barrier semaphore of collective id 0. -/
abbrev barS : Sem sig := (SemArray.scalar (sig.barrier 0 rfl) : Sems sig S_).sem
/-- The four families of eight DMA semaphores: staging, keeping, sending, receiving. -/
abbrev stageS (i : Fin 8) : DmaSem sig := (⟨1 + i.val, by have := i.isLt; omega⟩ : Fin 33)
abbrev keepS (i : Fin 8) : DmaSem sig := (⟨9 + i.val, by have := i.isLt; omega⟩ : Fin 33)
abbrev sendS (i : Fin 8) : DmaSem sig := (⟨17 + i.val, by have := i.isLt; omega⟩ : Fin 33)
abbrev recvS (i : Fin 8) : DmaSem sig := (⟨25 + i.val, by have := i.isLt; omega⟩ : Fin 33)

abbrev barCell (c : Dev nD) : GSem nD τ sig := ((c : Thread nD τ), .reg barS)
abbrev stageCell (c : Dev nD) (i : Fin 8) : GSem nD τ sig := ((c : Thread nD τ), .dma (stageS i))
abbrev keepCell (c : Dev nD) (i : Fin 8) : GSem nD τ sig := ((c : Thread nD τ), .dma (keepS i))
abbrev sendCell (c : Dev nD) (i : Fin 8) : GSem nD τ sig := ((c : Thread nD τ), .dma (sendS i))
abbrev recvCell (c : Dev nD) (i : Fin 8) : GSem nD τ sig := ((c : Thread nD τ), .dma (recvS i))

/-- The kernel's own (scoped) semaphores, as the launch indexes them: DMA semaphores 1 to 32. -/
abbrev osem : Fin 32 → SemLoc sig := fun j => .dma (⟨j.val + 1, by have := j.isLt; omega⟩ : Fin 33)
/-- All thirty-three of a device's cells: the barrier at 0, DMA semaphore k at k. -/
abbrev csem : Fin 33 → SemLoc sig := fun k => if k.val = 0 then .reg barS else .dma (k : Fin 33)
abbrev kcell (ck : Dev nD × Fin 33) : GSem nD τ sig := ((ck.1 : Thread nD τ), csem ck.2)

/-! ## The buffers and their chunks -/

abbrev xM : Memref sig .tc .hbm S1x4096x2048 .f32 := Memref.whole main_arg0
abbrev oM : Memref sig .tc .vmem S4096x1024 .f32 := Memref.whole cc0_stg0_0
abbrev rM : Memref sig .tc .vmem S4096x1024 .f32 := Memref.whole cc0_scratch0
abbrev sM : Memref sig .tc .vmem S4096x1024 .f32 := Memref.whole cc0_scratch1

theorem inb_row (i : Fin 8) : ∀ a, (![512 * i.val, 0] : Fin 2 → Nat) a + S512x1024.size a ≤ S4096x1024.size a := by
  revert i; decide
theorem inb_x (h : Fin 2) (i : Fin 8) :
    ∀ a, (![0, 512 * i.val, 1024 * h.val] : Fin 3 → Nat) a + S1x512x1024.size a ≤ S1x4096x2048.size a := by
  revert h i; decide

/-- Rows [512 i, 512 i + 512) of a 4096 × 1024 buffer. -/
abbrev rowRect (i : Fin 8) : Rect S4096x1024 := Rect.unit (s := S4096x1024) ![512 * i.val, 0] S512x1024.size (inb_row i)
def rowCh {sp : Space} (M : Memref sig .tc sp S4096x1024 .f32) (i : Fin 8) : Memref sig .tc sp S512x1024 .f32 :=
  M.slice (rowRect i) (fun _ => rfl)
/-- Rows [512 i, 512 i + 512) and columns [1024 h, 1024 h + 1024) of the device's block of the array. -/
def xCh (h : Fin 2) (i : Fin 8) : Memref sig .tc .hbm S512x1024 .f32 :=
  ((xM : Memref sig .tc .hbm S1x4096x2048 .f32).slice (Rect.unit (s := S1x4096x2048) ![0, 512 * i.val, 1024 * h.val] S1x512x1024.size (inb_x h i)) (fun _ => rfl)).squeeze
    S512x1024 Gen.squeezes_S1x512x1024_S512x1024

/-- The credit of one chunk's transfer. -/
abbrev N : ℕ := (rowCh (rM : Memref sig .tc .vmem S4096x1024 .f32) 0).view.dmaCredit
theorem N_pos : 0 < N := View.dmaCredit_pos _ (by decide)

/-! ## Contents -/

/-- Column half `h` of a block: the 4096 × 1024 array whose entry (r, k) is the block's entry (0, r, k + 1024 h). -/
def halfOf (h : Fin 2) (X : (main_arg0 : Ref sig .tc).ty.Contents (Elt F)) : (cc0_scratch1 : Ref sig .tc).ty.Contents (Elt F) :=
  fun j => X (fun a => match a with
    | ⟨0, _⟩ => (⟨0, by decide⟩ : Fin 1)
    | ⟨1, _⟩ => (⟨(j 0).val, (j 0).isLt⟩ : Fin 4096)
    | ⟨2, _⟩ => (⟨(j 1).val + 1024 * h.val, by have := (j 1).isLt; have : (j 1).val < 1024 := this; have := h.isLt; omega⟩ : Fin 2048))

/-- Device `c`'s block of the array as launched. -/
def Xof (c : Dev nD) : (main_arg0 : Ref sig .tc).ty.Contents (Elt F) := m ((c : Thread nD τ).loc main_arg0)

/-- The half a device keeps, the half it stages and sends, the half it receives (its partner's sent half: the same
    columns as its own kept half), and the sum it ends with. -/
def keepFull (c : Dev nD) : (cc0_stg0_0 : Ref sig .tc).ty.Contents (Elt F) := halfOf (kpH c) (Xof m c)
def sendFull (c : Dev nD) : (cc0_scratch1 : Ref sig .tc).ty.Contents (Elt F) := halfOf (sdH c) (Xof m c)
def recvFull (c : Dev nD) : (cc0_scratch0 : Ref sig .tc).ty.Contents (Elt F) := halfOf (sdH (peer c)) (Xof m (peer c))
def sumFull (c : Dev nD) : (cc0_stg0_0 : Ref sig .tc).ty.Contents (Elt F) :=
  fun j => FloatOps.addf (keepFull m c j) (recvFull m c j)

/-! ## Buffers held chunk by chunk -/

/-- Chunk `i` of a 4096 × 1024 buffer of device `c`, held outright at contents `f` (a function on the whole buffer, read on the chunk). -/
def piece {sp : Space} (c : Dev nD) (M : Memref sig .tc sp S4096x1024 .f32) (i : Fin 8)
    (f : Buf (Elt F) ((rowCh M i).view.loc (c : Thread nD τ))) : sProp 𝕄 :=
  (rowCh M i).view.loc (c : Thread nD τ) ↦[(rowCh M i).view.set]{fullShare} f
/-- Chunk (h, i) of device `c`'s block of the array, held outright at the launched contents. -/
def xpiece (c : Dev nD) (h : Fin 2) (i : Fin 8) : sProp 𝕄 :=
  (xCh h i).view.loc (c : Thread nD τ) ↦[(xCh h i).view.set]{fullShare} Xof m c

omit [FloatOps F] in
instance piece_storable {sp : Space} (c : Dev nD) (M : Memref sig .tc sp S4096x1024 .f32) (i : Fin 8) (f) :
    BI.Storable (upEmb : UEmb _ 𝕄) (piece (F := F) c M i f) := by unfold piece; exact BI.Region.storable_held _ _ _ _
omit [FloatOps F] in
instance xpiece_storable (c : Dev nD) (h : Fin 2) (i : Fin 8) : BI.Storable (upEmb : UEmb _ 𝕄) (xpiece (F := F) m c h i) := by
  unfold xpiece; exact BI.Region.storable_held _ _ _ _
instance piece_send_storable (c : Dev nD) (i : Fin 8) : BI.Storable (upEmb : UEmb _ 𝕄) (piece (F := F) c sM i (sendFull m c)) := by
  unfold piece; exact BI.Region.storable_held _ _ _ _
instance piece_keep_storable (c : Dev nD) (i : Fin 8) : BI.Storable (upEmb : UEmb _ 𝕄) (piece (F := F) c oM i (keepFull m c)) := by
  unfold piece; exact BI.Region.storable_held _ _ _ _
instance piece_recv_storable (c : Dev nD) (i : Fin 8) : BI.Storable (upEmb : UEmb _ 𝕄) (piece (F := F) c rM i (recvFull m c)) := by
  unfold piece; exact BI.Region.storable_held _ _ _ _

/-! ## The schedule: one round, one duty a cell -/

/-- What the partner's barrier signal hands `c`: the partner's whole receive buffer, over some contents, and that the
    partner has reached round 0 of its eight receive cells (what the eight transfers into it need). -/
def barPay (c : Dev nD) : sProp 𝕄 :=
  iprop((∃ f, (rM : Memref sig .tc .vmem S4096x1024 .f32).view.loc (peer c : Thread nD τ) ↦[(rM : Memref sig .tc .vmem S4096x1024 .f32).view.set]{fullShare} f)
    ∗ bigSep Finset.univ fun i : Fin 8 => reached ER (recvCell (peer c) i) 0)
/-- A staging copy's landing: the send buffer's chunk holding the sent half's rows, and the block's chunk back. -/
def stagePay (c : Dev nD) (i : Fin 8) : sProp 𝕄 := iprop(piece c sM i (sendFull m c) ∗ xpiece m c (sdH c) i)
/-- A keeping copy's landing: the result buffer's chunk holding the kept half's rows, and the block's chunk back. -/
def keepPay (c : Dev nD) (i : Fin 8) : sProp 𝕄 := iprop(piece c oM i (keepFull m c) ∗ xpiece m c (kpH c) i)
/-- The send cell's: the send buffer's chunk back, as staged. -/
def sendPay (c : Dev nD) (i : Fin 8) : sProp 𝕄 := piece c sM i (sendFull m c)
/-- The receive cell's: the receive buffer's chunk holding the partner's sent rows. -/
def recvPay (c : Dev nD) (i : Fin 8) : sProp 𝕄 := piece c rM i (recvFull m c)

/-- The payload of device `c`'s DMA cell number `d` (1–8 staging, 9–16 keeping, 17–24 sending, 25–32 receiving). -/
def dmaPay (c : Dev nD) (d : Fin 33) : sProp 𝕄 :=
  if h1 : d.val = 0 then iprop(emp)
  else if h2 : d.val < 9 then stagePay m c ⟨d.val - 1, by omega⟩
  else if h3 : d.val < 17 then keepPay m c ⟨d.val - 9, by omega⟩
  else if h4 : d.val < 25 then sendPay m c ⟨d.val - 17, by omega⟩
  else recvPay m c ⟨d.val - 25, by have := d.isLt; omega⟩

/-- Which semaphores are the protocol's: the barrier and DMA semaphores 1 to 32 (0 is the pipeline's own). -/
def isOurs : SemLoc sig → Bool
  | .reg _ => true
  | .dma d => decide ((d : Fin 33).val ≠ 0)

abbrev IsCell (g : GSem nD τ sig) : Prop := g.1.2 = .tc ∧ isOurs g.2 = true

def rsRd : Rounds.Schedule (GSem nD τ sig) Unit 𝕄 where
  duties g r := if r = 0 ∧ IsCell g then {()} else ∅
  unitless _ := False
  amount g _ _ := match g.2 with | .reg _ => 1 | .dma _ => N
  payload g _ _ := match g.2 with | .reg _ => barPay g.1.1 | .dma d => dmaPay m g.1.1 d
  amount_pos g _ _ _ := by
    rcases g with ⟨t, sm⟩; cases sm
    · exact Nat.one_pos
    · exact N_pos

instance rsRd_payload_storable (g : GSem nD τ sig) (r : ℕ) (d : Unit) :
    BI.Storable (upEmb : UEmb _ 𝕄) ((rsRd (F := F) m).payload g r d) := by
  rcases g with ⟨t, sm⟩; cases sm
  · show BI.Storable upEmb (barPay t.1); unfold barPay; infer_instance
  · show BI.Storable upEmb (dmaPay m t.1 _); unfold dmaPay stagePay keepPay sendPay recvPay; (repeat' split) <;> infer_instance

/-! ## What a device owes at launch, and the levels -/

abbrev Trecv (c : Dev nD) (i : Fin 8) : CellTallies nD τ sig Unit := tallyAt (recvCell (peer c) i) () N
/-- What is still owed to the partner's receive cells before the transfer of chunk `k`: chunks k to 7, summed so
    that each transfer peels the last summand. -/
def OR7 (c : Dev nD) : CellTallies nD τ sig Unit := Trecv c 7
def OR6 (c : Dev nD) : CellTallies nD τ sig Unit := OR7 c + Trecv c 6
def OR5 (c : Dev nD) : CellTallies nD τ sig Unit := OR6 c + Trecv c 5
def OR4 (c : Dev nD) : CellTallies nD τ sig Unit := OR5 c + Trecv c 4
def OR3 (c : Dev nD) : CellTallies nD τ sig Unit := OR4 c + Trecv c 3
def OR2 (c : Dev nD) : CellTallies nD τ sig Unit := OR3 c + Trecv c 2
def OR1 (c : Dev nD) : CellTallies nD τ sig Unit := OR2 c + Trecv c 1
def OR0 (c : Dev nD) : CellTallies nD τ sig Unit := OR1 c + Trecv c 0
/-- At launch: the eight chunks' credit on the partner's receive cells and one unit on its barrier cell (the first
    thing paid, so the last summand). -/
def O₀ (c : Dev nD) : CellTallies nD τ sig Unit := OR0 c + tallyAt (barCell (peer c)) () 1

def L (g : GSem nD τ sig) : Finset Unit := if g.1.2 = .tc then {()} else ∅
/-- Barrier cells at level 1, receive cells at 2, every other cell at 0: a device waits on its barrier cell owing
    only receive credit, and on its staging cells likewise; on everything else it owes nothing. -/
def lv (g : GSem nD τ sig) (_ : Unit) : ℕ := match g.2 with
  | .reg _ => 1
  | .dma d => if 25 ≤ (d : Fin 33).val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The schedule's tables -/

section Tables
variable (c : Dev nD) (i : Fin 8)

omit [FloatOps F] in
theorem duties_cell (g : GSem nD τ sig) (h : IsCell g) : (rsRd (F := F) m).duties g 0 = {()} := by
  dsimp only [rsRd]; exact if_pos ⟨rfl, h⟩
omit [FloatOps F] in
theorem duties_later (g : GSem nD τ sig) : ∀ r, 1 ≤ r → (rsRd (F := F) m).duties g r = ∅ :=
  fun r hr => by dsimp only [rsRd]; exact if_neg fun h => by omega
omit [FloatOps F] in
theorem isCell_bar : IsCell (barCell c) := ⟨rfl, rfl⟩
omit [FloatOps F] in
theorem isCell_stage : IsCell (stageCell c i) := ⟨rfl, by show isOurs (SemLoc.dma (stageS i)) = true; revert i; decide⟩
omit [FloatOps F] in
theorem isCell_keep : IsCell (keepCell c i) := ⟨rfl, by show isOurs (SemLoc.dma (keepS i)) = true; revert i; decide⟩
omit [FloatOps F] in
theorem isCell_send : IsCell (sendCell c i) := ⟨rfl, by show isOurs (SemLoc.dma (sendS i)) = true; revert i; decide⟩
omit [FloatOps F] in
theorem isCell_recv : IsCell (recvCell c i) := ⟨rfl, by show isOurs (SemLoc.dma (recvS i)) = true; revert i; decide⟩

omit [FloatOps F] in
theorem duties_bar : (rsRd (F := F) m).duties (barCell c) 0 = {()} := duties_cell m _ (isCell_bar c)
omit [FloatOps F] in
theorem duties_stage : (rsRd (F := F) m).duties (stageCell c i) 0 = {()} := duties_cell m _ (isCell_stage c i)
omit [FloatOps F] in
theorem duties_keep : (rsRd (F := F) m).duties (keepCell c i) 0 = {()} := duties_cell m _ (isCell_keep c i)
omit [FloatOps F] in
theorem duties_send : (rsRd (F := F) m).duties (sendCell c i) 0 = {()} := duties_cell m _ (isCell_send c i)
omit [FloatOps F] in
theorem duties_recv : (rsRd (F := F) m).duties (recvCell c i) 0 = {()} := duties_cell m _ (isCell_recv c i)

omit [FloatOps F] in
theorem amount_bar (u : Unit) : (rsRd (F := F) m).amount (barCell c) 0 u = 1 := rfl
omit [FloatOps F] in
theorem amount_dma (d : DmaSem sig) (r : ℕ) (u : Unit) : (rsRd (F := F) m).amount ((c : Thread nD τ), .dma d) r u = N := rfl

omit [FloatOps F] in
theorem expect_bar : (rsRd (F := F) m).expect (barCell c) 0 = 1 := by
  unfold Schedule.expect Schedule.amountOf; rw [duties_bar, Finset.sum_singleton, amount_bar]
omit [FloatOps F] in
theorem expect_dma (d : DmaSem sig) (h : IsCell ((c : Thread nD τ), .dma d)) : (rsRd (F := F) m).expect ((c : Thread nD τ), .dma d) 0 = N := by
  unfold Schedule.expect Schedule.amountOf; rw [duties_cell m _ h, Finset.sum_singleton, amount_dma]

theorem payload_bar (u : Unit) : (rsRd (F := F) m).payload (barCell c) 0 u = barPay c := rfl
theorem payload_stage (u : Unit) : (rsRd (F := F) m).payload (stageCell c i) 0 u = stagePay m c i := by
  show dmaPay m c (stageS i) = _; unfold dmaPay
  rw [dif_neg (by show ¬ (1 + i.val = 0); omega), dif_pos (by show 1 + i.val < 9; omega)]
  congr 1 <;> exact Fin.ext (by show 1 + i.val - 1 = i.val; omega)
theorem payload_keep (u : Unit) : (rsRd (F := F) m).payload (keepCell c i) 0 u = keepPay m c i := by
  show dmaPay m c (keepS i) = _; unfold dmaPay
  rw [dif_neg (by show ¬ (9 + i.val = 0); omega), dif_neg (by show ¬ (9 + i.val < 9); omega), dif_pos (by show 9 + i.val < 17; omega)]
  congr 1 <;> exact Fin.ext (by show 9 + i.val - 9 = i.val; omega)
theorem payload_send (u : Unit) : (rsRd (F := F) m).payload (sendCell c i) 0 u = sendPay m c i := by
  show dmaPay m c (sendS i) = _; unfold dmaPay
  rw [dif_neg (by show ¬ (17 + i.val = 0); omega), dif_neg (by show ¬ (17 + i.val < 9); omega), dif_neg (by show ¬ (17 + i.val < 17); omega),
    dif_pos (by show 17 + i.val < 25; omega)]
  congr 1 <;> exact Fin.ext (by show 17 + i.val - 17 = i.val; omega)
theorem payload_recv (u : Unit) : (rsRd (F := F) m).payload (recvCell c i) 0 u = recvPay m c i := by
  show dmaPay m c (recvS i) = _; unfold dmaPay
  rw [dif_neg (by show ¬ (25 + i.val = 0); omega), dif_neg (by show ¬ (25 + i.val < 9); omega), dif_neg (by show ¬ (25 + i.val < 17); omega),
    dif_neg (by show ¬ (25 + i.val < 25); omega)]
  congr 1 <;> exact Fin.ext (by show 25 + i.val - 25 = i.val; omega)

end Tables

/-! ## The ghost state -/

/-- An assertion of each of a device's thirty-three cells. -/
def own33 (P : GSem nD τ sig → sProp 𝕄) (c : Dev nD) : sProp 𝕄 :=
  iprop(P (barCell c) ∗ (bigSep Finset.univ fun i : Fin 8 => P (stageCell c i)) ∗ (bigSep Finset.univ fun i : Fin 8 => P (keepCell c i))
    ∗ (bigSep Finset.univ fun i : Fin 8 => P (sendCell c i)) ∗ (bigSep Finset.univ fun i : Fin 8 => P (recvCell c i)))

/-- The cells' invariants a device's body opens, under the names `K`: its own cells' and its partner's. -/
def invs (K : GSem nD τ sig → ℕ) (c : Dev nD) : sProp 𝕄 :=
  iprop(own33 (fun g => cellInv ER (rsRd m) (K g) g) c ∗ own33 (fun g => cellInv ER (rsRd m) (K g) g) (peer c))

/-- The tokens of the duties device `c` pays: its partner's barrier duty and eight receive duties, its own twenty-four
    staging, keeping and sending duties. -/
def payToks (c : Dev nD) : sProp 𝕄 :=
  iprop(dutyTok ER (barCell (peer c)) 0 () ∗ (bigSep Finset.univ fun i : Fin 8 => dutyTok ER (recvCell (peer c) i) 0 ())
    ∗ (bigSep Finset.univ fun i : Fin 8 => dutyTok ER (stageCell c i) 0 ()) ∗ (bigSep Finset.univ fun i : Fin 8 => dutyTok ER (keepCell c i) 0 ())
    ∗ (bigSep Finset.univ fun i : Fin 8 => dutyTok ER (sendCell c i) 0 ()))

/-- The protocol's ghost state device `c` starts from: the invariants, its positions at round 0 of its cells, round 0 of
    its own and its partner's cells reached, the tokens of the duties it pays. -/
def ghost (K : GSem nD τ sig → ℕ) (c : Dev nD) : sProp 𝕄 :=
  iprop(invs m K c ∗ own33 (fun g => atPos ER g 0 ∅ 0) c ∗ own33 (fun g => reached ER g 0) c ∗ own33 (fun g => reached ER g 0) (peer c) ∗ payToks c)

/-- What device `c`'s body starts from: the ghost state at some names, the launch credit of its barrier cell (one unit)
    and of its eight receive cells (a chunk each), the level facts. -/
def start (c : Dev nD) : sProp 𝕄 :=
  iprop((∃ K, ghost m K c) ∗ cred (tallyAt (barCell c) () 1) ∗ (bigSep Finset.univ fun i : Fin 8 => cred (tallyAt (recvCell c i) () N)) ∗ levAts L lv)

/-- The device's block of the array, whole, at the launched contents. -/
def xWhole (c : Dev nD) : sProp 𝕄 := (((c : Thread nD τ).loc main_arg0) ↦{fullShare} m ((c : Thread nD τ).loc main_arg0))
/-- The two scratch buffers, whole, over some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body: the start, the block and the scratch buffers. -/
def Φ₀ (c : Dev nD) : sProp 𝕄 := iprop((start m c ∗ xWhole m c) ∗ scratches c)
/-- After it: the block as launched, the scratch buffers, the thirty-two own semaphores at zero, their cells closed. -/
def Φ₁ (c : Dev nD) : sProp 𝕄 :=
  iprop(xWhole m c ∗ Pipeline.ownSems0 (Ix := Unit) (Name := ℕ) (U := UU) (Lvl := ℕ) (Val := Elt F) (τ := τ) osem c ∗ scratches c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sumFull m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The interfaces between the body, the launch and the values (each proved in its own module) -/

/-- What the run ends in: every device's result array holds its kept half plus its partner's sent half, and its block
    of the array is as launched. -/
def QC : PUnit × MemSt nD τ sig (Elt F) → Prop := fun r =>
  ∀ c : Dev nD, r.2.mem ((c.tc : Thread nD τ).loc main_v1) = sumFull m c
    ∧ r.2.mem ((c.tc : Thread nD τ).loc main_arg0) = m ((c.tc : Thread nD τ).loc main_arg0)

end Cert.Kernel.RS

end
-- ==== Proof.Kernel.Levels.lean ====
/-
  The levels' word on every wait of the body, and the launch credit.
  A device waits on its barrier cell (level 1) owing only its partner's receive cells (level 2); on its staging cells
  (level 0) owing some of them; on every other cell owing nothing. At launch its barrier cell is owed one unit and each
  of its receive cells a chunk's credit, all by its partner.
-/
import proofs.«901041_g7700000000001042_dist_rs_v7x_xyz2x4x4_x_m4096_n1024_f32_1_alg».proof.Proof.Kernel.Proto

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Tallies on the partner's receive cells only. -/
def RecvOnly (c : Dev nD) (O : CellTallies nD τ sig Unit) : Prop := ∀ g u, 0 < O g u → ∃ i : Fin 8, g = recvCell (peer c) i

/-- One chunk's tally sits on one receive cell of the partner. -/
theorem recvOnly_Trecv (c : Dev nD) (i : Fin 8) : RecvOnly c (Trecv c i) :=
  fun g u h => ⟨i, (Pipeline.tallyAt_pos h).1⟩

/-- A sum is positive only where a summand is. -/
theorem recvOnly_add {c : Dev nD} {O D : CellTallies nD τ sig Unit} (hO : RecvOnly c O) (hD : RecvOnly c D) : RecvOnly c (O + D) :=
  fun g u h => (Pipeline.add_pos_cases h).elim (hO g u) (hD g u)

theorem recvOnly_zero (c : Dev nD) : RecvOnly c 0 := fun g u h => by
  rw [Pi.zero_apply, Finsupp.zero_apply] at h; exact absurd h (Nat.lt_irrefl 0)
theorem recvOnly_OR7 (c : Dev nD) : RecvOnly c (OR7 c) := recvOnly_Trecv c 7
theorem recvOnly_OR6 (c : Dev nD) : RecvOnly c (OR6 c) := recvOnly_add (recvOnly_OR7 c) (recvOnly_Trecv c 6)
theorem recvOnly_OR5 (c : Dev nD) : RecvOnly c (OR5 c) := recvOnly_add (recvOnly_OR6 c) (recvOnly_Trecv c 5)
theorem recvOnly_OR4 (c : Dev nD) : RecvOnly c (OR4 c) := recvOnly_add (recvOnly_OR5 c) (recvOnly_Trecv c 4)
theorem recvOnly_OR3 (c : Dev nD) : RecvOnly c (OR3 c) := recvOnly_add (recvOnly_OR4 c) (recvOnly_Trecv c 3)
theorem recvOnly_OR2 (c : Dev nD) : RecvOnly c (OR2 c) := recvOnly_add (recvOnly_OR3 c) (recvOnly_Trecv c 2)
theorem recvOnly_OR1 (c : Dev nD) : RecvOnly c (OR1 c) := recvOnly_add (recvOnly_OR2 c) (recvOnly_Trecv c 1)
theorem recvOnly_OR0 (c : Dev nD) : RecvOnly c (OR0 c) := recvOnly_add (recvOnly_OR1 c) (recvOnly_Trecv c 0)

/-- What a device owes at launch lies on its partner's barrier cell and receive cells. -/
theorem O₀_pos {c : Dev nD} {g : GSem nD τ sig} {u : Unit} (h : 0 < O₀ c g u) : g = barCell (peer c) ∨ ∃ i : Fin 8, g = recvCell (peer c) i := by
  rcases Pipeline.add_pos_cases (show 0 < (OR0 c + tallyAt (barCell (peer c)) () 1) g u from h) with h | h
  · exact Or.inr (recvOnly_OR0 c g u h)
  · exact Or.inl (Pipeline.tallyAt_pos h).1

/-! ## The levels of the three kinds of cell -/

/-- A barrier cell is at level 1. -/
theorem lv_reg (t : Thread nD τ) (s : Sem sig) (u : Unit) : lv (t, .reg s) u = 1 := rfl
/-- A receive cell (DMA semaphores 25 to 32) is at level 2. -/
theorem lv_recv (c : Dev nD) (i : Fin 8) (u : Unit) : lv (recvCell c i) u = 2 := by
  show (if 25 ≤ 25 + i.val then 2 else 0) = 2
  exact if_pos (Nat.le_add_right 25 i.val)
/-- Every DMA cell below the receive cells is at level 0. -/
theorem lv_low (t : Thread nD τ) (d : DmaSem sig) (hd : (d : Fin 33).val < 25) (u : Unit) : lv (t, .dma d) u = 0 := by
  show (if 25 ≤ (d : Fin 33).val then 2 else 0) = 0
  exact if_neg (Nat.not_le.mpr hd)

/-- Every index of a TensorCore's cell has a level. -/
theorem mem_L (c : Dev nD) (sm : SemLoc sig) (u : Unit) : u ∈ L ((c : Thread nD τ), sm) := by
  rw [L_tc]; exact Finset.mem_singleton_self _

omit [FloatOps F] in
/-- The wait on the barrier cell, owing receive credit only. -/
theorem mayWait_bar (c : Dev nD) (O : CellTallies nD τ sig Unit) (hO : RecvOnly c O) :
    (levAts L lv : sProp 𝕄) ⊢ MayWait (c : Thread nD τ) (.reg barS) () O :=
  Pipeline.mayWait_of_levAts (mem_L c _ _) fun g u hg => by
    obtain ⟨i, rfl⟩ := hO g u hg
    refine ⟨mem_L (peer c) _ _, ?_⟩
    rw [lv_reg, lv_recv]; exact Nat.lt_succ_self 1

omit [FloatOps F] in
/-- A wait on a cell below the receive cells (the pipeline's own cell, a staging, keeping or sending cell), owing receive
    credit only. -/
theorem mayWait_low (c : Dev nD) (d : DmaSem sig) (hd : (d : Fin 33).val < 25) (O : CellTallies nD τ sig Unit) (hO : RecvOnly c O) :
    (levAts L lv : sProp 𝕄) ⊢ MayWait (c : Thread nD τ) (.dma d) () O :=
  Pipeline.mayWait_of_levAts (mem_L c _ _) fun g u hg => by
    obtain ⟨i, rfl⟩ := hO g u hg
    refine ⟨mem_L (peer c) _ _, ?_⟩
    rw [lv_low _ d hd, lv_recv]; exact Nat.succ_pos 1

omit [FloatOps F] in
/-- A wait on the pipeline's own cell at launch (owing everything) or after the body (owing nothing). -/
theorem mayWait_stage0 (c : Dev nD) (d : DmaSem sig) (hd : (d : Fin 33).val < 25) (O : CellTallies nD τ sig Unit) (hO : O = O₀ c ∨ O = 0) :
    (levAts L lv : sProp 𝕄) ⊢ MayWait (c : Thread nD τ) (.dma d) () O := by
  rcases hO with rfl | rfl
  · refine Pipeline.mayWait_of_levAts (mem_L c _ _) fun g u hg => ?_
    rcases O₀_pos hg with rfl | ⟨i, rfl⟩
    · refine ⟨mem_L (peer c) _ _, ?_⟩
      rw [lv_low _ d hd, lv_reg]; exact Nat.one_pos
    · refine ⟨mem_L (peer c) _ _, ?_⟩
      rw [lv_low _ d hd, lv_recv]; exact Nat.succ_pos 1
  · rw [MayWait_zero]; iintro -; iempintro

/-- The pipeline's own waits. -/
theorem waits (c : Dev nD) : (levAts L lv : sProp 𝕄) ⊢ Pipeline.cellsWaits cfgs (dats m ρ) () 0 c :=
  Pipeline.cellsWaits_intro cfgs (dats m ρ) () 0 c fun w s t =>
    mayWait_stage0 c _ (by fin_cases w <;> fin_cases s <;> decide) _ (by
      rcases t with ⟨_ | _, ht⟩
      · exact Or.inl rfl
      · exact Or.inr rfl)

/-! ## The launch credit -/

/-- Eight terms of a commutative monoid added from the last down are their sum. -/
theorem sum8_down {A : Type} [AddCommMonoid A] (f : Fin 8 → A) : f 7 + f 6 + f 5 + f 4 + f 3 + f 2 + f 1 + f 0 = ∑ i : Fin 8, f i := by
  rw [Fin.sum_univ_eight]
  simp only [add_assoc, add_comm, add_left_comm]

/-- The eight receive tallies, summed in any order. -/
theorem OR0_eq_sum (d : Dev nD) : OR0 d = ∑ i : Fin 8, Trecv d i := sum8_down fun i => Trecv d i

omit [FloatOps F] in
/-- The launch credit of a device: one unit on its barrier cell and a chunk's credit on each receive cell. -/
theorem creds (c : Dev nD) :
    (Pipeline.launchCred O₀ c : sProp 𝕄)
      ⊢ iprop(cred (tallyAt (barCell c) () 1) ∗ bigSep Finset.univ fun i : Fin 8 => cred (tallyAt (recvCell c i) () N)) := by
  have h0 : (O₀ : Dev nD → CellTallies nD τ sig Unit)
      = fun d => (∑ i : Fin 8, Trecv d i) + tallyAt (barCell (peer d)) () 1 := funext fun d => by rw [← OR0_eq_sum]; rfl
  rw [h0, Pipeline.launchCred_add, Pipeline.launchCred_sum]
  refine BI.sep_comm.trans (BI.sep_mono ?_ ?_)
  · exact Pipeline.launchCred_tallyAt (.reg barS) peer peer peer_peer peer_peer () 1 c
  · exact bigSep_mono fun i _ => Pipeline.launchCred_tallyAt (.dma (recvS i)) peer peer peer_peer peer_peer () N c

/-- info: 'Cert.Kernel.RS.mayWait_bar' depends on axioms: [propext, Classical.choice, Quot.sound] -/
#guard_msgs in #print axioms mayWait_bar

/-- info: 'Cert.Kernel.RS.mayWait_low' depends on axioms: [propext, Classical.choice, Quot.sound] -/
#guard_msgs in #print axioms mayWait_low

/-- info: 'Cert.Kernel.RS.mayWait_stage0' depends on axioms: [propext, Classical.choice, Quot.sound] -/
#guard_msgs in #print axioms mayWait_stage0

/-- info: 'Cert.Kernel.RS.waits' depends on axioms: [propext, Classical.choice, Quot.sound] -/
#guard_msgs in #print axioms waits

/-- info: 'Cert.Kernel.RS.creds' depends on axioms: [propext, Classical.choice, Quot.sound] -/
#guard_msgs in #print axioms creds

end Cert.Kernel.RS

end
-- ==== Proof.Kernel.Launch.lean ====
/-
  The launch: from every device's body obligation to the run of the whole program.
  All thirty-two devices start with every semaphore at zero; the protocol's ghost state (a round-0 position, token and
  invariant for each of the thirty-three cells of each device) is funded and allocated for all devices at once, the
  tokens dealt to the devices that pay them (a device's barrier and receive tokens to its partner); each device's block
  of the array travels through the region untouched, and its result buffer is written back to the result array.
-/
import proofs.«901041_g7700000000001042_dist_rs_v7x_xyz2x4x4_x_m4096_n1024_f32_1_alg».proof.Proof.Kernel.Proto
import proofs.«901041_g7700000000001042_dist_rs_v7x_xyz2x4x4_x_m4096_n1024_f32_1_alg».proof.Proof.Kernel.Levels
import proofs.«901041_g7700000000001042_dist_rs_v7x_xyz2x4x4_x_m4096_n1024_f32_1_alg».proof.Proof.Gen.Kernel.Points

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, indexed 0 to 32 -/

/-- The thirty-two DMA semaphores of the protocol are scoped, distinct, and none is the pipeline's own. -/
theorem ownSemFacts : Pipeline.OwnSemFacts cfg0.spec osem := by decide

/-- The result array is held whole. -/
theorem share_eq (c : Dev nD) (w : Fin cfg0.W) : (dats m ρ 0 c).share w = fullShare := by unfold Dat.share; split <;> rfl

/-- Every index but 0 names the DMA semaphore of that number. -/
theorem csem_dma (k : Fin 33) (h : k.val ≠ 0) : csem k = .dma (k : Fin 33) := if_neg h

/-- Distinct indices name distinct semaphores: 0 the barrier, the others DMA semaphores of different numbers. -/
theorem csem_injective : Function.Injective csem := by
  intro k k' h
  by_cases h0 : k.val = 0 <;> by_cases h0' : k'.val = 0
  · exact Fin.ext (h0.trans h0'.symm)
  · rw [show csem k = .reg barS from if_pos h0, csem_dma k' h0'] at h; cases h
  · rw [csem_dma k h0, show csem k' = .reg barS from if_pos h0'] at h; cases h
  · rw [csem_dma k h0, csem_dma k' h0'] at h; exact SemLoc.dma.inj h

/-- Distinct (device, index) pairs are distinct cells. -/
theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The four families' indices inside 0…32: staging 1–8, keeping 9–16, sending 17–24, receiving 25–32. -/
def stE : Fin 8 ↪ Fin 33 := ⟨fun i => stageS i, by decide⟩
def kpE : Fin 8 ↪ Fin 33 := ⟨fun i => keepS i, by decide⟩
def sdE : Fin 8 ↪ Fin 33 := ⟨fun i => sendS i, by decide⟩
def rvE : Fin 8 ↪ Fin 33 := ⟨fun i => recvS i, by decide⟩

/-- The thirty-three indices are 0 and the four families. -/
theorem univ33 : (Finset.univ : Finset (Fin 33))
    = {0} ∪ (Finset.univ.map stE ∪ (Finset.univ.map kpE ∪ (Finset.univ.map sdE ∪ Finset.univ.map rvE))) := by decide

omit [FloatOps F] in
/-- A conjunction over the thirty-three indices, family by family. -/
theorem bigSep_fin33 (Φ : Fin 33 → sProp 𝕄) :
    bigSep Finset.univ Φ = iprop(Φ 0 ∗ (bigSep Finset.univ fun i : Fin 8 => Φ (stageS i)) ∗ (bigSep Finset.univ fun i : Fin 8 => Φ (keepS i))
      ∗ (bigSep Finset.univ fun i : Fin 8 => Φ (sendS i)) ∗ (bigSep Finset.univ fun i : Fin 8 => Φ (recvS i))) := by
  rw [univ33, bigSep_union (by decide), bigSep_singleton, bigSep_union (by decide), bigSep_map, bigSep_union (by decide), bigSep_map,
    bigSep_union (by decide), bigSep_map, bigSep_map]
  rfl

omit [FloatOps F] in
/-- An assertion of each of a device's cells by name is the conjunction over its thirty-three indices. -/
theorem own33_eq (P : GSem nD τ sig → sProp 𝕄) (c : Dev nD) : own33 P c = bigSep Finset.univ fun k : Fin 33 => P (kcell (c, k)) := by
  rw [bigSep_fin33]; unfold own33
  have hs (i : Fin 8) : kcell (c, stageS i) = stageCell c i := Prod.ext rfl (csem_dma _ (by show 1 + i.val ≠ 0; omega))
  have hk (i : Fin 8) : kcell (c, keepS i) = keepCell c i := Prod.ext rfl (csem_dma _ (by show 9 + i.val ≠ 0; omega))
  have hd (i : Fin 8) : kcell (c, sendS i) = sendCell c i := Prod.ext rfl (csem_dma _ (by show 17 + i.val ≠ 0; omega))
  have hr (i : Fin 8) : kcell (c, recvS i) = recvCell c i := Prod.ext rfl (csem_dma _ (by show 25 + i.val ≠ 0; omega))
  simp only [hs, hk, hd, hr]
  rfl

/-! ## The launch element and what it deals -/

/-- All cells of all devices, and one duty token (round 0) for each. -/
def cells33 : Finset (GSem nD τ sig) := Finset.univ.map ⟨kcell, kcell_injective⟩
def toks33 : Finset (GSem nD τ sig × ℕ × Unit) :=
  Finset.univ.map ⟨fun ck : Dev nD × Fin 33 => (kcell ck, 0, ()), fun _ _ h => kcell_injective (congrArg Prod.fst h)⟩

/-- The launch element: the pipeline's copy for its staging cell, the protocol's copy for the cells and tokens above. -/
def u₀ : UU := (initOf (Pipeline.cells cfgs cellOf_inj) (Pipeline.launchToks cfgs cellOf_inj), initOf cells33 toks33)

/-- The duty tokens of device `c`'s own cells. -/
def toks (c : Dev nD) : sProp 𝕄 := bigSep Finset.univ fun k : Fin 33 => dutyTok ER (kcell (c, k)) 0 ()

/-- What the launch element deals device `c`: the round state, position and reached-mark of each of its cells at round 0,
    and its cells' duty tokens. -/
def G (c : Dev nD) : sProp 𝕄 :=
  iprop((bigSep Finset.univ fun k : Fin 33 => roundState ER (rsRd m) (kcell (c, k)) 0)
    ∗ (bigSep Finset.univ fun k : Fin 33 => iprop(atPos ER (kcell (c, k)) 0 ∅ 0 ∗ reached ER (kcell (c, k)) 0)) ∗ toks c)
/-- What the global step makes of it: the ghost state the body starts from, at some names. -/
def G' (c : Dev nD) : sProp 𝕄 := iprop(∃ K, ghost m K c)

omit [FloatOps F] in
/-- The protocol's copy of the launch element funds every device's share. -/
theorem fund_cells : BI.own (ER (initOf cells33 toks33)) ⊢ (|==> bigSep Finset.univ (G m) : sProp 𝕄) := by
  have hX (Φ : GSem nD τ sig → sProp 𝕄) : bigSep cells33 Φ = bigSep Finset.univ fun c : Dev nD => bigSep Finset.univ fun k : Fin 33 => Φ (kcell (c, k)) := by
    unfold cells33; rw [bigSep_map, bigSep_univ_prod]; rfl
  have hT : bigSep toks33 (fun x => (dutyTok ER x.1 x.2.1 x.2.2 : sProp 𝕄)) = bigSep Finset.univ fun c : Dev nD => toks c := by
    unfold toks33; rw [bigSep_map, bigSep_univ_prod]; rfl
  iintro HX
  imod (Rounds.fund ER (rsRd m) cells33 toks33) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants allocated -/

omit [FloatOps F] in
/-- The barrier semaphore is the one semaphore of a device that no kernel scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphore of index `j` is the device's cell of index `j + 1`. -/
def osE : Fin 32 ↪ Fin 33 := ⟨fun j => ⟨j.val + 1, by have := j.isLt; omega⟩, fun a b h => Fin.ext (Nat.succ.inj (congrArg Fin.val h))⟩

/-- The thirty-three indices are 0 and the successors of the thirty-two own semaphores' indices. -/
theorem univ33_succ : (Finset.univ : Finset (Fin 33)) = insert 0 (Finset.univ.map osE) := by decide

omit [FloatOps F] in
/-- A conjunction over the thirty-three indices: index 0, then the own semaphores' indices. -/
theorem bigSep_fin33_succ (Φ : Fin 33 → sProp 𝕄) :
    bigSep Finset.univ Φ = iprop(Φ 0 ∗ bigSep Finset.univ fun j : Fin 32 => Φ (osE j)) := by
  rw [univ33_succ, bigSep_insert (by decide), bigSep_map]; rfl

omit [FloatOps F] in
/-- The thirty-two own semaphores and the barrier semaphore at zero are the device's thirty-three cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  have h (j : Fin 32) : kcell (c, osE j) = ((c : Thread nD τ), osem j) :=
    Prod.ext rfl (show csem (osE j) = osem j from csem_dma _ (Nat.succ_ne_zero _))
  rw [unscopedSems0_eq, bigSep_fin33_succ]
  simp only [h]
  unfold Pipeline.ownSems0
  iintro ⟨HS, HB⟩
  isplitl [HB]; · iexact HB
  iexact HS

omit [FloatOps F] in
/-- One device: each cell's counter at zero and round state at round 0 close into the cell's invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (rsRd m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (rsRd m) (kcell (c, k)) 0)
      ⊢ (|={Set.univ}=> bigSep Finset.univ fun k : Fin 33 => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The names, the records every device reads, and the tokens dealt to the devices that pay them -/

/-- A cell's index among its device's thirty-three. -/
def idx : SemLoc sig → Fin 33
  | .reg _ => 0
  | .dma d => (d : Fin 33)

/-- The index of the cell of index `k` is `k`. -/
theorem idx_csem : ∀ k : Fin 33, idx (csem k) = k := by decide

/-- The names by cell, from the names by device and index. -/
def Kof (K : Dev nD × Fin 33 → ℕ) : GSem nD τ sig → ℕ := fun g => K (g.1.1, idx g.2)

/-- The name of device `c`'s cell of index `k` is the one recorded at `(c, k)`. -/
theorem Kof_kcell (K : Dev nD × Fin 33 → ℕ) (c : Dev nD) (k : Fin 33) : Kof K (kcell (c, k)) = K (c, k) := by
  show K (c, idx (csem k)) = _; rw [idx_csem]

/-- What every device may read, being persistent: all cells' invariants at the names `K`, and round 0 of every cell reached. -/
def records (K : Dev nD × Fin 33 → ℕ) : sProp 𝕄 :=
  iprop((bigSep Finset.univ fun ck : Dev nD × Fin 33 => cellInv ER (rsRd m) (K ck) (kcell ck))
    ∗ bigSep Finset.univ fun ck : Dev nD × Fin 33 => reached ER (kcell ck) 0)

instance records_persistent (K : Dev nD × Fin 33 → ℕ) : BI.Persistent (records m K) := by unfold records; infer_instance

omit [FloatOps F] in
/-- Out of all the invariants, those of one device's cells. -/
theorem inv_own (K : Dev nD × Fin 33 → ℕ) (c : Dev nD) :
    (bigSep Finset.univ fun ck : Dev nD × Fin 33 => (cellInv ER (rsRd m) (K ck) (kcell ck) : sProp 𝕄))
      ⊢ own33 (fun g => cellInv ER (rsRd m) (Kof K g) g) c := by
  rw [own33_eq, bigSep_univ_prod]
  exact (bigSep_elim (Finset.mem_univ c)).trans (Entails.of_eq (bigSep_congr fun k _ => by rw [Kof_kcell]))

omit [FloatOps F] in
/-- Out of all the reached-marks, those of one device's cells. -/
theorem reached_own (c : Dev nD) :
    (bigSep Finset.univ fun ck : Dev nD × Fin 33 => (reached ER (kcell ck) 0 : sProp 𝕄)) ⊢ own33 (fun g => reached ER g 0) c := by
  rw [own33_eq, bigSep_univ_prod]
  exact bigSep_elim (Finset.mem_univ c)

/-- What stays with device `c`: its positions, and the tokens of the duties it pays. -/
def linear (c : Dev nD) : sProp 𝕄 := iprop(own33 (fun g => atPos ER g 0 ∅ 0) c ∗ payToks c)

omit [FloatOps F] in
/-- The records and a device's own positions and paying tokens make up its ghost state. -/
theorem ghost_intro (K : Dev nD × Fin 33 → ℕ) (c : Dev nD) : iprop(records m K ∗ linear c) ⊢ G' m c := by
  unfold records linear G' ghost invs
  iintro ⟨⟨#HI, #HR⟩, Hat, Htok⟩
  iexists (Kof K)
  isplitr
  · isplitr
    · iapply (inv_own m K c); iexact HI
    · iapply (inv_own m K (peer c)); iexact HI
  isplitl [Hat]; · iexact Hat
  isplitr; · iapply (reached_own (F := F) c); iexact HR
  isplitr; · iapply (reached_own (F := F) (peer c)); iexact HR
  iexact Htok

omit [FloatOps F] in
/-- A device's barrier token and its eight receive tokens go to its partner; the other twenty-four stay. -/
theorem toks_around : (bigSep Finset.univ fun c : Dev nD => (toks c : sProp 𝕄)) ⊢ bigSep Finset.univ fun c : Dev nD => payToks c := by
  have h1 : (fun c : Dev nD => (toks c : sProp 𝕄)) = fun c => own33 (fun g => dutyTok ER g 0 ()) c :=
    funext fun c => by unfold toks; rw [own33_eq]
  rw [h1]
  unfold own33 payToks
  simp only [bigSep_sep']
  rw [bigSep_univ_equiv swap (fun c : Dev nD => (dutyTok ER (barCell c) 0 () : sProp 𝕄)),
    bigSep_univ_equiv swap (fun c : Dev nD => (bigSep Finset.univ fun i : Fin 8 => dutyTok ER (recvCell c i) 0 () : sProp 𝕄))]
  iintro ⟨HB, HS, HK, HD, HR⟩
  isplitl [HB]; · iexact HB
  isplitl [HR]; · iexact HR
  isplitl [HS]; · iexact HS
  isplitl [HK]; · iexact HK
  iexact HD

omit [FloatOps F] in
/-- A persistent assertion may be used at every index of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices at once: the names chosen, the records read off, the tokens dealt to the devices that pay them. -/
theorem regroup :
    (bigSep Finset.univ fun c : Dev nD => iprop((bigSep Finset.univ fun k : Fin 33 => iprop(∃ κ : ℕ, cellInv ER (rsRd m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (rsRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear; rw [own33_eq])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- Before the region: the block of the array, whole at the launched contents, beside the body's start (the ghost state, the launch
    credit of the barrier cell and the receive cells, the levels). -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xWhole m c) ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G' xWhole
  isplitl
  · isplitr [Hx]
    · isplitl [HG]; · iexact HG
      isplitl [H1]; · iexact H1
      isplitl [HN]; · iexact HN
      iexact Hlev
    · iexact Hx
  · iempintro

/-- At the region's entry the two scratch buffers join them. -/
theorem phi0_intro (c : Dev nD) :
    iprop((start m c ∗ xWhole m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- At its exit the block of the array is handed on, the own semaphores and the scratch buffers given back. -/
theorem phi1_exit (c : Dev nD) :
    (dats m ρ 0 c).Φ (Fin.last cfg0.N) ⊢ iprop(xWhole m c ∗ Pipeline.ownSems0 osem c ∗ Pipeline.scopedRest cfg0.spec c) := by
  rw [show (dats m ρ 0 c).Φ (Fin.last cfg0.N) = Φ₁ m c from rfl, scopedRest0_eq]
  unfold Φ₁ scratches
  exact .rfl

/-! ## The result array at the end -/

/-- The one write-back writes the whole result array: it ends at what the body left in the result buffer. -/
theorem final_out (c : Dev nD) : (dats m ρ 0 c).arrAt (0 : Fin 1) cfg0.N = sumFull m c := by
  have h := (dats m ρ 0 c).arrAt_succ (0 : Fin 1) t₀
  rw [flush0_0 t₀, if_pos rfl] at h
  refine Eq.trans (show _ = (dats m ρ 0 c).arrAt 0 (t₀.val + 1) from rfl) (h.trans ?_)
  exact Memref.write_access_unit_zero_univ (Elt F) main_v1 (funext fun a => Nat.zero_mul _) _ _ _

/-! ## The run -/

set_option maxRecDepth 8000 in
/-- From the body obligations: every weakly fair execution of the program on the thirty-two devices terminates, and
    every final state has each device's result array at its kept half plus its partner's sent half, its block of the
    array as launched. -/
theorem run_main_of (hbody : ∀ c : Dev nD, BodyObligation (dats (F := F) m ρ 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => iprop(start m c ∗ xWhole m c)) (Y := xWhole m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xWhole
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.Kernel.RS.run_main_of' depends on axioms: [propext, Classical.choice, Quot.sound] -/
#guard_msgs in #print axioms run_main_of

end Cert.Kernel.RS

end
-- ==== Proof.Kernel.Landing.lean ====
/-
  What each copy lands, and the buffers cut into their chunks.
  A copy of chunk (h, i) of the block into rows [512 i, 512 i + 512) of a 4096 × 1024 buffer leaves there the rows of
  column half h; a copy of those rows of one buffer into the same rows of another leaves them there. Since a chunk is
  held at a function on the whole buffer read on the chunk only, each landing restates the written contents as the
  half it is. The eight row chunks tile a buffer and the sixteen chunks tile the block.
-/
import proofs.«901041_g7700000000001042_dist_rs_v7x_xyz2x4x4_x_m4096_n1024_f32_1_alg».proof.Proof.Kernel.Proto
import Idealize.ShloMosaic.Lib.Pipeline.Value

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Reading chunk (h, i) of the block at index y gives the block's entry in row 512 i + y₀ and column 1024 h + y₁: the entry
    of column half h at the place index y has in row chunk i. The squeeze drops the unit axis, the slice adds its offsets. -/
theorem xCh_read (h : Fin 2) (i : Fin 8) (X : (main_arg0 : Ref sig .tc).ty.Contents (Elt F)) (y : S512x1024.Idx) :
    (xCh h i).view.read (Elt F) X y = halfOf h X ((rowRect i).emb y) := by
  unfold xCh halfOf
  rw [View.read_apply]
  refine (cast_eq _ _).trans (congrArg X ?_)
  have hy : Shape.reshapeEquiv (Gen.squeezes_S1x512x1024_S512x1024).numel_eq y = Fin.cons ⟨0, Nat.one_pos⟩ y :=
    Shape.reshapeEquiv_cons_one (n := 2) (d := ![512, 1024]) _ y
  show (Rect.unit (s := S1x4096x2048) ![0, 512 * i.val, 1024 * h.val] S1x512x1024.size (inb_x h i)).emb
      (Shape.reshapeEquiv (Gen.squeezes_S1x512x1024_S512x1024).numel_eq y) = _
  rw [hy]
  funext a
  obtain ⟨a, ha⟩ := a
  have ha' : a < 3 := ha
  rcases a with _ | _ | _ | a
  · exact Fin.ext (show 0 + 1 * 0 = 0 from rfl)
  · exact Fin.ext (show 512 * i.val + 1 * (y 0).val = 512 * i.val + 1 * (y 0).val from rfl)
  · exact Fin.ext (show 1024 * h.val + 1 * (y 1).val = (0 + 1 * (y 1).val) + 1024 * h.val by omega)
  · omega

/-- A staging copy: chunk `i` of the send buffer, written with chunk (sent half, i) of the block, holds the sent half's rows. -/
theorem stage_lands (c : Dev nD) (i : Fin 8) (fd : Buf (Elt F) ((rowCh (sM : Memref sig .tc .vmem S4096x1024 .f32) i).view.loc (c : Thread nD τ))) :
    piece (F := F) c sM i ((rowCh (sM : Memref sig .tc .vmem S4096x1024 .f32) i).view.write (Elt F) fd ((xCh (sdH c) i).view.read (Elt F) (Xof m c)) Finset.univ)
      = piece c sM i (sendFull m c) := by
  unfold piece
  refine BI.Region.is_congr fun j hj => ?_
  obtain ⟨y, rfl⟩ := View.exists_emb_of_mem_set _ hj
  rw [View.write_emb_of_mem _ _ (Finset.mem_univ y), xCh_read]
  exact cast_eq _ _

/-- A keeping copy: chunk `i` of the result buffer, written with chunk (kept half, i) of the block, holds the kept half's rows. -/
theorem keep_lands (c : Dev nD) (i : Fin 8) (fd : Buf (Elt F) ((rowCh (oM : Memref sig .tc .vmem S4096x1024 .f32) i).view.loc (c : Thread nD τ))) :
    piece (F := F) c oM i ((rowCh (oM : Memref sig .tc .vmem S4096x1024 .f32) i).view.write (Elt F) fd ((xCh (kpH c) i).view.read (Elt F) (Xof m c)) Finset.univ)
      = piece c oM i (keepFull m c) := by
  unfold piece
  refine BI.Region.is_congr fun j hj => ?_
  obtain ⟨y, rfl⟩ := View.exists_emb_of_mem_set _ hj
  rw [View.write_emb_of_mem _ _ (Finset.mem_univ y), xCh_read]
  exact cast_eq _ _

/-- What a device receives is what its partner sends: the partner's partner is the device itself. -/
theorem recvFull_peer (c : Dev nD) : recvFull m (peer c) = sendFull m c := by
  unfold recvFull sendFull; rw [peer_peer]

/-- The transfer to the partner: chunk `i` of the partner's receive buffer, written with chunk `i` of this device's send
    buffer (holding its sent half), holds what the partner receives. -/
theorem recv_lands (c : Dev nD) (i : Fin 8) (fd : Buf (Elt F) ((rowCh (rM : Memref sig .tc .vmem S4096x1024 .f32) i).view.loc (peer c : Thread nD τ))) :
    piece (F := F) (peer c) rM i ((rowCh (rM : Memref sig .tc .vmem S4096x1024 .f32) i).view.write (Elt F) fd
        ((rowCh (sM : Memref sig .tc .vmem S4096x1024 .f32) i).view.read (Elt F) (sendFull m c)) Finset.univ)
      = piece (peer c) rM i (recvFull m (peer c)) := by
  unfold piece
  refine BI.Region.is_congr fun j hj => ?_
  obtain ⟨y, rfl⟩ := View.exists_emb_of_mem_set _ hj
  rw [View.write_emb_of_mem _ _ (Finset.mem_univ y), recvFull_peer]
  exact (cast_eq _ _).trans (cast_eq _ _)

/-! ## The buffers cut into their chunks -/

/-- Every row lies in the chunk of its quotient by 512. -/
theorem rows_cover (x : S4096x1024.Idx) : ∃ i : Fin 8, x ∈ (rowRect i).set := by
  have h0 : (x 0).val < 4096 := (x 0).isLt
  have h1 : (x 1).val < 1024 := (x 1).isLt
  refine ⟨⟨(x 0).val / 512, by omega⟩, Rect.mem_set_unit.mpr fun a => ?_⟩
  obtain ⟨a, ha⟩ := a
  have ha' : a < 2 := ha
  rcases a with _ | _ | a
  · show 512 * ((x 0).val / 512) ≤ (x 0).val ∧ (x 0).val < 512 * ((x 0).val / 512) + 512
    omega
  · show 0 ≤ (x 1).val ∧ (x 1).val < 0 + 1024
    omega
  · omega

/-- Different chunks share no row. -/
theorem rows_disjoint (i i' : Fin 8) (h : i ≠ i') : Disjoint (rowRect i).set (rowRect i').set := by
  refine Rect.unit_disjoint (0 : Fin 2) ?_
  have := Fin.val_ne_of_ne h
  show 512 * i.val + 512 ≤ 512 * i'.val ∨ 512 * i'.val + 512 ≤ 512 * i.val
  omega

/-- The elements under a view of a 4096 × 1024 array are those under its eight row chunks. -/
theorem rows_set {sp : Space} (M : Memref sig .tc sp S4096x1024 .f32) :
    M.view.set = (Finset.univ : Finset (Fin 8)).biUnion fun i => (M.view.slice (rowRect i)).set := by
  ext j
  rw [Finset.mem_biUnion]
  constructor
  · intro hj
    obtain ⟨x, rfl⟩ := View.exists_emb_of_mem_set _ hj
    obtain ⟨i, hi⟩ := rows_cover x
    exact ⟨i, Finset.mem_univ _, by rw [View.set_slice]; exact Finset.mem_map_of_mem _ hi⟩
  · rintro ⟨i, -, hj⟩
    exact View.set_slice_subset _ _ hj

/-- The eight row chunks tile a whole 4096 × 1024 buffer. -/
theorem split_rows {sp : Space} (c : Dev nD) (M : Memref sig .tc sp S4096x1024 .f32) (hM : M.IsWhole) (f : Buf (Elt F) (M.view.loc (c : Thread nD τ))) :
    (M.view.loc (c : Thread nD τ) ↦[M.view.set]{fullShare} f : sProp 𝕄) ⊣⊢ bigSep Finset.univ fun i : Fin 8 => piece c M i f := by
  refine BiEntails.of_eq ?_
  rw [rows_set M, pointsTo_biUnion _ _ fun i _ i' _ h => by
    rw [View.set_slice, View.set_slice]
    exact (Finset.disjoint_map _).mpr (rows_disjoint i i' h)]
  rfl

/-- The rectangle of the block that chunk (h, i) is: the one plane, rows [512 i, 512 i + 512), columns [1024 h, 1024 h + 1024). -/
abbrev xRect (h : Fin 2) (i : Fin 8) : Rect S1x4096x2048 :=
  Rect.unit (s := S1x4096x2048) ![0, 512 * i.val, 1024 * h.val] S1x512x1024.size (inb_x h i)

/-- The elements under chunk (h, i) of the block are those of its rectangle: dropping the unit axis re-indexes them only. -/
theorem xCh_set (h : Fin 2) (i : Fin 8) : (xCh h i).view.set = (xRect h i).set :=
  (View.set_reshape _ _).trans (View.set_slice_whole main_arg0 (xRect h i))

/-- Every element of the block lies in the chunk of its column's quotient by 1024 and its row's by 512. -/
theorem x_cover (x : S1x4096x2048.Idx) : ∃ hi : Fin 2 × Fin 8, x ∈ (xRect hi.1 hi.2).set := by
  have h0 : (x 0).val < 1 := (x 0).isLt
  have h1 : (x 1).val < 4096 := (x 1).isLt
  have h2 : (x 2).val < 2048 := (x 2).isLt
  refine ⟨(⟨(x 2).val / 1024, by omega⟩, ⟨(x 1).val / 512, by omega⟩), Rect.mem_set_unit.mpr fun a => ?_⟩
  obtain ⟨a, ha⟩ := a
  have ha' : a < 3 := ha
  rcases a with _ | _ | _ | a
  · show 0 ≤ (x 0).val ∧ (x 0).val < 0 + 1
    omega
  · show 512 * ((x 1).val / 512) ≤ (x 1).val ∧ (x 1).val < 512 * ((x 1).val / 512) + 512
    omega
  · show 1024 * ((x 2).val / 1024) ≤ (x 2).val ∧ (x 2).val < 1024 * ((x 2).val / 1024) + 1024
    omega
  · omega

/-- Different chunks of the block share no element: they differ in the column half or in the row chunk. -/
theorem x_disjoint (hi hi' : Fin 2 × Fin 8) (h : hi ≠ hi') : Disjoint (xRect hi.1 hi.2).set (xRect hi'.1 hi'.2).set := by
  obtain ⟨h₁, i₁⟩ := hi
  obtain ⟨h₂, i₂⟩ := hi'
  by_cases hh : h₁ = h₂
  · have hi : i₁ ≠ i₂ := fun e => h (by rw [hh, e])
    have := Fin.val_ne_of_ne hi
    refine Rect.unit_disjoint (1 : Fin 3) ?_
    show 512 * i₁.val + 512 ≤ 512 * i₂.val ∨ 512 * i₂.val + 512 ≤ 512 * i₁.val
    omega
  · have := Fin.val_ne_of_ne hh
    refine Rect.unit_disjoint (2 : Fin 3) ?_
    show 1024 * h₁.val + 1024 ≤ 1024 * h₂.val ∨ 1024 * h₂.val + 1024 ≤ 1024 * h₁.val
    omega

/-- The block's elements are those of its sixteen chunks. -/
theorem x_set : (Finset.univ : Finset S1x4096x2048.Idx) = (Finset.univ : Finset (Fin 2 × Fin 8)).biUnion fun hi => (xRect hi.1 hi.2).set := by
  ext x
  rw [Finset.mem_biUnion]
  constructor
  · intro _
    obtain ⟨hi, hx⟩ := x_cover x
    exact ⟨hi, Finset.mem_univ _, hx⟩
  · intro _
    exact Finset.mem_univ _

/-- The sixteen chunks tile the device's block of the array. -/
theorem split_x (c : Dev nD) :
    (xWhole m c : sProp 𝕄) ⊣⊢ bigSep Finset.univ fun hi : Fin 2 × Fin 8 => xpiece m c hi.1 hi.2 := by
  refine BiEntails.of_eq ?_
  unfold xWhole
  have e : (((c : Thread nD τ).loc main_arg0) ↦[(Finset.univ : Finset (Fin 2 × Fin 8)).biUnion fun hi => (xRect hi.1 hi.2).set]{fullShare}
        m ((c : Thread nD τ).loc main_arg0) : sProp 𝕄)
      = bigSep Finset.univ fun hi : Fin 2 × Fin 8 => ((c : Thread nD τ).loc main_arg0) ↦[(xRect hi.1 hi.2).set]{fullShare} m ((c : Thread nD τ).loc main_arg0) :=
    pointsTo_biUnion _ _ fun hi _ hi' _ h => x_disjoint hi hi' h
  rw [← x_set] at e
  refine e.trans (bigSep_congr fun hi _ => ?_)
  unfold xpiece Xof
  rw [xCh_set]
  rfl

/-- info: 'Cert.Kernel.RS.stage_lands' depends on axioms: [propext, Classical.choice, Quot.sound] -/
#guard_msgs in #print axioms stage_lands
/-- info: 'Cert.Kernel.RS.keep_lands' depends on axioms: [propext, Classical.choice, Quot.sound] -/
#guard_msgs in #print axioms keep_lands
/-- info: 'Cert.Kernel.RS.recv_lands' depends on axioms: [propext, Classical.choice, Quot.sound] -/
#guard_msgs in #print axioms recv_lands
/-- info: 'Cert.Kernel.RS.split_rows' depends on axioms: [propext, Classical.choice, Quot.sound] -/
#guard_msgs in #print axioms split_rows
/-- info: 'Cert.Kernel.RS.split_x' depends on axioms: [propext, Classical.choice, Quot.sound] -/
#guard_msgs in #print axioms split_x

end Cert.Kernel.RS

end
-- ==== Proof.Kernel.StepsMem.lean ====
/-
  The step rules that touch only a device's own memory and its finished cells, each once, for any device c and any
  chunk i: closing a cell whose one round is over; the thirty-two closed DMA cells as the kernel's own semaphores at
  zero; the load of a chunk's rows through the whole buffer and the store of a vector back into them; the printed
  sum's cast to its own shape; and that the stored sum of the kept rows and the received rows is the sum's rows.
-/
import proofs.«901041_g7700000000001042_dist_rs_v7x_xyz2x4x4_x_m4096_n1024_f32_1_alg».proof.Proof.Kernel.Proto
import proofs.«901041_g7700000000001042_dist_rs_v7x_xyz2x4x4_x_m4096_n1024_f32_1_alg».proof.Proof.Kernel.Landing

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the finished cells -/

/-- A cell whose one round is over closes: its counter, at zero, is the device's again. -/
theorem close_cell (g : GSem nD τ sig) (κ : ℕ) :
    iprop(cellInv ER (rsRd m) κ g ∗ atPos ER g 1 ∅ 0) ⊢ iprop(|={Set.univ}=> semVal g 0 : sProp 𝕄) :=
  Rounds.cell_close ER (rsRd m) (Set.mem_univ κ) (fun h => h) (R := 1) (duties_later m g)

/-- The kernel's own semaphore number 8 a + b is DMA semaphore 8 a + b + 1: semaphore b of family a. -/
abbrev famIx : Fin 4 × Fin 8 ≃ Fin 32 := finProdFinEquiv

theorem osem_stage (i : Fin 8) : osem (famIx (0, i)) = .dma (stageS i) := by revert i; decide
theorem osem_keep (i : Fin 8) : osem (famIx (1, i)) = .dma (keepS i) := by revert i; decide
theorem osem_send (i : Fin 8) : osem (famIx (2, i)) = .dma (sendS i) := by revert i; decide
theorem osem_recv (i : Fin 8) : osem (famIx (3, i)) = .dma (recvS i) := by revert i; decide

omit [FloatOps F] in
theorem bigSep_fams (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The thirty-two closed DMA cells, family by family, are the kernel's own semaphores at zero. -/
theorem ownSems0_of_cells (c : Dev nD) :
    iprop((bigSep Finset.univ fun i : Fin 8 => semVal (stageCell c i) 0) ∗ (bigSep Finset.univ fun i : Fin 8 => semVal (keepCell c i) 0)
        ∗ (bigSep Finset.univ fun i : Fin 8 => semVal (sendCell c i) 0) ∗ (bigSep Finset.univ fun i : Fin 8 => semVal (recvCell c i) 0))
      ⊢ (Pipeline.ownSems0 (Ix := Unit) (Name := ℕ) (U := UU) (Lvl := ℕ) (Val := Elt F) (τ := τ) osem c : sProp 𝕄) := by
  unfold Pipeline.ownSems0
  rw [bigSep_univ_equiv famIx, bigSep_univ_prod, bigSep_fams]
  simp only [osem_stage, osem_keep, osem_send, osem_recv]
  exact Entails.refl _

/-! ## The loads and the store of a chunk through the whole buffer -/

/-- The load of rows [512 i, 512 i + 512) through the whole buffer, from the chunk's piece. -/
theorem wp_load_rows (c : Dev nD) (M : Memref sig .tc .vmem S4096x1024 .f32) (i : Fin 8)
    {hl : M.view.LoadsAt (rowRect i).toLoadRect} {α : Type} {Q : α → sProp 𝕄}
    {k : ((rowRect i).toLoadRect.shape.Idx → Elt F .f32) → Prog (TpuEff nD τ sig (Elt F) Λ₀ .tc) α}
    (f : Buf (Elt F) ((rowCh M i).view.loc (c : Thread nD τ))) :
    piece c M i f
      ⊢ iprop((piece c M i f -∗ wp frame (wpE (defs₀ (F := F)) 𝒱₀ (c : Thread nD τ) none) Set.univ (k ((rowCh M i).view.read (Elt F) f)) Q)
          -∗ wp frame (wpE (defs₀ (F := F)) 𝒱₀ (c : Thread nD τ) none) Set.univ (.op (.load M (rowRect i).toLoadRect hl) k) Q) := by
  unfold piece
  exact wp_load_rect 𝒱₀ (c : Thread nD τ) none Set.univ (m := M) (r := rowRect i) (Finset.Subset.refl _)

/-- The store of a vector into rows [512 i, 512 i + 512) through the whole buffer, into the chunk's piece. -/
theorem wp_store_rows (c : Dev nD) (M : Memref sig .tc .vmem S4096x1024 .f32) (i : Fin 8)
    {w : (rowRect i).shape.Idx → Elt F .f32} {hx : (M.access (rowRect i)).Stores Finset.univ} {hm : (Finset.univ : Finset (rowRect i).shape.Idx) = Finset.univ ∨ ∀ a, (rowRect i).stride a = 1}
    {α : Type} {Q : α → sProp 𝕄} {k : PUnit → Prog (TpuEff nD τ sig (Elt F) Λ₀ .tc) α} (f : Buf (Elt F) ((rowCh M i).view.loc (c : Thread nD τ))) :
    piece c M i f
      ⊢ iprop((piece c M i ((rowCh M i).view.write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store M (rowRect i) w Finset.univ hx hm) k) Q) := by
  unfold piece
  exact wp_store 𝒱₀ (c : Thread nD τ) none Set.univ (m := M) (r := rowRect i) (Finset.Subset.refl _)

/-- The printed sum's cast to its own shape is the identity. -/
theorem addf_cast (v w : Vec F S512x1024 .f32) (h : S512x1024.ShapeCasts S512x1024) : addf (shapeCast S512x1024 v h) w = addf v w := by
  rw [shapeCast_self]

/-- The chunk of the result buffer, after the sum of the kept rows and the received rows is stored into it, holds the sum's rows. -/
theorem sum_lands (c : Dev nD) (i : Fin 8) (f : Buf (Elt F) ((rowCh (oM : Memref sig .tc .vmem S4096x1024 .f32) i).view.loc (c : Thread nD τ))) :
    piece (F := F) c oM i ((rowCh (oM : Memref sig .tc .vmem S4096x1024 .f32) i).view.write (Elt F) f
        (addf ((rowCh (oM : Memref sig .tc .vmem S4096x1024 .f32) i).view.read (Elt F) (keepFull m c))
              ((rowCh (rM : Memref sig .tc .vmem S4096x1024 .f32) i).view.read (Elt F) (recvFull m c))) Finset.univ)
      = piece c oM i (sumFull m c) := by
  unfold piece
  refine BI.Region.is_congr fun j hj => ?_
  obtain ⟨x, rfl⟩ := View.exists_emb_of_mem_set _ hj
  rw [View.write_emb_of_mem _ _ (Finset.mem_univ x)]
  rfl

/-- info: 'Cert.Kernel.RS.close_cell' depends on axioms: [propext, Classical.choice, Quot.sound] -/
#guard_msgs in #print axioms close_cell

/-- info: 'Cert.Kernel.RS.ownSems0_of_cells' depends on axioms: [propext, Classical.choice, Quot.sound] -/
#guard_msgs in #print axioms ownSems0_of_cells

/-- info: 'Cert.Kernel.RS.wp_load_rows' depends on axioms: [propext, Classical.choice, Quot.sound] -/
#guard_msgs in #print axioms wp_load_rows

/-- info: 'Cert.Kernel.RS.wp_store_rows' depends on axioms: [propext, Classical.choice, Quot.sound] -/
#guard_msgs in #print axioms wp_store_rows

/-- info: 'Cert.Kernel.RS.addf_cast' depends on axioms: [propext, Classical.choice, Quot.sound] -/
#guard_msgs in #print axioms addf_cast

/-- info: 'Cert.Kernel.RS.sum_lands' depends on axioms: [propext, Classical.choice, Quot.sound] -/
#guard_msgs in #print axioms sum_lands

end Cert.Kernel.RS

end
-- ==== Proof.Kernel.Steps.lean ====
/-
  The step rules of one device's body that move credit, each once, for any device c and any chunk i.
  The signal to the partner's barrier cell and the wait on one's own; the issue of a staging copy and of a keeping
  copy; the issue of the transfer to the partner; the wait on a DMA cell of one's own, with what each cell's wait
  hands back.
-/
import proofs.«901041_g7700000000001042_dist_rs_v7x_xyz2x4x4_x_m4096_n1024_f32_1_alg».proof.Proof.Kernel.Proto
import proofs.«901041_g7700000000001042_dist_rs_v7x_xyz2x4x4_x_m4096_n1024_f32_1_alg».proof.Proof.Kernel.Landing
import proofs.«901041_g7700000000001042_dist_rs_v7x_xyz2x4x4_x_m4096_n1024_f32_1_alg».proof.Proof.Kernel.StepsMem

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed partner chains -/

theorem dev1_eq (c : Dev nD) : (⟨k0_dev1 c, k0_dev1_lt c⟩ : Dev nD) = peer c := Fin.ext ((k0_dev1_eq c).trans (dev_closed c))
theorem dev2_eq (c : Dev nD) (h1 : k0_cond1 c = 1#1) : (⟨k0_dev2 c, k0_dev2_lt c h1⟩ : Dev nD) = peer c := Fin.ext ((k0_dev2_eq c).trans (dev_closed c))
theorem dev3_eq (c : Dev nD) (h1 : k0_cond1 c = 1#1) : (⟨k0_dev3 c, k0_dev3_lt c h1⟩ : Dev nD) = peer c := Fin.ext ((k0_dev3_eq c).trans (dev_closed c))
theorem dev4_eq (c : Dev nD) (h1 : k0_cond1 c = 1#1) : (⟨k0_dev4 c, k0_dev4_lt c h1⟩ : Dev nD) = peer c := Fin.ext ((k0_dev4_eq c).trans (dev_closed c))
theorem dev5_eq (c : Dev nD) (h1 : k0_cond1 c = 1#1) : (⟨k0_dev5 c, k0_dev5_lt c h1⟩ : Dev nD) = peer c := Fin.ext ((k0_dev5_eq c).trans (dev_closed c))
theorem dev6_eq (c : Dev nD) (h1 : k0_cond1 c = 1#1) : (⟨k0_dev6 c, k0_dev6_lt c h1⟩ : Dev nD) = peer c := Fin.ext ((k0_dev6_eq c).trans (dev_closed c))
theorem dev7_eq (c : Dev nD) (h1 : k0_cond1 c = 1#1) : (⟨k0_dev7 c, k0_dev7_lt c h1⟩ : Dev nD) = peer c := Fin.ext ((k0_dev7_eq c).trans (dev_closed c))
theorem dev8_eq (c : Dev nD) (h1 : k0_cond1 c = 1#1) : (⟨k0_dev8 c, k0_dev8_lt c h1⟩ : Dev nD) = peer c := Fin.ext ((k0_dev8_eq c).trans (dev_closed c))
theorem dev9_eq (c : Dev nD) (h1 : k0_cond1 c = 1#1) : (⟨k0_dev9 c, k0_dev9_lt c h1⟩ : Dev nD) = peer c := Fin.ext ((k0_dev9_eq c).trans (dev_closed c))
theorem dev10_eq (c : Dev nD) (h2 : k0_cond2 c = 1#1) : (⟨k0_dev10 c, k0_dev10_lt c h2⟩ : Dev nD) = peer c := Fin.ext ((k0_dev10_eq c).trans (dev_closed c))
theorem dev11_eq (c : Dev nD) (h2 : k0_cond2 c = 1#1) : (⟨k0_dev11 c, k0_dev11_lt c h2⟩ : Dev nD) = peer c := Fin.ext ((k0_dev11_eq c).trans (dev_closed c))
theorem dev12_eq (c : Dev nD) (h2 : k0_cond2 c = 1#1) : (⟨k0_dev12 c, k0_dev12_lt c h2⟩ : Dev nD) = peer c := Fin.ext ((k0_dev12_eq c).trans (dev_closed c))
theorem dev13_eq (c : Dev nD) (h2 : k0_cond2 c = 1#1) : (⟨k0_dev13 c, k0_dev13_lt c h2⟩ : Dev nD) = peer c := Fin.ext ((k0_dev13_eq c).trans (dev_closed c))
theorem dev14_eq (c : Dev nD) (h2 : k0_cond2 c = 1#1) : (⟨k0_dev14 c, k0_dev14_lt c h2⟩ : Dev nD) = peer c := Fin.ext ((k0_dev14_eq c).trans (dev_closed c))
theorem dev15_eq (c : Dev nD) (h2 : k0_cond2 c = 1#1) : (⟨k0_dev15 c, k0_dev15_lt c h2⟩ : Dev nD) = peer c := Fin.ext ((k0_dev15_eq c).trans (dev_closed c))
theorem dev16_eq (c : Dev nD) (h2 : k0_cond2 c = 1#1) : (⟨k0_dev16 c, k0_dev16_lt c h2⟩ : Dev nD) = peer c := Fin.ext ((k0_dev16_eq c).trans (dev_closed c))
theorem dev17_eq (c : Dev nD) (h2 : k0_cond2 c = 1#1) : (⟨k0_dev17 c, k0_dev17_lt c h2⟩ : Dev nD) = peer c := Fin.ext ((k0_dev17_eq c).trans (dev_closed c))

/-! ## Small facts about the chunks -/

/-- Every row chunk of every 4096 × 1024 buffer credits the same amount. -/
theorem credit_rows {sp : Space} (M : Memref sig .tc sp S4096x1024 .f32) (i : Fin 8) : (rowCh M i).view.dmaCredit = N := rfl
theorem credit_x (h : Fin 2) (i : Fin 8) : (xCh h i).view.dmaCredit = N := rfl

/-- What a device hands its partner with the barrier signal, with the partner's partner resolved: its own receive
    buffer and that it has reached round 0 of its own receive cells. -/
theorem barPay_peer (c : Dev nD) :
    barPay (F := F) (peer c) = iprop((∃ f, (rM : Memref sig .tc .vmem S4096x1024 .f32).view.loc (c : Thread nD τ) ↦[(rM : Memref sig .tc .vmem S4096x1024 .f32).view.set]{fullShare} f)
      ∗ bigSep Finset.univ fun i : Fin 8 => reached ER (recvCell c i) 0) := by
  unfold barPay; rw [peer_peer]

/-! ## What a wait hands back -/

/-- What each family's wait hands back. -/
theorem dmaPay_stage (c : Dev nD) (i : Fin 8) : dmaPay m c (stageS i) = stagePay m c i := payload_stage m c i ()
theorem dmaPay_keep (c : Dev nD) (i : Fin 8) : dmaPay m c (keepS i) = keepPay m c i := payload_keep m c i ()
theorem dmaPay_send (c : Dev nD) (i : Fin 8) : dmaPay m c (sendS i) = sendPay m c i := payload_send m c i ()
theorem dmaPay_recv (c : Dev nD) (i : Fin 8) : dmaPay m c (recvS i) = recvPay m c i := payload_recv m c i ()

/-- The rest of a cell's round, no duty taken, is its one payload. -/
theorem rest_dma (c : Dev nD) (d : DmaSem sig) (hd : IsCell ((c : Thread nD τ), .dma d)) :
    bigSep ((rsRd (F := F) m).duties ((c : Thread nD τ), .dma d) 0 \ ∅) (fun u => (rsRd (F := F) m).payload ((c : Thread nD τ), .dma d) 0 u) = dmaPay m c d := by
  rw [Finset.sdiff_empty, duties_cell m _ hd, bigSep_singleton]; rfl
theorem rest_stage (c : Dev nD) (i : Fin 8) :
    bigSep ((rsRd (F := F) m).duties (stageCell c i) 0 \ ∅) (fun u => (rsRd (F := F) m).payload (stageCell c i) 0 u) = stagePay m c i := by
  rw [Finset.sdiff_empty, duties_stage, bigSep_singleton, payload_stage]
theorem rest_keep (c : Dev nD) (i : Fin 8) :
    bigSep ((rsRd (F := F) m).duties (keepCell c i) 0 \ ∅) (fun u => (rsRd (F := F) m).payload (keepCell c i) 0 u) = keepPay m c i := by
  rw [Finset.sdiff_empty, duties_keep, bigSep_singleton, payload_keep]
theorem rest_send (c : Dev nD) (i : Fin 8) :
    bigSep ((rsRd (F := F) m).duties (sendCell c i) 0 \ ∅) (fun u => (rsRd (F := F) m).payload (sendCell c i) 0 u) = sendPay m c i := by
  rw [Finset.sdiff_empty, duties_send, bigSep_singleton, payload_send]
theorem rest_recv (c : Dev nD) (i : Fin 8) :
    bigSep ((rsRd (F := F) m).duties (recvCell c i) 0 \ ∅) (fun u => (rsRd (F := F) m).payload (recvCell c i) 0 u) = recvPay m c i := by
  rw [Finset.sdiff_empty, duties_recv, bigSep_singleton, payload_recv]
theorem rest_bar (c : Dev nD) :
    bigSep ((rsRd (F := F) m).duties (barCell c) 0 \ ∅) (fun u => (rsRd (F := F) m).payload (barCell c) 0 u) = barPay c := by
  rw [Finset.sdiff_empty, duties_bar, bigSep_singleton, payload_bar]

/-- From what a wait hands back, the fact that the next round is reached is dropped. -/
theorem post_drop {A B C D : sProp 𝕄} : iprop(A ∗ B ∗ C ∗ D) ⊢ iprop(A ∗ B ∗ D) := by
  iintro ⟨HA, HB, -, HD⟩
  isplitl [HA]; · iexact HA
  isplitl [HB]; · iexact HB
  iexact HD

/-! ## The entry handshake -/

/-- The signal to the partner's barrier cell, addressed to `n = peer c`. -/
theorem wp_signal_peer (c n : Dev nD) (hn : n = peer c) (κ : ℕ) (O : CellTallies nD τ sig Unit) {O' : CellTallies nD τ sig Unit}
    (hO : O' = O + tallyAt (barCell (peer c)) () 1) {W : Waits sig Unit} {α : Type} {Q : α → sProp 𝕄} {k : PUnit → Prog (TpuEff nD τ sig (Elt F) Λ₀ .tc) α} :
    iprop(cellInv ER (rsRd m) κ (barCell (peer c)) ∗ owes (c : Thread nD τ) O' W ∗ dutyTok ER (barCell (peer c)) 0 ()
        ∗ ((∃ f, (rM : Memref sig .tc .vmem S4096x1024 .f32).view.loc (c : Thread nD τ) ↦[(rM : Memref sig .tc .vmem S4096x1024 .f32).view.set]{fullShare} f)
          ∗ bigSep Finset.univ fun i : Fin 8 => reached ER (recvCell c i) 0)
        ∗ reached ER (barCell (peer c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  rw [← barPay_peer]
  exact Rounds.wp_signal 𝒱₀ ER (rsRd m) (c : Thread nD τ) none (dst := (peer c : Thread nD τ)) (sem := barS) (κ := κ) (r := 0) (d := ()) (k' := 1)
    (by rw [duties_bar]; exact Finset.mem_singleton_self _) (amount_bar m (peer c) ()) () O hO

/-- The wait of one unit on one's own barrier cell, allowed by the levels under what is still owed: the partner's receive
    buffer comes with it. -/
theorem wp_wait_bar (c : Dev nD) (κ : ℕ) (O : CellTallies nD τ sig Unit) (W : Waits sig Unit) {α : Type} {Q : α → sProp 𝕄} {k : PUnit → Prog (TpuEff nD τ sig (Elt F) Λ₀ .tc) α} :
    iprop(cellInv ER (rsRd m) κ (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ barPay c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  refine (Rounds.wp_wait_rest_token 𝒱₀ ER (rsRd m) (c : Thread nD τ) none (κ := κ) (sm := .reg barS) (k' := 1)
    (wpE_semWait_eq 𝒱₀ (c : Thread nD τ) none Set.univ) (Set.mem_univ _) () (O := O) (W := W) (R := 0) (m := 0) (T := ∅) (k := k) (Q := Q)
    (by rw [expect_bar])).trans (wand_mono_left (wand_mono_left ?_))
  rw [rest_bar]
  exact post_drop

/-! ## The local copies -/

/-- A staging copy's issue: chunk (h, i) of the block, h the sent half, into chunk i of the send buffer. -/
theorem wp_stage (c : Dev nD) (h : Fin 2) (hh : h = sdH c) (i : Fin 8) (κ : ℕ)
    {hsrc : (xCh h i).view.WordExact} {hdst : (rowCh (sM : Memref sig .tc .vmem S4096x1024 .f32) i).view.WordExact}
    {hsem : DmaTarget.Typed (nD := nD) .hbm (.dma (stageS i)) (DmaTarget.here (p := .tc) (rowCh (sM : Memref sig .tc .vmem S4096x1024 .f32) i))}
    {α : Type} {Q : α → sProp 𝕄} {k : PUnit → Prog (TpuEff nD τ sig (Elt F) Λ₀ .tc) α} (fd : Buf (Elt F) ((rowCh (sM : Memref sig .tc .vmem S4096x1024 .f32) i).view.loc (c : Thread nD τ))) :
    iprop(cellInv ER (rsRd m) κ (stageCell c i) ∗ xpiece m c h i ∗ piece c sM i fd ∗ dutyTok ER (stageCell c i) 0 () ∗ reached ER (stageCell c i) 0)
      ⊢ iprop((cred (tallyAt (stageCell c i) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xCh h i) (.here (rowCh sM i)) (.dma (stageS i)) hsrc hdst hsem) k) Q) := by
  subst hh
  unfold xpiece piece
  exact Rounds.wp_copy_pointsTo 𝒱₀ ER (rsRd m) (c : Thread nD τ) none (src := xCh (sdH c) i) (dst := rowCh sM i) (sem := .dma (stageS i))
    (q := fullShare) (fs := Xof m c) (fd := fd) (r := 0) (d := ()) (κ := κ)
    (by rw [duties_stage]; exact Finset.mem_singleton_self _) () N (credit_rows sM i) (amount_dma m c (stageS i) 0 ())
    (by rw [payload_stage]; unfold stagePay; rw [← stage_lands m c i fd]; unfold piece xpiece; exact BI.Entails.refl _)

/-- A keeping copy's issue: chunk (h, i) of the block, h the kept half, into chunk i of the result buffer. -/
theorem wp_keep (c : Dev nD) (h : Fin 2) (hh : h = kpH c) (i : Fin 8) (κ : ℕ)
    {hsrc : (xCh h i).view.WordExact} {hdst : (rowCh (oM : Memref sig .tc .vmem S4096x1024 .f32) i).view.WordExact}
    {hsem : DmaTarget.Typed (nD := nD) .hbm (.dma (keepS i)) (DmaTarget.here (p := .tc) (rowCh (oM : Memref sig .tc .vmem S4096x1024 .f32) i))}
    {α : Type} {Q : α → sProp 𝕄} {k : PUnit → Prog (TpuEff nD τ sig (Elt F) Λ₀ .tc) α} (fd : Buf (Elt F) ((rowCh (oM : Memref sig .tc .vmem S4096x1024 .f32) i).view.loc (c : Thread nD τ))) :
    iprop(cellInv ER (rsRd m) κ (keepCell c i) ∗ xpiece m c h i ∗ piece c oM i fd ∗ dutyTok ER (keepCell c i) 0 () ∗ reached ER (keepCell c i) 0)
      ⊢ iprop((cred (tallyAt (keepCell c i) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xCh h i) (.here (rowCh oM i)) (.dma (keepS i)) hsrc hdst hsem) k) Q) := by
  subst hh
  unfold xpiece piece
  exact Rounds.wp_copy_pointsTo 𝒱₀ ER (rsRd m) (c : Thread nD τ) none (src := xCh (kpH c) i) (dst := rowCh oM i) (sem := .dma (keepS i))
    (q := fullShare) (fs := Xof m c) (fd := fd) (r := 0) (d := ()) (κ := κ)
    (by rw [duties_keep]; exact Finset.mem_singleton_self _) () N (credit_rows oM i) (amount_dma m c (keepS i) 0 ())
    (by rw [payload_keep]; unfold keepPay; rw [← keep_lands m c i fd]; unfold piece xpiece; exact BI.Entails.refl _)

/-! ## The transfer to the partner -/

/-- The remote copy's issue, addressed to `n = peer c`: chunk i of the send buffer into chunk i of the partner's receive
    buffer, peeling the last summand of what is owed. -/
theorem wp_send_chunk (c n : Dev nD) (hn : n = peer c) (i : Fin 8) (κ₁ κ₂ : ℕ)
    {hsc : (rowCh (rM : Memref sig (Dev.tc n : Thread nD τ).2.kind .vmem S4096x1024 .f32) i).view.ref.isScScratch = false}
    {hsrc : (rowCh (sM : Memref sig .tc .vmem S4096x1024 .f32) i).view.WordExact} {hdst : (rowCh (rM : Memref sig .tc .vmem S4096x1024 .f32) i).view.WordExact}
    {hsem : DmaTarget.Typed .vmem (.dma (recvS i)) (.remote (Dev.tc n : Thread nD τ) (rowCh (rM : Memref sig .tc .vmem S4096x1024 .f32) i) (.dma (sendS i)) hsc)}
    {α : Type} {Q : α → sProp 𝕄} {k : PUnit → Prog (TpuEff nD τ sig (Elt F) Λ₀ .tc) α}
    (fd : Buf (Elt F) ((rowCh (rM : Memref sig .tc .vmem S4096x1024 .f32) i).view.loc (peer c : Thread nD τ)))
    (O : CellTallies nD τ sig Unit) {O' : CellTallies nD τ sig Unit} (hO : O' = O + Trecv c i) (W : Waits sig Unit) :
    iprop(cellInv ER (rsRd m) κ₁ (sendCell c i) ∗ cellInv ER (rsRd m) κ₂ (recvCell (peer c) i)
        ∗ piece c sM i (sendFull m c) ∗ piece (peer c) rM i fd
        ∗ owes (c : Thread nD τ) O' W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowCh sM i) (.remote (Dev.tc n : Thread nD τ) (rowCh rM i) (.dma (sendS i)) hsc) (.dma (recvS i)) hsrc hdst hsem) k) Q) := by
  subst hn
  unfold piece
  exact Rounds.wp_send_pointsTo 𝒱₀ ER (rsRd m) (c : Thread nD τ) none (c' := (peer c : Thread nD τ)) (src := rowCh sM i) (dst := rowCh rM i)
    (sS := .dma (sendS i)) (sem := .dma (recvS i)) (q := fullShare) (fs := sendFull m c) (fd := fd) (κ₁ := κ₁) (κ₂ := κ₂) (r₁ := 0) (r₂ := 0) (d₁ := ()) (d₂ := ())
    (by rw [duties_send]; exact Finset.mem_singleton_self _) (by rw [duties_recv]; exact Finset.mem_singleton_self _)
    () () N (credit_rows rM i) (amount_dma m c (sendS i) 0 ()) (amount_dma m (peer c) (recvS i) 0 ()) O hO (W := W)
    (by rw [payload_send]; unfold sendPay piece; exact BI.Entails.refl _)
    (by rw [payload_recv]; unfold recvPay; rw [← recv_lands m c i fd]; unfold piece; exact BI.Entails.refl _)

/-! ## The waits on one's own DMA cells -/

/-- The wait for a chunk's credit on a DMA cell of one's own, whatever views the wait names (only the destination's
    credit counts): the cell's one duty has landed and its payload comes back. -/
theorem wp_wait_dma (c : Dev nD) (d : DmaSem sig) (hd : IsCell ((c : Thread nD τ), .dma d)) (κ : ℕ)
    {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (W : Waits sig Unit) {α : Type} {Q : α → sProp 𝕄} {k : PUnit → Prog (TpuEff nD τ sig (Elt F) Λ₀ .tc) α} :
    iprop(cellInv ER (rsRd m) κ ((c : Thread nD τ), .dma d) ∗ cred (tallyAt ((c : Thread nD τ), .dma d) () N) ∗ owes (c : Thread nD τ) O W
        ∗ MayWait (c : Thread nD τ) (.dma d) () O ∗ atPos ER ((c : Thread nD τ), .dma d) 0 ∅ 0)
      ⊢ iprop(((owes (c : Thread nD τ) O (insert (SemLoc.dma d, ()) W) ∗ atPos ER ((c : Thread nD τ), .dma d) 1 ∅ 0 ∗ dmaPay m c d) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 d src dst hsrc hdst) k) Q) := by
  have h := Rounds.wp_wait_rest_token (defs := defs₀ (F := F)) 𝒱₀ ER (rsRd m) (c : Thread nD τ) none (κ := κ) (sm := .dma d) (k' := dst.view.dmaCredit)
    (wpE_waitDma2_eq 𝒱₀ (c : Thread nD τ) none Set.univ (sem := d) (src := src) (dst := dst) (hsrc := hsrc) (hdst := hdst)) (Set.mem_univ _) ()
    (O := O) (W := W) (R := 0) (m := 0) (T := ∅) (k := k) (Q := Q) (by rw [Nat.zero_add, expect_dma m c d hd, hcr])
  rw [hcr] at h
  refine h.trans (wand_mono_left (wand_mono_left ?_))
  rw [rest_dma m c d hd]
  exact post_drop

/-- info: 'Cert.Kernel.RS.wp_signal_peer' depends on axioms: [propext, Classical.choice, Quot.sound] -/
#guard_msgs in #print axioms wp_signal_peer

/-- info: 'Cert.Kernel.RS.wp_wait_bar' depends on axioms: [propext, Classical.choice, Quot.sound] -/
#guard_msgs in #print axioms wp_wait_bar

/-- info: 'Cert.Kernel.RS.wp_stage' depends on axioms: [propext, Classical.choice, Quot.sound] -/
#guard_msgs in #print axioms wp_stage

/-- info: 'Cert.Kernel.RS.wp_keep' depends on axioms: [propext, Classical.choice, Quot.sound] -/
#guard_msgs in #print axioms wp_keep

/-- info: 'Cert.Kernel.RS.wp_send_chunk' depends on axioms: [propext, Classical.choice, Quot.sound] -/
#guard_msgs in #print axioms wp_send_chunk

/-- info: 'Cert.Kernel.RS.wp_wait_dma' depends on axioms: [propext, Classical.choice, Quot.sound] -/
#guard_msgs in #print axioms wp_wait_dma

end Cert.Kernel.RS

end
-- ==== Proof.Kernel.States.lean ====
/-
  The state of one device's body, chunk by chunk, and the body's steps on it.
  Chunk i of the exchange has a sending side (its staging copy, the wait for it, its transfer to the partner, the wait
  for the transfer to have left) and a keeping side (its keeping copy, the wait for it, the wait for the partner's
  transfer, the sum); each side passes through five states, every effect of the body moves one side of one chunk from
  a state to the next, and the effects on different chunks and sides touch disjoint resources.
-/
import proofs.«901041_g7700000000001042_dist_rs_v7x_xyz2x4x4_x_m4096_n1024_f32_1_alg».proof.Proof.Kernel.Proto
import proofs.«901041_g7700000000001042_dist_rs_v7x_xyz2x4x4_x_m4096_n1024_f32_1_alg».proof.Proof.Kernel.Landing
import proofs.«901041_g7700000000001042_dist_rs_v7x_xyz2x4x4_x_m4096_n1024_f32_1_alg».proof.Proof.Kernel.Levels
import proofs.«901041_g7700000000001042_dist_rs_v7x_xyz2x4x4_x_m4096_n1024_f32_1_alg».proof.Proof.Kernel.Steps
import proofs.«901041_g7700000000001042_dist_rs_v7x_xyz2x4x4_x_m4096_n1024_f32_1_alg».proof.Proof.Gen.Kernel.Skeleton

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over the eight chunks, written out. -/
theorem univ8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A cell's position at the start of round r, nothing of it taken. -/
abbrev posAt (g : GSem nD τ sig) (r : ℕ) : sProp 𝕄 := atPos ER g r ∅ 0

section Chunks

variable (K : GSem nD τ sig → ℕ) (c : Dev nD) (i : Fin 8)

/-- The lasting facts of chunk i: the invariants of its four cells here and of the partner's receive cell, and that
    round 0 of the cells this device pays is reached. -/
def CP : sProp 𝕄 :=
  iprop(cellInv ER (rsRd m) (K (stageCell c i)) (stageCell c i) ∗ cellInv ER (rsRd m) (K (keepCell c i)) (keepCell c i)
    ∗ cellInv ER (rsRd m) (K (sendCell c i)) (sendCell c i) ∗ cellInv ER (rsRd m) (K (recvCell c i)) (recvCell c i)
    ∗ cellInv ER (rsRd m) (K (recvCell (peer c) i)) (recvCell (peer c) i)
    ∗ reached ER (stageCell c i) 0 ∗ reached ER (keepCell c i) 0 ∗ reached ER (sendCell c i) 0 ∗ reached ER (recvCell (peer c) i) 0)

instance CP_persistent : BI.Persistent (CP (F := F) m K c i) := by unfold CP; infer_instance

/-- The sending side of chunk i, step by step: before its staging copy; the copy in flight; staged; sent; done. -/
def A0 : sProp 𝕄 :=
  iprop(posAt (F := F) (stageCell c i) 0 ∗ posAt (F := F) (sendCell c i) 0 ∗ dutyTok ER (stageCell c i) 0 () ∗ dutyTok ER (sendCell c i) 0 ()
    ∗ dutyTok ER (recvCell (peer c) i) 0 () ∗ (∃ f, piece c sM i f) ∗ (∃ f, piece (peer c) rM i f) ∗ xpiece m c (sdH c) i)
def A1 : sProp 𝕄 :=
  iprop(posAt (F := F) (stageCell c i) 0 ∗ posAt (F := F) (sendCell c i) 0 ∗ dutyTok ER (sendCell c i) 0 ()
    ∗ dutyTok ER (recvCell (peer c) i) 0 () ∗ (∃ f, piece (F := F) (peer c) rM i f) ∗ cred (tallyAt (stageCell c i) () N))
def A2 : sProp 𝕄 :=
  iprop(posAt (F := F) (stageCell c i) 1 ∗ posAt (F := F) (sendCell c i) 0 ∗ dutyTok ER (sendCell c i) 0 ()
    ∗ dutyTok ER (recvCell (peer c) i) 0 () ∗ (∃ f, piece (F := F) (peer c) rM i f) ∗ piece c sM i (sendFull m c) ∗ xpiece m c (sdH c) i)
def A3 : sProp 𝕄 :=
  iprop(posAt (F := F) (stageCell c i) 1 ∗ posAt (F := F) (sendCell c i) 0 ∗ cred (tallyAt (sendCell c i) () N) ∗ xpiece m c (sdH c) i)
def A4 : sProp 𝕄 :=
  iprop(posAt (F := F) (stageCell c i) 1 ∗ posAt (F := F) (sendCell c i) 1 ∗ xpiece m c (sdH c) i ∗ piece c sM i (sendFull m c))

/-- The keeping side of chunk i: before its keeping copy; the copy in flight; kept; the partner's rows received; summed. -/
def B0 : sProp 𝕄 :=
  iprop(posAt (F := F) (keepCell c i) 0 ∗ posAt (F := F) (recvCell c i) 0 ∗ dutyTok ER (keepCell c i) 0 () ∗ cred (tallyAt (recvCell c i) () N)
    ∗ (∃ f, piece c oM i f) ∗ xpiece m c (kpH c) i)
def B1 : sProp 𝕄 :=
  iprop(posAt (F := F) (keepCell c i) 0 ∗ posAt (F := F) (recvCell c i) 0 ∗ cred (tallyAt (recvCell c i) () N) ∗ cred (tallyAt (keepCell c i) () N))
def B2 : sProp 𝕄 :=
  iprop(posAt (F := F) (keepCell c i) 1 ∗ posAt (F := F) (recvCell c i) 0 ∗ cred (tallyAt (recvCell c i) () N)
    ∗ piece c oM i (keepFull m c) ∗ xpiece m c (kpH c) i)
def B3 : sProp 𝕄 :=
  iprop(posAt (F := F) (keepCell c i) 1 ∗ posAt (F := F) (recvCell c i) 1 ∗ piece c oM i (keepFull m c) ∗ xpiece m c (kpH c) i
    ∗ piece c rM i (recvFull m c))
def B4 : sProp 𝕄 :=
  iprop(posAt (F := F) (keepCell c i) 1 ∗ posAt (F := F) (recvCell c i) 1 ∗ piece c oM i (sumFull m c) ∗ xpiece m c (kpH c) i
    ∗ piece c rM i (recvFull m c))

end Chunks

/-- The families of the launch state, regrouped chunk by chunk. -/
theorem mk_CP (K : GSem nD τ sig → ℕ) (c : Dev nD) :
    iprop((bigSep Finset.univ fun i : Fin 8 => cellInv ER (rsRd m) (K (stageCell c i)) (stageCell c i))
      ∗ (bigSep Finset.univ fun i : Fin 8 => cellInv ER (rsRd m) (K (keepCell c i)) (keepCell c i))
      ∗ (bigSep Finset.univ fun i : Fin 8 => cellInv ER (rsRd m) (K (sendCell c i)) (sendCell c i))
      ∗ (bigSep Finset.univ fun i : Fin 8 => cellInv ER (rsRd m) (K (recvCell c i)) (recvCell c i))
      ∗ (bigSep Finset.univ fun i : Fin 8 => cellInv ER (rsRd m) (K (recvCell (peer c) i)) (recvCell (peer c) i))
      ∗ (bigSep Finset.univ fun i : Fin 8 => reached ER (stageCell c i) 0) ∗ (bigSep Finset.univ fun i : Fin 8 => reached ER (keepCell c i) 0)
      ∗ (bigSep Finset.univ fun i : Fin 8 => reached ER (sendCell c i) 0) ∗ (bigSep Finset.univ fun i : Fin 8 => reached ER (recvCell (peer c) i) 0))
    ⊢ bigSep Finset.univ fun i : Fin 8 => CP (F := F) m K c i := by
  unfold CP
  simp only [bigSep_sep']
  exact .rfl

theorem mk_A0 (c : Dev nD) :
    iprop((bigSep Finset.univ fun i : Fin 8 => posAt (F := F) (stageCell c i) 0) ∗ (bigSep Finset.univ fun i : Fin 8 => posAt (F := F) (sendCell c i) 0)
      ∗ (bigSep Finset.univ fun i : Fin 8 => dutyTok ER (stageCell c i) 0 ()) ∗ (bigSep Finset.univ fun i : Fin 8 => dutyTok ER (sendCell c i) 0 ())
      ∗ (bigSep Finset.univ fun i : Fin 8 => dutyTok ER (recvCell (peer c) i) 0 ())
      ∗ (bigSep Finset.univ fun i : Fin 8 => iprop(∃ f, piece (F := F) c sM i f)) ∗ (bigSep Finset.univ fun i : Fin 8 => iprop(∃ f, piece (F := F) (peer c) rM i f))
      ∗ (bigSep Finset.univ fun i : Fin 8 => xpiece m c (sdH c) i))
    ⊢ bigSep Finset.univ fun i : Fin 8 => A0 (F := F) m c i := by
  unfold A0
  simp only [bigSep_sep']
  exact .rfl

theorem mk_B0 (c : Dev nD) :
    iprop((bigSep Finset.univ fun i : Fin 8 => posAt (F := F) (keepCell c i) 0) ∗ (bigSep Finset.univ fun i : Fin 8 => posAt (F := F) (recvCell c i) 0)
      ∗ (bigSep Finset.univ fun i : Fin 8 => dutyTok ER (keepCell c i) 0 ()) ∗ (bigSep Finset.univ fun i : Fin 8 => cred (tallyAt (recvCell c i) () N))
      ∗ (bigSep Finset.univ fun i : Fin 8 => iprop(∃ f, piece (F := F) c oM i f))
      ∗ (bigSep Finset.univ fun i : Fin 8 => xpiece m c (kpH c) i))
    ⊢ bigSep Finset.univ fun i : Fin 8 => B0 (F := F) m c i := by
  unfold B0
  simp only [bigSep_sep']
  exact .rfl

/-- The payloads, spelt out. -/
theorem stagePay_def (c : Dev nD) (i : Fin 8) : stagePay (F := F) m c i = iprop(piece c sM i (sendFull m c) ∗ xpiece m c (sdH c) i) := rfl
theorem keepPay_def (c : Dev nD) (i : Fin 8) : keepPay (F := F) m c i = iprop(piece c oM i (keepFull m c) ∗ xpiece m c (kpH c) i) := rfl
theorem sendPay_def (c : Dev nD) (i : Fin 8) : sendPay (F := F) m c i = piece c sM i (sendFull m c) := rfl
theorem recvPay_def (c : Dev nD) (i : Fin 8) : recvPay (F := F) m c i = piece c rM i (recvFull m c) := rfl

/-! ## One lemma for each kind of effect, for any chunk -/

section StepLemmas

variable (K : GSem nD τ sig → ℕ) (c : Dev nD) (i : Fin 8)

/-- The staging copy of chunk i is issued. -/
theorem st_stage (h : Fin 2) (hh : h = sdH c)
    {hsrc : (xCh h i).view.WordExact} {hdst : (rowCh (sM : Memref sig .tc .vmem S4096x1024 .f32) i).view.WordExact}
    {hsem : DmaTarget.Typed (nD := nD) .hbm (.dma (stageS i)) (DmaTarget.here (p := .tc) (rowCh (sM : Memref sig .tc .vmem S4096x1024 .f32) i))}
    {α : Type} {Q : α → sProp 𝕄} {k : PUnit → Prog (TpuEff nD τ sig (Elt F) Λ₀ .tc) α} :
    iprop(CP m K c i ∗ A0 m c i)
      ⊢ iprop((A1 (F := F) c i -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCh h i) (.here (rowCh sM i)) (.dma (stageS i)) hsrc hdst hsem) k) Q) := by
  subst hh
  unfold CP A0 A1
  iintro ⟨⟨#HiS, #HiK, #HiD, #HiR, #HiP, #HrS, #HrK, #HrD, #HrP⟩, HaS, HaD, HtS, HtD, HtR, ⟨%fs, HpS⟩, HpR, Hx⟩ Hk
  iapply (wp_stage m c (sdH c) rfl i (K (stageCell c i)) fs) $$ [Hx HpS HtS]
  · iframe # ∗
  iintro Hc
  iapply Hk
  iframe

/-- The keeping copy of chunk i is issued. -/
theorem st_keep (h : Fin 2) (hh : h = kpH c)
    {hsrc : (xCh h i).view.WordExact} {hdst : (rowCh (oM : Memref sig .tc .vmem S4096x1024 .f32) i).view.WordExact}
    {hsem : DmaTarget.Typed (nD := nD) .hbm (.dma (keepS i)) (DmaTarget.here (p := .tc) (rowCh (oM : Memref sig .tc .vmem S4096x1024 .f32) i))}
    {α : Type} {Q : α → sProp 𝕄} {k : PUnit → Prog (TpuEff nD τ sig (Elt F) Λ₀ .tc) α} :
    iprop(CP m K c i ∗ B0 m c i)
      ⊢ iprop((B1 (F := F) c i -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCh h i) (.here (rowCh oM i)) (.dma (keepS i)) hsrc hdst hsem) k) Q) := by
  subst hh
  unfold CP B0 B1
  iintro ⟨⟨#HiS, #HiK, #HiD, #HiR, #HiP, #HrS, #HrK, #HrD, #HrP⟩, HaK, HaR, HtK, HcR, ⟨%fo, HpO⟩, Hx⟩ Hk
  iapply (wp_keep m c (kpH c) rfl i (K (keepCell c i)) fo) $$ [Hx HpO HtK]
  · iframe # ∗
  iintro Hc
  iapply Hk
  iframe

/-- The wait for the staging copy of chunk i: the chunk is staged. -/
theorem st_wait_stage {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (hO : RecvOnly c O) (W : Waits sig Unit)
    {α : Type} {Q : α → sProp 𝕄} {k : PUnit → Prog (TpuEff nD τ sig (Elt F) Λ₀ .tc) α} :
    iprop(CP m K c i ∗ levAts L lv ∗ owes (c : Thread nD τ) O W ∗ A1 (F := F) c i)
      ⊢ iprop(((owes (c : Thread nD τ) O (insert (SemLoc.dma (stageS i), ()) W) ∗ A2 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (stageS i) src dst hsrc hdst) k) Q) := by
  unfold CP A1 A2
  iintro ⟨⟨#HiS, #HiK, #HiD, #HiR, #HiP, #HrS, #HrK, #HrD, #HrP⟩, #Hlev, HO, HaS, HaD, HtD, HtR, HpR, Hc⟩ Hk
  iapply (wp_wait_dma m c (stageS i) (isCell_stage c i) (K (stageCell c i)) hcr O W) $$ [HO HaS Hc]
  · isplitr; · iexact HiS
    isplitl [Hc]; · iexact Hc
    isplitl [HO]; · iexact HO
    isplitr
    · iapply (mayWait_low c (stageS i) (by show 1 + i.val < 25; omega) O hO); iexact Hlev
    iexact HaS
  iintro ⟨HO, HaS, Hpay⟩
  ihave Hpay' := (Entails.of_eq ((dmaPay_stage m c i).trans (stagePay_def m c i))) $$ Hpay
  icases Hpay' with ⟨HpS, Hx⟩
  iapply Hk
  iframe

/-- The transfer of chunk i to the partner is issued, one summand of what is owed paid. -/
theorem st_send (n : Dev nD) (hn : n = peer c)
    {hsc : (rowCh (rM : Memref sig (Dev.tc n : Thread nD τ).2.kind .vmem S4096x1024 .f32) i).view.ref.isScScratch = false}
    {hsrc : (rowCh (sM : Memref sig .tc .vmem S4096x1024 .f32) i).view.WordExact} {hdst : (rowCh (rM : Memref sig .tc .vmem S4096x1024 .f32) i).view.WordExact}
    {hsem : DmaTarget.Typed .vmem (.dma (recvS i)) (.remote (Dev.tc n : Thread nD τ) (rowCh (rM : Memref sig .tc .vmem S4096x1024 .f32) i) (.dma (sendS i)) hsc)}
    (O : CellTallies nD τ sig Unit) {O' : CellTallies nD τ sig Unit} (hO : O' = O + Trecv c i) (W : Waits sig Unit)
    {α : Type} {Q : α → sProp 𝕄} {k : PUnit → Prog (TpuEff nD τ sig (Elt F) Λ₀ .tc) α} :
    iprop(CP m K c i ∗ owes (c : Thread nD τ) O' W ∗ A2 m c i)
      ⊢ iprop(((owes (c : Thread nD τ) O W ∗ A3 m c i) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowCh sM i) (.remote (Dev.tc n : Thread nD τ) (rowCh rM i) (.dma (sendS i)) hsc) (.dma (recvS i)) hsrc hdst hsem) k) Q) := by
  unfold CP A2 A3
  iintro ⟨⟨#HiS, #HiK, #HiD, #HiR, #HiP, #HrS, #HrK, #HrD, #HrP⟩, HO, HaS, HaD, HtD, HtR, ⟨%fr, HpR⟩, HpS, Hx⟩ Hk
  iapply (wp_send_chunk m c n hn i (K (sendCell c i)) (K (recvCell (peer c) i)) fr O hO W) $$ [HpS HpR HO HtD HtR]
  · iframe # ∗
  iintro ⟨Hc, HO⟩
  iapply Hk
  iframe

/-- The wait for the keeping copy of chunk i: the kept rows are in the result buffer. -/
theorem st_wait_keep {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (hO : RecvOnly c O) (W : Waits sig Unit)
    {α : Type} {Q : α → sProp 𝕄} {k : PUnit → Prog (TpuEff nD τ sig (Elt F) Λ₀ .tc) α} :
    iprop(CP m K c i ∗ levAts L lv ∗ owes (c : Thread nD τ) O W ∗ B1 (F := F) c i)
      ⊢ iprop(((owes (c : Thread nD τ) O (insert (SemLoc.dma (keepS i), ()) W) ∗ B2 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (keepS i) src dst hsrc hdst) k) Q) := by
  unfold CP B1 B2
  iintro ⟨⟨#HiS, #HiK, #HiD, #HiR, #HiP, #HrS, #HrK, #HrD, #HrP⟩, #Hlev, HO, HaK, HaR, HcR, Hc⟩ Hk
  iapply (wp_wait_dma m c (keepS i) (isCell_keep c i) (K (keepCell c i)) hcr O W) $$ [HO HaK Hc]
  · isplitr; · iexact HiK
    isplitl [Hc]; · iexact Hc
    isplitl [HO]; · iexact HO
    isplitr
    · iapply (mayWait_low c (keepS i) (by show 9 + i.val < 25; omega) O hO); iexact Hlev
    iexact HaK
  iintro ⟨HO, HaK, Hpay⟩
  ihave Hpay' := (Entails.of_eq ((dmaPay_keep m c i).trans (keepPay_def m c i))) $$ Hpay
  icases Hpay' with ⟨HpO, Hx⟩
  iapply Hk
  iframe

/-- The wait for the partner's transfer of chunk i, nothing being owed any more: its rows are in the receive buffer. -/
theorem st_wait_recv {sp sp' : Space} {s s' : Shape} {e e' : EltTy} {src : Memref sig .tc sp' s' e'} {κ' : Kind} {dst : Memref sig κ' sp s e}
    (hcr : dst.view.dmaCredit = N) {hsrc : src.view.WordExact} {hdst : dst.view.WordExact} (W : Waits sig Unit)
    {α : Type} {Q : α → sProp 𝕄} {k : PUnit → Prog (TpuEff nD τ sig (Elt F) Λ₀ .tc) α} :
    iprop(CP m K c i ∗ owes (c : Thread nD τ) 0 W ∗ B2 m c i)
      ⊢ iprop(((owes (c : Thread nD τ) 0 (insert (SemLoc.dma (recvS i), ()) W) ∗ B3 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hsrc hdst) k) Q) := by
  unfold CP B2 B3
  iintro ⟨⟨#HiS, #HiK, #HiD, #HiR, #HiP, #HrS, #HrK, #HrD, #HrP⟩, HO, HaK, HaR, HcR, HpO, Hx⟩ Hk
  iapply (wp_wait_dma m c (recvS i) (isCell_recv c i) (K (recvCell c i)) hcr 0 W) $$ [HO HaR HcR]
  · isplitr; · iexact HiR
    isplitl [HcR]; · iexact HcR
    isplitl [HO]; · iexact HO
    isplitr
    · iapply (Entails.of_eq (MayWait_zero (c : Thread nD τ) (SemLoc.dma (recvS i)) ()).symm); iempintro
    iexact HaR
  iintro ⟨HO, HaR, Hpay⟩
  ihave Hpay' := (Entails.of_eq ((dmaPay_recv m c i).trans (recvPay_def m c i))) $$ Hpay
  iapply Hk
  iframe

/-- The wait for one's own transfer of chunk i to have left: the send buffer's chunk is back. -/
theorem st_wait_send {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (hO : RecvOnly c O) (W : Waits sig Unit)
    {α : Type} {Q : α → sProp 𝕄} {k : PUnit → Prog (TpuEff nD τ sig (Elt F) Λ₀ .tc) α} :
    iprop(CP m K c i ∗ levAts L lv ∗ owes (c : Thread nD τ) O W ∗ A3 m c i)
      ⊢ iprop(((owes (c : Thread nD τ) O (insert (SemLoc.dma (sendS i), ()) W) ∗ A4 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hsrc hdst) k) Q) := by
  unfold CP A3 A4
  iintro ⟨⟨#HiS, #HiK, #HiD, #HiR, #HiP, #HrS, #HrK, #HrD, #HrP⟩, #Hlev, HO, HaS, HaD, Hc, Hx⟩ Hk
  iapply (wp_wait_dma m c (sendS i) (isCell_send c i) (K (sendCell c i)) hcr O W) $$ [HO HaD Hc]
  · isplitr; · iexact HiD
    isplitl [Hc]; · iexact Hc
    isplitl [HO]; · iexact HO
    isplitr
    · iapply (mayWait_low c (sendS i) (by show 17 + i.val < 25; omega) O hO); iexact Hlev
    iexact HaD
  iintro ⟨HO, HaD, Hpay⟩
  ihave Hpay' := (Entails.of_eq ((dmaPay_send m c i).trans (sendPay_def m c i))) $$ Hpay
  iapply Hk
  iframe

/-- A load of the kept rows of chunk i through the whole result buffer. -/
theorem st_load_o {hl : (oM : Memref sig .tc .vmem S4096x1024 .f32).view.LoadsAt (rowRect i).toLoadRect} {α : Type} {Q : α → sProp 𝕄}
    {k : ((rowRect i).toLoadRect.shape.Idx → Elt F .f32) → Prog (TpuEff nD τ sig (Elt F) Λ₀ .tc) α} :
    B3 m c i
      ⊢ iprop((B3 m c i -∗ wp frame (wpE (defs₀ (F := F)) 𝒱₀ (c : Thread nD τ) none) Set.univ
              (k ((rowCh (oM : Memref sig .tc .vmem S4096x1024 .f32) i).view.read (Elt F) (keepFull m c))) Q)
          -∗ wp frame (wpE (defs₀ (F := F)) 𝒱₀ (c : Thread nD τ) none) Set.univ (.op (.load oM (rowRect i).toLoadRect hl) k) Q) := by
  unfold B3
  iintro ⟨HaK, HaR, HpO, Hx, HpR⟩ Hk
  iapply (wp_load_rows c oM i (keepFull m c)) $$ HpO
  iintro HpO
  iapply Hk
  iframe

/-- A load of the received rows of chunk i through the whole receive buffer. -/
theorem st_load_r {hl : (rM : Memref sig .tc .vmem S4096x1024 .f32).view.LoadsAt (rowRect i).toLoadRect} {α : Type} {Q : α → sProp 𝕄}
    {k : ((rowRect i).toLoadRect.shape.Idx → Elt F .f32) → Prog (TpuEff nD τ sig (Elt F) Λ₀ .tc) α} :
    B3 m c i
      ⊢ iprop((B3 m c i -∗ wp frame (wpE (defs₀ (F := F)) 𝒱₀ (c : Thread nD τ) none) Set.univ
              (k ((rowCh (rM : Memref sig .tc .vmem S4096x1024 .f32) i).view.read (Elt F) (recvFull m c))) Q)
          -∗ wp frame (wpE (defs₀ (F := F)) 𝒱₀ (c : Thread nD τ) none) Set.univ (.op (.load rM (rowRect i).toLoadRect hl) k) Q) := by
  unfold B3
  iintro ⟨HaK, HaR, HpO, Hx, HpR⟩ Hk
  iapply (wp_load_rows c rM i (recvFull m c)) $$ HpR
  iintro HpR
  iapply Hk
  iframe

/-- The store of the sum of the kept and the received rows of chunk i into the result buffer. -/
theorem st_store {w : (rowRect i).shape.Idx → Elt F .f32}
    (hw : w = addf ((rowCh (oM : Memref sig .tc .vmem S4096x1024 .f32) i).view.read (Elt F) (keepFull m c))
                  ((rowCh (rM : Memref sig .tc .vmem S4096x1024 .f32) i).view.read (Elt F) (recvFull m c)))
    {hx : ((oM : Memref sig .tc .vmem S4096x1024 .f32).access (rowRect i)).Stores Finset.univ}
    {hm : (Finset.univ : Finset (rowRect i).shape.Idx) = Finset.univ ∨ ∀ a, (rowRect i).stride a = 1}
    {α : Type} {Q : α → sProp 𝕄} {k : PUnit → Prog (TpuEff nD τ sig (Elt F) Λ₀ .tc) α} :
    B3 m c i
      ⊢ iprop((B4 m c i -∗ wp frame (wpE (defs₀ (F := F)) 𝒱₀ (c : Thread nD τ) none) Set.univ (k ⟨⟩) Q)
          -∗ wp frame (wpE (defs₀ (F := F)) 𝒱₀ (c : Thread nD τ) none) Set.univ (.op (.store oM (rowRect i) w Finset.univ hx hm) k) Q) := by
  subst hw
  unfold B3 B4
  iintro ⟨HaK, HaR, HpO, Hx, HpR⟩ Hk
  iapply (wp_store_rows c oM i (keepFull m c)) $$ HpO
  iintro HpO
  ihave HpO' := (Entails.of_eq (sum_lands m c i (keepFull m c))) $$ HpO
  iapply Hk
  iframe

end StepLemmas

/-! ## The first printed part of the first branch: the staging copies of chunks 0 to 4 -/

theorem part1_run (K : GSem nD τ sig → ℕ) (c : Dev nD) (hs : (1 : Fin 2) = sdH c)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4)
        ∗ (A0 m c 0 ∗ A0 m c 1 ∗ A0 m c 2 ∗ A0 m c 3 ∗ A0 m c 4)
        ∗ ((A1 (F := F) c 0 ∗ A1 (F := F) c 1 ∗ A1 (F := F) c 2 ∗ A1 (F := F) c 3 ∗ A1 (F := F) c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part1 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part1_eq_skeleton]; unfold Gen.k0_part1_skel
  simp only [Prog.lift, Prog.bind_op, Prog.bind_ret, Prog.pure_eq_ret]
  iintro ⟨⟨#P0, #P1, #P2, #P3, #P4⟩, ⟨H0, H1, H2, H3, H4⟩, Hk⟩
  iapply (st_stage m K c 0 1 hs) $$ [H0]
  · iframe # ∗
  iintro H0
  iapply (st_stage m K c 1 1 hs) $$ [H1]
  · iframe # ∗
  iintro H1
  iapply (st_stage m K c 2 1 hs) $$ [H2]
  · iframe # ∗
  iintro H2
  iapply (st_stage m K c 3 1 hs) $$ [H3]
  · iframe # ∗
  iintro H3
  iapply (st_stage m K c 4 1 hs) $$ [H4]
  · iframe # ∗
  iintro H4
  iapply Hk
  iframe

end Cert.Kernel.RS

end
-- ==== Proof.Kernel.Exit.lean ====
/-
  The end of one device's body: the finished cells close and the chunks join again.
  Every DMA cell of the device has had its one round: it closes, and its counter, at zero, is one of the kernel's own
  semaphores again. The eight row chunks of each of the three buffers join to the whole buffer, the sixteen chunks of
  the block to the block; the result buffer, chunk by chunk the sum of the kept and the received rows, reads as the sum.
-/
import proofs.«901041_g7700000000001042_dist_rs_v7x_xyz2x4x4_x_m4096_n1024_f32_1_alg».proof.Proof.Kernel.Steps
import proofs.«901041_g7700000000001042_dist_rs_v7x_xyz2x4x4_x_m4096_n1024_f32_1_alg».proof.Proof.Kernel.States

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Updates of the summands, run one after another, make one update of the conjunction. -/
theorem bigSep_fupd_univ {I : Type} (s : Finset I) (Φ : I → sProp 𝕄) :
    bigSep s (fun i => iprop(|={Set.univ}=> Φ i)) ⊢ iprop(|={Set.univ}=> bigSep s Φ) := by
  classical
  induction s using Finset.induction_on with
  | empty => rw [bigSep_empty, bigSep_empty]; exact fupd_intro
  | insert i s hi ih =>
    rw [bigSep_insert hi, bigSep_insert hi]
    exact (sep_mono_right ih).trans fupd_sep

/-- A family of eight finished cells closes. -/
theorem close_family (K : GSem nD τ sig → ℕ) (cell : Fin 8 → GSem nD τ sig) :
    (bigSep Finset.univ fun i : Fin 8 => iprop(cellInv ER (rsRd m) (K (cell i)) (cell i) ∗ atPos ER (cell i) 1 ∅ 0))
      ⊢ iprop(|={Set.univ}=> bigSep Finset.univ fun i : Fin 8 => (semVal (cell i) 0 : sProp 𝕄)) :=
  (bigSep_mono fun i _ => close_cell m (cell i) (K (cell i))).trans (bigSep_fupd_univ _ _)

/-- The two halves a device keeps and sends are the two halves of its block, in one order or the other. -/
theorem halves (c : Dev nD) : (kpH c = 0 ∧ sdH c = 1) ∨ (kpH c = 1 ∧ sdH c = 0) := by revert c; decide

/-- The sixteen chunks of the block, the sent half's and the kept half's, join to the block. -/
theorem join_x (c : Dev nD) :
    iprop((bigSep Finset.univ fun i : Fin 8 => xpiece m c (sdH c) i) ∗ (bigSep Finset.univ fun i : Fin 8 => xpiece m c (kpH c) i))
      ⊢ (xWhole m c : sProp 𝕄) := by
  refine BIBase.Entails.trans ?_ (split_x m c).2
  rw [bigSep_univ_prod, bigSep_univ_two]
  rcases halves c with ⟨hk, hs⟩ | ⟨hk, hs⟩
  · rw [hk, hs]
    iintro ⟨H1, H0⟩
    isplitl [H0]
    · iexact H0
    · iexact H1
  · rw [hk, hs]

/-- The eight row chunks of a scratch buffer, all at contents f, join to the buffer over some contents. -/
theorem join_scratch0 (c : Dev nD) (f : Buf (Elt F) ((c : Thread nD τ).loc cc0_scratch0)) :
    (bigSep Finset.univ fun i : Fin 8 => piece c rM i f)
      ⊢ iprop(∃ f : Buf (Elt F) ((c : Thread nD τ).loc cc0_scratch0), ((c : Thread nD τ).loc cc0_scratch0) ↦{fullShare} f) := by
  refine (split_rows c rM (Memref.isWhole_whole _) f).2.trans ?_
  rw [View.set_whole]
  iintro H; iexists f; iexact H
theorem join_scratch1 (c : Dev nD) (f : Buf (Elt F) ((c : Thread nD τ).loc cc0_scratch1)) :
    (bigSep Finset.univ fun i : Fin 8 => piece c sM i f)
      ⊢ iprop(∃ f : Buf (Elt F) ((c : Thread nD τ).loc cc0_scratch1), ((c : Thread nD τ).loc cc0_scratch1) ↦{fullShare} f) := by
  refine (split_rows c sM (Memref.isWhole_whole _) f).2.trans ?_
  rw [View.set_whole]
  iintro H; iexists f; iexact H

/-- The eight row chunks of the result buffer, each holding the sum's rows, join to the buffer reading as the sum. -/
theorem join_result (c : Dev nD) :
    (bigSep Finset.univ fun i : Fin 8 => piece c oM i (sumFull m c))
      ⊢ owns (c : Thread nD τ) (oM : Memref sig .tc .vmem S4096x1024 .f32) fullShare (sumFull m c) := by
  refine (split_rows c oM (Memref.isWhole_whole _) (sumFull m c)).2.trans ?_
  unfold owns
  iintro H; iexists (sumFull m c)
  isplitr
  · ipureintro; rfl
  · iexact H

/-- The end of the body, from the families: the thirty-two cells close, the chunks join. -/
theorem exit_core (K : GSem nD τ sig → ℕ) (c : Dev nD) :
    iprop((bigSep Finset.univ fun i : Fin 8 => iprop(cellInv ER (rsRd m) (K (stageCell c i)) (stageCell c i) ∗ atPos ER (stageCell c i) 1 ∅ 0))
        ∗ (bigSep Finset.univ fun i : Fin 8 => iprop(cellInv ER (rsRd m) (K (keepCell c i)) (keepCell c i) ∗ atPos ER (keepCell c i) 1 ∅ 0))
        ∗ (bigSep Finset.univ fun i : Fin 8 => iprop(cellInv ER (rsRd m) (K (sendCell c i)) (sendCell c i) ∗ atPos ER (sendCell c i) 1 ∅ 0))
        ∗ (bigSep Finset.univ fun i : Fin 8 => iprop(cellInv ER (rsRd m) (K (recvCell c i)) (recvCell c i) ∗ atPos ER (recvCell c i) 1 ∅ 0))
        ∗ (bigSep Finset.univ fun i : Fin 8 => xpiece m c (sdH c) i) ∗ (bigSep Finset.univ fun i : Fin 8 => xpiece m c (kpH c) i)
        ∗ (bigSep Finset.univ fun i : Fin 8 => piece c rM i (recvFull m c)) ∗ (bigSep Finset.univ fun i : Fin 8 => piece c sM i (sendFull m c))
        ∗ (bigSep Finset.univ fun i : Fin 8 => piece c oM i (sumFull m c)))
      ⊢ iprop(|={Set.univ}=> (xWhole m c ∗ Pipeline.ownSems0 (Ix := Unit) (Name := ℕ) (U := UU) (Lvl := ℕ) (Val := Elt F) (τ := τ) osem c ∗ scratches c
          ∗ owns (c : Thread nD τ) (oM : Memref sig .tc .vmem S4096x1024 .f32) fullShare (sumFull m c))) := by
  iintro ⟨Hst, Hkp, Hsd, Hrc, Hxs, Hxk, Hr, Hs, Ho⟩
  imod (close_family m K (fun i => stageCell c i)) $$ Hst with Hst
  imod (close_family m K (fun i => keepCell c i)) $$ Hkp with Hkp
  imod (close_family m K (fun i => sendCell c i)) $$ Hsd with Hsd
  imod (close_family m K (fun i => recvCell c i)) $$ Hrc with Hrc
  imodintro
  isplitl [Hxs Hxk]
  · iapply (join_x m c); isplitl [Hxs] <;> iassumption
  isplitl [Hst Hkp Hsd Hrc]
  · iapply (ownSems0_of_cells c)
    isplitl [Hst]; · iexact Hst
    isplitl [Hkp]; · iexact Hkp
    isplitl [Hsd] <;> iassumption
  isplitl [Hr Hs]
  · unfold scratches
    isplitl [Hr]
    · iapply (join_scratch0 c (recvFull m c)); iexact Hr
    · iapply (join_scratch1 c (sendFull m c)); iexact Hs
  · iapply (join_result m c); iexact Ho

/-- The end of the body, chunk by chunk: from every chunk's sending side and keeping side at their last stage. -/
theorem exit_chunks (K : GSem nD τ sig → ℕ) (c : Dev nD) :
    iprop((bigSep Finset.univ fun i : Fin 8 => A4 (F := F) m c i) ∗ (bigSep Finset.univ fun i : Fin 8 => B4 (F := F) m c i)
        ∗ (bigSep Finset.univ fun i : Fin 8 => CP (F := F) m K c i))
      ⊢ iprop(|={Set.univ}=> (xWhole m c ∗ Pipeline.ownSems0 (Ix := Unit) (Name := ℕ) (U := UU) (Lvl := ℕ) (Val := Elt F) (τ := τ) osem c ∗ scratches c
          ∗ owns (c : Thread nD τ) (oM : Memref sig .tc .vmem S4096x1024 .f32) fullShare (sumFull m c))) := by
  refine BIBase.Entails.trans ?_ (exit_core m K c)
  unfold A4 B4 CP
  simp only [bigSep_sep']
  iintro ⟨⟨HpS, HpD, Hxs, Hs⟩, ⟨HpK, HpR, Ho, Hxk, Hr⟩, ⟨HIs, HIk, HId, HIr, -⟩⟩
  isplitl [HIs HpS]; · isplitl [HIs] <;> iassumption
  isplitl [HIk HpK]; · isplitl [HIk] <;> iassumption
  isplitl [HId HpD]; · isplitl [HId] <;> iassumption
  isplitl [HIr HpR]; · isplitl [HIr] <;> iassumption
  isplitl [Hxs]; · iexact Hxs
  isplitl [Hxk]; · iexact Hxk
  isplitl [Hr]; · iexact Hr
  isplitl [Hs]; · iexact Hs
  iexact Ho

/-- The same with the eight chunks written out. -/
theorem exit_chunks8 (K : GSem nD τ sig → ℕ) (c : Dev nD) :
    iprop((A4 (F := F) m c 0 ∗ A4 (F := F) m c 1 ∗ A4 (F := F) m c 2 ∗ A4 (F := F) m c 3 ∗ A4 (F := F) m c 4 ∗ A4 (F := F) m c 5 ∗ A4 (F := F) m c 6 ∗ A4 (F := F) m c 7)
        ∗ (B4 (F := F) m c 0 ∗ B4 (F := F) m c 1 ∗ B4 (F := F) m c 2 ∗ B4 (F := F) m c 3 ∗ B4 (F := F) m c 4 ∗ B4 (F := F) m c 5 ∗ B4 (F := F) m c 6 ∗ B4 (F := F) m c 7)
        ∗ (CP (F := F) m K c 0 ∗ CP (F := F) m K c 1 ∗ CP (F := F) m K c 2 ∗ CP (F := F) m K c 3 ∗ CP (F := F) m K c 4 ∗ CP (F := F) m K c 5 ∗ CP (F := F) m K c 6
          ∗ CP (F := F) m K c 7))
      ⊢ iprop(|={Set.univ}=> (xWhole m c ∗ Pipeline.ownSems0 (Ix := Unit) (Name := ℕ) (U := UU) (Lvl := ℕ) (Val := Elt F) (τ := τ) osem c ∗ scratches c
          ∗ owns (c : Thread nD τ) (oM : Memref sig .tc .vmem S4096x1024 .f32) fullShare (sumFull m c))) := by
  rw [← univ8 (fun i => A4 (F := F) m c i), ← univ8 (fun i => B4 (F := F) m c i), ← univ8 (fun i => CP (F := F) m K c i)]
  exact exit_chunks m K c

/-- info: 'Cert.Kernel.RS.exit_core' depends on axioms: [propext, Classical.choice, Quot.sound] -/
#guard_msgs in #print axioms exit_core

/-- info: 'Cert.Kernel.RS.exit_chunks8' depends on axioms: [propext, Classical.choice, Quot.sound] -/
#guard_msgs in #print axioms exit_chunks8

end Cert.Kernel.RS

end
-- ==== Proof.Kernel.PartsA.lean ====
/-
  The first printed parts of each branch of one device's body: the issue of the eight staging copies and of the first
  seven keeping copies, chunk by chunk. Every issue moves one side of one chunk from its first state to its second and
  touches nothing else, so a part's effect is the conjunction of its chunks' steps. On the devices with x = 0 the sent
  half is half 1 and the kept half is half 0; on those with x = 1 it is the other way round, and the text is the same.
-/
import proofs.«901041_g7700000000001042_dist_rs_v7x_xyz2x4x4_x_m4096_n1024_f32_1_alg».proof.Proof.Kernel.States
import proofs.«901041_g7700000000001042_dist_rs_v7x_xyz2x4x4_x_m4096_n1024_f32_1_alg».proof.Proof.Kernel.Levels

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices with x = 0 -/

/-- The second printed part: the staging copies of chunks 5 to 7 and the keeping copies of chunks 0 and 1. -/
theorem part2_run (K : GSem nD τ sig → ℕ) (c : Dev nD) (hs : (1 : Fin 2) = sdH c) (hk : (0 : Fin 2) = kpH c)
    {α : Type} {Q : α → sProp 𝕄} {k : PUnit → Prog (TpuEff nD τ sig (Elt F) Λ₀ .tc) α} :
    iprop((CP m K c 0 ∗ CP m K c 1 ∗ CP m K c 5 ∗ CP m K c 6 ∗ CP m K c 7)
        ∗ (A0 m c 5 ∗ A0 m c 6 ∗ A0 m c 7 ∗ B0 m c 0 ∗ B0 m c 1)
        ∗ ((A1 (F := F) c 5 ∗ A1 (F := F) c 6 ∗ A1 (F := F) c 7 ∗ B1 (F := F) c 0 ∗ B1 (F := F) c 1)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part2 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part2_eq_skeleton]; unfold Gen.k0_part2_skel
  simp only [Prog.lift, Prog.bind_op, Prog.bind_ret, Prog.pure_eq_ret]
  iintro ⟨⟨#P0, #P1, #P5, #P6, #P7⟩, ⟨Ha5, Ha6, Ha7, Hb0, Hb1⟩, Hk⟩
  iapply (st_stage m K c 5 1 hs) $$ [Ha5]
  · iframe # ∗
  iintro Ha5
  iapply (st_stage m K c 6 1 hs) $$ [Ha6]
  · iframe # ∗
  iintro Ha6
  iapply (st_stage m K c 7 1 hs) $$ [Ha7]
  · iframe # ∗
  iintro Ha7
  iapply (st_keep m K c 0 0 hk) $$ [Hb0]
  · iframe # ∗
  iintro Hb0
  iapply (st_keep m K c 1 0 hk) $$ [Hb1]
  · iframe # ∗
  iintro Hb1
  iapply Hk
  iframe

/-- The third printed part: the keeping copies of chunks 2 to 6. -/
theorem part3_run (K : GSem nD τ sig → ℕ) (c : Dev nD) (hk : (0 : Fin 2) = kpH c)
    {α : Type} {Q : α → sProp 𝕄} {k : PUnit → Prog (TpuEff nD τ sig (Elt F) Λ₀ .tc) α} :
    iprop((CP m K c 2 ∗ CP m K c 3 ∗ CP m K c 4 ∗ CP m K c 5 ∗ CP m K c 6)
        ∗ (B0 m c 2 ∗ B0 m c 3 ∗ B0 m c 4 ∗ B0 m c 5 ∗ B0 m c 6)
        ∗ ((B1 (F := F) c 2 ∗ B1 (F := F) c 3 ∗ B1 (F := F) c 4 ∗ B1 (F := F) c 5 ∗ B1 (F := F) c 6)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part3 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part3_eq_skeleton]; unfold Gen.k0_part3_skel
  simp only [Prog.lift, Prog.bind_op, Prog.bind_ret, Prog.pure_eq_ret]
  iintro ⟨⟨#P2, #P3, #P4, #P5, #P6⟩, ⟨Hb2, Hb3, Hb4, Hb5, Hb6⟩, Hk⟩
  iapply (st_keep m K c 2 0 hk) $$ [Hb2]
  · iframe # ∗
  iintro Hb2
  iapply (st_keep m K c 3 0 hk) $$ [Hb3]
  · iframe # ∗
  iintro Hb3
  iapply (st_keep m K c 4 0 hk) $$ [Hb4]
  · iframe # ∗
  iintro Hb4
  iapply (st_keep m K c 5 0 hk) $$ [Hb5]
  · iframe # ∗
  iintro Hb5
  iapply (st_keep m K c 6 0 hk) $$ [Hb6]
  · iframe # ∗
  iintro Hb6
  iapply Hk
  iframe

/-! ## The devices with x = 1 -/

/-- The sixteenth printed part: the staging copies of chunks 0 to 4. -/
theorem part16_run (K : GSem nD τ sig → ℕ) (c : Dev nD) (hs : (0 : Fin 2) = sdH c)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4)
        ∗ (A0 m c 0 ∗ A0 m c 1 ∗ A0 m c 2 ∗ A0 m c 3 ∗ A0 m c 4)
        ∗ ((A1 (F := F) c 0 ∗ A1 (F := F) c 1 ∗ A1 (F := F) c 2 ∗ A1 (F := F) c 3 ∗ A1 (F := F) c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part16 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part16_eq_skeleton]; unfold Gen.k0_part16_skel
  simp only [Prog.lift, Prog.bind_op, Prog.bind_ret, Prog.pure_eq_ret]
  iintro ⟨⟨#P0, #P1, #P2, #P3, #P4⟩, ⟨Ha0, Ha1, Ha2, Ha3, Ha4⟩, Hk⟩
  iapply (st_stage m K c 0 0 hs) $$ [Ha0]
  · iframe # ∗
  iintro Ha0
  iapply (st_stage m K c 1 0 hs) $$ [Ha1]
  · iframe # ∗
  iintro Ha1
  iapply (st_stage m K c 2 0 hs) $$ [Ha2]
  · iframe # ∗
  iintro Ha2
  iapply (st_stage m K c 3 0 hs) $$ [Ha3]
  · iframe # ∗
  iintro Ha3
  iapply (st_stage m K c 4 0 hs) $$ [Ha4]
  · iframe # ∗
  iintro Ha4
  iapply Hk
  iframe

/-- The seventeenth printed part: the staging copies of chunks 5 to 7 and the keeping copies of chunks 0 and 1. -/
theorem part17_run (K : GSem nD τ sig → ℕ) (c : Dev nD) (hs : (0 : Fin 2) = sdH c) (hk : (1 : Fin 2) = kpH c)
    {α : Type} {Q : α → sProp 𝕄} {k : PUnit → Prog (TpuEff nD τ sig (Elt F) Λ₀ .tc) α} :
    iprop((CP m K c 0 ∗ CP m K c 1 ∗ CP m K c 5 ∗ CP m K c 6 ∗ CP m K c 7)
        ∗ (A0 m c 5 ∗ A0 m c 6 ∗ A0 m c 7 ∗ B0 m c 0 ∗ B0 m c 1)
        ∗ ((A1 (F := F) c 5 ∗ A1 (F := F) c 6 ∗ A1 (F := F) c 7 ∗ B1 (F := F) c 0 ∗ B1 (F := F) c 1)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part17 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part17_eq_skeleton]; unfold Gen.k0_part17_skel
  simp only [Prog.lift, Prog.bind_op, Prog.bind_ret, Prog.pure_eq_ret]
  iintro ⟨⟨#P0, #P1, #P5, #P6, #P7⟩, ⟨Ha5, Ha6, Ha7, Hb0, Hb1⟩, Hk⟩
  iapply (st_stage m K c 5 0 hs) $$ [Ha5]
  · iframe # ∗
  iintro Ha5
  iapply (st_stage m K c 6 0 hs) $$ [Ha6]
  · iframe # ∗
  iintro Ha6
  iapply (st_stage m K c 7 0 hs) $$ [Ha7]
  · iframe # ∗
  iintro Ha7
  iapply (st_keep m K c 0 1 hk) $$ [Hb0]
  · iframe # ∗
  iintro Hb0
  iapply (st_keep m K c 1 1 hk) $$ [Hb1]
  · iframe # ∗
  iintro Hb1
  iapply Hk
  iframe

/-- The eighteenth printed part: the keeping copies of chunks 2 to 6. -/
theorem part18_run (K : GSem nD τ sig → ℕ) (c : Dev nD) (hk : (1 : Fin 2) = kpH c)
    {α : Type} {Q : α → sProp 𝕄} {k : PUnit → Prog (TpuEff nD τ sig (Elt F) Λ₀ .tc) α} :
    iprop((CP m K c 2 ∗ CP m K c 3 ∗ CP m K c 4 ∗ CP m K c 5 ∗ CP m K c 6)
        ∗ (B0 m c 2 ∗ B0 m c 3 ∗ B0 m c 4 ∗ B0 m c 5 ∗ B0 m c 6)
        ∗ ((B1 (F := F) c 2 ∗ B1 (F := F) c 3 ∗ B1 (F := F) c 4 ∗ B1 (F := F) c 5 ∗ B1 (F := F) c 6)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part18 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part18_eq_skeleton]; unfold Gen.k0_part18_skel
  simp only [Prog.lift, Prog.bind_op, Prog.bind_ret, Prog.pure_eq_ret]
  iintro ⟨⟨#P2, #P3, #P4, #P5, #P6⟩, ⟨Hb2, Hb3, Hb4, Hb5, Hb6⟩, Hk⟩
  iapply (st_keep m K c 2 1 hk) $$ [Hb2]
  · iframe # ∗
  iintro Hb2
  iapply (st_keep m K c 3 1 hk) $$ [Hb3]
  · iframe # ∗
  iintro Hb3
  iapply (st_keep m K c 4 1 hk) $$ [Hb4]
  · iframe # ∗
  iintro Hb4
  iapply (st_keep m K c 5 1 hk) $$ [Hb5]
  · iframe # ∗
  iintro Hb5
  iapply (st_keep m K c 6 1 hk) $$ [Hb6]
  · iframe # ∗
  iintro Hb6
  iapply Hk
  iframe

/-- info: 'Cert.Kernel.RS.part2_run' depends on axioms: [propext, Classical.choice, Quot.sound] -/
#guard_msgs in #print axioms part2_run

/-- info: 'Cert.Kernel.RS.part3_run' depends on axioms: [propext, Classical.choice, Quot.sound] -/
#guard_msgs in #print axioms part3_run

/-- info: 'Cert.Kernel.RS.part16_run' depends on axioms: [propext, Classical.choice, Quot.sound] -/
#guard_msgs in #print axioms part16_run

/-- info: 'Cert.Kernel.RS.part17_run' depends on axioms: [propext, Classical.choice, Quot.sound] -/
#guard_msgs in #print axioms part17_run

/-- info: 'Cert.Kernel.RS.part18_run' depends on axioms: [propext, Classical.choice, Quot.sound] -/
#guard_msgs in #print axioms part18_run

end Cert.Kernel.RS

end
-- ==== Proof.Kernel.PartsB.lean ====
/-
  The middle of the exchange, printed part by part: for each branch the three parts in which the staged chunks 0 to 3
  leave for the partner while the last keeping copy is issued and the staging copies of chunks 0 to 4 are waited for.
  Each part moves the sides of the chunks it touches from their states at its entry to their states at its exit,
  paying one summand of what is owed for each transfer.
-/
import proofs.«901041_g7700000000001042_dist_rs_v7x_xyz2x4x4_x_m4096_n1024_f32_1_alg».proof.Proof.Kernel.States
import proofs.«901041_g7700000000001042_dist_rs_v7x_xyz2x4x4_x_m4096_n1024_f32_1_alg».proof.Proof.Kernel.Levels

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first branch: the devices with x = 0 -/

/-- The keeping copy of chunk 7 is issued; chunk 0, staged, leaves for the partner; chunk 1 is staged. -/
theorem part4_run (K : GSem nD τ sig → ℕ) (c : Dev nD) (hk : (0 : Fin 2) = kpH c) (v5 v8 v9 : BitVec 32) (h1 : k0_cond1 c = 1#1)
    (W : Waits sig Unit) {α : Type} {Q : α → sProp 𝕄} {k : PUnit → Prog (TpuEff nD τ sig (Elt F) Λ₀ .tc) α} :
    iprop((CP m K c 0 ∗ CP m K c 1 ∗ CP m K c 7) ∗ levAts L lv ∗ owes (c : Thread nD τ) (OR0 c) W
        ∗ (A1 (F := F) c 0 ∗ A1 (F := F) c 1 ∗ B0 m c 7)
        ∗ (∀ W' : Waits sig Unit, (owes (c : Thread nD τ) (OR1 c) W' ∗ A3 m c 0 ∗ A2 m c 1 ∗ B1 (F := F) c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part4 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part4_eq_skeleton]; unfold Gen.k0_part4_skel
  simp only [Prog.lift, Prog.bind_op, Prog.bind_ret, Prog.pure_eq_ret]
  iintro ⟨⟨#P0, #P1, #P7⟩, #Hlev, HO, ⟨HA0, HA1, HB7⟩, Hk⟩
  iapply (st_keep m K c 7 0 hk) $$ [HB7]
  · iframe # ∗
  iintro HB7
  iapply (st_wait_stage m K c 0 (credit_rows sM 0) (OR0 c) (recvOnly_OR0 c) _) $$ [HO HA0]
  · isplitr; · iexact P0
    isplitr; · iexact Hlev
    isplitl [HO]; · iexact HO
    iexact HA0
  iintro ⟨HO, HA0⟩
  iapply (st_send m K c 0 _ (dev2_eq c h1) (OR1 c) (O' := OR0 c) rfl _) $$ [HO HA0]
  · isplitr; · iexact P0
    isplitl [HO]; · iexact HO
    iexact HA0
  iintro ⟨HO, HA0⟩
  iapply (st_wait_stage m K c 1 (credit_rows sM 1) (OR1 c) (recvOnly_OR1 c) _) $$ [HO HA1]
  · isplitr; · iexact P1
    isplitr; · iexact Hlev
    isplitl [HO]; · iexact HO
    iexact HA1
  iintro ⟨HO, HA1⟩
  iapply Hk
  isplitl [HO]; · iexact HO
  isplitl [HA0]; · iexact HA0
  isplitl [HA1]; · iexact HA1
  iexact HB7

/-- Chunk 1 leaves for the partner; chunk 2 is staged and leaves too. -/
theorem part5_run (K : GSem nD τ sig → ℕ) (c : Dev nD) (v5 v8 v9 : BitVec 32) (h1 : k0_cond1 c = 1#1)
    (W : Waits sig Unit) {α : Type} {Q : α → sProp 𝕄} {k : PUnit → Prog (TpuEff nD τ sig (Elt F) Λ₀ .tc) α} :
    iprop((CP m K c 1 ∗ CP m K c 2) ∗ levAts L lv ∗ owes (c : Thread nD τ) (OR1 c) W
        ∗ (A2 m c 1 ∗ A1 (F := F) c 2)
        ∗ (∀ W' : Waits sig Unit, (owes (c : Thread nD τ) (OR3 c) W' ∗ A3 m c 1 ∗ A3 m c 2)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part5 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part5_eq_skeleton]; unfold Gen.k0_part5_skel
  simp only [Prog.lift, Prog.bind_op, Prog.bind_ret, Prog.pure_eq_ret]
  iintro ⟨⟨#P1, #P2⟩, #Hlev, HO, ⟨HA1, HA2⟩, Hk⟩
  iapply (st_send m K c 1 _ (dev3_eq c h1) (OR2 c) (O' := OR1 c) rfl _) $$ [HO HA1]
  · isplitr; · iexact P1
    isplitl [HO]; · iexact HO
    iexact HA1
  iintro ⟨HO, HA1⟩
  iapply (st_wait_stage m K c 2 (credit_rows sM 2) (OR2 c) (recvOnly_OR2 c) _) $$ [HO HA2]
  · isplitr; · iexact P2
    isplitr; · iexact Hlev
    isplitl [HO]; · iexact HO
    iexact HA2
  iintro ⟨HO, HA2⟩
  iapply (st_send m K c 2 _ (dev4_eq c h1) (OR3 c) (O' := OR2 c) rfl _) $$ [HO HA2]
  · isplitr; · iexact P2
    isplitl [HO]; · iexact HO
    iexact HA2
  iintro ⟨HO, HA2⟩
  iapply Hk
  isplitl [HO]; · iexact HO
  isplitl [HA1]; · iexact HA1
  iexact HA2

/-- Chunk 3 is staged and leaves for the partner; chunk 4 is staged. -/
theorem part6_run (K : GSem nD τ sig → ℕ) (c : Dev nD) (v5 v8 v9 : BitVec 32) (h1 : k0_cond1 c = 1#1)
    (W : Waits sig Unit) {α : Type} {Q : α → sProp 𝕄} {k : PUnit → Prog (TpuEff nD τ sig (Elt F) Λ₀ .tc) α} :
    iprop((CP m K c 3 ∗ CP m K c 4) ∗ levAts L lv ∗ owes (c : Thread nD τ) (OR3 c) W
        ∗ (A1 (F := F) c 3 ∗ A1 (F := F) c 4)
        ∗ (∀ W' : Waits sig Unit, (owes (c : Thread nD τ) (OR4 c) W' ∗ A3 m c 3 ∗ A2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part6 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part6_eq_skeleton]; unfold Gen.k0_part6_skel
  simp only [Prog.lift, Prog.bind_op, Prog.bind_ret, Prog.pure_eq_ret]
  iintro ⟨⟨#P3, #P4⟩, #Hlev, HO, ⟨HA3, HA4⟩, Hk⟩
  iapply (st_wait_stage m K c 3 (credit_rows sM 3) (OR3 c) (recvOnly_OR3 c) _) $$ [HO HA3]
  · isplitr; · iexact P3
    isplitr; · iexact Hlev
    isplitl [HO]; · iexact HO
    iexact HA3
  iintro ⟨HO, HA3⟩
  iapply (st_send m K c 3 _ (dev5_eq c h1) (OR4 c) (O' := OR3 c) rfl _) $$ [HO HA3]
  · isplitr; · iexact P3
    isplitl [HO]; · iexact HO
    iexact HA3
  iintro ⟨HO, HA3⟩
  iapply (st_wait_stage m K c 4 (credit_rows sM 4) (OR4 c) (recvOnly_OR4 c) _) $$ [HO HA4]
  · isplitr; · iexact P4
    isplitr; · iexact Hlev
    isplitl [HO]; · iexact HO
    iexact HA4
  iintro ⟨HO, HA4⟩
  iapply Hk
  isplitl [HO]; · iexact HO
  isplitl [HA3]; · iexact HA3
  iexact HA4

/-! ## The second branch: the devices with x = 1 -/

/-- The keeping copy of chunk 7 is issued; chunk 0, staged, leaves for the partner; chunk 1 is staged. -/
theorem part19_run (K : GSem nD τ sig → ℕ) (c : Dev nD) (hk : (1 : Fin 2) = kpH c) (v5 v8 v9 : BitVec 32) (h2 : k0_cond2 c = 1#1)
    (W : Waits sig Unit) {α : Type} {Q : α → sProp 𝕄} {k : PUnit → Prog (TpuEff nD τ sig (Elt F) Λ₀ .tc) α} :
    iprop((CP m K c 0 ∗ CP m K c 1 ∗ CP m K c 7) ∗ levAts L lv ∗ owes (c : Thread nD τ) (OR0 c) W
        ∗ (A1 (F := F) c 0 ∗ A1 (F := F) c 1 ∗ B0 m c 7)
        ∗ (∀ W' : Waits sig Unit, (owes (c : Thread nD τ) (OR1 c) W' ∗ A3 m c 0 ∗ A2 m c 1 ∗ B1 (F := F) c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part19 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part19_eq_skeleton]; unfold Gen.k0_part19_skel
  simp only [Prog.lift, Prog.bind_op, Prog.bind_ret, Prog.pure_eq_ret]
  iintro ⟨⟨#P0, #P1, #P7⟩, #Hlev, HO, ⟨HA0, HA1, HB7⟩, Hk⟩
  iapply (st_keep m K c 7 1 hk) $$ [HB7]
  · iframe # ∗
  iintro HB7
  iapply (st_wait_stage m K c 0 (credit_rows sM 0) (OR0 c) (recvOnly_OR0 c) _) $$ [HO HA0]
  · isplitr; · iexact P0
    isplitr; · iexact Hlev
    isplitl [HO]; · iexact HO
    iexact HA0
  iintro ⟨HO, HA0⟩
  iapply (st_send m K c 0 _ (dev10_eq c h2) (OR1 c) (O' := OR0 c) rfl _) $$ [HO HA0]
  · isplitr; · iexact P0
    isplitl [HO]; · iexact HO
    iexact HA0
  iintro ⟨HO, HA0⟩
  iapply (st_wait_stage m K c 1 (credit_rows sM 1) (OR1 c) (recvOnly_OR1 c) _) $$ [HO HA1]
  · isplitr; · iexact P1
    isplitr; · iexact Hlev
    isplitl [HO]; · iexact HO
    iexact HA1
  iintro ⟨HO, HA1⟩
  iapply Hk
  isplitl [HO]; · iexact HO
  isplitl [HA0]; · iexact HA0
  isplitl [HA1]; · iexact HA1
  iexact HB7

/-- Chunk 1 leaves for the partner; chunk 2 is staged and leaves too. -/
theorem part20_run (K : GSem nD τ sig → ℕ) (c : Dev nD) (v5 v8 v9 : BitVec 32) (h2 : k0_cond2 c = 1#1)
    (W : Waits sig Unit) {α : Type} {Q : α → sProp 𝕄} {k : PUnit → Prog (TpuEff nD τ sig (Elt F) Λ₀ .tc) α} :
    iprop((CP m K c 1 ∗ CP m K c 2) ∗ levAts L lv ∗ owes (c : Thread nD τ) (OR1 c) W
        ∗ (A2 m c 1 ∗ A1 (F := F) c 2)
        ∗ (∀ W' : Waits sig Unit, (owes (c : Thread nD τ) (OR3 c) W' ∗ A3 m c 1 ∗ A3 m c 2)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part20 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part20_eq_skeleton]; unfold Gen.k0_part20_skel
  simp only [Prog.lift, Prog.bind_op, Prog.bind_ret, Prog.pure_eq_ret]
  iintro ⟨⟨#P1, #P2⟩, #Hlev, HO, ⟨HA1, HA2⟩, Hk⟩
  iapply (st_send m K c 1 _ (dev11_eq c h2) (OR2 c) (O' := OR1 c) rfl _) $$ [HO HA1]
  · isplitr; · iexact P1
    isplitl [HO]; · iexact HO
    iexact HA1
  iintro ⟨HO, HA1⟩
  iapply (st_wait_stage m K c 2 (credit_rows sM 2) (OR2 c) (recvOnly_OR2 c) _) $$ [HO HA2]
  · isplitr; · iexact P2
    isplitr; · iexact Hlev
    isplitl [HO]; · iexact HO
    iexact HA2
  iintro ⟨HO, HA2⟩
  iapply (st_send m K c 2 _ (dev12_eq c h2) (OR3 c) (O' := OR2 c) rfl _) $$ [HO HA2]
  · isplitr; · iexact P2
    isplitl [HO]; · iexact HO
    iexact HA2
  iintro ⟨HO, HA2⟩
  iapply Hk
  isplitl [HO]; · iexact HO
  isplitl [HA1]; · iexact HA1
  iexact HA2

/-- Chunk 3 is staged and leaves for the partner; chunk 4 is staged. -/
theorem part21_run (K : GSem nD τ sig → ℕ) (c : Dev nD) (v5 v8 v9 : BitVec 32) (h2 : k0_cond2 c = 1#1)
    (W : Waits sig Unit) {α : Type} {Q : α → sProp 𝕄} {k : PUnit → Prog (TpuEff nD τ sig (Elt F) Λ₀ .tc) α} :
    iprop((CP m K c 3 ∗ CP m K c 4) ∗ levAts L lv ∗ owes (c : Thread nD τ) (OR3 c) W
        ∗ (A1 (F := F) c 3 ∗ A1 (F := F) c 4)
        ∗ (∀ W' : Waits sig Unit, (owes (c : Thread nD τ) (OR4 c) W' ∗ A3 m c 3 ∗ A2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part21 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part21_eq_skeleton]; unfold Gen.k0_part21_skel
  simp only [Prog.lift, Prog.bind_op, Prog.bind_ret, Prog.pure_eq_ret]
  iintro ⟨⟨#P3, #P4⟩, #Hlev, HO, ⟨HA3, HA4⟩, Hk⟩
  iapply (st_wait_stage m K c 3 (credit_rows sM 3) (OR3 c) (recvOnly_OR3 c) _) $$ [HO HA3]
  · isplitr; · iexact P3
    isplitr; · iexact Hlev
    isplitl [HO]; · iexact HO
    iexact HA3
  iintro ⟨HO, HA3⟩
  iapply (st_send m K c 3 _ (dev13_eq c h2) (OR4 c) (O' := OR3 c) rfl _) $$ [HO HA3]
  · isplitr; · iexact P3
    isplitl [HO]; · iexact HO
    iexact HA3
  iintro ⟨HO, HA3⟩
  iapply (st_wait_stage m K c 4 (credit_rows sM 4) (OR4 c) (recvOnly_OR4 c) _) $$ [HO HA4]
  · isplitr; · iexact P4
    isplitr; · iexact Hlev
    isplitl [HO]; · iexact HO
    iexact HA4
  iintro ⟨HO, HA4⟩
  iapply Hk
  isplitl [HO]; · iexact HO
  isplitl [HA3]; · iexact HA3
  iexact HA4

/-- info: 'Cert.Kernel.RS.part4_run' depends on axioms: [propext, Classical.choice, Quot.sound] -/
#guard_msgs in #print axioms part4_run

/-- info: 'Cert.Kernel.RS.part5_run' depends on axioms: [propext, Classical.choice, Quot.sound] -/
#guard_msgs in #print axioms part5_run

/-- info: 'Cert.Kernel.RS.part6_run' depends on axioms: [propext, Classical.choice, Quot.sound] -/
#guard_msgs in #print axioms part6_run

/-- info: 'Cert.Kernel.RS.part19_run' depends on axioms: [propext, Classical.choice, Quot.sound] -/
#guard_msgs in #print axioms part19_run

/-- info: 'Cert.Kernel.RS.part20_run' depends on axioms: [propext, Classical.choice, Quot.sound] -/
#guard_msgs in #print axioms part20_run

/-- info: 'Cert.Kernel.RS.part21_run' depends on axioms: [propext, Classical.choice, Quot.sound] -/
#guard_msgs in #print axioms part21_run

end Cert.Kernel.RS

end
-- ==== Proof.Kernel.PartsC.lean ====
/-
  Six printed parts of one device's body, three of each branch: the transfers of chunks 4 to 7 to the partner, each
  after the wait for the chunk's staging copy, and the waits for the keeping copies of chunks 0 to 4. Each part is
  stepped from the states of the chunks it touches to their states after it, in the order the part is printed.
-/
import proofs.«901041_g7700000000001042_dist_rs_v7x_xyz2x4x4_x_m4096_n1024_f32_1_alg».proof.Proof.Kernel.States
import proofs.«901041_g7700000000001042_dist_rs_v7x_xyz2x4x4_x_m4096_n1024_f32_1_alg».proof.Proof.Kernel.Levels

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first branch: the transfers of chunks 4 to 7 with the staging waits between them, and the first five keeping waits -/

/-- Part 7: chunk 4 is sent, chunk 5's staging copy is waited for and chunk 5 sent, chunk 6's staging copy is waited for. -/
theorem part7_run (K : GSem nD τ sig → ℕ) (c : Dev nD) (v5 v8 v9 : BitVec 32) (h1 : k0_cond1 c = 1#1) (W : Waits sig Unit)
    {α : Type} {Q : α → sProp 𝕄} {k : BitVec 32 → Prog (TpuEff nD τ sig (Elt F) Λ₀ .tc) α} :
    iprop((CP m K c 4 ∗ CP m K c 5 ∗ CP m K c 6) ∗ levAts L lv ∗ owes (c : Thread nD τ) (OR4 c) W
        ∗ (A2 m c 4 ∗ A1 (F := F) c 5 ∗ A1 (F := F) c 6)
        ∗ (∀ W' : Waits sig Unit, ∀ r : BitVec 32, (owes (c : Thread nD τ) (OR6 c) W' ∗ A3 m c 4 ∗ A3 m c 5 ∗ A2 m c 6)
            -∗ wp frame (wpE (defs₀ (F := F)) 𝒱₀ (c : Thread nD τ) none) Set.univ (k r) Q))
      ⊢ wp frame (wpE (defs₀ (F := F)) 𝒱₀ (c : Thread nD τ) none) Set.univ
          ((k0_part7 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part7_eq_skeleton]; unfold Gen.k0_part7_skel
  simp only [Prog.lift, Prog.bind_op, Prog.bind_ret, Prog.pure_eq_ret]
  iintro ⟨⟨#P4, #P5, #P6⟩, #Hlev, HO, ⟨HA4, HA5, HA6⟩, Hk⟩
  iapply (st_send m K c 4 _ (dev6_eq c h1) (OR5 c) (O' := OR4 c) rfl _) $$ [HO HA4]
  · isplitr; · iexact P4
    isplitl [HO]; · iexact HO
    iexact HA4
  iintro ⟨HO, HA4⟩
  iapply (st_wait_stage m K c 5 (credit_rows sM 5) (OR5 c) (recvOnly_OR5 c) _) $$ [HO HA5]
  · isplitr; · iexact P5
    isplitr; · iexact Hlev
    isplitl [HO]; · iexact HO
    iexact HA5
  iintro ⟨HO, HA5⟩
  iapply (st_send m K c 5 _ (dev7_eq c h1) (OR6 c) (O' := OR5 c) rfl _) $$ [HO HA5]
  · isplitr; · iexact P5
    isplitl [HO]; · iexact HO
    iexact HA5
  iintro ⟨HO, HA5⟩
  iapply (st_wait_stage m K c 6 (credit_rows sM 6) (OR6 c) (recvOnly_OR6 c) _) $$ [HO HA6]
  · isplitr; · iexact P6
    isplitr; · iexact Hlev
    isplitl [HO]; · iexact HO
    iexact HA6
  iintro ⟨HO, HA6⟩
  iapply Hk
  isplitl [HO]; · iexact HO
  isplitl [HA4]; · iexact HA4
  isplitl [HA5]; · iexact HA5
  iexact HA6

/-- Part 8: chunk 6 is sent, chunk 7's staging copy is waited for and chunk 7 sent: nothing is owed any more. -/
theorem part8_run (K : GSem nD τ sig → ℕ) (c : Dev nD) (v5 v8 v9 : BitVec 32) (h1 : k0_cond1 c = 1#1) (v211 : BitVec 32) (W : Waits sig Unit)
    {α : Type} {Q : α → sProp 𝕄} {k : PUnit → Prog (TpuEff nD τ sig (Elt F) Λ₀ .tc) α} :
    iprop((CP m K c 6 ∗ CP m K c 7) ∗ levAts L lv ∗ owes (c : Thread nD τ) (OR6 c) W
        ∗ (A2 m c 6 ∗ A1 (F := F) c 7)
        ∗ (∀ W' : Waits sig Unit, (owes (c : Thread nD τ) 0 W' ∗ A3 m c 6 ∗ A3 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part8 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1 v211) >>= k) Q := by
  rw [Gen.k0_part8_eq_skeleton]; unfold Gen.k0_part8_skel
  simp only [Prog.lift, Prog.bind_op, Prog.bind_ret, Prog.pure_eq_ret]
  iintro ⟨⟨#P6, #P7⟩, #Hlev, HO, ⟨HA6, HA7⟩, Hk⟩
  iapply (st_send m K c 6 _ (dev8_eq c h1) (OR7 c) (O' := OR6 c) rfl _) $$ [HO HA6]
  · isplitr; · iexact P6
    isplitl [HO]; · iexact HO
    iexact HA6
  iintro ⟨HO, HA6⟩
  iapply (st_wait_stage m K c 7 (credit_rows sM 7) (OR7 c) (recvOnly_OR7 c) _) $$ [HO HA7]
  · isplitr; · iexact P7
    isplitr; · iexact Hlev
    isplitl [HO]; · iexact HO
    iexact HA7
  iintro ⟨HO, HA7⟩
  iapply (st_send m K c 7 _ (dev9_eq c h1) 0 (O' := OR7 c) (zero_add _).symm _) $$ [HO HA7]
  · isplitr; · iexact P7
    isplitl [HO]; · iexact HO
    iexact HA7
  iintro ⟨HO, HA7⟩
  iapply Hk
  isplitl [HO]; · iexact HO
  isplitl [HA6]; · iexact HA6
  iexact HA7

/-- Part 9: the keeping copies of chunks 0 to 4 are waited for. -/
theorem part9_run (K : GSem nD τ sig → ℕ) (c : Dev nD) (W : Waits sig Unit)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (B1 (F := F) c 0 ∗ B1 (F := F) c 1 ∗ B1 (F := F) c 2 ∗ B1 (F := F) c 3 ∗ B1 (F := F) c 4)
        ∗ (∀ W' : Waits sig Unit, (owes (c : Thread nD τ) 0 W' ∗ B2 m c 0 ∗ B2 m c 1 ∗ B2 m c 2 ∗ B2 m c 3 ∗ B2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part9 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part9_eq_skeleton]; unfold Gen.k0_part9_skel
  simp only [Prog.lift, Prog.bind_op, Prog.bind_ret, Prog.pure_eq_ret]
  iintro ⟨⟨#P0, #P1, #P2, #P3, #P4⟩, #Hlev, HO, ⟨HB0, HB1, HB2, HB3, HB4⟩, Hk⟩
  iapply (st_wait_keep m K c 0 (credit_rows oM 0) 0 (recvOnly_zero c) _) $$ [HO HB0]
  · isplitr; · iexact P0
    isplitr; · iexact Hlev
    isplitl [HO]; · iexact HO
    iexact HB0
  iintro ⟨HO, HB0⟩
  iapply (st_wait_keep m K c 1 (credit_rows oM 1) 0 (recvOnly_zero c) _) $$ [HO HB1]
  · isplitr; · iexact P1
    isplitr; · iexact Hlev
    isplitl [HO]; · iexact HO
    iexact HB1
  iintro ⟨HO, HB1⟩
  iapply (st_wait_keep m K c 2 (credit_rows oM 2) 0 (recvOnly_zero c) _) $$ [HO HB2]
  · isplitr; · iexact P2
    isplitr; · iexact Hlev
    isplitl [HO]; · iexact HO
    iexact HB2
  iintro ⟨HO, HB2⟩
  iapply (st_wait_keep m K c 3 (credit_rows oM 3) 0 (recvOnly_zero c) _) $$ [HO HB3]
  · isplitr; · iexact P3
    isplitr; · iexact Hlev
    isplitl [HO]; · iexact HO
    iexact HB3
  iintro ⟨HO, HB3⟩
  iapply (st_wait_keep m K c 4 (credit_rows oM 4) 0 (recvOnly_zero c) _) $$ [HO HB4]
  · isplitr; · iexact P4
    isplitr; · iexact Hlev
    isplitl [HO]; · iexact HO
    iexact HB4
  iintro ⟨HO, HB4⟩
  iapply Hk
  isplitl [HO]; · iexact HO
  isplitl [HB0]; · iexact HB0
  isplitl [HB1]; · iexact HB1
  isplitl [HB2]; · iexact HB2
  isplitl [HB3]; · iexact HB3
  iexact HB4

/-! ## The second branch: the transfers of chunks 4 to 7 with the staging waits between them, and the first five keeping waits -/

/-- Part 22: chunk 4 is sent, chunk 5's staging copy is waited for and chunk 5 sent, chunk 6's staging copy is waited for. -/
theorem part22_run (K : GSem nD τ sig → ℕ) (c : Dev nD) (v5 v8 v9 : BitVec 32) (h2 : k0_cond2 c = 1#1) (W : Waits sig Unit)
    {α : Type} {Q : α → sProp 𝕄} {k : BitVec 32 → Prog (TpuEff nD τ sig (Elt F) Λ₀ .tc) α} :
    iprop((CP m K c 4 ∗ CP m K c 5 ∗ CP m K c 6) ∗ levAts L lv ∗ owes (c : Thread nD τ) (OR4 c) W
        ∗ (A2 m c 4 ∗ A1 (F := F) c 5 ∗ A1 (F := F) c 6)
        ∗ (∀ W' : Waits sig Unit, ∀ r : BitVec 32, (owes (c : Thread nD τ) (OR6 c) W' ∗ A3 m c 4 ∗ A3 m c 5 ∗ A2 m c 6)
            -∗ wp frame (wpE (defs₀ (F := F)) 𝒱₀ (c : Thread nD τ) none) Set.univ (k r) Q))
      ⊢ wp frame (wpE (defs₀ (F := F)) 𝒱₀ (c : Thread nD τ) none) Set.univ
          ((k0_part22 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part22_eq_skeleton]; unfold Gen.k0_part22_skel
  simp only [Prog.lift, Prog.bind_op, Prog.bind_ret, Prog.pure_eq_ret]
  iintro ⟨⟨#P4, #P5, #P6⟩, #Hlev, HO, ⟨HA4, HA5, HA6⟩, Hk⟩
  iapply (st_send m K c 4 _ (dev14_eq c h2) (OR5 c) (O' := OR4 c) rfl _) $$ [HO HA4]
  · isplitr; · iexact P4
    isplitl [HO]; · iexact HO
    iexact HA4
  iintro ⟨HO, HA4⟩
  iapply (st_wait_stage m K c 5 (credit_rows sM 5) (OR5 c) (recvOnly_OR5 c) _) $$ [HO HA5]
  · isplitr; · iexact P5
    isplitr; · iexact Hlev
    isplitl [HO]; · iexact HO
    iexact HA5
  iintro ⟨HO, HA5⟩
  iapply (st_send m K c 5 _ (dev15_eq c h2) (OR6 c) (O' := OR5 c) rfl _) $$ [HO HA5]
  · isplitr; · iexact P5
    isplitl [HO]; · iexact HO
    iexact HA5
  iintro ⟨HO, HA5⟩
  iapply (st_wait_stage m K c 6 (credit_rows sM 6) (OR6 c) (recvOnly_OR6 c) _) $$ [HO HA6]
  · isplitr; · iexact P6
    isplitr; · iexact Hlev
    isplitl [HO]; · iexact HO
    iexact HA6
  iintro ⟨HO, HA6⟩
  iapply Hk
  isplitl [HO]; · iexact HO
  isplitl [HA4]; · iexact HA4
  isplitl [HA5]; · iexact HA5
  iexact HA6

/-- Part 23: chunk 6 is sent, chunk 7's staging copy is waited for and chunk 7 sent: nothing is owed any more. -/
theorem part23_run (K : GSem nD τ sig → ℕ) (c : Dev nD) (v5 v8 v9 : BitVec 32) (h2 : k0_cond2 c = 1#1) (v211 : BitVec 32) (W : Waits sig Unit)
    {α : Type} {Q : α → sProp 𝕄} {k : PUnit → Prog (TpuEff nD τ sig (Elt F) Λ₀ .tc) α} :
    iprop((CP m K c 6 ∗ CP m K c 7) ∗ levAts L lv ∗ owes (c : Thread nD τ) (OR6 c) W
        ∗ (A2 m c 6 ∗ A1 (F := F) c 7)
        ∗ (∀ W' : Waits sig Unit, (owes (c : Thread nD τ) 0 W' ∗ A3 m c 6 ∗ A3 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part23 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2 v211) >>= k) Q := by
  rw [Gen.k0_part23_eq_skeleton]; unfold Gen.k0_part23_skel
  simp only [Prog.lift, Prog.bind_op, Prog.bind_ret, Prog.pure_eq_ret]
  iintro ⟨⟨#P6, #P7⟩, #Hlev, HO, ⟨HA6, HA7⟩, Hk⟩
  iapply (st_send m K c 6 _ (dev16_eq c h2) (OR7 c) (O' := OR6 c) rfl _) $$ [HO HA6]
  · isplitr; · iexact P6
    isplitl [HO]; · iexact HO
    iexact HA6
  iintro ⟨HO, HA6⟩
  iapply (st_wait_stage m K c 7 (credit_rows sM 7) (OR7 c) (recvOnly_OR7 c) _) $$ [HO HA7]
  · isplitr; · iexact P7
    isplitr; · iexact Hlev
    isplitl [HO]; · iexact HO
    iexact HA7
  iintro ⟨HO, HA7⟩
  iapply (st_send m K c 7 _ (dev17_eq c h2) 0 (O' := OR7 c) (zero_add _).symm _) $$ [HO HA7]
  · isplitr; · iexact P7
    isplitl [HO]; · iexact HO
    iexact HA7
  iintro ⟨HO, HA7⟩
  iapply Hk
  isplitl [HO]; · iexact HO
  isplitl [HA6]; · iexact HA6
  iexact HA7

/-- Part 24: the keeping copies of chunks 0 to 4 are waited for. -/
theorem part24_run (K : GSem nD τ sig → ℕ) (c : Dev nD) (W : Waits sig Unit)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (B1 (F := F) c 0 ∗ B1 (F := F) c 1 ∗ B1 (F := F) c 2 ∗ B1 (F := F) c 3 ∗ B1 (F := F) c 4)
        ∗ (∀ W' : Waits sig Unit, (owes (c : Thread nD τ) 0 W' ∗ B2 m c 0 ∗ B2 m c 1 ∗ B2 m c 2 ∗ B2 m c 3 ∗ B2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part24 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part24_eq_skeleton]; unfold Gen.k0_part24_skel
  simp only [Prog.lift, Prog.bind_op, Prog.bind_ret, Prog.pure_eq_ret]
  iintro ⟨⟨#P0, #P1, #P2, #P3, #P4⟩, #Hlev, HO, ⟨HB0, HB1, HB2, HB3, HB4⟩, Hk⟩
  iapply (st_wait_keep m K c 0 (credit_rows oM 0) 0 (recvOnly_zero c) _) $$ [HO HB0]
  · isplitr; · iexact P0
    isplitr; · iexact Hlev
    isplitl [HO]; · iexact HO
    iexact HB0
  iintro ⟨HO, HB0⟩
  iapply (st_wait_keep m K c 1 (credit_rows oM 1) 0 (recvOnly_zero c) _) $$ [HO HB1]
  · isplitr; · iexact P1
    isplitr; · iexact Hlev
    isplitl [HO]; · iexact HO
    iexact HB1
  iintro ⟨HO, HB1⟩
  iapply (st_wait_keep m K c 2 (credit_rows oM 2) 0 (recvOnly_zero c) _) $$ [HO HB2]
  · isplitr; · iexact P2
    isplitr; · iexact Hlev
    isplitl [HO]; · iexact HO
    iexact HB2
  iintro ⟨HO, HB2⟩
  iapply (st_wait_keep m K c 3 (credit_rows oM 3) 0 (recvOnly_zero c) _) $$ [HO HB3]
  · isplitr; · iexact P3
    isplitr; · iexact Hlev
    isplitl [HO]; · iexact HO
    iexact HB3
  iintro ⟨HO, HB3⟩
  iapply (st_wait_keep m K c 4 (credit_rows oM 4) 0 (recvOnly_zero c) _) $$ [HO HB4]
  · isplitr; · iexact P4
    isplitr; · iexact Hlev
    isplitl [HO]; · iexact HO
    iexact HB4
  iintro ⟨HO, HB4⟩
  iapply Hk
  isplitl [HO]; · iexact HO
  isplitl [HB0]; · iexact HB0
  isplitl [HB1]; · iexact HB1
  isplitl [HB2]; · iexact HB2
  isplitl [HB3]; · iexact HB3
  iexact HB4

/-- info: 'Cert.Kernel.RS.part7_run' depends on axioms: [propext, Classical.choice, Quot.sound] -/
#guard_msgs in #print axioms part7_run

/-- info: 'Cert.Kernel.RS.part8_run' depends on axioms: [propext, Classical.choice, Quot.sound] -/
#guard_msgs in #print axioms part8_run

/-- info: 'Cert.Kernel.RS.part9_run' depends on axioms: [propext, Classical.choice, Quot.sound] -/
#guard_msgs in #print axioms part9_run

/-- info: 'Cert.Kernel.RS.part22_run' depends on axioms: [propext, Classical.choice, Quot.sound] -/
#guard_msgs in #print axioms part22_run

/-- info: 'Cert.Kernel.RS.part23_run' depends on axioms: [propext, Classical.choice, Quot.sound] -/
#guard_msgs in #print axioms part23_run

/-- info: 'Cert.Kernel.RS.part24_run' depends on axioms: [propext, Classical.choice, Quot.sound] -/
#guard_msgs in #print axioms part24_run

end Cert.Kernel.RS

end
-- ==== Proof.Kernel.PartsD.lean ====
/-
  Six printed parts of one device's body, each stepped once from the chunks' states to the chunks' states.
  In either branch (the device keeps half 0 and sends half 1, or the other way round) the text is the same: the last
  three keeping copies are waited for; then, chunk after chunk, the partner's rows are waited for, the kept rows and
  the received rows are loaded through the whole buffers, and their sum is stored over the kept rows. A part that ends
  between a load and the store that uses it hands the loaded rows (or their sum) on to the next part as its value.
-/
import proofs.«901041_g7700000000001042_dist_rs_v7x_xyz2x4x4_x_m4096_n1024_f32_1_alg».proof.Proof.Kernel.States
import proofs.«901041_g7700000000001042_dist_rs_v7x_xyz2x4x4_x_m4096_n1024_f32_1_alg».proof.Proof.Kernel.Levels

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first branch: devices that keep half 0 -/

/-- Part 10: the keeping copies of chunks 5, 6, 7 have landed; the partner's rows of chunk 0 have arrived; the kept and the received rows of chunk 0 are loaded, and their sum is the part's value. -/
theorem part10_run (K : GSem nD τ sig → ℕ) (c : Dev nD) (v5 v8 v9 : BitVec 32) (W : Waits sig Unit)
    {α : Type} {Q : α → sProp 𝕄} {k : FVec F S512x1024 .f32 → Prog (TpuEff nD τ sig (Elt F) Λ₀ .tc) α} :
    iprop((CP m K c 0 ∗ CP m K c 5 ∗ CP m K c 6 ∗ CP m K c 7) ∗ levAts L lv ∗ owes (c : Thread nD τ) 0 W
        ∗ (B2 m c 0 ∗ B1 (F := F) c 5 ∗ B1 (F := F) c 6 ∗ B1 (F := F) c 7)
        ∗ (∀ W' : Waits sig Unit, (owes (c : Thread nD τ) 0 W' ∗ B3 m c 0 ∗ B2 m c 5 ∗ B2 m c 6 ∗ B2 m c 7)
            -∗ wp frame (wpE (defs₀ (F := F)) 𝒱₀ (c : Thread nD τ) none) Set.univ
                (k (addf ((rowCh (oM : Memref sig .tc .vmem S4096x1024 .f32) 0).view.read (Elt F) (keepFull m c))
                         ((rowCh (rM : Memref sig .tc .vmem S4096x1024 .f32) 0).view.read (Elt F) (recvFull m c)))) Q))
      ⊢ wp frame (wpE (defs₀ (F := F)) 𝒱₀ (c : Thread nD τ) none) Set.univ
          ((k0_part10 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  have e : ∀ v w : Vec F S512x1024 .f32, Gen.k0_pay1 v w = addf v w := fun v w => addf_cast v w _
  rw [Gen.k0_part10_eq_skeleton]; unfold Gen.k0_part10_skel
  simp only [Prog.lift, Prog.bind_op, Prog.bind_ret, Prog.pure_eq_ret, e]
  iintro ⟨⟨#P0, #P5, #P6, #P7⟩, #Hlev, HO, ⟨H0, H5, H6, H7⟩, Hk⟩
  iapply (st_wait_keep m K c 5 (credit_rows oM 5) 0 (recvOnly_zero c) _) $$ [HO H5]
  · isplitr; · iexact P5
    isplitr; · iexact Hlev
    isplitl [HO]; · iexact HO
    iexact H5
  iintro ⟨HO, H5⟩
  iapply (st_wait_keep m K c 6 (credit_rows oM 6) 0 (recvOnly_zero c) _) $$ [HO H6]
  · isplitr; · iexact P6
    isplitr; · iexact Hlev
    isplitl [HO]; · iexact HO
    iexact H6
  iintro ⟨HO, H6⟩
  iapply (st_wait_keep m K c 7 (credit_rows oM 7) 0 (recvOnly_zero c) _) $$ [HO H7]
  · isplitr; · iexact P7
    isplitr; · iexact Hlev
    isplitl [HO]; · iexact HO
    iexact H7
  iintro ⟨HO, H7⟩
  iapply (st_wait_recv m K c 0 (credit_rows rM 0) _) $$ [HO H0]
  · isplitr; · iexact P0
    isplitl [HO]; · iexact HO
    iexact H0
  iintro ⟨HO, H0⟩
  iapply (st_load_o m c 0) $$ [H0]
  · iexact H0
  iintro H0
  iapply (st_load_r m c 0) $$ [H0]
  · iexact H0
  iintro H0
  iapply (st_load_o m c 0) $$ [H0]
  · iexact H0
  iintro H0
  iapply Hk
  isplitl [HO]; · iexact HO
  isplitl [H0]; · iexact H0
  isplitl [H5]; · iexact H5
  isplitl [H6]; · iexact H6
  iexact H7

/-- Part 11: the sum of chunk 0 is stored; chunk 1 is received, loaded, summed and stored; chunk 2 is received and its kept rows loaded, which are the part's value. -/
theorem part11_run (K : GSem nD τ sig → ℕ) (c : Dev nD) (v5 v8 v9 : BitVec 32) (v292 : FVec F S512x1024 .f32)
    (hv : v292 = addf ((rowCh (oM : Memref sig .tc .vmem S4096x1024 .f32) 0).view.read (Elt F) (keepFull m c))
                      ((rowCh (rM : Memref sig .tc .vmem S4096x1024 .f32) 0).view.read (Elt F) (recvFull m c)))
    (W : Waits sig Unit) {α : Type} {Q : α → sProp 𝕄} {k : FVec F S512x1024 .f32 → Prog (TpuEff nD τ sig (Elt F) Λ₀ .tc) α} :
    iprop((CP m K c 0 ∗ CP m K c 1 ∗ CP m K c 2) ∗ levAts L lv ∗ owes (c : Thread nD τ) 0 W
        ∗ (B3 m c 0 ∗ B2 m c 1 ∗ B2 m c 2)
        ∗ (∀ W' : Waits sig Unit, (owes (c : Thread nD τ) 0 W' ∗ B4 m c 0 ∗ B4 m c 1 ∗ B3 m c 2)
            -∗ wp frame (wpE (defs₀ (F := F)) 𝒱₀ (c : Thread nD τ) none) Set.univ
                (k (Gen.k0_pay3 ((rowCh (oM : Memref sig .tc .vmem S4096x1024 .f32) 2).view.read (Elt F) (keepFull m c)))) Q))
      ⊢ wp frame (wpE (defs₀ (F := F)) 𝒱₀ (c : Thread nD τ) none) Set.univ
          ((k0_part11 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v292) >>= k) Q := by
  subst hv
  have e : ∀ v w : Vec F S512x1024 .f32, Gen.k0_pay2 v w = addf v w := fun v w => addf_cast v w _
  rw [Gen.k0_part11_eq_skeleton]; unfold Gen.k0_part11_skel
  simp only [Prog.lift, Prog.bind_op, Prog.bind_ret, Prog.pure_eq_ret, e]
  iintro ⟨⟨#P0, #P1, #P2⟩, #Hlev, HO, ⟨H0, H1, H2⟩, Hk⟩
  iapply (st_store m c 0 rfl) $$ [H0]
  · iexact H0
  iintro H0
  iapply (st_wait_recv m K c 1 (credit_rows rM 1) _) $$ [HO H1]
  · isplitr; · iexact P1
    isplitl [HO]; · iexact HO
    iexact H1
  iintro ⟨HO, H1⟩
  iapply (st_load_o m c 1) $$ [H1]
  · iexact H1
  iintro H1
  iapply (st_load_r m c 1) $$ [H1]
  · iexact H1
  iintro H1
  iapply (st_load_o m c 1) $$ [H1]
  · iexact H1
  iintro H1
  iapply (st_store m c 1 rfl) $$ [H1]
  · iexact H1
  iintro H1
  iapply (st_wait_recv m K c 2 (credit_rows rM 2) _) $$ [HO H2]
  · isplitr; · iexact P2
    isplitl [HO]; · iexact HO
    iexact H2
  iintro ⟨HO, H2⟩
  iapply (st_load_o m c 2) $$ [H2]
  · iexact H2
  iintro H2
  iapply Hk
  isplitl [HO]; · iexact HO
  isplitl [H0]; · iexact H0
  isplitl [H1]; · iexact H1
  iexact H2

/-- Part 12: the received rows of chunk 2 are loaded and its sum stored; chunk 3 is received, loaded, summed and stored. -/
theorem part12_run (K : GSem nD τ sig → ℕ) (c : Dev nD) (v5 v8 v9 : BitVec 32) (v320 : FVec F S512x1024 .f32)
    (hv : ∀ w, addf v320 w = addf ((rowCh (oM : Memref sig .tc .vmem S4096x1024 .f32) 2).view.read (Elt F) (keepFull m c)) w)
    (W : Waits sig Unit) {α : Type} {Q : α → sProp 𝕄} {k : PUnit → Prog (TpuEff nD τ sig (Elt F) Λ₀ .tc) α} :
    iprop((CP m K c 2 ∗ CP m K c 3) ∗ levAts L lv ∗ owes (c : Thread nD τ) 0 W
        ∗ (B3 m c 2 ∗ B2 m c 3)
        ∗ (∀ W' : Waits sig Unit, (owes (c : Thread nD τ) 0 W' ∗ B4 m c 2 ∗ B4 m c 3)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part12 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v320) >>= k) Q := by
  have e4 : ∀ v w : Vec F S512x1024 .f32, Gen.k0_pay4 v w = addf v w := fun _ _ => rfl
  have e5 : ∀ v w : Vec F S512x1024 .f32, Gen.k0_pay5 v w = addf v w := fun v w => addf_cast v w _
  rw [Gen.k0_part12_eq_skeleton]; unfold Gen.k0_part12_skel
  simp only [Prog.lift, Prog.bind_op, Prog.bind_ret, Prog.pure_eq_ret, e4, e5]
  iintro ⟨⟨#P2, #P3⟩, #Hlev, HO, ⟨H2, H3⟩, Hk⟩
  iapply (st_load_r m c 2) $$ [H2]
  · iexact H2
  iintro H2
  iapply (st_load_o m c 2) $$ [H2]
  · iexact H2
  iintro H2
  iapply (st_store m c 2 (hv _)) $$ [H2]
  · iexact H2
  iintro H2
  iapply (st_wait_recv m K c 3 (credit_rows rM 3) _) $$ [HO H3]
  · isplitr; · iexact P3
    isplitl [HO]; · iexact HO
    iexact H3
  iintro ⟨HO, H3⟩
  iapply (st_load_o m c 3) $$ [H3]
  · iexact H3
  iintro H3
  iapply (st_load_r m c 3) $$ [H3]
  · iexact H3
  iintro H3
  iapply (st_load_o m c 3) $$ [H3]
  · iexact H3
  iintro H3
  iapply (st_store m c 3 rfl) $$ [H3]
  · iexact H3
  iintro H3
  iapply Hk
  isplitl [HO]; · iexact HO
  isplitl [H2]; · iexact H2
  iexact H3

/-! ## The second branch: devices that keep half 1. The same steps on the same buffers. -/

/-- Part 25: as part 10. -/
theorem part25_run (K : GSem nD τ sig → ℕ) (c : Dev nD) (v5 v8 v9 : BitVec 32) (W : Waits sig Unit)
    {α : Type} {Q : α → sProp 𝕄} {k : FVec F S512x1024 .f32 → Prog (TpuEff nD τ sig (Elt F) Λ₀ .tc) α} :
    iprop((CP m K c 0 ∗ CP m K c 5 ∗ CP m K c 6 ∗ CP m K c 7) ∗ levAts L lv ∗ owes (c : Thread nD τ) 0 W
        ∗ (B2 m c 0 ∗ B1 (F := F) c 5 ∗ B1 (F := F) c 6 ∗ B1 (F := F) c 7)
        ∗ (∀ W' : Waits sig Unit, (owes (c : Thread nD τ) 0 W' ∗ B3 m c 0 ∗ B2 m c 5 ∗ B2 m c 6 ∗ B2 m c 7)
            -∗ wp frame (wpE (defs₀ (F := F)) 𝒱₀ (c : Thread nD τ) none) Set.univ
                (k (addf ((rowCh (oM : Memref sig .tc .vmem S4096x1024 .f32) 0).view.read (Elt F) (keepFull m c))
                         ((rowCh (rM : Memref sig .tc .vmem S4096x1024 .f32) 0).view.read (Elt F) (recvFull m c)))) Q))
      ⊢ wp frame (wpE (defs₀ (F := F)) 𝒱₀ (c : Thread nD τ) none) Set.univ
          ((k0_part25 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  have e : ∀ v w : Vec F S512x1024 .f32, Gen.k0_pay10 v w = addf v w := fun v w => addf_cast v w _
  rw [Gen.k0_part25_eq_skeleton]; unfold Gen.k0_part25_skel
  simp only [Prog.lift, Prog.bind_op, Prog.bind_ret, Prog.pure_eq_ret, e]
  iintro ⟨⟨#P0, #P5, #P6, #P7⟩, #Hlev, HO, ⟨H0, H5, H6, H7⟩, Hk⟩
  iapply (st_wait_keep m K c 5 (credit_rows oM 5) 0 (recvOnly_zero c) _) $$ [HO H5]
  · isplitr; · iexact P5
    isplitr; · iexact Hlev
    isplitl [HO]; · iexact HO
    iexact H5
  iintro ⟨HO, H5⟩
  iapply (st_wait_keep m K c 6 (credit_rows oM 6) 0 (recvOnly_zero c) _) $$ [HO H6]
  · isplitr; · iexact P6
    isplitr; · iexact Hlev
    isplitl [HO]; · iexact HO
    iexact H6
  iintro ⟨HO, H6⟩
  iapply (st_wait_keep m K c 7 (credit_rows oM 7) 0 (recvOnly_zero c) _) $$ [HO H7]
  · isplitr; · iexact P7
    isplitr; · iexact Hlev
    isplitl [HO]; · iexact HO
    iexact H7
  iintro ⟨HO, H7⟩
  iapply (st_wait_recv m K c 0 (credit_rows rM 0) _) $$ [HO H0]
  · isplitr; · iexact P0
    isplitl [HO]; · iexact HO
    iexact H0
  iintro ⟨HO, H0⟩
  iapply (st_load_o m c 0) $$ [H0]
  · iexact H0
  iintro H0
  iapply (st_load_r m c 0) $$ [H0]
  · iexact H0
  iintro H0
  iapply (st_load_o m c 0) $$ [H0]
  · iexact H0
  iintro H0
  iapply Hk
  isplitl [HO]; · iexact HO
  isplitl [H0]; · iexact H0
  isplitl [H5]; · iexact H5
  isplitl [H6]; · iexact H6
  iexact H7

/-- Part 26: as part 11. -/
theorem part26_run (K : GSem nD τ sig → ℕ) (c : Dev nD) (v5 v8 v9 : BitVec 32) (v292 : FVec F S512x1024 .f32)
    (hv : v292 = addf ((rowCh (oM : Memref sig .tc .vmem S4096x1024 .f32) 0).view.read (Elt F) (keepFull m c))
                      ((rowCh (rM : Memref sig .tc .vmem S4096x1024 .f32) 0).view.read (Elt F) (recvFull m c)))
    (W : Waits sig Unit) {α : Type} {Q : α → sProp 𝕄} {k : FVec F S512x1024 .f32 → Prog (TpuEff nD τ sig (Elt F) Λ₀ .tc) α} :
    iprop((CP m K c 0 ∗ CP m K c 1 ∗ CP m K c 2) ∗ levAts L lv ∗ owes (c : Thread nD τ) 0 W
        ∗ (B3 m c 0 ∗ B2 m c 1 ∗ B2 m c 2)
        ∗ (∀ W' : Waits sig Unit, (owes (c : Thread nD τ) 0 W' ∗ B4 m c 0 ∗ B4 m c 1 ∗ B3 m c 2)
            -∗ wp frame (wpE (defs₀ (F := F)) 𝒱₀ (c : Thread nD τ) none) Set.univ
                (k (Gen.k0_pay12 ((rowCh (oM : Memref sig .tc .vmem S4096x1024 .f32) 2).view.read (Elt F) (keepFull m c)))) Q))
      ⊢ wp frame (wpE (defs₀ (F := F)) 𝒱₀ (c : Thread nD τ) none) Set.univ
          ((k0_part26 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v292) >>= k) Q := by
  subst hv
  have e : ∀ v w : Vec F S512x1024 .f32, Gen.k0_pay11 v w = addf v w := fun v w => addf_cast v w _
  rw [Gen.k0_part26_eq_skeleton]; unfold Gen.k0_part26_skel
  simp only [Prog.lift, Prog.bind_op, Prog.bind_ret, Prog.pure_eq_ret, e]
  iintro ⟨⟨#P0, #P1, #P2⟩, #Hlev, HO, ⟨H0, H1, H2⟩, Hk⟩
  iapply (st_store m c 0 rfl) $$ [H0]
  · iexact H0
  iintro H0
  iapply (st_wait_recv m K c 1 (credit_rows rM 1) _) $$ [HO H1]
  · isplitr; · iexact P1
    isplitl [HO]; · iexact HO
    iexact H1
  iintro ⟨HO, H1⟩
  iapply (st_load_o m c 1) $$ [H1]
  · iexact H1
  iintro H1
  iapply (st_load_r m c 1) $$ [H1]
  · iexact H1
  iintro H1
  iapply (st_load_o m c 1) $$ [H1]
  · iexact H1
  iintro H1
  iapply (st_store m c 1 rfl) $$ [H1]
  · iexact H1
  iintro H1
  iapply (st_wait_recv m K c 2 (credit_rows rM 2) _) $$ [HO H2]
  · isplitr; · iexact P2
    isplitl [HO]; · iexact HO
    iexact H2
  iintro ⟨HO, H2⟩
  iapply (st_load_o m c 2) $$ [H2]
  · iexact H2
  iintro H2
  iapply Hk
  isplitl [HO]; · iexact HO
  isplitl [H0]; · iexact H0
  isplitl [H1]; · iexact H1
  iexact H2

/-- Part 27: as part 12. -/
theorem part27_run (K : GSem nD τ sig → ℕ) (c : Dev nD) (v5 v8 v9 : BitVec 32) (v320 : FVec F S512x1024 .f32)
    (hv : ∀ w, addf v320 w = addf ((rowCh (oM : Memref sig .tc .vmem S4096x1024 .f32) 2).view.read (Elt F) (keepFull m c)) w)
    (W : Waits sig Unit) {α : Type} {Q : α → sProp 𝕄} {k : PUnit → Prog (TpuEff nD τ sig (Elt F) Λ₀ .tc) α} :
    iprop((CP m K c 2 ∗ CP m K c 3) ∗ levAts L lv ∗ owes (c : Thread nD τ) 0 W
        ∗ (B3 m c 2 ∗ B2 m c 3)
        ∗ (∀ W' : Waits sig Unit, (owes (c : Thread nD τ) 0 W' ∗ B4 m c 2 ∗ B4 m c 3)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part27 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v320) >>= k) Q := by
  have e4 : ∀ v w : Vec F S512x1024 .f32, Gen.k0_pay13 v w = addf v w := fun _ _ => rfl
  have e5 : ∀ v w : Vec F S512x1024 .f32, Gen.k0_pay14 v w = addf v w := fun v w => addf_cast v w _
  rw [Gen.k0_part27_eq_skeleton]; unfold Gen.k0_part27_skel
  simp only [Prog.lift, Prog.bind_op, Prog.bind_ret, Prog.pure_eq_ret, e4, e5]
  iintro ⟨⟨#P2, #P3⟩, #Hlev, HO, ⟨H2, H3⟩, Hk⟩
  iapply (st_load_r m c 2) $$ [H2]
  · iexact H2
  iintro H2
  iapply (st_load_o m c 2) $$ [H2]
  · iexact H2
  iintro H2
  iapply (st_store m c 2 (hv _)) $$ [H2]
  · iexact H2
  iintro H2
  iapply (st_wait_recv m K c 3 (credit_rows rM 3) _) $$ [HO H3]
  · isplitr; · iexact P3
    isplitl [HO]; · iexact HO
    iexact H3
  iintro ⟨HO, H3⟩
  iapply (st_load_o m c 3) $$ [H3]
  · iexact H3
  iintro H3
  iapply (st_load_r m c 3) $$ [H3]
  · iexact H3
  iintro H3
  iapply (st_load_o m c 3) $$ [H3]
  · iexact H3
  iintro H3
  iapply (st_store m c 3 rfl) $$ [H3]
  · iexact H3
  iintro H3
  iapply Hk
  isplitl [HO]; · iexact HO
  isplitl [H2]; · iexact H2
  iexact H3

/-- info: 'Cert.Kernel.RS.part10_run' depends on axioms: [propext, Classical.choice, Quot.sound] -/
#guard_msgs in #print axioms part10_run

/-- info: 'Cert.Kernel.RS.part11_run' depends on axioms: [propext, Classical.choice, Quot.sound] -/
#guard_msgs in #print axioms part11_run

/-- info: 'Cert.Kernel.RS.part12_run' depends on axioms: [propext, Classical.choice, Quot.sound] -/
#guard_msgs in #print axioms part12_run

/-- info: 'Cert.Kernel.RS.part25_run' depends on axioms: [propext, Classical.choice, Quot.sound] -/
#guard_msgs in #print axioms part25_run

/-- info: 'Cert.Kernel.RS.part26_run' depends on axioms: [propext, Classical.choice, Quot.sound] -/
#guard_msgs in #print axioms part26_run

/-- info: 'Cert.Kernel.RS.part27_run' depends on axioms: [propext, Classical.choice, Quot.sound] -/
#guard_msgs in #print axioms part27_run

end Cert.Kernel.RS

end
-- ==== Proof.Kernel.PartsE.lean ====
/-
  The last three printed parts of each branch of one device's body.
  In each branch: the partner's rows of chunks 4 and 5, then of chunks 6 and 7, are waited for and added to the kept
  rows (wait on the receive cell, load the kept rows, load the received rows, store their sum); then the device waits
  for its own transfers of chunks 0 to 4 to have left. Nothing here depends on which half is kept, so the two
  branches' parts are proved by the same steps.
-/
import proofs.«901041_g7700000000001042_dist_rs_v7x_xyz2x4x4_x_m4096_n1024_f32_1_alg».proof.Proof.Kernel.States
import proofs.«901041_g7700000000001042_dist_rs_v7x_xyz2x4x4_x_m4096_n1024_f32_1_alg».proof.Proof.Kernel.Levels

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed sums -/

/-- Each printed sum of a part is the sum of the two vectors it is given: the cast of the first to its own shape changes nothing. -/
theorem pay6_eq (v w : Vec F S512x1024 .f32) : k0_pay6 v w = addf v w := addf_cast v w _
theorem pay7_eq (v w : Vec F S512x1024 .f32) : k0_pay7 v w = addf v w := addf_cast v w _
theorem pay8_eq (v w : Vec F S512x1024 .f32) : k0_pay8 v w = addf v w := addf_cast v w _
theorem pay9_eq (v w : Vec F S512x1024 .f32) : k0_pay9 v w = addf v w := addf_cast v w _
theorem pay15_eq (v w : Vec F S512x1024 .f32) : k0_pay15 v w = addf v w := addf_cast v w _
theorem pay16_eq (v w : Vec F S512x1024 .f32) : k0_pay16 v w = addf v w := addf_cast v w _
theorem pay17_eq (v w : Vec F S512x1024 .f32) : k0_pay17 v w = addf v w := addf_cast v w _
theorem pay18_eq (v w : Vec F S512x1024 .f32) : k0_pay18 v w = addf v w := addf_cast v w _

/-! ## The first branch -/

/-- The thirteenth part of the first branch: the partner's rows of chunks 4 and 5 are awaited and added to the kept rows. -/
theorem part13_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 4 ∗ CP m K c 5) ∗ levAts L lv ∗ owes (c : Thread nD τ) 0 W
        ∗ (B2 m c 4 ∗ B2 m c 5)
        ∗ (∀ W' : Waits sig Unit, (owes (c : Thread nD τ) 0 W' ∗ B4 m c 4 ∗ B4 m c 5)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part13 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part13_eq_skeleton]; unfold Gen.k0_part13_skel
  simp only [Prog.lift, Prog.bind_op, Prog.bind_ret, Prog.pure_eq_ret]
  iintro ⟨⟨#P4, #P5⟩, #Hlev, HO, ⟨H4, H5⟩, Hk⟩
  iapply (st_wait_recv m K c 4 (credit_rows rM 4) _) $$ [HO H4]
  · isplitr; · iexact P4
    isplitl [HO]; · iexact HO
    iexact H4
  iintro ⟨HO, H4⟩
  iapply (st_load_o m c 4) $$ [H4]
  · iexact H4
  iintro H4
  iapply (st_load_r m c 4) $$ [H4]
  · iexact H4
  iintro H4
  iapply (st_load_o m c 4) $$ [H4]
  · iexact H4
  iintro H4
  iapply (st_store m c 4 (pay6_eq _ _)) $$ [H4]
  · iexact H4
  iintro H4
  iapply (st_wait_recv m K c 5 (credit_rows rM 5) _) $$ [HO H5]
  · isplitr; · iexact P5
    isplitl [HO]; · iexact HO
    iexact H5
  iintro ⟨HO, H5⟩
  iapply (st_load_o m c 5) $$ [H5]
  · iexact H5
  iintro H5
  iapply (st_load_r m c 5) $$ [H5]
  · iexact H5
  iintro H5
  iapply (st_load_o m c 5) $$ [H5]
  · iexact H5
  iintro H5
  iapply (st_store m c 5 (pay7_eq _ _)) $$ [H5]
  · iexact H5
  iintro H5
  iapply Hk
  isplitl [HO]; · iexact HO
  isplitl [H4]; · iexact H4
  iexact H5

/-- The fourteenth part of the first branch: the same for chunks 6 and 7. -/
theorem part14_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 6 ∗ CP m K c 7) ∗ levAts L lv ∗ owes (c : Thread nD τ) 0 W
        ∗ (B2 m c 6 ∗ B2 m c 7)
        ∗ (∀ W' : Waits sig Unit, (owes (c : Thread nD τ) 0 W' ∗ B4 m c 6 ∗ B4 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part14 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part14_eq_skeleton]; unfold Gen.k0_part14_skel
  simp only [Prog.lift, Prog.bind_op, Prog.bind_ret, Prog.pure_eq_ret]
  iintro ⟨⟨#P6, #P7⟩, #Hlev, HO, ⟨H6, H7⟩, Hk⟩
  iapply (st_wait_recv m K c 6 (credit_rows rM 6) _) $$ [HO H6]
  · isplitr; · iexact P6
    isplitl [HO]; · iexact HO
    iexact H6
  iintro ⟨HO, H6⟩
  iapply (st_load_o m c 6) $$ [H6]
  · iexact H6
  iintro H6
  iapply (st_load_r m c 6) $$ [H6]
  · iexact H6
  iintro H6
  iapply (st_load_o m c 6) $$ [H6]
  · iexact H6
  iintro H6
  iapply (st_store m c 6 (pay8_eq _ _)) $$ [H6]
  · iexact H6
  iintro H6
  iapply (st_wait_recv m K c 7 (credit_rows rM 7) _) $$ [HO H7]
  · isplitr; · iexact P7
    isplitl [HO]; · iexact HO
    iexact H7
  iintro ⟨HO, H7⟩
  iapply (st_load_o m c 7) $$ [H7]
  · iexact H7
  iintro H7
  iapply (st_load_r m c 7) $$ [H7]
  · iexact H7
  iintro H7
  iapply (st_load_o m c 7) $$ [H7]
  · iexact H7
  iintro H7
  iapply (st_store m c 7 (pay9_eq _ _)) $$ [H7]
  · iexact H7
  iintro H7
  iapply Hk
  isplitl [HO]; · iexact HO
  isplitl [H6]; · iexact H6
  iexact H7

/-- The fifteenth part of the first branch: the device's own transfers of chunks 0 to 4 have left. -/
theorem part15_run (K : GSem nD τ sig → ℕ) (c : Dev nD)
    (W : Waits sig Unit) {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (A3 m c 0 ∗ A3 m c 1 ∗ A3 m c 2 ∗ A3 m c 3 ∗ A3 m c 4)
        ∗ (∀ W' : Waits sig Unit, (owes (c : Thread nD τ) 0 W' ∗ A4 m c 0 ∗ A4 m c 1 ∗ A4 m c 2 ∗ A4 m c 3 ∗ A4 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part15 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part15_eq_skeleton]; unfold Gen.k0_part15_skel
  simp only [Prog.lift, Prog.bind_op, Prog.bind_ret, Prog.pure_eq_ret]
  iintro ⟨⟨#P0, #P1, #P2, #P3, #P4⟩, #Hlev, HO, ⟨H0, H1, H2, H3, H4⟩, Hk⟩
  iapply (st_wait_send m K c 0 (credit_rows sM 0) 0 (recvOnly_zero c) _) $$ [HO H0]
  · isplitr; · iexact P0
    isplitr; · iexact Hlev
    isplitl [HO]; · iexact HO
    iexact H0
  iintro ⟨HO, H0⟩
  iapply (st_wait_send m K c 1 (credit_rows sM 1) 0 (recvOnly_zero c) _) $$ [HO H1]
  · isplitr; · iexact P1
    isplitr; · iexact Hlev
    isplitl [HO]; · iexact HO
    iexact H1
  iintro ⟨HO, H1⟩
  iapply (st_wait_send m K c 2 (credit_rows sM 2) 0 (recvOnly_zero c) _) $$ [HO H2]
  · isplitr; · iexact P2
    isplitr; · iexact Hlev
    isplitl [HO]; · iexact HO
    iexact H2
  iintro ⟨HO, H2⟩
  iapply (st_wait_send m K c 3 (credit_rows sM 3) 0 (recvOnly_zero c) _) $$ [HO H3]
  · isplitr; · iexact P3
    isplitr; · iexact Hlev
    isplitl [HO]; · iexact HO
    iexact H3
  iintro ⟨HO, H3⟩
  iapply (st_wait_send m K c 4 (credit_rows sM 4) 0 (recvOnly_zero c) _) $$ [HO H4]
  · isplitr; · iexact P4
    isplitr; · iexact Hlev
    isplitl [HO]; · iexact HO
    iexact H4
  iintro ⟨HO, H4⟩
  iapply Hk
  isplitl [HO]; · iexact HO
  isplitl [H0]; · iexact H0
  isplitl [H1]; · iexact H1
  isplitl [H2]; · iexact H2
  isplitl [H3]; · iexact H3
  iexact H4

/-! ## The second branch -/

/-- The thirteenth part of the second branch: the partner's rows of chunks 4 and 5 are awaited and added to the kept rows. -/
theorem part28_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 4 ∗ CP m K c 5) ∗ levAts L lv ∗ owes (c : Thread nD τ) 0 W
        ∗ (B2 m c 4 ∗ B2 m c 5)
        ∗ (∀ W' : Waits sig Unit, (owes (c : Thread nD τ) 0 W' ∗ B4 m c 4 ∗ B4 m c 5)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part28 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part28_eq_skeleton]; unfold Gen.k0_part28_skel
  simp only [Prog.lift, Prog.bind_op, Prog.bind_ret, Prog.pure_eq_ret]
  iintro ⟨⟨#P4, #P5⟩, #Hlev, HO, ⟨H4, H5⟩, Hk⟩
  iapply (st_wait_recv m K c 4 (credit_rows rM 4) _) $$ [HO H4]
  · isplitr; · iexact P4
    isplitl [HO]; · iexact HO
    iexact H4
  iintro ⟨HO, H4⟩
  iapply (st_load_o m c 4) $$ [H4]
  · iexact H4
  iintro H4
  iapply (st_load_r m c 4) $$ [H4]
  · iexact H4
  iintro H4
  iapply (st_load_o m c 4) $$ [H4]
  · iexact H4
  iintro H4
  iapply (st_store m c 4 (pay15_eq _ _)) $$ [H4]
  · iexact H4
  iintro H4
  iapply (st_wait_recv m K c 5 (credit_rows rM 5) _) $$ [HO H5]
  · isplitr; · iexact P5
    isplitl [HO]; · iexact HO
    iexact H5
  iintro ⟨HO, H5⟩
  iapply (st_load_o m c 5) $$ [H5]
  · iexact H5
  iintro H5
  iapply (st_load_r m c 5) $$ [H5]
  · iexact H5
  iintro H5
  iapply (st_load_o m c 5) $$ [H5]
  · iexact H5
  iintro H5
  iapply (st_store m c 5 (pay16_eq _ _)) $$ [H5]
  · iexact H5
  iintro H5
  iapply Hk
  isplitl [HO]; · iexact HO
  isplitl [H4]; · iexact H4
  iexact H5

/-- The fourteenth part of the second branch: the same for chunks 6 and 7. -/
theorem part29_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 6 ∗ CP m K c 7) ∗ levAts L lv ∗ owes (c : Thread nD τ) 0 W
        ∗ (B2 m c 6 ∗ B2 m c 7)
        ∗ (∀ W' : Waits sig Unit, (owes (c : Thread nD τ) 0 W' ∗ B4 m c 6 ∗ B4 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part29 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part29_eq_skeleton]; unfold Gen.k0_part29_skel
  simp only [Prog.lift, Prog.bind_op, Prog.bind_ret, Prog.pure_eq_ret]
  iintro ⟨⟨#P6, #P7⟩, #Hlev, HO, ⟨H6, H7⟩, Hk⟩
  iapply (st_wait_recv m K c 6 (credit_rows rM 6) _) $$ [HO H6]
  · isplitr; · iexact P6
    isplitl [HO]; · iexact HO
    iexact H6
  iintro ⟨HO, H6⟩
  iapply (st_load_o m c 6) $$ [H6]
  · iexact H6
  iintro H6
  iapply (st_load_r m c 6) $$ [H6]
  · iexact H6
  iintro H6
  iapply (st_load_o m c 6) $$ [H6]
  · iexact H6
  iintro H6
  iapply (st_store m c 6 (pay17_eq _ _)) $$ [H6]
  · iexact H6
  iintro H6
  iapply (st_wait_recv m K c 7 (credit_rows rM 7) _) $$ [HO H7]
  · isplitr; · iexact P7
    isplitl [HO]; · iexact HO
    iexact H7
  iintro ⟨HO, H7⟩
  iapply (st_load_o m c 7) $$ [H7]
  · iexact H7
  iintro H7
  iapply (st_load_r m c 7) $$ [H7]
  · iexact H7
  iintro H7
  iapply (st_load_o m c 7) $$ [H7]
  · iexact H7
  iintro H7
  iapply (st_store m c 7 (pay18_eq _ _)) $$ [H7]
  · iexact H7
  iintro H7
  iapply Hk
  isplitl [HO]; · iexact HO
  isplitl [H6]; · iexact H6
  iexact H7

/-- The fifteenth part of the second branch: the device's own transfers of chunks 0 to 4 have left. -/
theorem part30_run (K : GSem nD τ sig → ℕ) (c : Dev nD)
    (W : Waits sig Unit) {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (A3 m c 0 ∗ A3 m c 1 ∗ A3 m c 2 ∗ A3 m c 3 ∗ A3 m c 4)
        ∗ (∀ W' : Waits sig Unit, (owes (c : Thread nD τ) 0 W' ∗ A4 m c 0 ∗ A4 m c 1 ∗ A4 m c 2 ∗ A4 m c 3 ∗ A4 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part30 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part30_eq_skeleton]; unfold Gen.k0_part30_skel
  simp only [Prog.lift, Prog.bind_op, Prog.bind_ret, Prog.pure_eq_ret]
  iintro ⟨⟨#P0, #P1, #P2, #P3, #P4⟩, #Hlev, HO, ⟨H0, H1, H2, H3, H4⟩, Hk⟩
  iapply (st_wait_send m K c 0 (credit_rows sM 0) 0 (recvOnly_zero c) _) $$ [HO H0]
  · isplitr; · iexact P0
    isplitr; · iexact Hlev
    isplitl [HO]; · iexact HO
    iexact H0
  iintro ⟨HO, H0⟩
  iapply (st_wait_send m K c 1 (credit_rows sM 1) 0 (recvOnly_zero c) _) $$ [HO H1]
  · isplitr; · iexact P1
    isplitr; · iexact Hlev
    isplitl [HO]; · iexact HO
    iexact H1
  iintro ⟨HO, H1⟩
  iapply (st_wait_send m K c 2 (credit_rows sM 2) 0 (recvOnly_zero c) _) $$ [HO H2]
  · isplitr; · iexact P2
    isplitr; · iexact Hlev
    isplitl [HO]; · iexact HO
    iexact H2
  iintro ⟨HO, H2⟩
  iapply (st_wait_send m K c 3 (credit_rows sM 3) 0 (recvOnly_zero c) _) $$ [HO H3]
  · isplitr; · iexact P3
    isplitr; · iexact Hlev
    isplitl [HO]; · iexact HO
    iexact H3
  iintro ⟨HO, H3⟩
  iapply (st_wait_send m K c 4 (credit_rows sM 4) 0 (recvOnly_zero c) _) $$ [HO H4]
  · isplitr; · iexact P4
    isplitr; · iexact Hlev
    isplitl [HO]; · iexact HO
    iexact H4
  iintro ⟨HO, H4⟩
  iapply Hk
  isplitl [HO]; · iexact HO
  isplitl [H0]; · iexact H0
  isplitl [H1]; · iexact H1
  isplitl [H2]; · iexact H2
  isplitl [H3]; · iexact H3
  iexact H4

/-- info: 'Cert.Kernel.RS.part13_run' depends on axioms: [propext, Classical.choice, Quot.sound] -/
#guard_msgs in #print axioms part13_run

/-- info: 'Cert.Kernel.RS.part14_run' depends on axioms: [propext, Classical.choice, Quot.sound] -/
#guard_msgs in #print axioms part14_run

/-- info: 'Cert.Kernel.RS.part15_run' depends on axioms: [propext, Classical.choice, Quot.sound] -/
#guard_msgs in #print axioms part15_run

/-- info: 'Cert.Kernel.RS.part28_run' depends on axioms: [propext, Classical.choice, Quot.sound] -/
#guard_msgs in #print axioms part28_run

/-- info: 'Cert.Kernel.RS.part29_run' depends on axioms: [propext, Classical.choice, Quot.sound] -/
#guard_msgs in #print axioms part29_run

/-- info: 'Cert.Kernel.RS.part30_run' depends on axioms: [propext, Classical.choice, Quot.sound] -/
#guard_msgs in #print axioms part30_run

end Cert.Kernel.RS

end
-- ==== Proof.Kernel.Body.lean ====
/-
  One device's body, from what it starts with to what it leaves.
  The device signals its partner's barrier cell and waits on its own; cuts its block into sixteen chunks and its three
  buffers into eight; issues the eight staging and the eight keeping copies; for each chunk waits for its staging copy
  and sends it to its partner; waits for the keeping copies; for each chunk waits for its partner's transfer, adds the
  received rows to the kept rows; waits for its own transfers to have left; and joins the chunks again.
-/
import proofs.«901041_g7700000000001042_dist_rs_v7x_xyz2x4x4_x_m4096_n1024_f32_1_alg».proof.Proof.Kernel.Proto
import proofs.«901041_g7700000000001042_dist_rs_v7x_xyz2x4x4_x_m4096_n1024_f32_1_alg».proof.Proof.Kernel.Landing
import proofs.«901041_g7700000000001042_dist_rs_v7x_xyz2x4x4_x_m4096_n1024_f32_1_alg».proof.Proof.Kernel.Levels
import proofs.«901041_g7700000000001042_dist_rs_v7x_xyz2x4x4_x_m4096_n1024_f32_1_alg».proof.Proof.Kernel.Steps
import proofs.«901041_g7700000000001042_dist_rs_v7x_xyz2x4x4_x_m4096_n1024_f32_1_alg».proof.Proof.Kernel.States
import proofs.«901041_g7700000000001042_dist_rs_v7x_xyz2x4x4_x_m4096_n1024_f32_1_alg».proof.Proof.Kernel.Exit
import proofs.«901041_g7700000000001042_dist_rs_v7x_xyz2x4x4_x_m4096_n1024_f32_1_alg».proof.Proof.Kernel.PartsA
import proofs.«901041_g7700000000001042_dist_rs_v7x_xyz2x4x4_x_m4096_n1024_f32_1_alg».proof.Proof.Kernel.PartsB
import proofs.«901041_g7700000000001042_dist_rs_v7x_xyz2x4x4_x_m4096_n1024_f32_1_alg».proof.Proof.Kernel.PartsC
import proofs.«901041_g7700000000001042_dist_rs_v7x_xyz2x4x4_x_m4096_n1024_f32_1_alg».proof.Proof.Kernel.PartsD
import proofs.«901041_g7700000000001042_dist_rs_v7x_xyz2x4x4_x_m4096_n1024_f32_1_alg».proof.Proof.Kernel.PartsE
import proofs.«901041_g7700000000001042_dist_rs_v7x_xyz2x4x4_x_m4096_n1024_f32_1_alg».proof.Proof.Gen.Kernel.Skeleton

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body starts from: the invariant before the point, what is owed, and the result's staging buffer. -/
def bodyPre (c : Dev nD) : sProp 𝕄 :=
  iprop(Φ₀ m c ∗ (dats (F := F) m ρ 0 c).owesAt () t₀.castSucc
    ∗ (∃ d, owns (c : Thread nD τ) (oM : Memref sig .tc .vmem S4096x1024 .f32) fullShare ((dats (F := F) m ρ 0 c).before (0 : Fin 1) t₀ d)))

/-- What it leaves: the invariant after the point, nothing owed, the staging buffer at the sum. -/
def bodyPost (c : Dev nD) : sProp 𝕄 :=
  iprop(Φ₁ m c ∗ (dats (F := F) m ρ 0 c).owesAt () t₀.succ
    ∗ owns (c : Thread nD τ) (oM : Memref sig .tc .vmem S4096x1024 .f32) fullShare (sumFull m c))

/-- A whole buffer held outright, as the elements of its whole memref. -/
theorem pointsTo_whole (c : Dev nD) (b : Ref sig .tc) (f : Buf (Elt F) ((c : Thread nD τ).loc b)) :
    ((c : Thread nD τ).loc b ↦{fullShare} f : sProp 𝕄)
      = ((Memref.whole b).view.loc (c : Thread nD τ) ↦[(Memref.whole b).view.set]{fullShare} f) := by
  simp only [Memref.view_whole, View.set_whole] <;> rfl

/-- The chunks of a buffer held at one contents are chunks held at some contents. -/
theorem piece_ex {sp : Space} (c : Dev nD) (M : Memref sig .tc sp S4096x1024 .f32) (i : Fin 8) (f : Buf (Elt F) (M.view.loc (c : Thread nD τ))) :
    piece (F := F) c M i f ⊢ iprop(∃ g, piece (F := F) c M i g) := by
  iintro H; iexists f; iexact H
theorem pieces_ex {sp : Space} (c : Dev nD) (M : Memref sig .tc sp S4096x1024 .f32) (f : Buf (Elt F) (M.view.loc (c : Thread nD τ))) :
    (bigSep Finset.univ fun i : Fin 8 => piece (F := F) c M i f) ⊢ bigSep Finset.univ fun i : Fin 8 => iprop(∃ g, piece (F := F) c M i g) :=
  bigSep_mono fun i _ => piece_ex c M i f

/-- The block of the array cut into the chunks of the half a device sends and those of the half it keeps. -/
theorem x_halves (c : Dev nD) :
    (xWhole m c : sProp 𝕄) ⊢ iprop((bigSep Finset.univ fun i : Fin 8 => xpiece m c (sdH c) i) ∗ (bigSep Finset.univ fun i : Fin 8 => xpiece m c (kpH c) i)) := by
  refine (split_x m c).1.trans ?_
  rw [bigSep_univ_prod, bigSep_univ_two]
  dsimp only
  rcases (by decide : ∀ c : Dev nD, (sdH c = 1 ∧ kpH c = 0) ∨ (sdH c = 0 ∧ kpH c = 1)) c with ⟨h1, h2⟩ | ⟨h1, h2⟩
  · rw [h1, h2]; exact sep_comm.1
  · rw [h1, h2]

/-- What the partner's barrier signal hands over, spelt out. -/
theorem barPay_def (c : Dev nD) :
    barPay (F := F) c = iprop((∃ f, (rM : Memref sig .tc .vmem S4096x1024 .f32).view.loc (peer c : Thread nD τ) ↦[(rM : Memref sig .tc .vmem S4096x1024 .f32).view.set]{fullShare} f)
      ∗ bigSep Finset.univ fun i : Fin 8 => reached ER (recvCell (peer c) i) 0) := rfl

/-- A finished program's postcondition, under the update it may still make. -/
theorem wp_ret_of (c : Dev nD) (Kt : PUnit → sProp 𝕄) :
    iprop(|={Set.univ}[frame]=> Kt ⟨⟩) ⊢ wp frame (wpE (defs₀ (F := F)) 𝒱₀ (c : Thread nD τ) none) Set.univ (Prog.ret PUnit.unit) Kt := by
  rw [wp_ret]

/-- What the body leaves, assembled: nothing owed, the block as launched, the own semaphores at zero, the scratch buffers,
    and the result's staging buffer at the sum. -/
theorem post_intro (c : Dev nD) (W : Waits sig Unit) :
    iprop(owes (c : Thread nD τ) 0 W ∗ xWhole m c
        ∗ Pipeline.ownSems0 (Ix := Unit) (Name := ℕ) (U := UU) (Lvl := ℕ) (Val := Elt F) (τ := τ) osem c ∗ scratches c
        ∗ owns (c : Thread nD τ) (oM : Memref sig .tc .vmem S4096x1024 .f32) fullShare (sumFull m c))
      ⊢ bodyPost m ρ c := by
  unfold bodyPost Φ₁
  iintro ⟨HO, Hx, Hsem, Hscr, Hout⟩
  isplitl [Hx Hsem Hscr]; · iframe
  isplitl [HO]
  · iexists W
    isplitr; · ipureintro; exact fun _ _ => Or.inl trivial
    iexact HO
  iexact Hout

set_option maxHeartbeats 1600000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [Gen.cc0_body_eq_skeleton]; unfold Gen.cc0_body_skel
  simp only [semSignalWord, semWaitWord, Prog.lift, Prog.bind_op, Prog.bind_ret, Prog.pure_eq_ret, wp_deviceId]
  unfold bodyPre Φ₀ start scratches ghost invs payToks own33 owns
  beta_reduce
  iintro ⟨⟨⟨⟨⟨⟨%K, ⟨⟨#IB, #IS, #IK, #ID, #IR⟩, ⟨#JB, #JS, #JK, #JD, #JR⟩⟩, ⟨aB, aS, aK, aD, aR⟩, ⟨#rB, #rS, #rK, #rD, #rR⟩, ⟨#qB, #qS, #qK, #qD, #qR⟩, tB, tR, tS, tK, tD⟩,
    HcB, HcR, #Hlev⟩, Hx⟩, ⟨⟨%fr, Hr⟩, ⟨%fs, Hs⟩⟩⟩, Ho, ⟨%d, %fo, %hfo, Hout⟩⟩, Hk⟩
  icases Ho with ⟨%W, %hW, HO⟩
  -- the signal to the partner's barrier cell hands over this device's receive buffer
  ihave Hr' := (Entails.of_eq (pointsTo_whole c cc0_scratch0 fr)) $$ Hr
  iapply (wp_signal_peer m c _ (dev1_eq c) (K (barCell (peer c))) (OR0 c) rfl) $$ [HO tB Hr']
  · isplitr; · iexact JB
    isplitl [HO]; · iexact HO
    isplitl [tB]; · iexact tB
    isplitl [Hr']
    · isplitl [Hr']
      · iexists fr; iexact Hr'
      · iexact rR
    iexact qB
  iintro HO
  -- the wait on one's own barrier cell brings the partner's receive buffer
  iapply (wp_wait_bar m c (K (barCell c)) (OR0 c) _) $$ [HcB HO aB]
  · isplitr; · iexact IB
    isplitl [HcB]; · iexact HcB
    isplitl [HO]; · iexact HO
    isplitr; · iapply (mayWait_bar c (OR0 c) (recvOnly_OR0 c)); iexact Hlev
    iexact aB
  iintro ⟨HO, aB, Hbp⟩
  ihave Hbp' := (Entails.of_eq (barPay_def c)) $$ Hbp
  icases Hbp' with ⟨⟨%fn, HrP⟩, -⟩
  -- the three buffers and the block, cut into chunks, and the state regrouped chunk by chunk
  ihave HrP' := ((split_rows (peer c) rM (Memref.isWhole_whole _) fn).1.trans (pieces_ex (peer c) rM fn)) $$ HrP
  ihave Hs' := ((Entails.of_eq (pointsTo_whole c cc0_scratch1 fs)).trans ((split_rows c sM (Memref.isWhole_whole _) fs).1.trans (pieces_ex c sM fs))) $$ Hs
  ihave Ho' := ((split_rows c oM (Memref.isWhole_whole _) fo).1.trans (pieces_ex c oM fo)) $$ Hout
  ihave Hx' := (x_halves m c) $$ Hx
  icases Hx' with ⟨Hxs, Hxk⟩
  ihave HA := ((mk_A0 m c).trans (Entails.of_eq (univ8 _))) $$ [aS aD tS tD tR Hs' HrP' Hxs]
  · iframe
  ihave HB := ((mk_B0 m c).trans (Entails.of_eq (univ8 _))) $$ [aK aR tK HcR Ho' Hxk]
  · iframe
  ihave HP := ((mk_CP m K c).trans (Entails.of_eq (univ8 _))) $$ []
  · iframe # ∗
  icases HA with ⟨HA0, HA1, HA2, HA3, HA4, HA5, HA6, HA7⟩
  icases HB with ⟨HB0, HB1, HB2, HB3, HB4, HB5, HB6, HB7⟩
  icases HP with ⟨#P0, #P1, #P2, #P3, #P4, #P5, #P6, #P7⟩

  by_cases hc : c.val < 16
  · have h1 : k0_cond1 c = 1#1 := (cond1_iff c).2 hc
    have h2 : ¬ (k0_cond2 c = 1#1) := fun h => absurd ((cond2_iff c).1 h) (by omega)
    have hs : (1 : Fin 2) = sdH c := Fin.ext (by show (1 : ℕ) = 1 - c.val / 16; omega)
    have hk : (0 : Fin 2) = kpH c := Fin.ext (by show (0 : ℕ) = c.val / 16; omega)
    simp only [h1, h2, ↓reduceDIte]
    -- the eight staging copies and the eight keeping copies are issued
    iapply (part1_run m K c hs)
    isplitr; · iframe #
    isplitl [HA0 HA1 HA2 HA3 HA4]; · iframe
    iintro ⟨HA0, HA1, HA2, HA3, HA4⟩
    iapply (part2_run m K c hs hk)
    isplitr; · iframe #
    isplitl [HA5 HA6 HA7 HB0 HB1]; · iframe
    iintro ⟨HA5, HA6, HA7, HB0, HB1⟩
    iapply (part3_run m K c hk)
    isplitr; · iframe #
    isplitl [HB2 HB3 HB4 HB5 HB6]; · iframe
    iintro ⟨HB2, HB3, HB4, HB5, HB6⟩
    -- each chunk's staging copy is awaited and the chunk sent to the partner
    iapply (part4_run m K c hk _ _ _ h1 _)
    isplitr; · iframe #
    isplitr; · iexact Hlev
    isplitl [HO]; · iexact HO
    isplitl [HA0 HA1 HB7]; · iframe
    iintro %W1 ⟨HO, HA0, HA1, HB7⟩
    iapply (part5_run m K c _ _ _ h1 _)
    isplitr; · iframe #
    isplitr; · iexact Hlev
    isplitl [HO]; · iexact HO
    isplitl [HA1 HA2]; · iframe
    iintro %W2 ⟨HO, HA1, HA2⟩
    iapply (part6_run m K c _ _ _ h1 _)
    isplitr; · iframe #
    isplitr; · iexact Hlev
    isplitl [HO]; · iexact HO
    isplitl [HA3 HA4]; · iframe
    iintro %W3 ⟨HO, HA3, HA4⟩
    iapply (part7_run m K c _ _ _ h1 _)
    isplitr; · iframe #
    isplitr; · iexact Hlev
    isplitl [HO]; · iexact HO
    isplitl [HA4 HA5 HA6]; · iframe
    iintro %W4 %r7 ⟨HO, HA4, HA5, HA6⟩
    iapply (part8_run m K c _ _ _ h1 _ _)
    isplitr; · iframe #
    isplitr; · iexact Hlev
    isplitl [HO]; · iexact HO
    isplitl [HA6 HA7]; · iframe
    iintro %W5 ⟨HO, HA6, HA7⟩
    -- the keeping copies are awaited; chunk by chunk the partner's rows are awaited, added to the kept rows and stored
    iapply (part9_run m K c _)
    isplitr; · iframe #
    isplitr; · iexact Hlev
    isplitl [HO]; · iexact HO
    isplitl [HB0 HB1 HB2 HB3 HB4]; · iframe
    iintro %W6 ⟨HO, HB0, HB1, HB2, HB3, HB4⟩
    iapply (part10_run m K c _ _ _ _)
    isplitr; · iframe #
    isplitr; · iexact Hlev
    isplitl [HO]; · iexact HO
    isplitl [HB0 HB5 HB6 HB7]; · iframe
    iintro %W7 ⟨HO, HB0, HB5, HB6, HB7⟩
    iapply (part11_run m K c _ _ _ _ rfl _)
    isplitr; · iframe #
    isplitr; · iexact Hlev
    isplitl [HO]; · iexact HO
    isplitl [HB0 HB1 HB2]; · iframe
    iintro %W8 ⟨HO, HB0, HB1, HB2⟩
    iapply (part12_run m K c _ _ _ _ (fun w => addf_cast _ w _) _)
    isplitr; · iframe #
    isplitr; · iexact Hlev
    isplitl [HO]; · iexact HO
    isplitl [HB2 HB3]; · iframe
    iintro %W9 ⟨HO, HB2, HB3⟩
    iapply (part13_run m K c _ _ _ _)
    isplitr; · iframe #
    isplitr; · iexact Hlev
    isplitl [HO]; · iexact HO
    isplitl [HB4 HB5]; · iframe
    iintro %W10 ⟨HO, HB4, HB5⟩
    iapply (part14_run m K c _ _ _ _)
    isplitr; · iframe #
    isplitr; · iexact Hlev
    isplitl [HO]; · iexact HO
    isplitl [HB6 HB7]; · iframe
    iintro %W11 ⟨HO, HB6, HB7⟩
    -- one's own transfers are awaited: the first five in the last part, the last three after it
    iapply (part15_run m K c _)
    isplitr; · iframe #
    isplitr; · iexact Hlev
    isplitl [HO]; · iexact HO
    isplitl [HA0 HA1 HA2 HA3 HA4]; · iframe
    iintro %W12 ⟨HO, HA0, HA1, HA2, HA3, HA4⟩
    iapply (st_wait_send m K c 5 (credit_rows sM 5) 0 (recvOnly_zero c) _) $$ [HO HA5]
    · isplitr; · iexact P5
      isplitr; · iexact Hlev
      isplitl [HO]; · iexact HO
      iexact HA5
    iintro ⟨HO, HA5⟩
    iapply (st_wait_send m K c 6 (credit_rows sM 6) 0 (recvOnly_zero c) _) $$ [HO HA6]
    · isplitr; · iexact P6
      isplitr; · iexact Hlev
      isplitl [HO]; · iexact HO
      iexact HA6
    iintro ⟨HO, HA6⟩
    iapply (st_wait_send m K c 7 (credit_rows sM 7) 0 (recvOnly_zero c) _) $$ [HO HA7]
    · isplitr; · iexact P7
      isplitr; · iexact Hlev
      isplitl [HO]; · iexact HO
      iexact HA7
    iintro ⟨HO, HA7⟩
    -- the cells close, the chunks join again, and what the body leaves is handed over
    imod (exit_chunks8 m K c) $$ [HA0 HA1 HA2 HA3 HA4 HA5 HA6 HA7 HB0 HB1 HB2 HB3 HB4 HB5 HB6 HB7] with ⟨Hx, Hsem, Hscr, Hout⟩
    · isplitl [HA0 HA1 HA2 HA3 HA4 HA5 HA6 HA7]; · iframe
      isplitl [HB0 HB1 HB2 HB3 HB4 HB5 HB6 HB7]; · iframe
      iframe #
    iapply (wp_ret_of c Kt)
    imodintro
    iapply Hk
    iapply (post_intro m ρ c _)
    iframe
  · have h1 : ¬ (k0_cond1 c = 1#1) := fun h => hc ((cond1_iff c).1 h)
    have h2 : k0_cond2 c = 1#1 := (cond2_iff c).2 (by omega)
    have hs : (0 : Fin 2) = sdH c := Fin.ext (by show (0 : ℕ) = 1 - c.val / 16; have : c.val < 32 := c.isLt; omega)
    have hk : (1 : Fin 2) = kpH c := Fin.ext (by show (1 : ℕ) = c.val / 16; have : c.val < 32 := c.isLt; omega)
    simp only [h1, h2, ↓reduceDIte]
    -- the eight staging copies and the eight keeping copies are issued
    iapply (part16_run m K c hs)
    isplitr; · iframe #
    isplitl [HA0 HA1 HA2 HA3 HA4]; · iframe
    iintro ⟨HA0, HA1, HA2, HA3, HA4⟩
    iapply (part17_run m K c hs hk)
    isplitr; · iframe #
    isplitl [HA5 HA6 HA7 HB0 HB1]; · iframe
    iintro ⟨HA5, HA6, HA7, HB0, HB1⟩
    iapply (part18_run m K c hk)
    isplitr; · iframe #
    isplitl [HB2 HB3 HB4 HB5 HB6]; · iframe
    iintro ⟨HB2, HB3, HB4, HB5, HB6⟩
    -- each chunk's staging copy is awaited and the chunk sent to the partner
    iapply (part19_run m K c hk _ _ _ h2 _)
    isplitr; · iframe #
    isplitr; · iexact Hlev
    isplitl [HO]; · iexact HO
    isplitl [HA0 HA1 HB7]; · iframe
    iintro %W1 ⟨HO, HA0, HA1, HB7⟩
    iapply (part20_run m K c _ _ _ h2 _)
    isplitr; · iframe #
    isplitr; · iexact Hlev
    isplitl [HO]; · iexact HO
    isplitl [HA1 HA2]; · iframe
    iintro %W2 ⟨HO, HA1, HA2⟩
    iapply (part21_run m K c _ _ _ h2 _)
    isplitr; · iframe #
    isplitr; · iexact Hlev
    isplitl [HO]; · iexact HO
    isplitl [HA3 HA4]; · iframe
    iintro %W3 ⟨HO, HA3, HA4⟩
    iapply (part22_run m K c _ _ _ h2 _)
    isplitr; · iframe #
    isplitr; · iexact Hlev
    isplitl [HO]; · iexact HO
    isplitl [HA4 HA5 HA6]; · iframe
    iintro %W4 %r7 ⟨HO, HA4, HA5, HA6⟩
    iapply (part23_run m K c _ _ _ h2 _ _)
    isplitr; · iframe #
    isplitr; · iexact Hlev
    isplitl [HO]; · iexact HO
    isplitl [HA6 HA7]; · iframe
    iintro %W5 ⟨HO, HA6, HA7⟩
    -- the keeping copies are awaited; chunk by chunk the partner's rows are awaited, added to the kept rows and stored
    iapply (part24_run m K c _)
    isplitr; · iframe #
    isplitr; · iexact Hlev
    isplitl [HO]; · iexact HO
    isplitl [HB0 HB1 HB2 HB3 HB4]; · iframe
    iintro %W6 ⟨HO, HB0, HB1, HB2, HB3, HB4⟩
    iapply (part25_run m K c _ _ _ _)
    isplitr; · iframe #
    isplitr; · iexact Hlev
    isplitl [HO]; · iexact HO
    isplitl [HB0 HB5 HB6 HB7]; · iframe
    iintro %W7 ⟨HO, HB0, HB5, HB6, HB7⟩
    iapply (part26_run m K c _ _ _ _ rfl _)
    isplitr; · iframe #
    isplitr; · iexact Hlev
    isplitl [HO]; · iexact HO
    isplitl [HB0 HB1 HB2]; · iframe
    iintro %W8 ⟨HO, HB0, HB1, HB2⟩
    iapply (part27_run m K c _ _ _ _ (fun w => addf_cast _ w _) _)
    isplitr; · iframe #
    isplitr; · iexact Hlev
    isplitl [HO]; · iexact HO
    isplitl [HB2 HB3]; · iframe
    iintro %W9 ⟨HO, HB2, HB3⟩
    iapply (part28_run m K c _ _ _ _)
    isplitr; · iframe #
    isplitr; · iexact Hlev
    isplitl [HO]; · iexact HO
    isplitl [HB4 HB5]; · iframe
    iintro %W10 ⟨HO, HB4, HB5⟩
    iapply (part29_run m K c _ _ _ _)
    isplitr; · iframe #
    isplitr; · iexact Hlev
    isplitl [HO]; · iexact HO
    isplitl [HB6 HB7]; · iframe
    iintro %W11 ⟨HO, HB6, HB7⟩
    -- one's own transfers are awaited: the first five in the last part, the last three after it
    iapply (part30_run m K c _)
    isplitr; · iframe #
    isplitr; · iexact Hlev
    isplitl [HO]; · iexact HO
    isplitl [HA0 HA1 HA2 HA3 HA4]; · iframe
    iintro %W12 ⟨HO, HA0, HA1, HA2, HA3, HA4⟩
    iapply (st_wait_send m K c 5 (credit_rows sM 5) 0 (recvOnly_zero c) _) $$ [HO HA5]
    · isplitr; · iexact P5
      isplitr; · iexact Hlev
      isplitl [HO]; · iexact HO
      iexact HA5
    iintro ⟨HO, HA5⟩
    iapply (st_wait_send m K c 6 (credit_rows sM 6) 0 (recvOnly_zero c) _) $$ [HO HA6]
    · isplitr; · iexact P6
      isplitr; · iexact Hlev
      isplitl [HO]; · iexact HO
      iexact HA6
    iintro ⟨HO, HA6⟩
    iapply (st_wait_send m K c 7 (credit_rows sM 7) 0 (recvOnly_zero c) _) $$ [HO HA7]
    · isplitr; · iexact P7
      isplitr; · iexact Hlev
      isplitl [HO]; · iexact HO
      iexact HA7
    iintro ⟨HO, HA7⟩
    -- the cells close, the chunks join again, and what the body leaves is handed over
    imod (exit_chunks8 m K c) $$ [HA0 HA1 HA2 HA3 HA4 HA5 HA6 HA7 HB0 HB1 HB2 HB3 HB4 HB5 HB6 HB7] with ⟨Hx, Hsem, Hscr, Hout⟩
    · isplitl [HA0 HA1 HA2 HA3 HA4 HA5 HA6 HA7]; · iframe
      isplitl [HB0 HB1 HB2 HB3 HB4 HB5 HB6 HB7]; · iframe
      iframe #
    iapply (wp_ret_of c Kt)
    imodintro
    iapply Hk
    iapply (post_intro m ρ c _)
    iframe

set_option maxRecDepth 4000 in
/-- The library's body obligation on device c. -/
theorem body_obligation (c : Dev nD) : BodyObligation (dats (F := F) m ρ 0 c) (defs₀ (F := F)) 𝒱₀ () Set.univ := fun t => by
  rw [fin_N t]
  rw [Gen.bigSep_W0, Gen.bigSep_W0]
  show bodyPre m ρ c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  iintro H
  iapply (sound_body m ρ c fun _ => bodyPost m ρ c)
  isplitl [H]
  · iexact H
  · iintro H; iexact H

/-- info: 'Cert.Kernel.RS.body_obligation' depends on axioms: [propext, Classical.choice, Quot.sound] -/
#guard_msgs in #print axioms body_obligation

end Cert.Kernel.RS

end
-- ==== Proof.Kernel.Run.lean ====
/-
  The run of the whole program on the thirty-two devices: the launch applied to every device's body.
-/
import proofs.«901041_g7700000000001042_dist_rs_v7x_xyz2x4x4_x_m4096_n1024_f32_1_alg».proof.Proof.Kernel.Launch
import proofs.«901041_g7700000000001042_dist_rs_v7x_xyz2x4x4_x_m4096_n1024_f32_1_alg».proof.Proof.Kernel.Body

set_option maxRecDepth 16384

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every weakly fair execution terminates; each device's result array ends at its kept half plus its partner's sent
    half, and its block of the array as launched. -/
theorem run_main : θ_run defs (onTc (τ := τ) (main (F := F))) (s₀ m ρ) (QC m) :=
  run_main_of m ρ (body_obligation m ρ)

end Cert.Kernel.RS

end
-- ==== Proof.KernelIdeal.Proto.lean ====
/-
  Reduce-scatter over the mesh axis x of a 2 × 4 × 4 mesh: device c (logical id 16·x + 4·y + z) holds X c, its
  block [1, 4096, 2048] of the array; its partner is the device with the other x and the same y, z, id (c + 16) mod 32.
  Each device keeps the column half it will own (half x of its block) and sends the other half to its partner, in
  eight chunks of 512 rows; the result is its kept half plus the half received, chunk by chunk.

  This module fixes the vocabulary: the partner, the thirty-three semaphore cells of a device (the barrier cell and
  eight each for staging, keeping, sending and receiving), the eight row chunks of a 4096 × 1024 buffer and the
  sixteen chunks of the block, the contents every buffer ends at, the schedule of duties (one round, one duty a
  cell, every payload naming the contents it lands), what a device owes at launch and the levels.
-/
import proofs.«901041_g7700000000001042_dist_rs_v7x_xyz2x4x4_x_m4096_n1024_f32_1_alg».proof.Proof.Gen.KernelIdeal
import proofs.«901041_g7700000000001042_dist_rs_v7x_xyz2x4x4_x_m4096_n1024_f32_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, both with one duty a round -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The device with the other coordinate on axis x: id (c + 16) mod 32. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- The partnering as a permutation of the devices. -/
def swap : Dev nD ≃ Dev nD := ⟨peer, peer, peer_peer, peer_peer⟩

theorem dev_closed : ∀ c : Dev nD, (4 * ((c.val / 4) % 4) + (c.val % 4) + 16) - 16 * (c.val / 16) = (c.val + 16) % 32 := by decide

/-- The coordinate on axis x: 0 for ids below 16, 1 from 16 on. It is the column half a device keeps. -/
def kpH (c : Dev nD) : Fin 2 := ⟨c.val / 16, by have : c.val < 32 := c.isLt; omega⟩
/-- The column half a device sends: the other one. -/
def sdH (c : Dev nD) : Fin 2 := ⟨1 - c.val / 16, by omega⟩

theorem sdH_peer (c : Dev nD) : sdH (peer c) = kpH c := by revert c; decide
theorem kpH_peer (c : Dev nD) : kpH (peer c) = sdH c := by revert c; decide

/-- The first branch is taken exactly by the devices with x = 0, the second by those with x = 1. -/
theorem cond1_iff : ∀ c : Dev nD, k0_cond1 c = 1#1 ↔ c.val < 16 := by decide +kernel
theorem cond2_iff : ∀ c : Dev nD, k0_cond2 c = 1#1 ↔ 16 ≤ c.val := by decide +kernel

/-! ## The semaphores and cells -/

/-- The runtime's barrier semaphore of collective id 0. -/
abbrev barS : Sem sig := (SemArray.scalar (sig.barrier 0 rfl) : Sems sig S_).sem
/-- The four families of eight DMA semaphores: staging, keeping, sending, receiving. -/
abbrev stageS (i : Fin 8) : DmaSem sig := (⟨1 + i.val, by have := i.isLt; omega⟩ : Fin 33)
abbrev keepS (i : Fin 8) : DmaSem sig := (⟨9 + i.val, by have := i.isLt; omega⟩ : Fin 33)
abbrev sendS (i : Fin 8) : DmaSem sig := (⟨17 + i.val, by have := i.isLt; omega⟩ : Fin 33)
abbrev recvS (i : Fin 8) : DmaSem sig := (⟨25 + i.val, by have := i.isLt; omega⟩ : Fin 33)

abbrev barCell (c : Dev nD) : GSem nD τ sig := ((c : Thread nD τ), .reg barS)
abbrev stageCell (c : Dev nD) (i : Fin 8) : GSem nD τ sig := ((c : Thread nD τ), .dma (stageS i))
abbrev keepCell (c : Dev nD) (i : Fin 8) : GSem nD τ sig := ((c : Thread nD τ), .dma (keepS i))
abbrev sendCell (c : Dev nD) (i : Fin 8) : GSem nD τ sig := ((c : Thread nD τ), .dma (sendS i))
abbrev recvCell (c : Dev nD) (i : Fin 8) : GSem nD τ sig := ((c : Thread nD τ), .dma (recvS i))

/-- The kernel's own (scoped) semaphores, as the launch indexes them: DMA semaphores 1 to 32. -/
abbrev osem : Fin 32 → SemLoc sig := fun j => .dma (⟨j.val + 1, by have := j.isLt; omega⟩ : Fin 33)
/-- All thirty-three of a device's cells: the barrier at 0, DMA semaphore k at k. -/
abbrev csem : Fin 33 → SemLoc sig := fun k => if k.val = 0 then .reg barS else .dma (k : Fin 33)
abbrev kcell (ck : Dev nD × Fin 33) : GSem nD τ sig := ((ck.1 : Thread nD τ), csem ck.2)

/-! ## The buffers and their chunks -/

abbrev xM : Memref sig .tc .hbm S1x4096x2048 .f32 := Memref.whole main_arg0
abbrev oM : Memref sig .tc .vmem S4096x1024 .f32 := Memref.whole cc0_stg0_0
abbrev rM : Memref sig .tc .vmem S4096x1024 .f32 := Memref.whole cc0_scratch0
abbrev sM : Memref sig .tc .vmem S4096x1024 .f32 := Memref.whole cc0_scratch1

theorem inb_row (i : Fin 8) : ∀ a, (![512 * i.val, 0] : Fin 2 → Nat) a + S512x1024.size a ≤ S4096x1024.size a := by
  revert i; decide
theorem inb_x (h : Fin 2) (i : Fin 8) :
    ∀ a, (![0, 512 * i.val, 1024 * h.val] : Fin 3 → Nat) a + S1x512x1024.size a ≤ S1x4096x2048.size a := by
  revert h i; decide

/-- Rows [512 i, 512 i + 512) of a 4096 × 1024 buffer. -/
abbrev rowRect (i : Fin 8) : Rect S4096x1024 := Rect.unit (s := S4096x1024) ![512 * i.val, 0] S512x1024.size (inb_row i)
def rowCh {sp : Space} (M : Memref sig .tc sp S4096x1024 .f32) (i : Fin 8) : Memref sig .tc sp S512x1024 .f32 :=
  M.slice (rowRect i) (fun _ => rfl)
/-- Rows [512 i, 512 i + 512) and columns [1024 h, 1024 h + 1024) of the device's block of the array. -/
def xCh (h : Fin 2) (i : Fin 8) : Memref sig .tc .hbm S512x1024 .f32 :=
  ((xM : Memref sig .tc .hbm S1x4096x2048 .f32).slice (Rect.unit (s := S1x4096x2048) ![0, 512 * i.val, 1024 * h.val] S1x512x1024.size (inb_x h i)) (fun _ => rfl)).squeeze
    S512x1024 Gen.squeezes_S1x512x1024_S512x1024

/-- The credit of one chunk's transfer. -/
abbrev N : ℕ := (rowCh (rM : Memref sig .tc .vmem S4096x1024 .f32) 0).view.dmaCredit
theorem N_pos : 0 < N := View.dmaCredit_pos _ (by decide)

/-! ## Contents -/

/-- Column half `h` of a block: the 4096 × 1024 array whose entry (r, k) is the block's entry (0, r, k + 1024 h). -/
def halfOf (h : Fin 2) (X : (main_arg0 : Ref sig .tc).ty.Contents (Elt F)) : (cc0_scratch1 : Ref sig .tc).ty.Contents (Elt F) :=
  fun j => X (fun a => match a with
    | ⟨0, _⟩ => (⟨0, by decide⟩ : Fin 1)
    | ⟨1, _⟩ => (⟨(j 0).val, (j 0).isLt⟩ : Fin 4096)
    | ⟨2, _⟩ => (⟨(j 1).val + 1024 * h.val, by have := (j 1).isLt; have : (j 1).val < 1024 := this; have := h.isLt; omega⟩ : Fin 2048))

/-- Device `c`'s block of the array as launched. -/
def Xof (c : Dev nD) : (main_arg0 : Ref sig .tc).ty.Contents (Elt F) := m ((c : Thread nD τ).loc main_arg0)

/-- The half a device keeps, the half it stages and sends, the half it receives (its partner's sent half: the same
    columns as its own kept half), and the sum it ends with. -/
def keepFull (c : Dev nD) : (cc0_stg0_0 : Ref sig .tc).ty.Contents (Elt F) := halfOf (kpH c) (Xof m c)
def sendFull (c : Dev nD) : (cc0_scratch1 : Ref sig .tc).ty.Contents (Elt F) := halfOf (sdH c) (Xof m c)
def recvFull (c : Dev nD) : (cc0_scratch0 : Ref sig .tc).ty.Contents (Elt F) := halfOf (sdH (peer c)) (Xof m (peer c))
def sumFull (c : Dev nD) : (cc0_stg0_0 : Ref sig .tc).ty.Contents (Elt F) :=
  fun j => FloatOps.addf (keepFull m c j) (recvFull m c j)

/-! ## Buffers held chunk by chunk -/

/-- Chunk `i` of a 4096 × 1024 buffer of device `c`, held outright at contents `f` (a function on the whole buffer, read on the chunk). -/
def piece {sp : Space} (c : Dev nD) (M : Memref sig .tc sp S4096x1024 .f32) (i : Fin 8)
    (f : Buf (Elt F) ((rowCh M i).view.loc (c : Thread nD τ))) : sProp 𝕄 :=
  (rowCh M i).view.loc (c : Thread nD τ) ↦[(rowCh M i).view.set]{fullShare} f
/-- Chunk (h, i) of device `c`'s block of the array, held outright at the launched contents. -/
def xpiece (c : Dev nD) (h : Fin 2) (i : Fin 8) : sProp 𝕄 :=
  (xCh h i).view.loc (c : Thread nD τ) ↦[(xCh h i).view.set]{fullShare} Xof m c

omit [FloatOps F] in
instance piece_storable {sp : Space} (c : Dev nD) (M : Memref sig .tc sp S4096x1024 .f32) (i : Fin 8) (f) :
    BI.Storable (upEmb : UEmb _ 𝕄) (piece (F := F) c M i f) := by unfold piece; exact BI.Region.storable_held _ _ _ _
omit [FloatOps F] in
instance xpiece_storable (c : Dev nD) (h : Fin 2) (i : Fin 8) : BI.Storable (upEmb : UEmb _ 𝕄) (xpiece (F := F) m c h i) := by
  unfold xpiece; exact BI.Region.storable_held _ _ _ _
instance piece_send_storable (c : Dev nD) (i : Fin 8) : BI.Storable (upEmb : UEmb _ 𝕄) (piece (F := F) c sM i (sendFull m c)) := by
  unfold piece; exact BI.Region.storable_held _ _ _ _
instance piece_keep_storable (c : Dev nD) (i : Fin 8) : BI.Storable (upEmb : UEmb _ 𝕄) (piece (F := F) c oM i (keepFull m c)) := by
  unfold piece; exact BI.Region.storable_held _ _ _ _
instance piece_recv_storable (c : Dev nD) (i : Fin 8) : BI.Storable (upEmb : UEmb _ 𝕄) (piece (F := F) c rM i (recvFull m c)) := by
  unfold piece; exact BI.Region.storable_held _ _ _ _

/-! ## The schedule: one round, one duty a cell -/

/-- What the partner's barrier signal hands `c`: the partner's whole receive buffer, over some contents, and that the
    partner has reached round 0 of its eight receive cells (what the eight transfers into it need). -/
def barPay (c : Dev nD) : sProp 𝕄 :=
  iprop((∃ f, (rM : Memref sig .tc .vmem S4096x1024 .f32).view.loc (peer c : Thread nD τ) ↦[(rM : Memref sig .tc .vmem S4096x1024 .f32).view.set]{fullShare} f)
    ∗ bigSep Finset.univ fun i : Fin 8 => reached ER (recvCell (peer c) i) 0)
/-- A staging copy's landing: the send buffer's chunk holding the sent half's rows, and the block's chunk back. -/
def stagePay (c : Dev nD) (i : Fin 8) : sProp 𝕄 := iprop(piece c sM i (sendFull m c) ∗ xpiece m c (sdH c) i)
/-- A keeping copy's landing: the result buffer's chunk holding the kept half's rows, and the block's chunk back. -/
def keepPay (c : Dev nD) (i : Fin 8) : sProp 𝕄 := iprop(piece c oM i (keepFull m c) ∗ xpiece m c (kpH c) i)
/-- The send cell's: the send buffer's chunk back, as staged. -/
def sendPay (c : Dev nD) (i : Fin 8) : sProp 𝕄 := piece c sM i (sendFull m c)
/-- The receive cell's: the receive buffer's chunk holding the partner's sent rows. -/
def recvPay (c : Dev nD) (i : Fin 8) : sProp 𝕄 := piece c rM i (recvFull m c)

/-- The payload of device `c`'s DMA cell number `d` (1–8 staging, 9–16 keeping, 17–24 sending, 25–32 receiving). -/
def dmaPay (c : Dev nD) (d : Fin 33) : sProp 𝕄 :=
  if h1 : d.val = 0 then iprop(emp)
  else if h2 : d.val < 9 then stagePay m c ⟨d.val - 1, by omega⟩
  else if h3 : d.val < 17 then keepPay m c ⟨d.val - 9, by omega⟩
  else if h4 : d.val < 25 then sendPay m c ⟨d.val - 17, by omega⟩
  else recvPay m c ⟨d.val - 25, by have := d.isLt; omega⟩

/-- Which semaphores are the protocol's: the barrier and DMA semaphores 1 to 32 (0 is the pipeline's own). -/
def isOurs : SemLoc sig → Bool
  | .reg _ => true
  | .dma d => decide ((d : Fin 33).val ≠ 0)

abbrev IsCell (g : GSem nD τ sig) : Prop := g.1.2 = .tc ∧ isOurs g.2 = true

def rsRd : Rounds.Schedule (GSem nD τ sig) Unit 𝕄 where
  duties g r := if r = 0 ∧ IsCell g then {()} else ∅
  unitless _ := False
  amount g _ _ := match g.2 with | .reg _ => 1 | .dma _ => N
  payload g _ _ := match g.2 with | .reg _ => barPay g.1.1 | .dma d => dmaPay m g.1.1 d
  amount_pos g _ _ _ := by
    rcases g with ⟨t, sm⟩; cases sm
    · exact Nat.one_pos
    · exact N_pos

instance rsRd_payload_storable (g : GSem nD τ sig) (r : ℕ) (d : Unit) :
    BI.Storable (upEmb : UEmb _ 𝕄) ((rsRd (F := F) m).payload g r d) := by
  rcases g with ⟨t, sm⟩; cases sm
  · show BI.Storable upEmb (barPay t.1); unfold barPay; infer_instance
  · show BI.Storable upEmb (dmaPay m t.1 _); unfold dmaPay stagePay keepPay sendPay recvPay; (repeat' split) <;> infer_instance

/-! ## What a device owes at launch, and the levels -/

abbrev Trecv (c : Dev nD) (i : Fin 8) : CellTallies nD τ sig Unit := tallyAt (recvCell (peer c) i) () N
/-- What is still owed to the partner's receive cells before the transfer of chunk `k`: chunks k to 7, summed so
    that each transfer peels the last summand. -/
def OR7 (c : Dev nD) : CellTallies nD τ sig Unit := Trecv c 7
def OR6 (c : Dev nD) : CellTallies nD τ sig Unit := OR7 c + Trecv c 6
def OR5 (c : Dev nD) : CellTallies nD τ sig Unit := OR6 c + Trecv c 5
def OR4 (c : Dev nD) : CellTallies nD τ sig Unit := OR5 c + Trecv c 4
def OR3 (c : Dev nD) : CellTallies nD τ sig Unit := OR4 c + Trecv c 3
def OR2 (c : Dev nD) : CellTallies nD τ sig Unit := OR3 c + Trecv c 2
def OR1 (c : Dev nD) : CellTallies nD τ sig Unit := OR2 c + Trecv c 1
def OR0 (c : Dev nD) : CellTallies nD τ sig Unit := OR1 c + Trecv c 0
/-- At launch: the eight chunks' credit on the partner's receive cells and one unit on its barrier cell (the first
    thing paid, so the last summand). -/
def O₀ (c : Dev nD) : CellTallies nD τ sig Unit := OR0 c + tallyAt (barCell (peer c)) () 1

def L (g : GSem nD τ sig) : Finset Unit := if g.1.2 = .tc then {()} else ∅
/-- Barrier cells at level 1, receive cells at 2, every other cell at 0: a device waits on its barrier cell owing
    only receive credit, and on its staging cells likewise; on everything else it owes nothing. -/
def lv (g : GSem nD τ sig) (_ : Unit) : ℕ := match g.2 with
  | .reg _ => 1
  | .dma d => if 25 ≤ (d : Fin 33).val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The schedule's tables -/

section Tables
variable (c : Dev nD) (i : Fin 8)

omit [FloatOps F] in
theorem duties_cell (g : GSem nD τ sig) (h : IsCell g) : (rsRd (F := F) m).duties g 0 = {()} := by
  dsimp only [rsRd]; exact if_pos ⟨rfl, h⟩
omit [FloatOps F] in
theorem duties_later (g : GSem nD τ sig) : ∀ r, 1 ≤ r → (rsRd (F := F) m).duties g r = ∅ :=
  fun r hr => by dsimp only [rsRd]; exact if_neg fun h => by omega
omit [FloatOps F] in
theorem isCell_bar : IsCell (barCell c) := ⟨rfl, rfl⟩
omit [FloatOps F] in
theorem isCell_stage : IsCell (stageCell c i) := ⟨rfl, by show isOurs (SemLoc.dma (stageS i)) = true; revert i; decide⟩
omit [FloatOps F] in
theorem isCell_keep : IsCell (keepCell c i) := ⟨rfl, by show isOurs (SemLoc.dma (keepS i)) = true; revert i; decide⟩
omit [FloatOps F] in
theorem isCell_send : IsCell (sendCell c i) := ⟨rfl, by show isOurs (SemLoc.dma (sendS i)) = true; revert i; decide⟩
omit [FloatOps F] in
theorem isCell_recv : IsCell (recvCell c i) := ⟨rfl, by show isOurs (SemLoc.dma (recvS i)) = true; revert i; decide⟩

omit [FloatOps F] in
theorem duties_bar : (rsRd (F := F) m).duties (barCell c) 0 = {()} := duties_cell m _ (isCell_bar c)
omit [FloatOps F] in
theorem duties_stage : (rsRd (F := F) m).duties (stageCell c i) 0 = {()} := duties_cell m _ (isCell_stage c i)
omit [FloatOps F] in
theorem duties_keep : (rsRd (F := F) m).duties (keepCell c i) 0 = {()} := duties_cell m _ (isCell_keep c i)
omit [FloatOps F] in
theorem duties_send : (rsRd (F := F) m).duties (sendCell c i) 0 = {()} := duties_cell m _ (isCell_send c i)
omit [FloatOps F] in
theorem duties_recv : (rsRd (F := F) m).duties (recvCell c i) 0 = {()} := duties_cell m _ (isCell_recv c i)

omit [FloatOps F] in
theorem amount_bar (u : Unit) : (rsRd (F := F) m).amount (barCell c) 0 u = 1 := rfl
omit [FloatOps F] in
theorem amount_dma (d : DmaSem sig) (r : ℕ) (u : Unit) : (rsRd (F := F) m).amount ((c : Thread nD τ), .dma d) r u = N := rfl

omit [FloatOps F] in
theorem expect_bar : (rsRd (F := F) m).expect (barCell c) 0 = 1 := by
  unfold Schedule.expect Schedule.amountOf; rw [duties_bar, Finset.sum_singleton, amount_bar]
omit [FloatOps F] in
theorem expect_dma (d : DmaSem sig) (h : IsCell ((c : Thread nD τ), .dma d)) : (rsRd (F := F) m).expect ((c : Thread nD τ), .dma d) 0 = N := by
  unfold Schedule.expect Schedule.amountOf; rw [duties_cell m _ h, Finset.sum_singleton, amount_dma]

theorem payload_bar (u : Unit) : (rsRd (F := F) m).payload (barCell c) 0 u = barPay c := rfl
theorem payload_stage (u : Unit) : (rsRd (F := F) m).payload (stageCell c i) 0 u = stagePay m c i := by
  show dmaPay m c (stageS i) = _; unfold dmaPay
  rw [dif_neg (by show ¬ (1 + i.val = 0); omega), dif_pos (by show 1 + i.val < 9; omega)]
  congr 1 <;> exact Fin.ext (by show 1 + i.val - 1 = i.val; omega)
theorem payload_keep (u : Unit) : (rsRd (F := F) m).payload (keepCell c i) 0 u = keepPay m c i := by
  show dmaPay m c (keepS i) = _; unfold dmaPay
  rw [dif_neg (by show ¬ (9 + i.val = 0); omega), dif_neg (by show ¬ (9 + i.val < 9); omega), dif_pos (by show 9 + i.val < 17; omega)]
  congr 1 <;> exact Fin.ext (by show 9 + i.val - 9 = i.val; omega)
theorem payload_send (u : Unit) : (rsRd (F := F) m).payload (sendCell c i) 0 u = sendPay m c i := by
  show dmaPay m c (sendS i) = _; unfold dmaPay
  rw [dif_neg (by show ¬ (17 + i.val = 0); omega), dif_neg (by show ¬ (17 + i.val < 9); omega), dif_neg (by show ¬ (17 + i.val < 17); omega),
    dif_pos (by show 17 + i.val < 25; omega)]
  congr 1 <;> exact Fin.ext (by show 17 + i.val - 17 = i.val; omega)
theorem payload_recv (u : Unit) : (rsRd (F := F) m).payload (recvCell c i) 0 u = recvPay m c i := by
  show dmaPay m c (recvS i) = _; unfold dmaPay
  rw [dif_neg (by show ¬ (25 + i.val = 0); omega), dif_neg (by show ¬ (25 + i.val < 9); omega), dif_neg (by show ¬ (25 + i.val < 17); omega),
    dif_neg (by show ¬ (25 + i.val < 25); omega)]
  congr 1 <;> exact Fin.ext (by show 25 + i.val - 25 = i.val; omega)

end Tables

/-! ## The ghost state -/

/-- An assertion of each of a device's thirty-three cells. -/
def own33 (P : GSem nD τ sig → sProp 𝕄) (c : Dev nD) : sProp 𝕄 :=
  iprop(P (barCell c) ∗ (bigSep Finset.univ fun i : Fin 8 => P (stageCell c i)) ∗ (bigSep Finset.univ fun i : Fin 8 => P (keepCell c i))
    ∗ (bigSep Finset.univ fun i : Fin 8 => P (sendCell c i)) ∗ (bigSep Finset.univ fun i : Fin 8 => P (recvCell c i)))

/-- The cells' invariants a device's body opens, under the names `K`: its own cells' and its partner's. -/
def invs (K : GSem nD τ sig → ℕ) (c : Dev nD) : sProp 𝕄 :=
  iprop(own33 (fun g => cellInv ER (rsRd m) (K g) g) c ∗ own33 (fun g => cellInv ER (rsRd m) (K g) g) (peer c))

/-- The tokens of the duties device `c` pays: its partner's barrier duty and eight receive duties, its own twenty-four
    staging, keeping and sending duties. -/
def payToks (c : Dev nD) : sProp 𝕄 :=
  iprop(dutyTok ER (barCell (peer c)) 0 () ∗ (bigSep Finset.univ fun i : Fin 8 => dutyTok ER (recvCell (peer c) i) 0 ())
    ∗ (bigSep Finset.univ fun i : Fin 8 => dutyTok ER (stageCell c i) 0 ()) ∗ (bigSep Finset.univ fun i : Fin 8 => dutyTok ER (keepCell c i) 0 ())
    ∗ (bigSep Finset.univ fun i : Fin 8 => dutyTok ER (sendCell c i) 0 ()))

/-- The protocol's ghost state device `c` starts from: the invariants, its positions at round 0 of its cells, round 0 of
    its own and its partner's cells reached, the tokens of the duties it pays. -/
def ghost (K : GSem nD τ sig → ℕ) (c : Dev nD) : sProp 𝕄 :=
  iprop(invs m K c ∗ own33 (fun g => atPos ER g 0 ∅ 0) c ∗ own33 (fun g => reached ER g 0) c ∗ own33 (fun g => reached ER g 0) (peer c) ∗ payToks c)

/-- What device `c`'s body starts from: the ghost state at some names, the launch credit of its barrier cell (one unit)
    and of its eight receive cells (a chunk each), the level facts. -/
def start (c : Dev nD) : sProp 𝕄 :=
  iprop((∃ K, ghost m K c) ∗ cred (tallyAt (barCell c) () 1) ∗ (bigSep Finset.univ fun i : Fin 8 => cred (tallyAt (recvCell c i) () N)) ∗ levAts L lv)

/-- The device's block of the array, whole, at the launched contents. -/
def xWhole (c : Dev nD) : sProp 𝕄 := (((c : Thread nD τ).loc main_arg0) ↦{fullShare} m ((c : Thread nD τ).loc main_arg0))
/-- The two scratch buffers, whole, over some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body: the start, the block and the scratch buffers. -/
def Φ₀ (c : Dev nD) : sProp 𝕄 := iprop((start m c ∗ xWhole m c) ∗ scratches c)
/-- After it: the block as launched, the scratch buffers, the thirty-two own semaphores at zero, their cells closed. -/
def Φ₁ (c : Dev nD) : sProp 𝕄 :=
  iprop(xWhole m c ∗ Pipeline.ownSems0 (Ix := Unit) (Name := ℕ) (U := UU) (Lvl := ℕ) (Val := Elt F) (τ := τ) osem c ∗ scratches c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sumFull m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The interfaces between the body, the launch and the values (each proved in its own module) -/

/-- What the run ends in: every device's result array holds its kept half plus its partner's sent half, and its block
    of the array is as launched. -/
def QC : PUnit × MemSt nD τ sig (Elt F) → Prop := fun r =>
  ∀ c : Dev nD, r.2.mem ((c.tc : Thread nD τ).loc main_v1) = sumFull m c
    ∧ r.2.mem ((c.tc : Thread nD τ).loc main_arg0) = m ((c.tc : Thread nD τ).loc main_arg0)

end Cert.KernelIdeal.RS

end
-- ==== Proof.KernelIdeal.Levels.lean ====
/-
  The levels' word on every wait of the body, and the launch credit.
  A device waits on its barrier cell (level 1) owing only its partner's receive cells (level 2); on its staging cells
  (level 0) owing some of them; on every other cell owing nothing. At launch its barrier cell is owed one unit and each
  of its receive cells a chunk's credit, all by its partner.
-/
import proofs.«901041_g7700000000001042_dist_rs_v7x_xyz2x4x4_x_m4096_n1024_f32_1_alg».proof.Proof.KernelIdeal.Proto

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Tallies on the partner's receive cells only. -/
def RecvOnly (c : Dev nD) (O : CellTallies nD τ sig Unit) : Prop := ∀ g u, 0 < O g u → ∃ i : Fin 8, g = recvCell (peer c) i

/-- One chunk's tally sits on one receive cell of the partner. -/
theorem recvOnly_Trecv (c : Dev nD) (i : Fin 8) : RecvOnly c (Trecv c i) :=
  fun g u h => ⟨i, (Pipeline.tallyAt_pos h).1⟩

/-- A sum is positive only where a summand is. -/
theorem recvOnly_add {c : Dev nD} {O D : CellTallies nD τ sig Unit} (hO : RecvOnly c O) (hD : RecvOnly c D) : RecvOnly c (O + D) :=
  fun g u h => (Pipeline.add_pos_cases h).elim (hO g u) (hD g u)

theorem recvOnly_zero (c : Dev nD) : RecvOnly c 0 := fun g u h => by
  rw [Pi.zero_apply, Finsupp.zero_apply] at h; exact absurd h (Nat.lt_irrefl 0)
theorem recvOnly_OR7 (c : Dev nD) : RecvOnly c (OR7 c) := recvOnly_Trecv c 7
theorem recvOnly_OR6 (c : Dev nD) : RecvOnly c (OR6 c) := recvOnly_add (recvOnly_OR7 c) (recvOnly_Trecv c 6)
theorem recvOnly_OR5 (c : Dev nD) : RecvOnly c (OR5 c) := recvOnly_add (recvOnly_OR6 c) (recvOnly_Trecv c 5)
theorem recvOnly_OR4 (c : Dev nD) : RecvOnly c (OR4 c) := recvOnly_add (recvOnly_OR5 c) (recvOnly_Trecv c 4)
theorem recvOnly_OR3 (c : Dev nD) : RecvOnly c (OR3 c) := recvOnly_add (recvOnly_OR4 c) (recvOnly_Trecv c 3)
theorem recvOnly_OR2 (c : Dev nD) : RecvOnly c (OR2 c) := recvOnly_add (recvOnly_OR3 c) (recvOnly_Trecv c 2)
theorem recvOnly_OR1 (c : Dev nD) : RecvOnly c (OR1 c) := recvOnly_add (recvOnly_OR2 c) (recvOnly_Trecv c 1)
theorem recvOnly_OR0 (c : Dev nD) : RecvOnly c (OR0 c) := recvOnly_add (recvOnly_OR1 c) (recvOnly_Trecv c 0)

/-- What a device owes at launch lies on its partner's barrier cell and receive cells. -/
theorem O₀_pos {c : Dev nD} {g : GSem nD τ sig} {u : Unit} (h : 0 < O₀ c g u) : g = barCell (peer c) ∨ ∃ i : Fin 8, g = recvCell (peer c) i := by
  rcases Pipeline.add_pos_cases (show 0 < (OR0 c + tallyAt (barCell (peer c)) () 1) g u from h) with h | h
  · exact Or.inr (recvOnly_OR0 c g u h)
  · exact Or.inl (Pipeline.tallyAt_pos h).1

/-! ## The levels of the three kinds of cell -/

/-- A barrier cell is at level 1. -/
theorem lv_reg (t : Thread nD τ) (s : Sem sig) (u : Unit) : lv (t, .reg s) u = 1 := rfl
/-- A receive cell (DMA semaphores 25 to 32) is at level 2. -/
theorem lv_recv (c : Dev nD) (i : Fin 8) (u : Unit) : lv (recvCell c i) u = 2 := by
  show (if 25 ≤ 25 + i.val then 2 else 0) = 2
  exact if_pos (Nat.le_add_right 25 i.val)
/-- Every DMA cell below the receive cells is at level 0. -/
theorem lv_low (t : Thread nD τ) (d : DmaSem sig) (hd : (d : Fin 33).val < 25) (u : Unit) : lv (t, .dma d) u = 0 := by
  show (if 25 ≤ (d : Fin 33).val then 2 else 0) = 0
  exact if_neg (Nat.not_le.mpr hd)

/-- Every index of a TensorCore's cell has a level. -/
theorem mem_L (c : Dev nD) (sm : SemLoc sig) (u : Unit) : u ∈ L ((c : Thread nD τ), sm) := by
  rw [L_tc]; exact Finset.mem_singleton_self _

omit [FloatOps F] in
/-- The wait on the barrier cell, owing receive credit only. -/
theorem mayWait_bar (c : Dev nD) (O : CellTallies nD τ sig Unit) (hO : RecvOnly c O) :
    (levAts L lv : sProp 𝕄) ⊢ MayWait (c : Thread nD τ) (.reg barS) () O :=
  Pipeline.mayWait_of_levAts (mem_L c _ _) fun g u hg => by
    obtain ⟨i, rfl⟩ := hO g u hg
    refine ⟨mem_L (peer c) _ _, ?_⟩
    rw [lv_reg, lv_recv]; exact Nat.lt_succ_self 1

omit [FloatOps F] in
/-- A wait on a cell below the receive cells (the pipeline's own cell, a staging, keeping or sending cell), owing receive
    credit only. -/
theorem mayWait_low (c : Dev nD) (d : DmaSem sig) (hd : (d : Fin 33).val < 25) (O : CellTallies nD τ sig Unit) (hO : RecvOnly c O) :
    (levAts L lv : sProp 𝕄) ⊢ MayWait (c : Thread nD τ) (.dma d) () O :=
  Pipeline.mayWait_of_levAts (mem_L c _ _) fun g u hg => by
    obtain ⟨i, rfl⟩ := hO g u hg
    refine ⟨mem_L (peer c) _ _, ?_⟩
    rw [lv_low _ d hd, lv_recv]; exact Nat.succ_pos 1

omit [FloatOps F] in
/-- A wait on the pipeline's own cell at launch (owing everything) or after the body (owing nothing). -/
theorem mayWait_stage0 (c : Dev nD) (d : DmaSem sig) (hd : (d : Fin 33).val < 25) (O : CellTallies nD τ sig Unit) (hO : O = O₀ c ∨ O = 0) :
    (levAts L lv : sProp 𝕄) ⊢ MayWait (c : Thread nD τ) (.dma d) () O := by
  rcases hO with rfl | rfl
  · refine Pipeline.mayWait_of_levAts (mem_L c _ _) fun g u hg => ?_
    rcases O₀_pos hg with rfl | ⟨i, rfl⟩
    · refine ⟨mem_L (peer c) _ _, ?_⟩
      rw [lv_low _ d hd, lv_reg]; exact Nat.one_pos
    · refine ⟨mem_L (peer c) _ _, ?_⟩
      rw [lv_low _ d hd, lv_recv]; exact Nat.succ_pos 1
  · rw [MayWait_zero]; iintro -; iempintro

/-- The pipeline's own waits. -/
theorem waits (c : Dev nD) : (levAts L lv : sProp 𝕄) ⊢ Pipeline.cellsWaits cfgs (dats m ρ) () 0 c :=
  Pipeline.cellsWaits_intro cfgs (dats m ρ) () 0 c fun w s t =>
    mayWait_stage0 c _ (by fin_cases w <;> fin_cases s <;> decide) _ (by
      rcases t with ⟨_ | _, ht⟩
      · exact Or.inl rfl
      · exact Or.inr rfl)

/-! ## The launch credit -/

/-- Eight terms of a commutative monoid added from the last down are their sum. -/
theorem sum8_down {A : Type} [AddCommMonoid A] (f : Fin 8 → A) : f 7 + f 6 + f 5 + f 4 + f 3 + f 2 + f 1 + f 0 = ∑ i : Fin 8, f i := by
  rw [Fin.sum_univ_eight]
  simp only [add_assoc, add_comm, add_left_comm]

/-- The eight receive tallies, summed in any order. -/
theorem OR0_eq_sum (d : Dev nD) : OR0 d = ∑ i : Fin 8, Trecv d i := sum8_down fun i => Trecv d i

omit [FloatOps F] in
/-- The launch credit of a device: one unit on its barrier cell and a chunk's credit on each receive cell. -/
theorem creds (c : Dev nD) :
    (Pipeline.launchCred O₀ c : sProp 𝕄)
      ⊢ iprop(cred (tallyAt (barCell c) () 1) ∗ bigSep Finset.univ fun i : Fin 8 => cred (tallyAt (recvCell c i) () N)) := by
  have h0 : (O₀ : Dev nD → CellTallies nD τ sig Unit)
      = fun d => (∑ i : Fin 8, Trecv d i) + tallyAt (barCell (peer d)) () 1 := funext fun d => by rw [← OR0_eq_sum]; rfl
  rw [h0, Pipeline.launchCred_add, Pipeline.launchCred_sum]
  refine BI.sep_comm.trans (BI.sep_mono ?_ ?_)
  · exact Pipeline.launchCred_tallyAt (.reg barS) peer peer peer_peer peer_peer () 1 c
  · exact bigSep_mono fun i _ => Pipeline.launchCred_tallyAt (.dma (recvS i)) peer peer peer_peer peer_peer () N c

/-- info: 'Cert.KernelIdeal.RS.mayWait_bar' depends on axioms: [propext, Classical.choice, Quot.sound] -/
#guard_msgs in #print axioms mayWait_bar

/-- info: 'Cert.KernelIdeal.RS.mayWait_low' depends on axioms: [propext, Classical.choice, Quot.sound] -/
#guard_msgs in #print axioms mayWait_low

/-- info: 'Cert.KernelIdeal.RS.mayWait_stage0' depends on axioms: [propext, Classical.choice, Quot.sound] -/
#guard_msgs in #print axioms mayWait_stage0

/-- info: 'Cert.KernelIdeal.RS.waits' depends on axioms: [propext, Classical.choice, Quot.sound] -/
#guard_msgs in #print axioms waits

/-- info: 'Cert.KernelIdeal.RS.creds' depends on axioms: [propext, Classical.choice, Quot.sound] -/
#guard_msgs in #print axioms creds

end Cert.KernelIdeal.RS

end
-- ==== Proof.KernelIdeal.Launch.lean ====
/-
  The launch: from every device's body obligation to the run of the whole program.
  All thirty-two devices start with every semaphore at zero; the protocol's ghost state (a round-0 position, token and
  invariant for each of the thirty-three cells of each device) is funded and allocated for all devices at once, the
  tokens dealt to the devices that pay them (a device's barrier and receive tokens to its partner); each device's block
  of the array travels through the region untouched, and its result buffer is written back to the result array.
-/
import proofs.«901041_g7700000000001042_dist_rs_v7x_xyz2x4x4_x_m4096_n1024_f32_1_alg».proof.Proof.KernelIdeal.Proto
import proofs.«901041_g7700000000001042_dist_rs_v7x_xyz2x4x4_x_m4096_n1024_f32_1_alg».proof.Proof.KernelIdeal.Levels
import proofs.«901041_g7700000000001042_dist_rs_v7x_xyz2x4x4_x_m4096_n1024_f32_1_alg».proof.Proof.Gen.KernelIdeal.Points

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, indexed 0 to 32 -/

/-- The thirty-two DMA semaphores of the protocol are scoped, distinct, and none is the pipeline's own. -/
theorem ownSemFacts : Pipeline.OwnSemFacts cfg0.spec osem := by decide

/-- The result array is held whole. -/
theorem share_eq (c : Dev nD) (w : Fin cfg0.W) : (dats m ρ 0 c).share w = fullShare := by unfold Dat.share; split <;> rfl

/-- Every index but 0 names the DMA semaphore of that number. -/
theorem csem_dma (k : Fin 33) (h : k.val ≠ 0) : csem k = .dma (k : Fin 33) := if_neg h

/-- Distinct indices name distinct semaphores: 0 the barrier, the others DMA semaphores of different numbers. -/
theorem csem_injective : Function.Injective csem := by
  intro k k' h
  by_cases h0 : k.val = 0 <;> by_cases h0' : k'.val = 0
  · exact Fin.ext (h0.trans h0'.symm)
  · rw [show csem k = .reg barS from if_pos h0, csem_dma k' h0'] at h; cases h
  · rw [csem_dma k h0, show csem k' = .reg barS from if_pos h0'] at h; cases h
  · rw [csem_dma k h0, csem_dma k' h0'] at h; exact SemLoc.dma.inj h

/-- Distinct (device, index) pairs are distinct cells. -/
theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The four families' indices inside 0…32: staging 1–8, keeping 9–16, sending 17–24, receiving 25–32. -/
def stE : Fin 8 ↪ Fin 33 := ⟨fun i => stageS i, by decide⟩
def kpE : Fin 8 ↪ Fin 33 := ⟨fun i => keepS i, by decide⟩
def sdE : Fin 8 ↪ Fin 33 := ⟨fun i => sendS i, by decide⟩
def rvE : Fin 8 ↪ Fin 33 := ⟨fun i => recvS i, by decide⟩

/-- The thirty-three indices are 0 and the four families. -/
theorem univ33 : (Finset.univ : Finset (Fin 33))
    = {0} ∪ (Finset.univ.map stE ∪ (Finset.univ.map kpE ∪ (Finset.univ.map sdE ∪ Finset.univ.map rvE))) := by decide

omit [FloatOps F] in
/-- A conjunction over the thirty-three indices, family by family. -/
theorem bigSep_fin33 (Φ : Fin 33 → sProp 𝕄) :
    bigSep Finset.univ Φ = iprop(Φ 0 ∗ (bigSep Finset.univ fun i : Fin 8 => Φ (stageS i)) ∗ (bigSep Finset.univ fun i : Fin 8 => Φ (keepS i))
      ∗ (bigSep Finset.univ fun i : Fin 8 => Φ (sendS i)) ∗ (bigSep Finset.univ fun i : Fin 8 => Φ (recvS i))) := by
  rw [univ33, bigSep_union (by decide), bigSep_singleton, bigSep_union (by decide), bigSep_map, bigSep_union (by decide), bigSep_map,
    bigSep_union (by decide), bigSep_map, bigSep_map]
  rfl

omit [FloatOps F] in
/-- An assertion of each of a device's cells by name is the conjunction over its thirty-three indices. -/
theorem own33_eq (P : GSem nD τ sig → sProp 𝕄) (c : Dev nD) : own33 P c = bigSep Finset.univ fun k : Fin 33 => P (kcell (c, k)) := by
  rw [bigSep_fin33]; unfold own33
  have hs (i : Fin 8) : kcell (c, stageS i) = stageCell c i := Prod.ext rfl (csem_dma _ (by show 1 + i.val ≠ 0; omega))
  have hk (i : Fin 8) : kcell (c, keepS i) = keepCell c i := Prod.ext rfl (csem_dma _ (by show 9 + i.val ≠ 0; omega))
  have hd (i : Fin 8) : kcell (c, sendS i) = sendCell c i := Prod.ext rfl (csem_dma _ (by show 17 + i.val ≠ 0; omega))
  have hr (i : Fin 8) : kcell (c, recvS i) = recvCell c i := Prod.ext rfl (csem_dma _ (by show 25 + i.val ≠ 0; omega))
  simp only [hs, hk, hd, hr]
  rfl

/-! ## The launch element and what it deals -/

/-- All cells of all devices, and one duty token (round 0) for each. -/
def cells33 : Finset (GSem nD τ sig) := Finset.univ.map ⟨kcell, kcell_injective⟩
def toks33 : Finset (GSem nD τ sig × ℕ × Unit) :=
  Finset.univ.map ⟨fun ck : Dev nD × Fin 33 => (kcell ck, 0, ()), fun _ _ h => kcell_injective (congrArg Prod.fst h)⟩

/-- The launch element: the pipeline's copy for its staging cell, the protocol's copy for the cells and tokens above. -/
def u₀ : UU := (initOf (Pipeline.cells cfgs cellOf_inj) (Pipeline.launchToks cfgs cellOf_inj), initOf cells33 toks33)

/-- The duty tokens of device `c`'s own cells. -/
def toks (c : Dev nD) : sProp 𝕄 := bigSep Finset.univ fun k : Fin 33 => dutyTok ER (kcell (c, k)) 0 ()

/-- What the launch element deals device `c`: the round state, position and reached-mark of each of its cells at round 0,
    and its cells' duty tokens. -/
def G (c : Dev nD) : sProp 𝕄 :=
  iprop((bigSep Finset.univ fun k : Fin 33 => roundState ER (rsRd m) (kcell (c, k)) 0)
    ∗ (bigSep Finset.univ fun k : Fin 33 => iprop(atPos ER (kcell (c, k)) 0 ∅ 0 ∗ reached ER (kcell (c, k)) 0)) ∗ toks c)
/-- What the global step makes of it: the ghost state the body starts from, at some names. -/
def G' (c : Dev nD) : sProp 𝕄 := iprop(∃ K, ghost m K c)

omit [FloatOps F] in
/-- The protocol's copy of the launch element funds every device's share. -/
theorem fund_cells : BI.own (ER (initOf cells33 toks33)) ⊢ (|==> bigSep Finset.univ (G m) : sProp 𝕄) := by
  have hX (Φ : GSem nD τ sig → sProp 𝕄) : bigSep cells33 Φ = bigSep Finset.univ fun c : Dev nD => bigSep Finset.univ fun k : Fin 33 => Φ (kcell (c, k)) := by
    unfold cells33; rw [bigSep_map, bigSep_univ_prod]; rfl
  have hT : bigSep toks33 (fun x => (dutyTok ER x.1 x.2.1 x.2.2 : sProp 𝕄)) = bigSep Finset.univ fun c : Dev nD => toks c := by
    unfold toks33; rw [bigSep_map, bigSep_univ_prod]; rfl
  iintro HX
  imod (Rounds.fund ER (rsRd m) cells33 toks33) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants allocated -/

omit [FloatOps F] in
/-- The barrier semaphore is the one semaphore of a device that no kernel scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The own semaphore of index `j` is the device's cell of index `j + 1`. -/
def osE : Fin 32 ↪ Fin 33 := ⟨fun j => ⟨j.val + 1, by have := j.isLt; omega⟩, fun a b h => Fin.ext (Nat.succ.inj (congrArg Fin.val h))⟩

/-- The thirty-three indices are 0 and the successors of the thirty-two own semaphores' indices. -/
theorem univ33_succ : (Finset.univ : Finset (Fin 33)) = insert 0 (Finset.univ.map osE) := by decide

omit [FloatOps F] in
/-- A conjunction over the thirty-three indices: index 0, then the own semaphores' indices. -/
theorem bigSep_fin33_succ (Φ : Fin 33 → sProp 𝕄) :
    bigSep Finset.univ Φ = iprop(Φ 0 ∗ bigSep Finset.univ fun j : Fin 32 => Φ (osE j)) := by
  rw [univ33_succ, bigSep_insert (by decide), bigSep_map]; rfl

omit [FloatOps F] in
/-- The thirty-two own semaphores and the barrier semaphore at zero are the device's thirty-three cells' counters at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  have h (j : Fin 32) : kcell (c, osE j) = ((c : Thread nD τ), osem j) :=
    Prod.ext rfl (show csem (osE j) = osem j from csem_dma _ (Nat.succ_ne_zero _))
  rw [unscopedSems0_eq, bigSep_fin33_succ]
  simp only [h]
  unfold Pipeline.ownSems0
  iintro ⟨HS, HB⟩
  isplitl [HB]; · iexact HB
  iexact HS

omit [FloatOps F] in
/-- One device: each cell's counter at zero and round state at round 0 close into the cell's invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (rsRd m) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (rsRd m) (kcell (c, k)) 0)
      ⊢ (|={Set.univ}=> bigSep Finset.univ fun k : Fin 33 => iprop(∃ κ : ℕ, cellInv ER (rsRd m) κ (kcell (c, k))) : sProp 𝕄) from by
        rw [← bigSep_sep']
        exact (bigSep_mono fun k _ => (Rounds.body_intro ER (rsRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The names, the records every device reads, and the tokens dealt to the devices that pay them -/

/-- A cell's index among its device's thirty-three. -/
def idx : SemLoc sig → Fin 33
  | .reg _ => 0
  | .dma d => (d : Fin 33)

/-- The index of the cell of index `k` is `k`. -/
theorem idx_csem : ∀ k : Fin 33, idx (csem k) = k := by decide

/-- The names by cell, from the names by device and index. -/
def Kof (K : Dev nD × Fin 33 → ℕ) : GSem nD τ sig → ℕ := fun g => K (g.1.1, idx g.2)

/-- The name of device `c`'s cell of index `k` is the one recorded at `(c, k)`. -/
theorem Kof_kcell (K : Dev nD × Fin 33 → ℕ) (c : Dev nD) (k : Fin 33) : Kof K (kcell (c, k)) = K (c, k) := by
  show K (c, idx (csem k)) = _; rw [idx_csem]

/-- What every device may read, being persistent: all cells' invariants at the names `K`, and round 0 of every cell reached. -/
def records (K : Dev nD × Fin 33 → ℕ) : sProp 𝕄 :=
  iprop((bigSep Finset.univ fun ck : Dev nD × Fin 33 => cellInv ER (rsRd m) (K ck) (kcell ck))
    ∗ bigSep Finset.univ fun ck : Dev nD × Fin 33 => reached ER (kcell ck) 0)

instance records_persistent (K : Dev nD × Fin 33 → ℕ) : BI.Persistent (records m K) := by unfold records; infer_instance

omit [FloatOps F] in
/-- Out of all the invariants, those of one device's cells. -/
theorem inv_own (K : Dev nD × Fin 33 → ℕ) (c : Dev nD) :
    (bigSep Finset.univ fun ck : Dev nD × Fin 33 => (cellInv ER (rsRd m) (K ck) (kcell ck) : sProp 𝕄))
      ⊢ own33 (fun g => cellInv ER (rsRd m) (Kof K g) g) c := by
  rw [own33_eq, bigSep_univ_prod]
  exact (bigSep_elim (Finset.mem_univ c)).trans (Entails.of_eq (bigSep_congr fun k _ => by rw [Kof_kcell]))

omit [FloatOps F] in
/-- Out of all the reached-marks, those of one device's cells. -/
theorem reached_own (c : Dev nD) :
    (bigSep Finset.univ fun ck : Dev nD × Fin 33 => (reached ER (kcell ck) 0 : sProp 𝕄)) ⊢ own33 (fun g => reached ER g 0) c := by
  rw [own33_eq, bigSep_univ_prod]
  exact bigSep_elim (Finset.mem_univ c)

/-- What stays with device `c`: its positions, and the tokens of the duties it pays. -/
def linear (c : Dev nD) : sProp 𝕄 := iprop(own33 (fun g => atPos ER g 0 ∅ 0) c ∗ payToks c)

omit [FloatOps F] in
/-- The records and a device's own positions and paying tokens make up its ghost state. -/
theorem ghost_intro (K : Dev nD × Fin 33 → ℕ) (c : Dev nD) : iprop(records m K ∗ linear c) ⊢ G' m c := by
  unfold records linear G' ghost invs
  iintro ⟨⟨#HI, #HR⟩, Hat, Htok⟩
  iexists (Kof K)
  isplitr
  · isplitr
    · iapply (inv_own m K c); iexact HI
    · iapply (inv_own m K (peer c)); iexact HI
  isplitl [Hat]; · iexact Hat
  isplitr; · iapply (reached_own (F := F) c); iexact HR
  isplitr; · iapply (reached_own (F := F) (peer c)); iexact HR
  iexact Htok

omit [FloatOps F] in
/-- A device's barrier token and its eight receive tokens go to its partner; the other twenty-four stay. -/
theorem toks_around : (bigSep Finset.univ fun c : Dev nD => (toks c : sProp 𝕄)) ⊢ bigSep Finset.univ fun c : Dev nD => payToks c := by
  have h1 : (fun c : Dev nD => (toks c : sProp 𝕄)) = fun c => own33 (fun g => dutyTok ER g 0 ()) c :=
    funext fun c => by unfold toks; rw [own33_eq]
  rw [h1]
  unfold own33 payToks
  simp only [bigSep_sep']
  rw [bigSep_univ_equiv swap (fun c : Dev nD => (dutyTok ER (barCell c) 0 () : sProp 𝕄)),
    bigSep_univ_equiv swap (fun c : Dev nD => (bigSep Finset.univ fun i : Fin 8 => dutyTok ER (recvCell c i) 0 () : sProp 𝕄))]
  iintro ⟨HB, HS, HK, HD, HR⟩
  isplitl [HB]; · iexact HB
  isplitl [HR]; · iexact HR
  isplitl [HS]; · iexact HS
  isplitl [HK]; · iexact HK
  iexact HD

omit [FloatOps F] in
/-- A persistent assertion may be used at every index of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices at once: the names chosen, the records read off, the tokens dealt to the devices that pay them. -/
theorem regroup :
    (bigSep Finset.univ fun c : Dev nD => iprop((bigSep Finset.univ fun k : Fin 33 => iprop(∃ κ : ℕ, cellInv ER (rsRd m) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (rsRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (rsRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear; rw [own33_eq])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- Before the region: the block of the array, whole at the launched contents, beside the body's start (the ghost state, the launch
    credit of the barrier cell and the receive cells, the levels). -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xWhole m c) ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G' xWhole
  isplitl
  · isplitr [Hx]
    · isplitl [HG]; · iexact HG
      isplitl [H1]; · iexact H1
      isplitl [HN]; · iexact HN
      iexact Hlev
    · iexact Hx
  · iempintro

/-- At the region's entry the two scratch buffers join them. -/
theorem phi0_intro (c : Dev nD) :
    iprop((start m c ∗ xWhole m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- At its exit the block of the array is handed on, the own semaphores and the scratch buffers given back. -/
theorem phi1_exit (c : Dev nD) :
    (dats m ρ 0 c).Φ (Fin.last cfg0.N) ⊢ iprop(xWhole m c ∗ Pipeline.ownSems0 osem c ∗ Pipeline.scopedRest cfg0.spec c) := by
  rw [show (dats m ρ 0 c).Φ (Fin.last cfg0.N) = Φ₁ m c from rfl, scopedRest0_eq]
  unfold Φ₁ scratches
  exact .rfl

/-! ## The result array at the end -/

/-- The one write-back writes the whole result array: it ends at what the body left in the result buffer. -/
theorem final_out (c : Dev nD) : (dats m ρ 0 c).arrAt (0 : Fin 1) cfg0.N = sumFull m c := by
  have h := (dats m ρ 0 c).arrAt_succ (0 : Fin 1) t₀
  rw [flush0_0 t₀, if_pos rfl] at h
  refine Eq.trans (show _ = (dats m ρ 0 c).arrAt 0 (t₀.val + 1) from rfl) (h.trans ?_)
  exact Memref.write_access_unit_zero_univ (Elt F) main_v1 (funext fun a => Nat.zero_mul _) _ _ _

/-! ## The run -/

set_option maxRecDepth 8000 in
/-- From the body obligations: every weakly fair execution of the program on the thirty-two devices terminates, and
    every final state has each device's result array at its kept half plus its partner's sent half, its block of the
    array as launched. -/
theorem run_main_of (hbody : ∀ c : Dev nD, BodyObligation (dats (F := F) m ρ 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => iprop(start m c ∗ xWhole m c)) (Y := xWhole m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xWhole
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.KernelIdeal.RS.run_main_of' depends on axioms: [propext, Classical.choice, Quot.sound] -/
#guard_msgs in #print axioms run_main_of

end Cert.KernelIdeal.RS

end
-- ==== Proof.KernelIdeal.Landing.lean ====
/-
  What each copy lands, and the buffers cut into their chunks.
  A copy of chunk (h, i) of the block into rows [512 i, 512 i + 512) of a 4096 × 1024 buffer leaves there the rows of
  column half h; a copy of those rows of one buffer into the same rows of another leaves them there. Since a chunk is
  held at a function on the whole buffer read on the chunk only, each landing restates the written contents as the
  half it is. The eight row chunks tile a buffer and the sixteen chunks tile the block.
-/
import proofs.«901041_g7700000000001042_dist_rs_v7x_xyz2x4x4_x_m4096_n1024_f32_1_alg».proof.Proof.KernelIdeal.Proto
import Idealize.ShloMosaic.Lib.Pipeline.Value

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Reading chunk (h, i) of the block at index y gives the block's entry in row 512 i + y₀ and column 1024 h + y₁: the entry
    of column half h at the place index y has in row chunk i. The squeeze drops the unit axis, the slice adds its offsets. -/
theorem xCh_read (h : Fin 2) (i : Fin 8) (X : (main_arg0 : Ref sig .tc).ty.Contents (Elt F)) (y : S512x1024.Idx) :
    (xCh h i).view.read (Elt F) X y = halfOf h X ((rowRect i).emb y) := by
  unfold xCh halfOf
  rw [View.read_apply]
  refine (cast_eq _ _).trans (congrArg X ?_)
  have hy : Shape.reshapeEquiv (Gen.squeezes_S1x512x1024_S512x1024).numel_eq y = Fin.cons ⟨0, Nat.one_pos⟩ y :=
    Shape.reshapeEquiv_cons_one (n := 2) (d := ![512, 1024]) _ y
  show (Rect.unit (s := S1x4096x2048) ![0, 512 * i.val, 1024 * h.val] S1x512x1024.size (inb_x h i)).emb
      (Shape.reshapeEquiv (Gen.squeezes_S1x512x1024_S512x1024).numel_eq y) = _
  rw [hy]
  funext a
  obtain ⟨a, ha⟩ := a
  have ha' : a < 3 := ha
  rcases a with _ | _ | _ | a
  · exact Fin.ext (show 0 + 1 * 0 = 0 from rfl)
  · exact Fin.ext (show 512 * i.val + 1 * (y 0).val = 512 * i.val + 1 * (y 0).val from rfl)
  · exact Fin.ext (show 1024 * h.val + 1 * (y 1).val = (0 + 1 * (y 1).val) + 1024 * h.val by omega)
  · omega

/-- A staging copy: chunk `i` of the send buffer, written with chunk (sent half, i) of the block, holds the sent half's rows. -/
theorem stage_lands (c : Dev nD) (i : Fin 8) (fd : Buf (Elt F) ((rowCh (sM : Memref sig .tc .vmem S4096x1024 .f32) i).view.loc (c : Thread nD τ))) :
    piece (F := F) c sM i ((rowCh (sM : Memref sig .tc .vmem S4096x1024 .f32) i).view.write (Elt F) fd ((xCh (sdH c) i).view.read (Elt F) (Xof m c)) Finset.univ)
      = piece c sM i (sendFull m c) := by
  unfold piece
  refine BI.Region.is_congr fun j hj => ?_
  obtain ⟨y, rfl⟩ := View.exists_emb_of_mem_set _ hj
  rw [View.write_emb_of_mem _ _ (Finset.mem_univ y), xCh_read]
  exact cast_eq _ _

/-- A keeping copy: chunk `i` of the result buffer, written with chunk (kept half, i) of the block, holds the kept half's rows. -/
theorem keep_lands (c : Dev nD) (i : Fin 8) (fd : Buf (Elt F) ((rowCh (oM : Memref sig .tc .vmem S4096x1024 .f32) i).view.loc (c : Thread nD τ))) :
    piece (F := F) c oM i ((rowCh (oM : Memref sig .tc .vmem S4096x1024 .f32) i).view.write (Elt F) fd ((xCh (kpH c) i).view.read (Elt F) (Xof m c)) Finset.univ)
      = piece c oM i (keepFull m c) := by
  unfold piece
  refine BI.Region.is_congr fun j hj => ?_
  obtain ⟨y, rfl⟩ := View.exists_emb_of_mem_set _ hj
  rw [View.write_emb_of_mem _ _ (Finset.mem_univ y), xCh_read]
  exact cast_eq _ _

/-- What a device receives is what its partner sends: the partner's partner is the device itself. -/
theorem recvFull_peer (c : Dev nD) : recvFull m (peer c) = sendFull m c := by
  unfold recvFull sendFull; rw [peer_peer]

/-- The transfer to the partner: chunk `i` of the partner's receive buffer, written with chunk `i` of this device's send
    buffer (holding its sent half), holds what the partner receives. -/
theorem recv_lands (c : Dev nD) (i : Fin 8) (fd : Buf (Elt F) ((rowCh (rM : Memref sig .tc .vmem S4096x1024 .f32) i).view.loc (peer c : Thread nD τ))) :
    piece (F := F) (peer c) rM i ((rowCh (rM : Memref sig .tc .vmem S4096x1024 .f32) i).view.write (Elt F) fd
        ((rowCh (sM : Memref sig .tc .vmem S4096x1024 .f32) i).view.read (Elt F) (sendFull m c)) Finset.univ)
      = piece (peer c) rM i (recvFull m (peer c)) := by
  unfold piece
  refine BI.Region.is_congr fun j hj => ?_
  obtain ⟨y, rfl⟩ := View.exists_emb_of_mem_set _ hj
  rw [View.write_emb_of_mem _ _ (Finset.mem_univ y), recvFull_peer]
  exact (cast_eq _ _).trans (cast_eq _ _)

/-! ## The buffers cut into their chunks -/

/-- Every row lies in the chunk of its quotient by 512. -/
theorem rows_cover (x : S4096x1024.Idx) : ∃ i : Fin 8, x ∈ (rowRect i).set := by
  have h0 : (x 0).val < 4096 := (x 0).isLt
  have h1 : (x 1).val < 1024 := (x 1).isLt
  refine ⟨⟨(x 0).val / 512, by omega⟩, Rect.mem_set_unit.mpr fun a => ?_⟩
  obtain ⟨a, ha⟩ := a
  have ha' : a < 2 := ha
  rcases a with _ | _ | a
  · show 512 * ((x 0).val / 512) ≤ (x 0).val ∧ (x 0).val < 512 * ((x 0).val / 512) + 512
    omega
  · show 0 ≤ (x 1).val ∧ (x 1).val < 0 + 1024
    omega
  · omega

/-- Different chunks share no row. -/
theorem rows_disjoint (i i' : Fin 8) (h : i ≠ i') : Disjoint (rowRect i).set (rowRect i').set := by
  refine Rect.unit_disjoint (0 : Fin 2) ?_
  have := Fin.val_ne_of_ne h
  show 512 * i.val + 512 ≤ 512 * i'.val ∨ 512 * i'.val + 512 ≤ 512 * i.val
  omega

/-- The elements under a view of a 4096 × 1024 array are those under its eight row chunks. -/
theorem rows_set {sp : Space} (M : Memref sig .tc sp S4096x1024 .f32) :
    M.view.set = (Finset.univ : Finset (Fin 8)).biUnion fun i => (M.view.slice (rowRect i)).set := by
  ext j
  rw [Finset.mem_biUnion]
  constructor
  · intro hj
    obtain ⟨x, rfl⟩ := View.exists_emb_of_mem_set _ hj
    obtain ⟨i, hi⟩ := rows_cover x
    exact ⟨i, Finset.mem_univ _, by rw [View.set_slice]; exact Finset.mem_map_of_mem _ hi⟩
  · rintro ⟨i, -, hj⟩
    exact View.set_slice_subset _ _ hj

/-- The eight row chunks tile a whole 4096 × 1024 buffer. -/
theorem split_rows {sp : Space} (c : Dev nD) (M : Memref sig .tc sp S4096x1024 .f32) (hM : M.IsWhole) (f : Buf (Elt F) (M.view.loc (c : Thread nD τ))) :
    (M.view.loc (c : Thread nD τ) ↦[M.view.set]{fullShare} f : sProp 𝕄) ⊣⊢ bigSep Finset.univ fun i : Fin 8 => piece c M i f := by
  refine BiEntails.of_eq ?_
  rw [rows_set M, pointsTo_biUnion _ _ fun i _ i' _ h => by
    rw [View.set_slice, View.set_slice]
    exact (Finset.disjoint_map _).mpr (rows_disjoint i i' h)]
  rfl

/-- The rectangle of the block that chunk (h, i) is: the one plane, rows [512 i, 512 i + 512), columns [1024 h, 1024 h + 1024). -/
abbrev xRect (h : Fin 2) (i : Fin 8) : Rect S1x4096x2048 :=
  Rect.unit (s := S1x4096x2048) ![0, 512 * i.val, 1024 * h.val] S1x512x1024.size (inb_x h i)

/-- The elements under chunk (h, i) of the block are those of its rectangle: dropping the unit axis re-indexes them only. -/
theorem xCh_set (h : Fin 2) (i : Fin 8) : (xCh h i).view.set = (xRect h i).set :=
  (View.set_reshape _ _).trans (View.set_slice_whole main_arg0 (xRect h i))

/-- Every element of the block lies in the chunk of its column's quotient by 1024 and its row's by 512. -/
theorem x_cover (x : S1x4096x2048.Idx) : ∃ hi : Fin 2 × Fin 8, x ∈ (xRect hi.1 hi.2).set := by
  have h0 : (x 0).val < 1 := (x 0).isLt
  have h1 : (x 1).val < 4096 := (x 1).isLt
  have h2 : (x 2).val < 2048 := (x 2).isLt
  refine ⟨(⟨(x 2).val / 1024, by omega⟩, ⟨(x 1).val / 512, by omega⟩), Rect.mem_set_unit.mpr fun a => ?_⟩
  obtain ⟨a, ha⟩ := a
  have ha' : a < 3 := ha
  rcases a with _ | _ | _ | a
  · show 0 ≤ (x 0).val ∧ (x 0).val < 0 + 1
    omega
  · show 512 * ((x 1).val / 512) ≤ (x 1).val ∧ (x 1).val < 512 * ((x 1).val / 512) + 512
    omega
  · show 1024 * ((x 2).val / 1024) ≤ (x 2).val ∧ (x 2).val < 1024 * ((x 2).val / 1024) + 1024
    omega
  · omega

/-- Different chunks of the block share no element: they differ in the column half or in the row chunk. -/
theorem x_disjoint (hi hi' : Fin 2 × Fin 8) (h : hi ≠ hi') : Disjoint (xRect hi.1 hi.2).set (xRect hi'.1 hi'.2).set := by
  obtain ⟨h₁, i₁⟩ := hi
  obtain ⟨h₂, i₂⟩ := hi'
  by_cases hh : h₁ = h₂
  · have hi : i₁ ≠ i₂ := fun e => h (by rw [hh, e])
    have := Fin.val_ne_of_ne hi
    refine Rect.unit_disjoint (1 : Fin 3) ?_
    show 512 * i₁.val + 512 ≤ 512 * i₂.val ∨ 512 * i₂.val + 512 ≤ 512 * i₁.val
    omega
  · have := Fin.val_ne_of_ne hh
    refine Rect.unit_disjoint (2 : Fin 3) ?_
    show 1024 * h₁.val + 1024 ≤ 1024 * h₂.val ∨ 1024 * h₂.val + 1024 ≤ 1024 * h₁.val
    omega

/-- The block's elements are those of its sixteen chunks. -/
theorem x_set : (Finset.univ : Finset S1x4096x2048.Idx) = (Finset.univ : Finset (Fin 2 × Fin 8)).biUnion fun hi => (xRect hi.1 hi.2).set := by
  ext x
  rw [Finset.mem_biUnion]
  constructor
  · intro _
    obtain ⟨hi, hx⟩ := x_cover x
    exact ⟨hi, Finset.mem_univ _, hx⟩
  · intro _
    exact Finset.mem_univ _

/-- The sixteen chunks tile the device's block of the array. -/
theorem split_x (c : Dev nD) :
    (xWhole m c : sProp 𝕄) ⊣⊢ bigSep Finset.univ fun hi : Fin 2 × Fin 8 => xpiece m c hi.1 hi.2 := by
  refine BiEntails.of_eq ?_
  unfold xWhole
  have e : (((c : Thread nD τ).loc main_arg0) ↦[(Finset.univ : Finset (Fin 2 × Fin 8)).biUnion fun hi => (xRect hi.1 hi.2).set]{fullShare}
        m ((c : Thread nD τ).loc main_arg0) : sProp 𝕄)
      = bigSep Finset.univ fun hi : Fin 2 × Fin 8 => ((c : Thread nD τ).loc main_arg0) ↦[(xRect hi.1 hi.2).set]{fullShare} m ((c : Thread nD τ).loc main_arg0) :=
    pointsTo_biUnion _ _ fun hi _ hi' _ h => x_disjoint hi hi' h
  rw [← x_set] at e
  refine e.trans (bigSep_congr fun hi _ => ?_)
  unfold xpiece Xof
  rw [xCh_set]
  rfl

/-- info: 'Cert.KernelIdeal.RS.stage_lands' depends on axioms: [propext, Classical.choice, Quot.sound] -/
#guard_msgs in #print axioms stage_lands
/-- info: 'Cert.KernelIdeal.RS.keep_lands' depends on axioms: [propext, Classical.choice, Quot.sound] -/
#guard_msgs in #print axioms keep_lands
/-- info: 'Cert.KernelIdeal.RS.recv_lands' depends on axioms: [propext, Classical.choice, Quot.sound] -/
#guard_msgs in #print axioms recv_lands
/-- info: 'Cert.KernelIdeal.RS.split_rows' depends on axioms: [propext, Classical.choice, Quot.sound] -/
#guard_msgs in #print axioms split_rows
/-- info: 'Cert.KernelIdeal.RS.split_x' depends on axioms: [propext, Classical.choice, Quot.sound] -/
#guard_msgs in #print axioms split_x

end Cert.KernelIdeal.RS

end
-- ==== Proof.KernelIdeal.StepsMem.lean ====
/-
  The step rules that touch only a device's own memory and its finished cells, each once, for any device c and any
  chunk i: closing a cell whose one round is over; the thirty-two closed DMA cells as the kernel's own semaphores at
  zero; the load of a chunk's rows through the whole buffer and the store of a vector back into them; the printed
  sum's cast to its own shape; and that the stored sum of the kept rows and the received rows is the sum's rows.
-/
import proofs.«901041_g7700000000001042_dist_rs_v7x_xyz2x4x4_x_m4096_n1024_f32_1_alg».proof.Proof.KernelIdeal.Proto
import proofs.«901041_g7700000000001042_dist_rs_v7x_xyz2x4x4_x_m4096_n1024_f32_1_alg».proof.Proof.KernelIdeal.Landing

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the finished cells -/

/-- A cell whose one round is over closes: its counter, at zero, is the device's again. -/
theorem close_cell (g : GSem nD τ sig) (κ : ℕ) :
    iprop(cellInv ER (rsRd m) κ g ∗ atPos ER g 1 ∅ 0) ⊢ iprop(|={Set.univ}=> semVal g 0 : sProp 𝕄) :=
  Rounds.cell_close ER (rsRd m) (Set.mem_univ κ) (fun h => h) (R := 1) (duties_later m g)

/-- The kernel's own semaphore number 8 a + b is DMA semaphore 8 a + b + 1: semaphore b of family a. -/
abbrev famIx : Fin 4 × Fin 8 ≃ Fin 32 := finProdFinEquiv

theorem osem_stage (i : Fin 8) : osem (famIx (0, i)) = .dma (stageS i) := by revert i; decide
theorem osem_keep (i : Fin 8) : osem (famIx (1, i)) = .dma (keepS i) := by revert i; decide
theorem osem_send (i : Fin 8) : osem (famIx (2, i)) = .dma (sendS i) := by revert i; decide
theorem osem_recv (i : Fin 8) : osem (famIx (3, i)) = .dma (recvS i) := by revert i; decide

omit [FloatOps F] in
theorem bigSep_fams (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The thirty-two closed DMA cells, family by family, are the kernel's own semaphores at zero. -/
theorem ownSems0_of_cells (c : Dev nD) :
    iprop((bigSep Finset.univ fun i : Fin 8 => semVal (stageCell c i) 0) ∗ (bigSep Finset.univ fun i : Fin 8 => semVal (keepCell c i) 0)
        ∗ (bigSep Finset.univ fun i : Fin 8 => semVal (sendCell c i) 0) ∗ (bigSep Finset.univ fun i : Fin 8 => semVal (recvCell c i) 0))
      ⊢ (Pipeline.ownSems0 (Ix := Unit) (Name := ℕ) (U := UU) (Lvl := ℕ) (Val := Elt F) (τ := τ) osem c : sProp 𝕄) := by
  unfold Pipeline.ownSems0
  rw [bigSep_univ_equiv famIx, bigSep_univ_prod, bigSep_fams]
  simp only [osem_stage, osem_keep, osem_send, osem_recv]
  exact Entails.refl _

/-! ## The loads and the store of a chunk through the whole buffer -/

/-- The load of rows [512 i, 512 i + 512) through the whole buffer, from the chunk's piece. -/
theorem wp_load_rows (c : Dev nD) (M : Memref sig .tc .vmem S4096x1024 .f32) (i : Fin 8)
    {hl : M.view.LoadsAt (rowRect i).toLoadRect} {α : Type} {Q : α → sProp 𝕄}
    {k : ((rowRect i).toLoadRect.shape.Idx → Elt F .f32) → Prog (TpuEff nD τ sig (Elt F) Λ₀ .tc) α}
    (f : Buf (Elt F) ((rowCh M i).view.loc (c : Thread nD τ))) :
    piece c M i f
      ⊢ iprop((piece c M i f -∗ wp frame (wpE (defs₀ (F := F)) 𝒱₀ (c : Thread nD τ) none) Set.univ (k ((rowCh M i).view.read (Elt F) f)) Q)
          -∗ wp frame (wpE (defs₀ (F := F)) 𝒱₀ (c : Thread nD τ) none) Set.univ (.op (.load M (rowRect i).toLoadRect hl) k) Q) := by
  unfold piece
  exact wp_load_rect 𝒱₀ (c : Thread nD τ) none Set.univ (m := M) (r := rowRect i) (Finset.Subset.refl _)

/-- The store of a vector into rows [512 i, 512 i + 512) through the whole buffer, into the chunk's piece. -/
theorem wp_store_rows (c : Dev nD) (M : Memref sig .tc .vmem S4096x1024 .f32) (i : Fin 8)
    {w : (rowRect i).shape.Idx → Elt F .f32} {hx : (M.access (rowRect i)).Stores Finset.univ} {hm : (Finset.univ : Finset (rowRect i).shape.Idx) = Finset.univ ∨ ∀ a, (rowRect i).stride a = 1}
    {α : Type} {Q : α → sProp 𝕄} {k : PUnit → Prog (TpuEff nD τ sig (Elt F) Λ₀ .tc) α} (f : Buf (Elt F) ((rowCh M i).view.loc (c : Thread nD τ))) :
    piece c M i f
      ⊢ iprop((piece c M i ((rowCh M i).view.write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store M (rowRect i) w Finset.univ hx hm) k) Q) := by
  unfold piece
  exact wp_store 𝒱₀ (c : Thread nD τ) none Set.univ (m := M) (r := rowRect i) (Finset.Subset.refl _)

/-- The printed sum's cast to its own shape is the identity. -/
theorem addf_cast (v w : Vec F S512x1024 .f32) (h : S512x1024.ShapeCasts S512x1024) : addf (shapeCast S512x1024 v h) w = addf v w := by
  rw [shapeCast_self]

/-- The chunk of the result buffer, after the sum of the kept rows and the received rows is stored into it, holds the sum's rows. -/
theorem sum_lands (c : Dev nD) (i : Fin 8) (f : Buf (Elt F) ((rowCh (oM : Memref sig .tc .vmem S4096x1024 .f32) i).view.loc (c : Thread nD τ))) :
    piece (F := F) c oM i ((rowCh (oM : Memref sig .tc .vmem S4096x1024 .f32) i).view.write (Elt F) f
        (addf ((rowCh (oM : Memref sig .tc .vmem S4096x1024 .f32) i).view.read (Elt F) (keepFull m c))
              ((rowCh (rM : Memref sig .tc .vmem S4096x1024 .f32) i).view.read (Elt F) (recvFull m c))) Finset.univ)
      = piece c oM i (sumFull m c) := by
  unfold piece
  refine BI.Region.is_congr fun j hj => ?_
  obtain ⟨x, rfl⟩ := View.exists_emb_of_mem_set _ hj
  rw [View.write_emb_of_mem _ _ (Finset.mem_univ x)]
  rfl

/-- info: 'Cert.KernelIdeal.RS.close_cell' depends on axioms: [propext, Classical.choice, Quot.sound] -/
#guard_msgs in #print axioms close_cell

/-- info: 'Cert.KernelIdeal.RS.ownSems0_of_cells' depends on axioms: [propext, Classical.choice, Quot.sound] -/
#guard_msgs in #print axioms ownSems0_of_cells

/-- info: 'Cert.KernelIdeal.RS.wp_load_rows' depends on axioms: [propext, Classical.choice, Quot.sound] -/
#guard_msgs in #print axioms wp_load_rows

/-- info: 'Cert.KernelIdeal.RS.wp_store_rows' depends on axioms: [propext, Classical.choice, Quot.sound] -/
#guard_msgs in #print axioms wp_store_rows

/-- info: 'Cert.KernelIdeal.RS.addf_cast' depends on axioms: [propext, Classical.choice, Quot.sound] -/
#guard_msgs in #print axioms addf_cast

/-- info: 'Cert.KernelIdeal.RS.sum_lands' depends on axioms: [propext, Classical.choice, Quot.sound] -/
#guard_msgs in #print axioms sum_lands

end Cert.KernelIdeal.RS

end
-- ==== Proof.KernelIdeal.Steps.lean ====
/-
  The step rules of one device's body that move credit, each once, for any device c and any chunk i.
  The signal to the partner's barrier cell and the wait on one's own; the issue of a staging copy and of a keeping
  copy; the issue of the transfer to the partner; the wait on a DMA cell of one's own, with what each cell's wait
  hands back.
-/
import proofs.«901041_g7700000000001042_dist_rs_v7x_xyz2x4x4_x_m4096_n1024_f32_1_alg».proof.Proof.KernelIdeal.Proto
import proofs.«901041_g7700000000001042_dist_rs_v7x_xyz2x4x4_x_m4096_n1024_f32_1_alg».proof.Proof.KernelIdeal.Landing
import proofs.«901041_g7700000000001042_dist_rs_v7x_xyz2x4x4_x_m4096_n1024_f32_1_alg».proof.Proof.KernelIdeal.StepsMem

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed partner chains -/

theorem dev1_eq (c : Dev nD) : (⟨k0_dev1 c, k0_dev1_lt c⟩ : Dev nD) = peer c := Fin.ext ((k0_dev1_eq c).trans (dev_closed c))
theorem dev2_eq (c : Dev nD) (h1 : k0_cond1 c = 1#1) : (⟨k0_dev2 c, k0_dev2_lt c h1⟩ : Dev nD) = peer c := Fin.ext ((k0_dev2_eq c).trans (dev_closed c))
theorem dev3_eq (c : Dev nD) (h1 : k0_cond1 c = 1#1) : (⟨k0_dev3 c, k0_dev3_lt c h1⟩ : Dev nD) = peer c := Fin.ext ((k0_dev3_eq c).trans (dev_closed c))
theorem dev4_eq (c : Dev nD) (h1 : k0_cond1 c = 1#1) : (⟨k0_dev4 c, k0_dev4_lt c h1⟩ : Dev nD) = peer c := Fin.ext ((k0_dev4_eq c).trans (dev_closed c))
theorem dev5_eq (c : Dev nD) (h1 : k0_cond1 c = 1#1) : (⟨k0_dev5 c, k0_dev5_lt c h1⟩ : Dev nD) = peer c := Fin.ext ((k0_dev5_eq c).trans (dev_closed c))
theorem dev6_eq (c : Dev nD) (h1 : k0_cond1 c = 1#1) : (⟨k0_dev6 c, k0_dev6_lt c h1⟩ : Dev nD) = peer c := Fin.ext ((k0_dev6_eq c).trans (dev_closed c))
theorem dev7_eq (c : Dev nD) (h1 : k0_cond1 c = 1#1) : (⟨k0_dev7 c, k0_dev7_lt c h1⟩ : Dev nD) = peer c := Fin.ext ((k0_dev7_eq c).trans (dev_closed c))
theorem dev8_eq (c : Dev nD) (h1 : k0_cond1 c = 1#1) : (⟨k0_dev8 c, k0_dev8_lt c h1⟩ : Dev nD) = peer c := Fin.ext ((k0_dev8_eq c).trans (dev_closed c))
theorem dev9_eq (c : Dev nD) (h1 : k0_cond1 c = 1#1) : (⟨k0_dev9 c, k0_dev9_lt c h1⟩ : Dev nD) = peer c := Fin.ext ((k0_dev9_eq c).trans (dev_closed c))
theorem dev10_eq (c : Dev nD) (h2 : k0_cond2 c = 1#1) : (⟨k0_dev10 c, k0_dev10_lt c h2⟩ : Dev nD) = peer c := Fin.ext ((k0_dev10_eq c).trans (dev_closed c))
theorem dev11_eq (c : Dev nD) (h2 : k0_cond2 c = 1#1) : (⟨k0_dev11 c, k0_dev11_lt c h2⟩ : Dev nD) = peer c := Fin.ext ((k0_dev11_eq c).trans (dev_closed c))
theorem dev12_eq (c : Dev nD) (h2 : k0_cond2 c = 1#1) : (⟨k0_dev12 c, k0_dev12_lt c h2⟩ : Dev nD) = peer c := Fin.ext ((k0_dev12_eq c).trans (dev_closed c))
theorem dev13_eq (c : Dev nD) (h2 : k0_cond2 c = 1#1) : (⟨k0_dev13 c, k0_dev13_lt c h2⟩ : Dev nD) = peer c := Fin.ext ((k0_dev13_eq c).trans (dev_closed c))
theorem dev14_eq (c : Dev nD) (h2 : k0_cond2 c = 1#1) : (⟨k0_dev14 c, k0_dev14_lt c h2⟩ : Dev nD) = peer c := Fin.ext ((k0_dev14_eq c).trans (dev_closed c))
theorem dev15_eq (c : Dev nD) (h2 : k0_cond2 c = 1#1) : (⟨k0_dev15 c, k0_dev15_lt c h2⟩ : Dev nD) = peer c := Fin.ext ((k0_dev15_eq c).trans (dev_closed c))
theorem dev16_eq (c : Dev nD) (h2 : k0_cond2 c = 1#1) : (⟨k0_dev16 c, k0_dev16_lt c h2⟩ : Dev nD) = peer c := Fin.ext ((k0_dev16_eq c).trans (dev_closed c))
theorem dev17_eq (c : Dev nD) (h2 : k0_cond2 c = 1#1) : (⟨k0_dev17 c, k0_dev17_lt c h2⟩ : Dev nD) = peer c := Fin.ext ((k0_dev17_eq c).trans (dev_closed c))

/-! ## Small facts about the chunks -/

/-- Every row chunk of every 4096 × 1024 buffer credits the same amount. -/
theorem credit_rows {sp : Space} (M : Memref sig .tc sp S4096x1024 .f32) (i : Fin 8) : (rowCh M i).view.dmaCredit = N := rfl
theorem credit_x (h : Fin 2) (i : Fin 8) : (xCh h i).view.dmaCredit = N := rfl

/-- What a device hands its partner with the barrier signal, with the partner's partner resolved: its own receive
    buffer and that it has reached round 0 of its own receive cells. -/
theorem barPay_peer (c : Dev nD) :
    barPay (F := F) (peer c) = iprop((∃ f, (rM : Memref sig .tc .vmem S4096x1024 .f32).view.loc (c : Thread nD τ) ↦[(rM : Memref sig .tc .vmem S4096x1024 .f32).view.set]{fullShare} f)
      ∗ bigSep Finset.univ fun i : Fin 8 => reached ER (recvCell c i) 0) := by
  unfold barPay; rw [peer_peer]

/-! ## What a wait hands back -/

/-- What each family's wait hands back. -/
theorem dmaPay_stage (c : Dev nD) (i : Fin 8) : dmaPay m c (stageS i) = stagePay m c i := payload_stage m c i ()
theorem dmaPay_keep (c : Dev nD) (i : Fin 8) : dmaPay m c (keepS i) = keepPay m c i := payload_keep m c i ()
theorem dmaPay_send (c : Dev nD) (i : Fin 8) : dmaPay m c (sendS i) = sendPay m c i := payload_send m c i ()
theorem dmaPay_recv (c : Dev nD) (i : Fin 8) : dmaPay m c (recvS i) = recvPay m c i := payload_recv m c i ()

/-- The rest of a cell's round, no duty taken, is its one payload. -/
theorem rest_dma (c : Dev nD) (d : DmaSem sig) (hd : IsCell ((c : Thread nD τ), .dma d)) :
    bigSep ((rsRd (F := F) m).duties ((c : Thread nD τ), .dma d) 0 \ ∅) (fun u => (rsRd (F := F) m).payload ((c : Thread nD τ), .dma d) 0 u) = dmaPay m c d := by
  rw [Finset.sdiff_empty, duties_cell m _ hd, bigSep_singleton]; rfl
theorem rest_stage (c : Dev nD) (i : Fin 8) :
    bigSep ((rsRd (F := F) m).duties (stageCell c i) 0 \ ∅) (fun u => (rsRd (F := F) m).payload (stageCell c i) 0 u) = stagePay m c i := by
  rw [Finset.sdiff_empty, duties_stage, bigSep_singleton, payload_stage]
theorem rest_keep (c : Dev nD) (i : Fin 8) :
    bigSep ((rsRd (F := F) m).duties (keepCell c i) 0 \ ∅) (fun u => (rsRd (F := F) m).payload (keepCell c i) 0 u) = keepPay m c i := by
  rw [Finset.sdiff_empty, duties_keep, bigSep_singleton, payload_keep]
theorem rest_send (c : Dev nD) (i : Fin 8) :
    bigSep ((rsRd (F := F) m).duties (sendCell c i) 0 \ ∅) (fun u => (rsRd (F := F) m).payload (sendCell c i) 0 u) = sendPay m c i := by
  rw [Finset.sdiff_empty, duties_send, bigSep_singleton, payload_send]
theorem rest_recv (c : Dev nD) (i : Fin 8) :
    bigSep ((rsRd (F := F) m).duties (recvCell c i) 0 \ ∅) (fun u => (rsRd (F := F) m).payload (recvCell c i) 0 u) = recvPay m c i := by
  rw [Finset.sdiff_empty, duties_recv, bigSep_singleton, payload_recv]
theorem rest_bar (c : Dev nD) :
    bigSep ((rsRd (F := F) m).duties (barCell c) 0 \ ∅) (fun u => (rsRd (F := F) m).payload (barCell c) 0 u) = barPay c := by
  rw [Finset.sdiff_empty, duties_bar, bigSep_singleton, payload_bar]

/-- From what a wait hands back, the fact that the next round is reached is dropped. -/
theorem post_drop {A B C D : sProp 𝕄} : iprop(A ∗ B ∗ C ∗ D) ⊢ iprop(A ∗ B ∗ D) := by
  iintro ⟨HA, HB, -, HD⟩
  isplitl [HA]; · iexact HA
  isplitl [HB]; · iexact HB
  iexact HD

/-! ## The entry handshake -/

/-- The signal to the partner's barrier cell, addressed to `n = peer c`. -/
theorem wp_signal_peer (c n : Dev nD) (hn : n = peer c) (κ : ℕ) (O : CellTallies nD τ sig Unit) {O' : CellTallies nD τ sig Unit}
    (hO : O' = O + tallyAt (barCell (peer c)) () 1) {W : Waits sig Unit} {α : Type} {Q : α → sProp 𝕄} {k : PUnit → Prog (TpuEff nD τ sig (Elt F) Λ₀ .tc) α} :
    iprop(cellInv ER (rsRd m) κ (barCell (peer c)) ∗ owes (c : Thread nD τ) O' W ∗ dutyTok ER (barCell (peer c)) 0 ()
        ∗ ((∃ f, (rM : Memref sig .tc .vmem S4096x1024 .f32).view.loc (c : Thread nD τ) ↦[(rM : Memref sig .tc .vmem S4096x1024 .f32).view.set]{fullShare} f)
          ∗ bigSep Finset.univ fun i : Fin 8 => reached ER (recvCell c i) 0)
        ∗ reached ER (barCell (peer c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  rw [← barPay_peer]
  exact Rounds.wp_signal 𝒱₀ ER (rsRd m) (c : Thread nD τ) none (dst := (peer c : Thread nD τ)) (sem := barS) (κ := κ) (r := 0) (d := ()) (k' := 1)
    (by rw [duties_bar]; exact Finset.mem_singleton_self _) (amount_bar m (peer c) ()) () O hO

/-- The wait of one unit on one's own barrier cell, allowed by the levels under what is still owed: the partner's receive
    buffer comes with it. -/
theorem wp_wait_bar (c : Dev nD) (κ : ℕ) (O : CellTallies nD τ sig Unit) (W : Waits sig Unit) {α : Type} {Q : α → sProp 𝕄} {k : PUnit → Prog (TpuEff nD τ sig (Elt F) Λ₀ .tc) α} :
    iprop(cellInv ER (rsRd m) κ (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ barPay c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  refine (Rounds.wp_wait_rest_token 𝒱₀ ER (rsRd m) (c : Thread nD τ) none (κ := κ) (sm := .reg barS) (k' := 1)
    (wpE_semWait_eq 𝒱₀ (c : Thread nD τ) none Set.univ) (Set.mem_univ _) () (O := O) (W := W) (R := 0) (m := 0) (T := ∅) (k := k) (Q := Q)
    (by rw [expect_bar])).trans (wand_mono_left (wand_mono_left ?_))
  rw [rest_bar]
  exact post_drop

/-! ## The local copies -/

/-- A staging copy's issue: chunk (h, i) of the block, h the sent half, into chunk i of the send buffer. -/
theorem wp_stage (c : Dev nD) (h : Fin 2) (hh : h = sdH c) (i : Fin 8) (κ : ℕ)
    {hsrc : (xCh h i).view.WordExact} {hdst : (rowCh (sM : Memref sig .tc .vmem S4096x1024 .f32) i).view.WordExact}
    {hsem : DmaTarget.Typed (nD := nD) .hbm (.dma (stageS i)) (DmaTarget.here (p := .tc) (rowCh (sM : Memref sig .tc .vmem S4096x1024 .f32) i))}
    {α : Type} {Q : α → sProp 𝕄} {k : PUnit → Prog (TpuEff nD τ sig (Elt F) Λ₀ .tc) α} (fd : Buf (Elt F) ((rowCh (sM : Memref sig .tc .vmem S4096x1024 .f32) i).view.loc (c : Thread nD τ))) :
    iprop(cellInv ER (rsRd m) κ (stageCell c i) ∗ xpiece m c h i ∗ piece c sM i fd ∗ dutyTok ER (stageCell c i) 0 () ∗ reached ER (stageCell c i) 0)
      ⊢ iprop((cred (tallyAt (stageCell c i) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xCh h i) (.here (rowCh sM i)) (.dma (stageS i)) hsrc hdst hsem) k) Q) := by
  subst hh
  unfold xpiece piece
  exact Rounds.wp_copy_pointsTo 𝒱₀ ER (rsRd m) (c : Thread nD τ) none (src := xCh (sdH c) i) (dst := rowCh sM i) (sem := .dma (stageS i))
    (q := fullShare) (fs := Xof m c) (fd := fd) (r := 0) (d := ()) (κ := κ)
    (by rw [duties_stage]; exact Finset.mem_singleton_self _) () N (credit_rows sM i) (amount_dma m c (stageS i) 0 ())
    (by rw [payload_stage]; unfold stagePay; rw [← stage_lands m c i fd]; unfold piece xpiece; exact BI.Entails.refl _)

/-- A keeping copy's issue: chunk (h, i) of the block, h the kept half, into chunk i of the result buffer. -/
theorem wp_keep (c : Dev nD) (h : Fin 2) (hh : h = kpH c) (i : Fin 8) (κ : ℕ)
    {hsrc : (xCh h i).view.WordExact} {hdst : (rowCh (oM : Memref sig .tc .vmem S4096x1024 .f32) i).view.WordExact}
    {hsem : DmaTarget.Typed (nD := nD) .hbm (.dma (keepS i)) (DmaTarget.here (p := .tc) (rowCh (oM : Memref sig .tc .vmem S4096x1024 .f32) i))}
    {α : Type} {Q : α → sProp 𝕄} {k : PUnit → Prog (TpuEff nD τ sig (Elt F) Λ₀ .tc) α} (fd : Buf (Elt F) ((rowCh (oM : Memref sig .tc .vmem S4096x1024 .f32) i).view.loc (c : Thread nD τ))) :
    iprop(cellInv ER (rsRd m) κ (keepCell c i) ∗ xpiece m c h i ∗ piece c oM i fd ∗ dutyTok ER (keepCell c i) 0 () ∗ reached ER (keepCell c i) 0)
      ⊢ iprop((cred (tallyAt (keepCell c i) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xCh h i) (.here (rowCh oM i)) (.dma (keepS i)) hsrc hdst hsem) k) Q) := by
  subst hh
  unfold xpiece piece
  exact Rounds.wp_copy_pointsTo 𝒱₀ ER (rsRd m) (c : Thread nD τ) none (src := xCh (kpH c) i) (dst := rowCh oM i) (sem := .dma (keepS i))
    (q := fullShare) (fs := Xof m c) (fd := fd) (r := 0) (d := ()) (κ := κ)
    (by rw [duties_keep]; exact Finset.mem_singleton_self _) () N (credit_rows oM i) (amount_dma m c (keepS i) 0 ())
    (by rw [payload_keep]; unfold keepPay; rw [← keep_lands m c i fd]; unfold piece xpiece; exact BI.Entails.refl _)

/-! ## The transfer to the partner -/

/-- The remote copy's issue, addressed to `n = peer c`: chunk i of the send buffer into chunk i of the partner's receive
    buffer, peeling the last summand of what is owed. -/
theorem wp_send_chunk (c n : Dev nD) (hn : n = peer c) (i : Fin 8) (κ₁ κ₂ : ℕ)
    {hsc : (rowCh (rM : Memref sig (Dev.tc n : Thread nD τ).2.kind .vmem S4096x1024 .f32) i).view.ref.isScScratch = false}
    {hsrc : (rowCh (sM : Memref sig .tc .vmem S4096x1024 .f32) i).view.WordExact} {hdst : (rowCh (rM : Memref sig .tc .vmem S4096x1024 .f32) i).view.WordExact}
    {hsem : DmaTarget.Typed .vmem (.dma (recvS i)) (.remote (Dev.tc n : Thread nD τ) (rowCh (rM : Memref sig .tc .vmem S4096x1024 .f32) i) (.dma (sendS i)) hsc)}
    {α : Type} {Q : α → sProp 𝕄} {k : PUnit → Prog (TpuEff nD τ sig (Elt F) Λ₀ .tc) α}
    (fd : Buf (Elt F) ((rowCh (rM : Memref sig .tc .vmem S4096x1024 .f32) i).view.loc (peer c : Thread nD τ)))
    (O : CellTallies nD τ sig Unit) {O' : CellTallies nD τ sig Unit} (hO : O' = O + Trecv c i) (W : Waits sig Unit) :
    iprop(cellInv ER (rsRd m) κ₁ (sendCell c i) ∗ cellInv ER (rsRd m) κ₂ (recvCell (peer c) i)
        ∗ piece c sM i (sendFull m c) ∗ piece (peer c) rM i fd
        ∗ owes (c : Thread nD τ) O' W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowCh sM i) (.remote (Dev.tc n : Thread nD τ) (rowCh rM i) (.dma (sendS i)) hsc) (.dma (recvS i)) hsrc hdst hsem) k) Q) := by
  subst hn
  unfold piece
  exact Rounds.wp_send_pointsTo 𝒱₀ ER (rsRd m) (c : Thread nD τ) none (c' := (peer c : Thread nD τ)) (src := rowCh sM i) (dst := rowCh rM i)
    (sS := .dma (sendS i)) (sem := .dma (recvS i)) (q := fullShare) (fs := sendFull m c) (fd := fd) (κ₁ := κ₁) (κ₂ := κ₂) (r₁ := 0) (r₂ := 0) (d₁ := ()) (d₂ := ())
    (by rw [duties_send]; exact Finset.mem_singleton_self _) (by rw [duties_recv]; exact Finset.mem_singleton_self _)
    () () N (credit_rows rM i) (amount_dma m c (sendS i) 0 ()) (amount_dma m (peer c) (recvS i) 0 ()) O hO (W := W)
    (by rw [payload_send]; unfold sendPay piece; exact BI.Entails.refl _)
    (by rw [payload_recv]; unfold recvPay; rw [← recv_lands m c i fd]; unfold piece; exact BI.Entails.refl _)

/-! ## The waits on one's own DMA cells -/

/-- The wait for a chunk's credit on a DMA cell of one's own, whatever views the wait names (only the destination's
    credit counts): the cell's one duty has landed and its payload comes back. -/
theorem wp_wait_dma (c : Dev nD) (d : DmaSem sig) (hd : IsCell ((c : Thread nD τ), .dma d)) (κ : ℕ)
    {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (W : Waits sig Unit) {α : Type} {Q : α → sProp 𝕄} {k : PUnit → Prog (TpuEff nD τ sig (Elt F) Λ₀ .tc) α} :
    iprop(cellInv ER (rsRd m) κ ((c : Thread nD τ), .dma d) ∗ cred (tallyAt ((c : Thread nD τ), .dma d) () N) ∗ owes (c : Thread nD τ) O W
        ∗ MayWait (c : Thread nD τ) (.dma d) () O ∗ atPos ER ((c : Thread nD τ), .dma d) 0 ∅ 0)
      ⊢ iprop(((owes (c : Thread nD τ) O (insert (SemLoc.dma d, ()) W) ∗ atPos ER ((c : Thread nD τ), .dma d) 1 ∅ 0 ∗ dmaPay m c d) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 d src dst hsrc hdst) k) Q) := by
  have h := Rounds.wp_wait_rest_token (defs := defs₀ (F := F)) 𝒱₀ ER (rsRd m) (c : Thread nD τ) none (κ := κ) (sm := .dma d) (k' := dst.view.dmaCredit)
    (wpE_waitDma2_eq 𝒱₀ (c : Thread nD τ) none Set.univ (sem := d) (src := src) (dst := dst) (hsrc := hsrc) (hdst := hdst)) (Set.mem_univ _) ()
    (O := O) (W := W) (R := 0) (m := 0) (T := ∅) (k := k) (Q := Q) (by rw [Nat.zero_add, expect_dma m c d hd, hcr])
  rw [hcr] at h
  refine h.trans (wand_mono_left (wand_mono_left ?_))
  rw [rest_dma m c d hd]
  exact post_drop

/-- info: 'Cert.KernelIdeal.RS.wp_signal_peer' depends on axioms: [propext, Classical.choice, Quot.sound] -/
#guard_msgs in #print axioms wp_signal_peer

/-- info: 'Cert.KernelIdeal.RS.wp_wait_bar' depends on axioms: [propext, Classical.choice, Quot.sound] -/
#guard_msgs in #print axioms wp_wait_bar

/-- info: 'Cert.KernelIdeal.RS.wp_stage' depends on axioms: [propext, Classical.choice, Quot.sound] -/
#guard_msgs in #print axioms wp_stage

/-- info: 'Cert.KernelIdeal.RS.wp_keep' depends on axioms: [propext, Classical.choice, Quot.sound] -/
#guard_msgs in #print axioms wp_keep

/-- info: 'Cert.KernelIdeal.RS.wp_send_chunk' depends on axioms: [propext, Classical.choice, Quot.sound] -/
#guard_msgs in #print axioms wp_send_chunk

/-- info: 'Cert.KernelIdeal.RS.wp_wait_dma' depends on axioms: [propext, Classical.choice, Quot.sound] -/
#guard_msgs in #print axioms wp_wait_dma

end Cert.KernelIdeal.RS

end
-- ==== Proof.KernelIdeal.States.lean ====
/-
  The state of one device's body, chunk by chunk, and the body's steps on it.
  Chunk i of the exchange has a sending side (its staging copy, the wait for it, its transfer to the partner, the wait
  for the transfer to have left) and a keeping side (its keeping copy, the wait for it, the wait for the partner's
  transfer, the sum); each side passes through five states, every effect of the body moves one side of one chunk from
  a state to the next, and the effects on different chunks and sides touch disjoint resources.
-/
import proofs.«901041_g7700000000001042_dist_rs_v7x_xyz2x4x4_x_m4096_n1024_f32_1_alg».proof.Proof.KernelIdeal.Proto
import proofs.«901041_g7700000000001042_dist_rs_v7x_xyz2x4x4_x_m4096_n1024_f32_1_alg».proof.Proof.KernelIdeal.Landing
import proofs.«901041_g7700000000001042_dist_rs_v7x_xyz2x4x4_x_m4096_n1024_f32_1_alg».proof.Proof.KernelIdeal.Levels
import proofs.«901041_g7700000000001042_dist_rs_v7x_xyz2x4x4_x_m4096_n1024_f32_1_alg».proof.Proof.KernelIdeal.Steps
import proofs.«901041_g7700000000001042_dist_rs_v7x_xyz2x4x4_x_m4096_n1024_f32_1_alg».proof.Proof.Gen.KernelIdeal.Skeleton

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over the eight chunks, written out. -/
theorem univ8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A cell's position at the start of round r, nothing of it taken. -/
abbrev posAt (g : GSem nD τ sig) (r : ℕ) : sProp 𝕄 := atPos ER g r ∅ 0

section Chunks

variable (K : GSem nD τ sig → ℕ) (c : Dev nD) (i : Fin 8)

/-- The lasting facts of chunk i: the invariants of its four cells here and of the partner's receive cell, and that
    round 0 of the cells this device pays is reached. -/
def CP : sProp 𝕄 :=
  iprop(cellInv ER (rsRd m) (K (stageCell c i)) (stageCell c i) ∗ cellInv ER (rsRd m) (K (keepCell c i)) (keepCell c i)
    ∗ cellInv ER (rsRd m) (K (sendCell c i)) (sendCell c i) ∗ cellInv ER (rsRd m) (K (recvCell c i)) (recvCell c i)
    ∗ cellInv ER (rsRd m) (K (recvCell (peer c) i)) (recvCell (peer c) i)
    ∗ reached ER (stageCell c i) 0 ∗ reached ER (keepCell c i) 0 ∗ reached ER (sendCell c i) 0 ∗ reached ER (recvCell (peer c) i) 0)

instance CP_persistent : BI.Persistent (CP (F := F) m K c i) := by unfold CP; infer_instance

/-- The sending side of chunk i, step by step: before its staging copy; the copy in flight; staged; sent; done. -/
def A0 : sProp 𝕄 :=
  iprop(posAt (F := F) (stageCell c i) 0 ∗ posAt (F := F) (sendCell c i) 0 ∗ dutyTok ER (stageCell c i) 0 () ∗ dutyTok ER (sendCell c i) 0 ()
    ∗ dutyTok ER (recvCell (peer c) i) 0 () ∗ (∃ f, piece c sM i f) ∗ (∃ f, piece (peer c) rM i f) ∗ xpiece m c (sdH c) i)
def A1 : sProp 𝕄 :=
  iprop(posAt (F := F) (stageCell c i) 0 ∗ posAt (F := F) (sendCell c i) 0 ∗ dutyTok ER (sendCell c i) 0 ()
    ∗ dutyTok ER (recvCell (peer c) i) 0 () ∗ (∃ f, piece (F := F) (peer c) rM i f) ∗ cred (tallyAt (stageCell c i) () N))
def A2 : sProp 𝕄 :=
  iprop(posAt (F := F) (stageCell c i) 1 ∗ posAt (F := F) (sendCell c i) 0 ∗ dutyTok ER (sendCell c i) 0 ()
    ∗ dutyTok ER (recvCell (peer c) i) 0 () ∗ (∃ f, piece (F := F) (peer c) rM i f) ∗ piece c sM i (sendFull m c) ∗ xpiece m c (sdH c) i)
def A3 : sProp 𝕄 :=
  iprop(posAt (F := F) (stageCell c i) 1 ∗ posAt (F := F) (sendCell c i) 0 ∗ cred (tallyAt (sendCell c i) () N) ∗ xpiece m c (sdH c) i)
def A4 : sProp 𝕄 :=
  iprop(posAt (F := F) (stageCell c i) 1 ∗ posAt (F := F) (sendCell c i) 1 ∗ xpiece m c (sdH c) i ∗ piece c sM i (sendFull m c))

/-- The keeping side of chunk i: before its keeping copy; the copy in flight; kept; the partner's rows received; summed. -/
def B0 : sProp 𝕄 :=
  iprop(posAt (F := F) (keepCell c i) 0 ∗ posAt (F := F) (recvCell c i) 0 ∗ dutyTok ER (keepCell c i) 0 () ∗ cred (tallyAt (recvCell c i) () N)
    ∗ (∃ f, piece c oM i f) ∗ xpiece m c (kpH c) i)
def B1 : sProp 𝕄 :=
  iprop(posAt (F := F) (keepCell c i) 0 ∗ posAt (F := F) (recvCell c i) 0 ∗ cred (tallyAt (recvCell c i) () N) ∗ cred (tallyAt (keepCell c i) () N))
def B2 : sProp 𝕄 :=
  iprop(posAt (F := F) (keepCell c i) 1 ∗ posAt (F := F) (recvCell c i) 0 ∗ cred (tallyAt (recvCell c i) () N)
    ∗ piece c oM i (keepFull m c) ∗ xpiece m c (kpH c) i)
def B3 : sProp 𝕄 :=
  iprop(posAt (F := F) (keepCell c i) 1 ∗ posAt (F := F) (recvCell c i) 1 ∗ piece c oM i (keepFull m c) ∗ xpiece m c (kpH c) i
    ∗ piece c rM i (recvFull m c))
def B4 : sProp 𝕄 :=
  iprop(posAt (F := F) (keepCell c i) 1 ∗ posAt (F := F) (recvCell c i) 1 ∗ piece c oM i (sumFull m c) ∗ xpiece m c (kpH c) i
    ∗ piece c rM i (recvFull m c))

end Chunks

/-- The families of the launch state, regrouped chunk by chunk. -/
theorem mk_CP (K : GSem nD τ sig → ℕ) (c : Dev nD) :
    iprop((bigSep Finset.univ fun i : Fin 8 => cellInv ER (rsRd m) (K (stageCell c i)) (stageCell c i))
      ∗ (bigSep Finset.univ fun i : Fin 8 => cellInv ER (rsRd m) (K (keepCell c i)) (keepCell c i))
      ∗ (bigSep Finset.univ fun i : Fin 8 => cellInv ER (rsRd m) (K (sendCell c i)) (sendCell c i))
      ∗ (bigSep Finset.univ fun i : Fin 8 => cellInv ER (rsRd m) (K (recvCell c i)) (recvCell c i))
      ∗ (bigSep Finset.univ fun i : Fin 8 => cellInv ER (rsRd m) (K (recvCell (peer c) i)) (recvCell (peer c) i))
      ∗ (bigSep Finset.univ fun i : Fin 8 => reached ER (stageCell c i) 0) ∗ (bigSep Finset.univ fun i : Fin 8 => reached ER (keepCell c i) 0)
      ∗ (bigSep Finset.univ fun i : Fin 8 => reached ER (sendCell c i) 0) ∗ (bigSep Finset.univ fun i : Fin 8 => reached ER (recvCell (peer c) i) 0))
    ⊢ bigSep Finset.univ fun i : Fin 8 => CP (F := F) m K c i := by
  unfold CP
  simp only [bigSep_sep']
  exact .rfl

theorem mk_A0 (c : Dev nD) :
    iprop((bigSep Finset.univ fun i : Fin 8 => posAt (F := F) (stageCell c i) 0) ∗ (bigSep Finset.univ fun i : Fin 8 => posAt (F := F) (sendCell c i) 0)
      ∗ (bigSep Finset.univ fun i : Fin 8 => dutyTok ER (stageCell c i) 0 ()) ∗ (bigSep Finset.univ fun i : Fin 8 => dutyTok ER (sendCell c i) 0 ())
      ∗ (bigSep Finset.univ fun i : Fin 8 => dutyTok ER (recvCell (peer c) i) 0 ())
      ∗ (bigSep Finset.univ fun i : Fin 8 => iprop(∃ f, piece (F := F) c sM i f)) ∗ (bigSep Finset.univ fun i : Fin 8 => iprop(∃ f, piece (F := F) (peer c) rM i f))
      ∗ (bigSep Finset.univ fun i : Fin 8 => xpiece m c (sdH c) i))
    ⊢ bigSep Finset.univ fun i : Fin 8 => A0 (F := F) m c i := by
  unfold A0
  simp only [bigSep_sep']
  exact .rfl

theorem mk_B0 (c : Dev nD) :
    iprop((bigSep Finset.univ fun i : Fin 8 => posAt (F := F) (keepCell c i) 0) ∗ (bigSep Finset.univ fun i : Fin 8 => posAt (F := F) (recvCell c i) 0)
      ∗ (bigSep Finset.univ fun i : Fin 8 => dutyTok ER (keepCell c i) 0 ()) ∗ (bigSep Finset.univ fun i : Fin 8 => cred (tallyAt (recvCell c i) () N))
      ∗ (bigSep Finset.univ fun i : Fin 8 => iprop(∃ f, piece (F := F) c oM i f))
      ∗ (bigSep Finset.univ fun i : Fin 8 => xpiece m c (kpH c) i))
    ⊢ bigSep Finset.univ fun i : Fin 8 => B0 (F := F) m c i := by
  unfold B0
  simp only [bigSep_sep']
  exact .rfl

/-- The payloads, spelt out. -/
theorem stagePay_def (c : Dev nD) (i : Fin 8) : stagePay (F := F) m c i = iprop(piece c sM i (sendFull m c) ∗ xpiece m c (sdH c) i) := rfl
theorem keepPay_def (c : Dev nD) (i : Fin 8) : keepPay (F := F) m c i = iprop(piece c oM i (keepFull m c) ∗ xpiece m c (kpH c) i) := rfl
theorem sendPay_def (c : Dev nD) (i : Fin 8) : sendPay (F := F) m c i = piece c sM i (sendFull m c) := rfl
theorem recvPay_def (c : Dev nD) (i : Fin 8) : recvPay (F := F) m c i = piece c rM i (recvFull m c) := rfl

/-! ## One lemma for each kind of effect, for any chunk -/

section StepLemmas

variable (K : GSem nD τ sig → ℕ) (c : Dev nD) (i : Fin 8)

/-- The staging copy of chunk i is issued. -/
theorem st_stage (h : Fin 2) (hh : h = sdH c)
    {hsrc : (xCh h i).view.WordExact} {hdst : (rowCh (sM : Memref sig .tc .vmem S4096x1024 .f32) i).view.WordExact}
    {hsem : DmaTarget.Typed (nD := nD) .hbm (.dma (stageS i)) (DmaTarget.here (p := .tc) (rowCh (sM : Memref sig .tc .vmem S4096x1024 .f32) i))}
    {α : Type} {Q : α → sProp 𝕄} {k : PUnit → Prog (TpuEff nD τ sig (Elt F) Λ₀ .tc) α} :
    iprop(CP m K c i ∗ A0 m c i)
      ⊢ iprop((A1 (F := F) c i -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCh h i) (.here (rowCh sM i)) (.dma (stageS i)) hsrc hdst hsem) k) Q) := by
  subst hh
  unfold CP A0 A1
  iintro ⟨⟨#HiS, #HiK, #HiD, #HiR, #HiP, #HrS, #HrK, #HrD, #HrP⟩, HaS, HaD, HtS, HtD, HtR, ⟨%fs, HpS⟩, HpR, Hx⟩ Hk
  iapply (wp_stage m c (sdH c) rfl i (K (stageCell c i)) fs) $$ [Hx HpS HtS]
  · iframe # ∗
  iintro Hc
  iapply Hk
  iframe

/-- The keeping copy of chunk i is issued. -/
theorem st_keep (h : Fin 2) (hh : h = kpH c)
    {hsrc : (xCh h i).view.WordExact} {hdst : (rowCh (oM : Memref sig .tc .vmem S4096x1024 .f32) i).view.WordExact}
    {hsem : DmaTarget.Typed (nD := nD) .hbm (.dma (keepS i)) (DmaTarget.here (p := .tc) (rowCh (oM : Memref sig .tc .vmem S4096x1024 .f32) i))}
    {α : Type} {Q : α → sProp 𝕄} {k : PUnit → Prog (TpuEff nD τ sig (Elt F) Λ₀ .tc) α} :
    iprop(CP m K c i ∗ B0 m c i)
      ⊢ iprop((B1 (F := F) c i -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xCh h i) (.here (rowCh oM i)) (.dma (keepS i)) hsrc hdst hsem) k) Q) := by
  subst hh
  unfold CP B0 B1
  iintro ⟨⟨#HiS, #HiK, #HiD, #HiR, #HiP, #HrS, #HrK, #HrD, #HrP⟩, HaK, HaR, HtK, HcR, ⟨%fo, HpO⟩, Hx⟩ Hk
  iapply (wp_keep m c (kpH c) rfl i (K (keepCell c i)) fo) $$ [Hx HpO HtK]
  · iframe # ∗
  iintro Hc
  iapply Hk
  iframe

/-- The wait for the staging copy of chunk i: the chunk is staged. -/
theorem st_wait_stage {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (hO : RecvOnly c O) (W : Waits sig Unit)
    {α : Type} {Q : α → sProp 𝕄} {k : PUnit → Prog (TpuEff nD τ sig (Elt F) Λ₀ .tc) α} :
    iprop(CP m K c i ∗ levAts L lv ∗ owes (c : Thread nD τ) O W ∗ A1 (F := F) c i)
      ⊢ iprop(((owes (c : Thread nD τ) O (insert (SemLoc.dma (stageS i), ()) W) ∗ A2 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (stageS i) src dst hsrc hdst) k) Q) := by
  unfold CP A1 A2
  iintro ⟨⟨#HiS, #HiK, #HiD, #HiR, #HiP, #HrS, #HrK, #HrD, #HrP⟩, #Hlev, HO, HaS, HaD, HtD, HtR, HpR, Hc⟩ Hk
  iapply (wp_wait_dma m c (stageS i) (isCell_stage c i) (K (stageCell c i)) hcr O W) $$ [HO HaS Hc]
  · isplitr; · iexact HiS
    isplitl [Hc]; · iexact Hc
    isplitl [HO]; · iexact HO
    isplitr
    · iapply (mayWait_low c (stageS i) (by show 1 + i.val < 25; omega) O hO); iexact Hlev
    iexact HaS
  iintro ⟨HO, HaS, Hpay⟩
  ihave Hpay' := (Entails.of_eq ((dmaPay_stage m c i).trans (stagePay_def m c i))) $$ Hpay
  icases Hpay' with ⟨HpS, Hx⟩
  iapply Hk
  iframe

/-- The transfer of chunk i to the partner is issued, one summand of what is owed paid. -/
theorem st_send (n : Dev nD) (hn : n = peer c)
    {hsc : (rowCh (rM : Memref sig (Dev.tc n : Thread nD τ).2.kind .vmem S4096x1024 .f32) i).view.ref.isScScratch = false}
    {hsrc : (rowCh (sM : Memref sig .tc .vmem S4096x1024 .f32) i).view.WordExact} {hdst : (rowCh (rM : Memref sig .tc .vmem S4096x1024 .f32) i).view.WordExact}
    {hsem : DmaTarget.Typed .vmem (.dma (recvS i)) (.remote (Dev.tc n : Thread nD τ) (rowCh (rM : Memref sig .tc .vmem S4096x1024 .f32) i) (.dma (sendS i)) hsc)}
    (O : CellTallies nD τ sig Unit) {O' : CellTallies nD τ sig Unit} (hO : O' = O + Trecv c i) (W : Waits sig Unit)
    {α : Type} {Q : α → sProp 𝕄} {k : PUnit → Prog (TpuEff nD τ sig (Elt F) Λ₀ .tc) α} :
    iprop(CP m K c i ∗ owes (c : Thread nD τ) O' W ∗ A2 m c i)
      ⊢ iprop(((owes (c : Thread nD τ) O W ∗ A3 m c i) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowCh sM i) (.remote (Dev.tc n : Thread nD τ) (rowCh rM i) (.dma (sendS i)) hsc) (.dma (recvS i)) hsrc hdst hsem) k) Q) := by
  unfold CP A2 A3
  iintro ⟨⟨#HiS, #HiK, #HiD, #HiR, #HiP, #HrS, #HrK, #HrD, #HrP⟩, HO, HaS, HaD, HtD, HtR, ⟨%fr, HpR⟩, HpS, Hx⟩ Hk
  iapply (wp_send_chunk m c n hn i (K (sendCell c i)) (K (recvCell (peer c) i)) fr O hO W) $$ [HpS HpR HO HtD HtR]
  · iframe # ∗
  iintro ⟨Hc, HO⟩
  iapply Hk
  iframe

/-- The wait for the keeping copy of chunk i: the kept rows are in the result buffer. -/
theorem st_wait_keep {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (hO : RecvOnly c O) (W : Waits sig Unit)
    {α : Type} {Q : α → sProp 𝕄} {k : PUnit → Prog (TpuEff nD τ sig (Elt F) Λ₀ .tc) α} :
    iprop(CP m K c i ∗ levAts L lv ∗ owes (c : Thread nD τ) O W ∗ B1 (F := F) c i)
      ⊢ iprop(((owes (c : Thread nD τ) O (insert (SemLoc.dma (keepS i), ()) W) ∗ B2 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (keepS i) src dst hsrc hdst) k) Q) := by
  unfold CP B1 B2
  iintro ⟨⟨#HiS, #HiK, #HiD, #HiR, #HiP, #HrS, #HrK, #HrD, #HrP⟩, #Hlev, HO, HaK, HaR, HcR, Hc⟩ Hk
  iapply (wp_wait_dma m c (keepS i) (isCell_keep c i) (K (keepCell c i)) hcr O W) $$ [HO HaK Hc]
  · isplitr; · iexact HiK
    isplitl [Hc]; · iexact Hc
    isplitl [HO]; · iexact HO
    isplitr
    · iapply (mayWait_low c (keepS i) (by show 9 + i.val < 25; omega) O hO); iexact Hlev
    iexact HaK
  iintro ⟨HO, HaK, Hpay⟩
  ihave Hpay' := (Entails.of_eq ((dmaPay_keep m c i).trans (keepPay_def m c i))) $$ Hpay
  icases Hpay' with ⟨HpO, Hx⟩
  iapply Hk
  iframe

/-- The wait for the partner's transfer of chunk i, nothing being owed any more: its rows are in the receive buffer. -/
theorem st_wait_recv {sp sp' : Space} {s s' : Shape} {e e' : EltTy} {src : Memref sig .tc sp' s' e'} {κ' : Kind} {dst : Memref sig κ' sp s e}
    (hcr : dst.view.dmaCredit = N) {hsrc : src.view.WordExact} {hdst : dst.view.WordExact} (W : Waits sig Unit)
    {α : Type} {Q : α → sProp 𝕄} {k : PUnit → Prog (TpuEff nD τ sig (Elt F) Λ₀ .tc) α} :
    iprop(CP m K c i ∗ owes (c : Thread nD τ) 0 W ∗ B2 m c i)
      ⊢ iprop(((owes (c : Thread nD τ) 0 (insert (SemLoc.dma (recvS i), ()) W) ∗ B3 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hsrc hdst) k) Q) := by
  unfold CP B2 B3
  iintro ⟨⟨#HiS, #HiK, #HiD, #HiR, #HiP, #HrS, #HrK, #HrD, #HrP⟩, HO, HaK, HaR, HcR, HpO, Hx⟩ Hk
  iapply (wp_wait_dma m c (recvS i) (isCell_recv c i) (K (recvCell c i)) hcr 0 W) $$ [HO HaR HcR]
  · isplitr; · iexact HiR
    isplitl [HcR]; · iexact HcR
    isplitl [HO]; · iexact HO
    isplitr
    · iapply (Entails.of_eq (MayWait_zero (c : Thread nD τ) (SemLoc.dma (recvS i)) ()).symm); iempintro
    iexact HaR
  iintro ⟨HO, HaR, Hpay⟩
  ihave Hpay' := (Entails.of_eq ((dmaPay_recv m c i).trans (recvPay_def m c i))) $$ Hpay
  iapply Hk
  iframe

/-- The wait for one's own transfer of chunk i to have left: the send buffer's chunk is back. -/
theorem st_wait_send {sp sp' : Space} {s s' : Shape} {e e' : EltTy} {src : Memref sig .tc sp' s' e'} {κ' : Kind} {dst : Memref sig κ' sp s e}
    (hcr : dst.view.dmaCredit = N) {hsrc : src.view.WordExact} {hdst : dst.view.WordExact}
    (O : CellTallies nD τ sig Unit) (hO : RecvOnly c O) (W : Waits sig Unit)
    {α : Type} {Q : α → sProp 𝕄} {k : PUnit → Prog (TpuEff nD τ sig (Elt F) Λ₀ .tc) α} :
    iprop(CP m K c i ∗ levAts L lv ∗ owes (c : Thread nD τ) O W ∗ A3 m c i)
      ⊢ iprop(((owes (c : Thread nD τ) O (insert (SemLoc.dma (sendS i), ()) W) ∗ A4 m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hsrc hdst) k) Q) := by
  unfold CP A3 A4
  iintro ⟨⟨#HiS, #HiK, #HiD, #HiR, #HiP, #HrS, #HrK, #HrD, #HrP⟩, #Hlev, HO, HaS, HaD, Hc, Hx⟩ Hk
  iapply (wp_wait_dma m c (sendS i) (isCell_send c i) (K (sendCell c i)) hcr O W) $$ [HO HaD Hc]
  · isplitr; · iexact HiD
    isplitl [Hc]; · iexact Hc
    isplitl [HO]; · iexact HO
    isplitr
    · iapply (mayWait_low c (sendS i) (by show 17 + i.val < 25; omega) O hO); iexact Hlev
    iexact HaD
  iintro ⟨HO, HaD, Hpay⟩
  ihave Hpay' := (Entails.of_eq ((dmaPay_send m c i).trans (sendPay_def m c i))) $$ Hpay
  iapply Hk
  iframe

/-- A load of the kept rows of chunk i through the whole result buffer. -/
theorem st_load_o {hl : (oM : Memref sig .tc .vmem S4096x1024 .f32).view.LoadsAt (rowRect i).toLoadRect} {α : Type} {Q : α → sProp 𝕄}
    {k : ((rowRect i).toLoadRect.shape.Idx → Elt F .f32) → Prog (TpuEff nD τ sig (Elt F) Λ₀ .tc) α} :
    B3 m c i
      ⊢ iprop((B3 m c i -∗ wp frame (wpE (defs₀ (F := F)) 𝒱₀ (c : Thread nD τ) none) Set.univ
              (k ((rowCh (oM : Memref sig .tc .vmem S4096x1024 .f32) i).view.read (Elt F) (keepFull m c))) Q)
          -∗ wp frame (wpE (defs₀ (F := F)) 𝒱₀ (c : Thread nD τ) none) Set.univ (.op (.load oM (rowRect i).toLoadRect hl) k) Q) := by
  unfold B3
  iintro ⟨HaK, HaR, HpO, Hx, HpR⟩ Hk
  iapply (wp_load_rows c oM i (keepFull m c)) $$ HpO
  iintro HpO
  iapply Hk
  iframe

/-- A load of the received rows of chunk i through the whole receive buffer. -/
theorem st_load_r {hl : (rM : Memref sig .tc .vmem S4096x1024 .f32).view.LoadsAt (rowRect i).toLoadRect} {α : Type} {Q : α → sProp 𝕄}
    {k : ((rowRect i).toLoadRect.shape.Idx → Elt F .f32) → Prog (TpuEff nD τ sig (Elt F) Λ₀ .tc) α} :
    B3 m c i
      ⊢ iprop((B3 m c i -∗ wp frame (wpE (defs₀ (F := F)) 𝒱₀ (c : Thread nD τ) none) Set.univ
              (k ((rowCh (rM : Memref sig .tc .vmem S4096x1024 .f32) i).view.read (Elt F) (recvFull m c))) Q)
          -∗ wp frame (wpE (defs₀ (F := F)) 𝒱₀ (c : Thread nD τ) none) Set.univ (.op (.load rM (rowRect i).toLoadRect hl) k) Q) := by
  unfold B3
  iintro ⟨HaK, HaR, HpO, Hx, HpR⟩ Hk
  iapply (wp_load_rows c rM i (recvFull m c)) $$ HpR
  iintro HpR
  iapply Hk
  iframe

/-- The store of the sum of the kept and the received rows of chunk i into the result buffer. -/
theorem st_store {w : (rowRect i).shape.Idx → Elt F .f32}
    (hw : w = addf ((rowCh (oM : Memref sig .tc .vmem S4096x1024 .f32) i).view.read (Elt F) (keepFull m c))
                  ((rowCh (rM : Memref sig .tc .vmem S4096x1024 .f32) i).view.read (Elt F) (recvFull m c)))
    {hx : ((oM : Memref sig .tc .vmem S4096x1024 .f32).access (rowRect i)).Stores Finset.univ}
    {hm : (Finset.univ : Finset (rowRect i).shape.Idx) = Finset.univ ∨ ∀ a, (rowRect i).stride a = 1}
    {α : Type} {Q : α → sProp 𝕄} {k : PUnit → Prog (TpuEff nD τ sig (Elt F) Λ₀ .tc) α} :
    B3 m c i
      ⊢ iprop((B4 m c i -∗ wp frame (wpE (defs₀ (F := F)) 𝒱₀ (c : Thread nD τ) none) Set.univ (k ⟨⟩) Q)
          -∗ wp frame (wpE (defs₀ (F := F)) 𝒱₀ (c : Thread nD τ) none) Set.univ (.op (.store oM (rowRect i) w Finset.univ hx hm) k) Q) := by
  subst hw
  unfold B3 B4
  iintro ⟨HaK, HaR, HpO, Hx, HpR⟩ Hk
  iapply (wp_store_rows c oM i (keepFull m c)) $$ HpO
  iintro HpO
  ihave HpO' := (Entails.of_eq (sum_lands m c i (keepFull m c))) $$ HpO
  iapply Hk
  iframe

end StepLemmas

/-! ## The first printed part of the first branch: the staging copies of chunks 0 to 4 -/

theorem part1_run (K : GSem nD τ sig → ℕ) (c : Dev nD) (hs : (1 : Fin 2) = sdH c)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4)
        ∗ (A0 m c 0 ∗ A0 m c 1 ∗ A0 m c 2 ∗ A0 m c 3 ∗ A0 m c 4)
        ∗ ((A1 (F := F) c 0 ∗ A1 (F := F) c 1 ∗ A1 (F := F) c 2 ∗ A1 (F := F) c 3 ∗ A1 (F := F) c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part1 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part1_eq_skeleton]; unfold Gen.k0_part1_skel
  simp only [Prog.lift, Prog.bind_op, Prog.bind_ret, Prog.pure_eq_ret]
  iintro ⟨⟨#P0, #P1, #P2, #P3, #P4⟩, ⟨H0, H1, H2, H3, H4⟩, Hk⟩
  iapply (st_stage m K c 0 1 hs) $$ [H0]
  · iframe # ∗
  iintro H0
  iapply (st_stage m K c 1 1 hs) $$ [H1]
  · iframe # ∗
  iintro H1
  iapply (st_stage m K c 2 1 hs) $$ [H2]
  · iframe # ∗
  iintro H2
  iapply (st_stage m K c 3 1 hs) $$ [H3]
  · iframe # ∗
  iintro H3
  iapply (st_stage m K c 4 1 hs) $$ [H4]
  · iframe # ∗
  iintro H4
  iapply Hk
  iframe

end Cert.KernelIdeal.RS

end
-- ==== Proof.KernelIdeal.Exit.lean ====
/-
  The end of one device's body: the finished cells close and the chunks join again.
  Every DMA cell of the device has had its one round: it closes, and its counter, at zero, is one of the kernel's own
  semaphores again. The eight row chunks of each of the three buffers join to the whole buffer, the sixteen chunks of
  the block to the block; the result buffer, chunk by chunk the sum of the kept and the received rows, reads as the sum.
-/
import proofs.«901041_g7700000000001042_dist_rs_v7x_xyz2x4x4_x_m4096_n1024_f32_1_alg».proof.Proof.KernelIdeal.Steps
import proofs.«901041_g7700000000001042_dist_rs_v7x_xyz2x4x4_x_m4096_n1024_f32_1_alg».proof.Proof.KernelIdeal.States

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Updates of the summands, run one after another, make one update of the conjunction. -/
theorem bigSep_fupd_univ {I : Type} (s : Finset I) (Φ : I → sProp 𝕄) :
    bigSep s (fun i => iprop(|={Set.univ}=> Φ i)) ⊢ iprop(|={Set.univ}=> bigSep s Φ) := by
  classical
  induction s using Finset.induction_on with
  | empty => rw [bigSep_empty, bigSep_empty]; exact fupd_intro
  | insert i s hi ih =>
    rw [bigSep_insert hi, bigSep_insert hi]
    exact (sep_mono_right ih).trans fupd_sep

/-- A family of eight finished cells closes. -/
theorem close_family (K : GSem nD τ sig → ℕ) (cell : Fin 8 → GSem nD τ sig) :
    (bigSep Finset.univ fun i : Fin 8 => iprop(cellInv ER (rsRd m) (K (cell i)) (cell i) ∗ atPos ER (cell i) 1 ∅ 0))
      ⊢ iprop(|={Set.univ}=> bigSep Finset.univ fun i : Fin 8 => (semVal (cell i) 0 : sProp 𝕄)) :=
  (bigSep_mono fun i _ => close_cell m (cell i) (K (cell i))).trans (bigSep_fupd_univ _ _)

/-- The two halves a device keeps and sends are the two halves of its block, in one order or the other. -/
theorem halves (c : Dev nD) : (kpH c = 0 ∧ sdH c = 1) ∨ (kpH c = 1 ∧ sdH c = 0) := by revert c; decide

/-- The sixteen chunks of the block, the sent half's and the kept half's, join to the block. -/
theorem join_x (c : Dev nD) :
    iprop((bigSep Finset.univ fun i : Fin 8 => xpiece m c (sdH c) i) ∗ (bigSep Finset.univ fun i : Fin 8 => xpiece m c (kpH c) i))
      ⊢ (xWhole m c : sProp 𝕄) := by
  refine BIBase.Entails.trans ?_ (split_x m c).2
  rw [bigSep_univ_prod, bigSep_univ_two]
  rcases halves c with ⟨hk, hs⟩ | ⟨hk, hs⟩
  · rw [hk, hs]
    iintro ⟨H1, H0⟩
    isplitl [H0]
    · iexact H0
    · iexact H1
  · rw [hk, hs]

/-- The eight row chunks of a scratch buffer, all at contents f, join to the buffer over some contents. -/
theorem join_scratch0 (c : Dev nD) (f : Buf (Elt F) ((c : Thread nD τ).loc cc0_scratch0)) :
    (bigSep Finset.univ fun i : Fin 8 => piece c rM i f)
      ⊢ iprop(∃ f : Buf (Elt F) ((c : Thread nD τ).loc cc0_scratch0), ((c : Thread nD τ).loc cc0_scratch0) ↦{fullShare} f) := by
  refine (split_rows c rM (Memref.isWhole_whole _) f).2.trans ?_
  rw [View.set_whole]
  iintro H; iexists f; iexact H
theorem join_scratch1 (c : Dev nD) (f : Buf (Elt F) ((c : Thread nD τ).loc cc0_scratch1)) :
    (bigSep Finset.univ fun i : Fin 8 => piece c sM i f)
      ⊢ iprop(∃ f : Buf (Elt F) ((c : Thread nD τ).loc cc0_scratch1), ((c : Thread nD τ).loc cc0_scratch1) ↦{fullShare} f) := by
  refine (split_rows c sM (Memref.isWhole_whole _) f).2.trans ?_
  rw [View.set_whole]
  iintro H; iexists f; iexact H

/-- The eight row chunks of the result buffer, each holding the sum's rows, join to the buffer reading as the sum. -/
theorem join_result (c : Dev nD) :
    (bigSep Finset.univ fun i : Fin 8 => piece c oM i (sumFull m c))
      ⊢ owns (c : Thread nD τ) (oM : Memref sig .tc .vmem S4096x1024 .f32) fullShare (sumFull m c) := by
  refine (split_rows c oM (Memref.isWhole_whole _) (sumFull m c)).2.trans ?_
  unfold owns
  iintro H; iexists (sumFull m c)
  isplitr
  · ipureintro; rfl
  · iexact H

/-- The end of the body, from the families: the thirty-two cells close, the chunks join. -/
theorem exit_core (K : GSem nD τ sig → ℕ) (c : Dev nD) :
    iprop((bigSep Finset.univ fun i : Fin 8 => iprop(cellInv ER (rsRd m) (K (stageCell c i)) (stageCell c i) ∗ atPos ER (stageCell c i) 1 ∅ 0))
        ∗ (bigSep Finset.univ fun i : Fin 8 => iprop(cellInv ER (rsRd m) (K (keepCell c i)) (keepCell c i) ∗ atPos ER (keepCell c i) 1 ∅ 0))
        ∗ (bigSep Finset.univ fun i : Fin 8 => iprop(cellInv ER (rsRd m) (K (sendCell c i)) (sendCell c i) ∗ atPos ER (sendCell c i) 1 ∅ 0))
        ∗ (bigSep Finset.univ fun i : Fin 8 => iprop(cellInv ER (rsRd m) (K (recvCell c i)) (recvCell c i) ∗ atPos ER (recvCell c i) 1 ∅ 0))
        ∗ (bigSep Finset.univ fun i : Fin 8 => xpiece m c (sdH c) i) ∗ (bigSep Finset.univ fun i : Fin 8 => xpiece m c (kpH c) i)
        ∗ (bigSep Finset.univ fun i : Fin 8 => piece c rM i (recvFull m c)) ∗ (bigSep Finset.univ fun i : Fin 8 => piece c sM i (sendFull m c))
        ∗ (bigSep Finset.univ fun i : Fin 8 => piece c oM i (sumFull m c)))
      ⊢ iprop(|={Set.univ}=> (xWhole m c ∗ Pipeline.ownSems0 (Ix := Unit) (Name := ℕ) (U := UU) (Lvl := ℕ) (Val := Elt F) (τ := τ) osem c ∗ scratches c
          ∗ owns (c : Thread nD τ) (oM : Memref sig .tc .vmem S4096x1024 .f32) fullShare (sumFull m c))) := by
  iintro ⟨Hst, Hkp, Hsd, Hrc, Hxs, Hxk, Hr, Hs, Ho⟩
  imod (close_family m K (fun i => stageCell c i)) $$ Hst with Hst
  imod (close_family m K (fun i => keepCell c i)) $$ Hkp with Hkp
  imod (close_family m K (fun i => sendCell c i)) $$ Hsd with Hsd
  imod (close_family m K (fun i => recvCell c i)) $$ Hrc with Hrc
  imodintro
  isplitl [Hxs Hxk]
  · iapply (join_x m c); isplitl [Hxs] <;> iassumption
  isplitl [Hst Hkp Hsd Hrc]
  · iapply (ownSems0_of_cells c)
    isplitl [Hst]; · iexact Hst
    isplitl [Hkp]; · iexact Hkp
    isplitl [Hsd] <;> iassumption
  isplitl [Hr Hs]
  · unfold scratches
    isplitl [Hr]
    · iapply (join_scratch0 c (recvFull m c)); iexact Hr
    · iapply (join_scratch1 c (sendFull m c)); iexact Hs
  · iapply (join_result m c); iexact Ho

/-- The end of the body, chunk by chunk: from every chunk's sending side and keeping side at their last stage. -/
theorem exit_chunks (K : GSem nD τ sig → ℕ) (c : Dev nD) :
    iprop((bigSep Finset.univ fun i : Fin 8 => A4 (F := F) m c i) ∗ (bigSep Finset.univ fun i : Fin 8 => B4 (F := F) m c i)
        ∗ (bigSep Finset.univ fun i : Fin 8 => CP (F := F) m K c i))
      ⊢ iprop(|={Set.univ}=> (xWhole m c ∗ Pipeline.ownSems0 (Ix := Unit) (Name := ℕ) (U := UU) (Lvl := ℕ) (Val := Elt F) (τ := τ) osem c ∗ scratches c
          ∗ owns (c : Thread nD τ) (oM : Memref sig .tc .vmem S4096x1024 .f32) fullShare (sumFull m c))) := by
  refine BIBase.Entails.trans ?_ (exit_core m K c)
  unfold A4 B4 CP
  simp only [bigSep_sep']
  iintro ⟨⟨HpS, HpD, Hxs, Hs⟩, ⟨HpK, HpR, Ho, Hxk, Hr⟩, ⟨HIs, HIk, HId, HIr, -⟩⟩
  isplitl [HIs HpS]; · isplitl [HIs] <;> iassumption
  isplitl [HIk HpK]; · isplitl [HIk] <;> iassumption
  isplitl [HId HpD]; · isplitl [HId] <;> iassumption
  isplitl [HIr HpR]; · isplitl [HIr] <;> iassumption
  isplitl [Hxs]; · iexact Hxs
  isplitl [Hxk]; · iexact Hxk
  isplitl [Hr]; · iexact Hr
  isplitl [Hs]; · iexact Hs
  iexact Ho

/-- The same with the eight chunks written out. -/
theorem exit_chunks8 (K : GSem nD τ sig → ℕ) (c : Dev nD) :
    iprop((A4 (F := F) m c 0 ∗ A4 (F := F) m c 1 ∗ A4 (F := F) m c 2 ∗ A4 (F := F) m c 3 ∗ A4 (F := F) m c 4 ∗ A4 (F := F) m c 5 ∗ A4 (F := F) m c 6 ∗ A4 (F := F) m c 7)
        ∗ (B4 (F := F) m c 0 ∗ B4 (F := F) m c 1 ∗ B4 (F := F) m c 2 ∗ B4 (F := F) m c 3 ∗ B4 (F := F) m c 4 ∗ B4 (F := F) m c 5 ∗ B4 (F := F) m c 6 ∗ B4 (F := F) m c 7)
        ∗ (CP (F := F) m K c 0 ∗ CP (F := F) m K c 1 ∗ CP (F := F) m K c 2 ∗ CP (F := F) m K c 3 ∗ CP (F := F) m K c 4 ∗ CP (F := F) m K c 5 ∗ CP (F := F) m K c 6
          ∗ CP (F := F) m K c 7))
      ⊢ iprop(|={Set.univ}=> (xWhole m c ∗ Pipeline.ownSems0 (Ix := Unit) (Name := ℕ) (U := UU) (Lvl := ℕ) (Val := Elt F) (τ := τ) osem c ∗ scratches c
          ∗ owns (c : Thread nD τ) (oM : Memref sig .tc .vmem S4096x1024 .f32) fullShare (sumFull m c))) := by
  rw [← univ8 (fun i => A4 (F := F) m c i), ← univ8 (fun i => B4 (F := F) m c i), ← univ8 (fun i => CP (F := F) m K c i)]
  exact exit_chunks m K c

/-- info: 'Cert.KernelIdeal.RS.exit_core' depends on axioms: [propext, Classical.choice, Quot.sound] -/
#guard_msgs in #print axioms exit_core

/-- info: 'Cert.KernelIdeal.RS.exit_chunks8' depends on axioms: [propext, Classical.choice, Quot.sound] -/
#guard_msgs in #print axioms exit_chunks8

end Cert.KernelIdeal.RS

end
-- ==== Proof.KernelIdeal.PartsA.lean ====
/-
  The first printed parts of each branch of one device's body: the issue of the eight staging copies and of the first
  seven keeping copies, chunk by chunk. Every issue moves one side of one chunk from its first state to its second and
  touches nothing else, so a part's effect is the conjunction of its chunks' steps. On the devices with x = 0 the sent
  half is half 1 and the kept half is half 0; on those with x = 1 it is the other way round, and the text is the same.
-/
import proofs.«901041_g7700000000001042_dist_rs_v7x_xyz2x4x4_x_m4096_n1024_f32_1_alg».proof.Proof.KernelIdeal.States
import proofs.«901041_g7700000000001042_dist_rs_v7x_xyz2x4x4_x_m4096_n1024_f32_1_alg».proof.Proof.KernelIdeal.Levels

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices with x = 0 -/

/-- The second printed part: the staging copies of chunks 5 to 7 and the keeping copies of chunks 0 and 1. -/
theorem part2_run (K : GSem nD τ sig → ℕ) (c : Dev nD) (hs : (1 : Fin 2) = sdH c) (hk : (0 : Fin 2) = kpH c)
    {α : Type} {Q : α → sProp 𝕄} {k : PUnit → Prog (TpuEff nD τ sig (Elt F) Λ₀ .tc) α} :
    iprop((CP m K c 0 ∗ CP m K c 1 ∗ CP m K c 5 ∗ CP m K c 6 ∗ CP m K c 7)
        ∗ (A0 m c 5 ∗ A0 m c 6 ∗ A0 m c 7 ∗ B0 m c 0 ∗ B0 m c 1)
        ∗ ((A1 (F := F) c 5 ∗ A1 (F := F) c 6 ∗ A1 (F := F) c 7 ∗ B1 (F := F) c 0 ∗ B1 (F := F) c 1)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part2 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part2_eq_skeleton]; unfold Gen.k0_part2_skel
  simp only [Prog.lift, Prog.bind_op, Prog.bind_ret, Prog.pure_eq_ret]
  iintro ⟨⟨#P0, #P1, #P5, #P6, #P7⟩, ⟨Ha5, Ha6, Ha7, Hb0, Hb1⟩, Hk⟩
  iapply (st_stage m K c 5 1 hs) $$ [Ha5]
  · iframe # ∗
  iintro Ha5
  iapply (st_stage m K c 6 1 hs) $$ [Ha6]
  · iframe # ∗
  iintro Ha6
  iapply (st_stage m K c 7 1 hs) $$ [Ha7]
  · iframe # ∗
  iintro Ha7
  iapply (st_keep m K c 0 0 hk) $$ [Hb0]
  · iframe # ∗
  iintro Hb0
  iapply (st_keep m K c 1 0 hk) $$ [Hb1]
  · iframe # ∗
  iintro Hb1
  iapply Hk
  iframe

/-- The third printed part: the keeping copies of chunks 2 to 6. -/
theorem part3_run (K : GSem nD τ sig → ℕ) (c : Dev nD) (hk : (0 : Fin 2) = kpH c)
    {α : Type} {Q : α → sProp 𝕄} {k : PUnit → Prog (TpuEff nD τ sig (Elt F) Λ₀ .tc) α} :
    iprop((CP m K c 2 ∗ CP m K c 3 ∗ CP m K c 4 ∗ CP m K c 5 ∗ CP m K c 6)
        ∗ (B0 m c 2 ∗ B0 m c 3 ∗ B0 m c 4 ∗ B0 m c 5 ∗ B0 m c 6)
        ∗ ((B1 (F := F) c 2 ∗ B1 (F := F) c 3 ∗ B1 (F := F) c 4 ∗ B1 (F := F) c 5 ∗ B1 (F := F) c 6)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part3 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part3_eq_skeleton]; unfold Gen.k0_part3_skel
  simp only [Prog.lift, Prog.bind_op, Prog.bind_ret, Prog.pure_eq_ret]
  iintro ⟨⟨#P2, #P3, #P4, #P5, #P6⟩, ⟨Hb2, Hb3, Hb4, Hb5, Hb6⟩, Hk⟩
  iapply (st_keep m K c 2 0 hk) $$ [Hb2]
  · iframe # ∗
  iintro Hb2
  iapply (st_keep m K c 3 0 hk) $$ [Hb3]
  · iframe # ∗
  iintro Hb3
  iapply (st_keep m K c 4 0 hk) $$ [Hb4]
  · iframe # ∗
  iintro Hb4
  iapply (st_keep m K c 5 0 hk) $$ [Hb5]
  · iframe # ∗
  iintro Hb5
  iapply (st_keep m K c 6 0 hk) $$ [Hb6]
  · iframe # ∗
  iintro Hb6
  iapply Hk
  iframe

/-! ## The devices with x = 1 -/

/-- The sixteenth printed part: the staging copies of chunks 0 to 4. -/
theorem part16_run (K : GSem nD τ sig → ℕ) (c : Dev nD) (hs : (0 : Fin 2) = sdH c)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4)
        ∗ (A0 m c 0 ∗ A0 m c 1 ∗ A0 m c 2 ∗ A0 m c 3 ∗ A0 m c 4)
        ∗ ((A1 (F := F) c 0 ∗ A1 (F := F) c 1 ∗ A1 (F := F) c 2 ∗ A1 (F := F) c 3 ∗ A1 (F := F) c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part16 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part16_eq_skeleton]; unfold Gen.k0_part16_skel
  simp only [Prog.lift, Prog.bind_op, Prog.bind_ret, Prog.pure_eq_ret]
  iintro ⟨⟨#P0, #P1, #P2, #P3, #P4⟩, ⟨Ha0, Ha1, Ha2, Ha3, Ha4⟩, Hk⟩
  iapply (st_stage m K c 0 0 hs) $$ [Ha0]
  · iframe # ∗
  iintro Ha0
  iapply (st_stage m K c 1 0 hs) $$ [Ha1]
  · iframe # ∗
  iintro Ha1
  iapply (st_stage m K c 2 0 hs) $$ [Ha2]
  · iframe # ∗
  iintro Ha2
  iapply (st_stage m K c 3 0 hs) $$ [Ha3]
  · iframe # ∗
  iintro Ha3
  iapply (st_stage m K c 4 0 hs) $$ [Ha4]
  · iframe # ∗
  iintro Ha4
  iapply Hk
  iframe

/-- The seventeenth printed part: the staging copies of chunks 5 to 7 and the keeping copies of chunks 0 and 1. -/
theorem part17_run (K : GSem nD τ sig → ℕ) (c : Dev nD) (hs : (0 : Fin 2) = sdH c) (hk : (1 : Fin 2) = kpH c)
    {α : Type} {Q : α → sProp 𝕄} {k : PUnit → Prog (TpuEff nD τ sig (Elt F) Λ₀ .tc) α} :
    iprop((CP m K c 0 ∗ CP m K c 1 ∗ CP m K c 5 ∗ CP m K c 6 ∗ CP m K c 7)
        ∗ (A0 m c 5 ∗ A0 m c 6 ∗ A0 m c 7 ∗ B0 m c 0 ∗ B0 m c 1)
        ∗ ((A1 (F := F) c 5 ∗ A1 (F := F) c 6 ∗ A1 (F := F) c 7 ∗ B1 (F := F) c 0 ∗ B1 (F := F) c 1)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part17 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part17_eq_skeleton]; unfold Gen.k0_part17_skel
  simp only [Prog.lift, Prog.bind_op, Prog.bind_ret, Prog.pure_eq_ret]
  iintro ⟨⟨#P0, #P1, #P5, #P6, #P7⟩, ⟨Ha5, Ha6, Ha7, Hb0, Hb1⟩, Hk⟩
  iapply (st_stage m K c 5 0 hs) $$ [Ha5]
  · iframe # ∗
  iintro Ha5
  iapply (st_stage m K c 6 0 hs) $$ [Ha6]
  · iframe # ∗
  iintro Ha6
  iapply (st_stage m K c 7 0 hs) $$ [Ha7]
  · iframe # ∗
  iintro Ha7
  iapply (st_keep m K c 0 1 hk) $$ [Hb0]
  · iframe # ∗
  iintro Hb0
  iapply (st_keep m K c 1 1 hk) $$ [Hb1]
  · iframe # ∗
  iintro Hb1
  iapply Hk
  iframe

/-- The eighteenth printed part: the keeping copies of chunks 2 to 6. -/
theorem part18_run (K : GSem nD τ sig → ℕ) (c : Dev nD) (hk : (1 : Fin 2) = kpH c)
    {α : Type} {Q : α → sProp 𝕄} {k : PUnit → Prog (TpuEff nD τ sig (Elt F) Λ₀ .tc) α} :
    iprop((CP m K c 2 ∗ CP m K c 3 ∗ CP m K c 4 ∗ CP m K c 5 ∗ CP m K c 6)
        ∗ (B0 m c 2 ∗ B0 m c 3 ∗ B0 m c 4 ∗ B0 m c 5 ∗ B0 m c 6)
        ∗ ((B1 (F := F) c 2 ∗ B1 (F := F) c 3 ∗ B1 (F := F) c 4 ∗ B1 (F := F) c 5 ∗ B1 (F := F) c 6)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part18 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part18_eq_skeleton]; unfold Gen.k0_part18_skel
  simp only [Prog.lift, Prog.bind_op, Prog.bind_ret, Prog.pure_eq_ret]
  iintro ⟨⟨#P2, #P3, #P4, #P5, #P6⟩, ⟨Hb2, Hb3, Hb4, Hb5, Hb6⟩, Hk⟩
  iapply (st_keep m K c 2 1 hk) $$ [Hb2]
  · iframe # ∗
  iintro Hb2
  iapply (st_keep m K c 3 1 hk) $$ [Hb3]
  · iframe # ∗
  iintro Hb3
  iapply (st_keep m K c 4 1 hk) $$ [Hb4]
  · iframe # ∗
  iintro Hb4
  iapply (st_keep m K c 5 1 hk) $$ [Hb5]
  · iframe # ∗
  iintro Hb5
  iapply (st_keep m K c 6 1 hk) $$ [Hb6]
  · iframe # ∗
  iintro Hb6
  iapply Hk
  iframe

/-- info: 'Cert.KernelIdeal.RS.part2_run' depends on axioms: [propext, Classical.choice, Quot.sound] -/
#guard_msgs in #print axioms part2_run

/-- info: 'Cert.KernelIdeal.RS.part3_run' depends on axioms: [propext, Classical.choice, Quot.sound] -/
#guard_msgs in #print axioms part3_run

/-- info: 'Cert.KernelIdeal.RS.part16_run' depends on axioms: [propext, Classical.choice, Quot.sound] -/
#guard_msgs in #print axioms part16_run

/-- info: 'Cert.KernelIdeal.RS.part17_run' depends on axioms: [propext, Classical.choice, Quot.sound] -/
#guard_msgs in #print axioms part17_run

/-- info: 'Cert.KernelIdeal.RS.part18_run' depends on axioms: [propext, Classical.choice, Quot.sound] -/
#guard_msgs in #print axioms part18_run

end Cert.KernelIdeal.RS

end
-- ==== Proof.KernelIdeal.PartsB.lean ====
/-
  The middle of the exchange, printed part by part: for each branch the three parts in which the staged chunks 0 to 3
  leave for the partner while the last keeping copy is issued and the staging copies of chunks 0 to 4 are waited for.
  Each part moves the sides of the chunks it touches from their states at its entry to their states at its exit,
  paying one summand of what is owed for each transfer.
-/
import proofs.«901041_g7700000000001042_dist_rs_v7x_xyz2x4x4_x_m4096_n1024_f32_1_alg».proof.Proof.KernelIdeal.States
import proofs.«901041_g7700000000001042_dist_rs_v7x_xyz2x4x4_x_m4096_n1024_f32_1_alg».proof.Proof.KernelIdeal.Levels

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first branch: the devices with x = 0 -/

/-- The keeping copy of chunk 7 is issued; chunk 0, staged, leaves for the partner; chunk 1 is staged. -/
theorem part4_run (K : GSem nD τ sig → ℕ) (c : Dev nD) (hk : (0 : Fin 2) = kpH c) (v5 v8 v9 : BitVec 32) (h1 : k0_cond1 c = 1#1)
    (W : Waits sig Unit) {α : Type} {Q : α → sProp 𝕄} {k : PUnit → Prog (TpuEff nD τ sig (Elt F) Λ₀ .tc) α} :
    iprop((CP m K c 0 ∗ CP m K c 1 ∗ CP m K c 7) ∗ levAts L lv ∗ owes (c : Thread nD τ) (OR0 c) W
        ∗ (A1 (F := F) c 0 ∗ A1 (F := F) c 1 ∗ B0 m c 7)
        ∗ (∀ W' : Waits sig Unit, (owes (c : Thread nD τ) (OR1 c) W' ∗ A3 m c 0 ∗ A2 m c 1 ∗ B1 (F := F) c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part4 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part4_eq_skeleton]; unfold Gen.k0_part4_skel
  simp only [Prog.lift, Prog.bind_op, Prog.bind_ret, Prog.pure_eq_ret]
  iintro ⟨⟨#P0, #P1, #P7⟩, #Hlev, HO, ⟨HA0, HA1, HB7⟩, Hk⟩
  iapply (st_keep m K c 7 0 hk) $$ [HB7]
  · iframe # ∗
  iintro HB7
  iapply (st_wait_stage m K c 0 (credit_rows sM 0) (OR0 c) (recvOnly_OR0 c) _) $$ [HO HA0]
  · isplitr; · iexact P0
    isplitr; · iexact Hlev
    isplitl [HO]; · iexact HO
    iexact HA0
  iintro ⟨HO, HA0⟩
  iapply (st_send m K c 0 _ (dev2_eq c h1) (OR1 c) (O' := OR0 c) rfl _) $$ [HO HA0]
  · isplitr; · iexact P0
    isplitl [HO]; · iexact HO
    iexact HA0
  iintro ⟨HO, HA0⟩
  iapply (st_wait_stage m K c 1 (credit_rows sM 1) (OR1 c) (recvOnly_OR1 c) _) $$ [HO HA1]
  · isplitr; · iexact P1
    isplitr; · iexact Hlev
    isplitl [HO]; · iexact HO
    iexact HA1
  iintro ⟨HO, HA1⟩
  iapply Hk
  isplitl [HO]; · iexact HO
  isplitl [HA0]; · iexact HA0
  isplitl [HA1]; · iexact HA1
  iexact HB7

/-- Chunk 1 leaves for the partner; chunk 2 is staged and leaves too. -/
theorem part5_run (K : GSem nD τ sig → ℕ) (c : Dev nD) (v5 v8 v9 : BitVec 32) (h1 : k0_cond1 c = 1#1)
    (W : Waits sig Unit) {α : Type} {Q : α → sProp 𝕄} {k : PUnit → Prog (TpuEff nD τ sig (Elt F) Λ₀ .tc) α} :
    iprop((CP m K c 1 ∗ CP m K c 2) ∗ levAts L lv ∗ owes (c : Thread nD τ) (OR1 c) W
        ∗ (A2 m c 1 ∗ A1 (F := F) c 2)
        ∗ (∀ W' : Waits sig Unit, (owes (c : Thread nD τ) (OR3 c) W' ∗ A3 m c 1 ∗ A3 m c 2)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part5 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part5_eq_skeleton]; unfold Gen.k0_part5_skel
  simp only [Prog.lift, Prog.bind_op, Prog.bind_ret, Prog.pure_eq_ret]
  iintro ⟨⟨#P1, #P2⟩, #Hlev, HO, ⟨HA1, HA2⟩, Hk⟩
  iapply (st_send m K c 1 _ (dev3_eq c h1) (OR2 c) (O' := OR1 c) rfl _) $$ [HO HA1]
  · isplitr; · iexact P1
    isplitl [HO]; · iexact HO
    iexact HA1
  iintro ⟨HO, HA1⟩
  iapply (st_wait_stage m K c 2 (credit_rows sM 2) (OR2 c) (recvOnly_OR2 c) _) $$ [HO HA2]
  · isplitr; · iexact P2
    isplitr; · iexact Hlev
    isplitl [HO]; · iexact HO
    iexact HA2
  iintro ⟨HO, HA2⟩
  iapply (st_send m K c 2 _ (dev4_eq c h1) (OR3 c) (O' := OR2 c) rfl _) $$ [HO HA2]
  · isplitr; · iexact P2
    isplitl [HO]; · iexact HO
    iexact HA2
  iintro ⟨HO, HA2⟩
  iapply Hk
  isplitl [HO]; · iexact HO
  isplitl [HA1]; · iexact HA1
  iexact HA2

/-- Chunk 3 is staged and leaves for the partner; chunk 4 is staged. -/
theorem part6_run (K : GSem nD τ sig → ℕ) (c : Dev nD) (v5 v8 v9 : BitVec 32) (h1 : k0_cond1 c = 1#1)
    (W : Waits sig Unit) {α : Type} {Q : α → sProp 𝕄} {k : PUnit → Prog (TpuEff nD τ sig (Elt F) Λ₀ .tc) α} :
    iprop((CP m K c 3 ∗ CP m K c 4) ∗ levAts L lv ∗ owes (c : Thread nD τ) (OR3 c) W
        ∗ (A1 (F := F) c 3 ∗ A1 (F := F) c 4)
        ∗ (∀ W' : Waits sig Unit, (owes (c : Thread nD τ) (OR4 c) W' ∗ A3 m c 3 ∗ A2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part6 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part6_eq_skeleton]; unfold Gen.k0_part6_skel
  simp only [Prog.lift, Prog.bind_op, Prog.bind_ret, Prog.pure_eq_ret]
  iintro ⟨⟨#P3, #P4⟩, #Hlev, HO, ⟨HA3, HA4⟩, Hk⟩
  iapply (st_wait_stage m K c 3 (credit_rows sM 3) (OR3 c) (recvOnly_OR3 c) _) $$ [HO HA3]
  · isplitr; · iexact P3
    isplitr; · iexact Hlev
    isplitl [HO]; · iexact HO
    iexact HA3
  iintro ⟨HO, HA3⟩
  iapply (st_send m K c 3 _ (dev5_eq c h1) (OR4 c) (O' := OR3 c) rfl _) $$ [HO HA3]
  · isplitr; · iexact P3
    isplitl [HO]; · iexact HO
    iexact HA3
  iintro ⟨HO, HA3⟩
  iapply (st_wait_stage m K c 4 (credit_rows sM 4) (OR4 c) (recvOnly_OR4 c) _) $$ [HO HA4]
  · isplitr; · iexact P4
    isplitr; · iexact Hlev
    isplitl [HO]; · iexact HO
    iexact HA4
  iintro ⟨HO, HA4⟩
  iapply Hk
  isplitl [HO]; · iexact HO
  isplitl [HA3]; · iexact HA3
  iexact HA4

/-! ## The second branch: the devices with x = 1 -/

/-- The keeping copy of chunk 7 is issued; chunk 0, staged, leaves for the partner; chunk 1 is staged. -/
theorem part19_run (K : GSem nD τ sig → ℕ) (c : Dev nD) (hk : (1 : Fin 2) = kpH c) (v5 v8 v9 : BitVec 32) (h2 : k0_cond2 c = 1#1)
    (W : Waits sig Unit) {α : Type} {Q : α → sProp 𝕄} {k : PUnit → Prog (TpuEff nD τ sig (Elt F) Λ₀ .tc) α} :
    iprop((CP m K c 0 ∗ CP m K c 1 ∗ CP m K c 7) ∗ levAts L lv ∗ owes (c : Thread nD τ) (OR0 c) W
        ∗ (A1 (F := F) c 0 ∗ A1 (F := F) c 1 ∗ B0 m c 7)
        ∗ (∀ W' : Waits sig Unit, (owes (c : Thread nD τ) (OR1 c) W' ∗ A3 m c 0 ∗ A2 m c 1 ∗ B1 (F := F) c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part19 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part19_eq_skeleton]; unfold Gen.k0_part19_skel
  simp only [Prog.lift, Prog.bind_op, Prog.bind_ret, Prog.pure_eq_ret]
  iintro ⟨⟨#P0, #P1, #P7⟩, #Hlev, HO, ⟨HA0, HA1, HB7⟩, Hk⟩
  iapply (st_keep m K c 7 1 hk) $$ [HB7]
  · iframe # ∗
  iintro HB7
  iapply (st_wait_stage m K c 0 (credit_rows sM 0) (OR0 c) (recvOnly_OR0 c) _) $$ [HO HA0]
  · isplitr; · iexact P0
    isplitr; · iexact Hlev
    isplitl [HO]; · iexact HO
    iexact HA0
  iintro ⟨HO, HA0⟩
  iapply (st_send m K c 0 _ (dev10_eq c h2) (OR1 c) (O' := OR0 c) rfl _) $$ [HO HA0]
  · isplitr; · iexact P0
    isplitl [HO]; · iexact HO
    iexact HA0
  iintro ⟨HO, HA0⟩
  iapply (st_wait_stage m K c 1 (credit_rows sM 1) (OR1 c) (recvOnly_OR1 c) _) $$ [HO HA1]
  · isplitr; · iexact P1
    isplitr; · iexact Hlev
    isplitl [HO]; · iexact HO
    iexact HA1
  iintro ⟨HO, HA1⟩
  iapply Hk
  isplitl [HO]; · iexact HO
  isplitl [HA0]; · iexact HA0
  isplitl [HA1]; · iexact HA1
  iexact HB7

/-- Chunk 1 leaves for the partner; chunk 2 is staged and leaves too. -/
theorem part20_run (K : GSem nD τ sig → ℕ) (c : Dev nD) (v5 v8 v9 : BitVec 32) (h2 : k0_cond2 c = 1#1)
    (W : Waits sig Unit) {α : Type} {Q : α → sProp 𝕄} {k : PUnit → Prog (TpuEff nD τ sig (Elt F) Λ₀ .tc) α} :
    iprop((CP m K c 1 ∗ CP m K c 2) ∗ levAts L lv ∗ owes (c : Thread nD τ) (OR1 c) W
        ∗ (A2 m c 1 ∗ A1 (F := F) c 2)
        ∗ (∀ W' : Waits sig Unit, (owes (c : Thread nD τ) (OR3 c) W' ∗ A3 m c 1 ∗ A3 m c 2)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part20 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part20_eq_skeleton]; unfold Gen.k0_part20_skel
  simp only [Prog.lift, Prog.bind_op, Prog.bind_ret, Prog.pure_eq_ret]
  iintro ⟨⟨#P1, #P2⟩, #Hlev, HO, ⟨HA1, HA2⟩, Hk⟩
  iapply (st_send m K c 1 _ (dev11_eq c h2) (OR2 c) (O' := OR1 c) rfl _) $$ [HO HA1]
  · isplitr; · iexact P1
    isplitl [HO]; · iexact HO
    iexact HA1
  iintro ⟨HO, HA1⟩
  iapply (st_wait_stage m K c 2 (credit_rows sM 2) (OR2 c) (recvOnly_OR2 c) _) $$ [HO HA2]
  · isplitr; · iexact P2
    isplitr; · iexact Hlev
    isplitl [HO]; · iexact HO
    iexact HA2
  iintro ⟨HO, HA2⟩
  iapply (st_send m K c 2 _ (dev12_eq c h2) (OR3 c) (O' := OR2 c) rfl _) $$ [HO HA2]
  · isplitr; · iexact P2
    isplitl [HO]; · iexact HO
    iexact HA2
  iintro ⟨HO, HA2⟩
  iapply Hk
  isplitl [HO]; · iexact HO
  isplitl [HA1]; · iexact HA1
  iexact HA2

/-- Chunk 3 is staged and leaves for the partner; chunk 4 is staged. -/
theorem part21_run (K : GSem nD τ sig → ℕ) (c : Dev nD) (v5 v8 v9 : BitVec 32) (h2 : k0_cond2 c = 1#1)
    (W : Waits sig Unit) {α : Type} {Q : α → sProp 𝕄} {k : PUnit → Prog (TpuEff nD τ sig (Elt F) Λ₀ .tc) α} :
    iprop((CP m K c 3 ∗ CP m K c 4) ∗ levAts L lv ∗ owes (c : Thread nD τ) (OR3 c) W
        ∗ (A1 (F := F) c 3 ∗ A1 (F := F) c 4)
        ∗ (∀ W' : Waits sig Unit, (owes (c : Thread nD τ) (OR4 c) W' ∗ A3 m c 3 ∗ A2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part21 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part21_eq_skeleton]; unfold Gen.k0_part21_skel
  simp only [Prog.lift, Prog.bind_op, Prog.bind_ret, Prog.pure_eq_ret]
  iintro ⟨⟨#P3, #P4⟩, #Hlev, HO, ⟨HA3, HA4⟩, Hk⟩
  iapply (st_wait_stage m K c 3 (credit_rows sM 3) (OR3 c) (recvOnly_OR3 c) _) $$ [HO HA3]
  · isplitr; · iexact P3
    isplitr; · iexact Hlev
    isplitl [HO]; · iexact HO
    iexact HA3
  iintro ⟨HO, HA3⟩
  iapply (st_send m K c 3 _ (dev13_eq c h2) (OR4 c) (O' := OR3 c) rfl _) $$ [HO HA3]
  · isplitr; · iexact P3
    isplitl [HO]; · iexact HO
    iexact HA3
  iintro ⟨HO, HA3⟩
  iapply (st_wait_stage m K c 4 (credit_rows sM 4) (OR4 c) (recvOnly_OR4 c) _) $$ [HO HA4]
  · isplitr; · iexact P4
    isplitr; · iexact Hlev
    isplitl [HO]; · iexact HO
    iexact HA4
  iintro ⟨HO, HA4⟩
  iapply Hk
  isplitl [HO]; · iexact HO
  isplitl [HA3]; · iexact HA3
  iexact HA4

/-- info: 'Cert.KernelIdeal.RS.part4_run' depends on axioms: [propext, Classical.choice, Quot.sound] -/
#guard_msgs in #print axioms part4_run

/-- info: 'Cert.KernelIdeal.RS.part5_run' depends on axioms: [propext, Classical.choice, Quot.sound] -/
#guard_msgs in #print axioms part5_run

/-- info: 'Cert.KernelIdeal.RS.part6_run' depends on axioms: [propext, Classical.choice, Quot.sound] -/
#guard_msgs in #print axioms part6_run

/-- info: 'Cert.KernelIdeal.RS.part19_run' depends on axioms: [propext, Classical.choice, Quot.sound] -/
#guard_msgs in #print axioms part19_run

/-- info: 'Cert.KernelIdeal.RS.part20_run' depends on axioms: [propext, Classical.choice, Quot.sound] -/
#guard_msgs in #print axioms part20_run

/-- info: 'Cert.KernelIdeal.RS.part21_run' depends on axioms: [propext, Classical.choice, Quot.sound] -/
#guard_msgs in #print axioms part21_run

end Cert.KernelIdeal.RS

end
-- ==== Proof.KernelIdeal.PartsC.lean ====
/-
  Six printed parts of one device's body, three of each branch: the transfers of chunks 4 to 7 to the partner, each
  after the wait for the chunk's staging copy, and the waits for the keeping copies of chunks 0 to 4. Each part is
  stepped from the states of the chunks it touches to their states after it, in the order the part is printed.
-/
import proofs.«901041_g7700000000001042_dist_rs_v7x_xyz2x4x4_x_m4096_n1024_f32_1_alg».proof.Proof.KernelIdeal.States
import proofs.«901041_g7700000000001042_dist_rs_v7x_xyz2x4x4_x_m4096_n1024_f32_1_alg».proof.Proof.KernelIdeal.Levels

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first branch: the transfers of chunks 4 to 7 with the staging waits between them, and the first five keeping waits -/

/-- Part 7: chunk 4 is sent, chunk 5's staging copy is waited for and chunk 5 sent, chunk 6's staging copy is waited for. -/
theorem part7_run (K : GSem nD τ sig → ℕ) (c : Dev nD) (v5 v8 v9 : BitVec 32) (h1 : k0_cond1 c = 1#1) (W : Waits sig Unit)
    {α : Type} {Q : α → sProp 𝕄} {k : BitVec 32 → Prog (TpuEff nD τ sig (Elt F) Λ₀ .tc) α} :
    iprop((CP m K c 4 ∗ CP m K c 5 ∗ CP m K c 6) ∗ levAts L lv ∗ owes (c : Thread nD τ) (OR4 c) W
        ∗ (A2 m c 4 ∗ A1 (F := F) c 5 ∗ A1 (F := F) c 6)
        ∗ (∀ W' : Waits sig Unit, ∀ r : BitVec 32, (owes (c : Thread nD τ) (OR6 c) W' ∗ A3 m c 4 ∗ A3 m c 5 ∗ A2 m c 6)
            -∗ wp frame (wpE (defs₀ (F := F)) 𝒱₀ (c : Thread nD τ) none) Set.univ (k r) Q))
      ⊢ wp frame (wpE (defs₀ (F := F)) 𝒱₀ (c : Thread nD τ) none) Set.univ
          ((k0_part7 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1) >>= k) Q := by
  rw [Gen.k0_part7_eq_skeleton]; unfold Gen.k0_part7_skel
  simp only [Prog.lift, Prog.bind_op, Prog.bind_ret, Prog.pure_eq_ret]
  iintro ⟨⟨#P4, #P5, #P6⟩, #Hlev, HO, ⟨HA4, HA5, HA6⟩, Hk⟩
  iapply (st_send m K c 4 _ (dev6_eq c h1) (OR5 c) (O' := OR4 c) rfl _) $$ [HO HA4]
  · isplitr; · iexact P4
    isplitl [HO]; · iexact HO
    iexact HA4
  iintro ⟨HO, HA4⟩
  iapply (st_wait_stage m K c 5 (credit_rows sM 5) (OR5 c) (recvOnly_OR5 c) _) $$ [HO HA5]
  · isplitr; · iexact P5
    isplitr; · iexact Hlev
    isplitl [HO]; · iexact HO
    iexact HA5
  iintro ⟨HO, HA5⟩
  iapply (st_send m K c 5 _ (dev7_eq c h1) (OR6 c) (O' := OR5 c) rfl _) $$ [HO HA5]
  · isplitr; · iexact P5
    isplitl [HO]; · iexact HO
    iexact HA5
  iintro ⟨HO, HA5⟩
  iapply (st_wait_stage m K c 6 (credit_rows sM 6) (OR6 c) (recvOnly_OR6 c) _) $$ [HO HA6]
  · isplitr; · iexact P6
    isplitr; · iexact Hlev
    isplitl [HO]; · iexact HO
    iexact HA6
  iintro ⟨HO, HA6⟩
  iapply Hk
  isplitl [HO]; · iexact HO
  isplitl [HA4]; · iexact HA4
  isplitl [HA5]; · iexact HA5
  iexact HA6

/-- Part 8: chunk 6 is sent, chunk 7's staging copy is waited for and chunk 7 sent: nothing is owed any more. -/
theorem part8_run (K : GSem nD τ sig → ℕ) (c : Dev nD) (v5 v8 v9 : BitVec 32) (h1 : k0_cond1 c = 1#1) (v211 : BitVec 32) (W : Waits sig Unit)
    {α : Type} {Q : α → sProp 𝕄} {k : PUnit → Prog (TpuEff nD τ sig (Elt F) Λ₀ .tc) α} :
    iprop((CP m K c 6 ∗ CP m K c 7) ∗ levAts L lv ∗ owes (c : Thread nD τ) (OR6 c) W
        ∗ (A2 m c 6 ∗ A1 (F := F) c 7)
        ∗ (∀ W' : Waits sig Unit, (owes (c : Thread nD τ) 0 W' ∗ A3 m c 6 ∗ A3 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part8 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h1 v211) >>= k) Q := by
  rw [Gen.k0_part8_eq_skeleton]; unfold Gen.k0_part8_skel
  simp only [Prog.lift, Prog.bind_op, Prog.bind_ret, Prog.pure_eq_ret]
  iintro ⟨⟨#P6, #P7⟩, #Hlev, HO, ⟨HA6, HA7⟩, Hk⟩
  iapply (st_send m K c 6 _ (dev8_eq c h1) (OR7 c) (O' := OR6 c) rfl _) $$ [HO HA6]
  · isplitr; · iexact P6
    isplitl [HO]; · iexact HO
    iexact HA6
  iintro ⟨HO, HA6⟩
  iapply (st_wait_stage m K c 7 (credit_rows sM 7) (OR7 c) (recvOnly_OR7 c) _) $$ [HO HA7]
  · isplitr; · iexact P7
    isplitr; · iexact Hlev
    isplitl [HO]; · iexact HO
    iexact HA7
  iintro ⟨HO, HA7⟩
  iapply (st_send m K c 7 _ (dev9_eq c h1) 0 (O' := OR7 c) (zero_add _).symm _) $$ [HO HA7]
  · isplitr; · iexact P7
    isplitl [HO]; · iexact HO
    iexact HA7
  iintro ⟨HO, HA7⟩
  iapply Hk
  isplitl [HO]; · iexact HO
  isplitl [HA6]; · iexact HA6
  iexact HA7

/-- Part 9: the keeping copies of chunks 0 to 4 are waited for. -/
theorem part9_run (K : GSem nD τ sig → ℕ) (c : Dev nD) (W : Waits sig Unit)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (B1 (F := F) c 0 ∗ B1 (F := F) c 1 ∗ B1 (F := F) c 2 ∗ B1 (F := F) c 3 ∗ B1 (F := F) c 4)
        ∗ (∀ W' : Waits sig Unit, (owes (c : Thread nD τ) 0 W' ∗ B2 m c 0 ∗ B2 m c 1 ∗ B2 m c 2 ∗ B2 m c 3 ∗ B2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part9 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part9_eq_skeleton]; unfold Gen.k0_part9_skel
  simp only [Prog.lift, Prog.bind_op, Prog.bind_ret, Prog.pure_eq_ret]
  iintro ⟨⟨#P0, #P1, #P2, #P3, #P4⟩, #Hlev, HO, ⟨HB0, HB1, HB2, HB3, HB4⟩, Hk⟩
  iapply (st_wait_keep m K c 0 (credit_rows oM 0) 0 (recvOnly_zero c) _) $$ [HO HB0]
  · isplitr; · iexact P0
    isplitr; · iexact Hlev
    isplitl [HO]; · iexact HO
    iexact HB0
  iintro ⟨HO, HB0⟩
  iapply (st_wait_keep m K c 1 (credit_rows oM 1) 0 (recvOnly_zero c) _) $$ [HO HB1]
  · isplitr; · iexact P1
    isplitr; · iexact Hlev
    isplitl [HO]; · iexact HO
    iexact HB1
  iintro ⟨HO, HB1⟩
  iapply (st_wait_keep m K c 2 (credit_rows oM 2) 0 (recvOnly_zero c) _) $$ [HO HB2]
  · isplitr; · iexact P2
    isplitr; · iexact Hlev
    isplitl [HO]; · iexact HO
    iexact HB2
  iintro ⟨HO, HB2⟩
  iapply (st_wait_keep m K c 3 (credit_rows oM 3) 0 (recvOnly_zero c) _) $$ [HO HB3]
  · isplitr; · iexact P3
    isplitr; · iexact Hlev
    isplitl [HO]; · iexact HO
    iexact HB3
  iintro ⟨HO, HB3⟩
  iapply (st_wait_keep m K c 4 (credit_rows oM 4) 0 (recvOnly_zero c) _) $$ [HO HB4]
  · isplitr; · iexact P4
    isplitr; · iexact Hlev
    isplitl [HO]; · iexact HO
    iexact HB4
  iintro ⟨HO, HB4⟩
  iapply Hk
  isplitl [HO]; · iexact HO
  isplitl [HB0]; · iexact HB0
  isplitl [HB1]; · iexact HB1
  isplitl [HB2]; · iexact HB2
  isplitl [HB3]; · iexact HB3
  iexact HB4

/-! ## The second branch: the transfers of chunks 4 to 7 with the staging waits between them, and the first five keeping waits -/

/-- Part 22: chunk 4 is sent, chunk 5's staging copy is waited for and chunk 5 sent, chunk 6's staging copy is waited for. -/
theorem part22_run (K : GSem nD τ sig → ℕ) (c : Dev nD) (v5 v8 v9 : BitVec 32) (h2 : k0_cond2 c = 1#1) (W : Waits sig Unit)
    {α : Type} {Q : α → sProp 𝕄} {k : BitVec 32 → Prog (TpuEff nD τ sig (Elt F) Λ₀ .tc) α} :
    iprop((CP m K c 4 ∗ CP m K c 5 ∗ CP m K c 6) ∗ levAts L lv ∗ owes (c : Thread nD τ) (OR4 c) W
        ∗ (A2 m c 4 ∗ A1 (F := F) c 5 ∗ A1 (F := F) c 6)
        ∗ (∀ W' : Waits sig Unit, ∀ r : BitVec 32, (owes (c : Thread nD τ) (OR6 c) W' ∗ A3 m c 4 ∗ A3 m c 5 ∗ A2 m c 6)
            -∗ wp frame (wpE (defs₀ (F := F)) 𝒱₀ (c : Thread nD τ) none) Set.univ (k r) Q))
      ⊢ wp frame (wpE (defs₀ (F := F)) 𝒱₀ (c : Thread nD τ) none) Set.univ
          ((k0_part22 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2) >>= k) Q := by
  rw [Gen.k0_part22_eq_skeleton]; unfold Gen.k0_part22_skel
  simp only [Prog.lift, Prog.bind_op, Prog.bind_ret, Prog.pure_eq_ret]
  iintro ⟨⟨#P4, #P5, #P6⟩, #Hlev, HO, ⟨HA4, HA5, HA6⟩, Hk⟩
  iapply (st_send m K c 4 _ (dev14_eq c h2) (OR5 c) (O' := OR4 c) rfl _) $$ [HO HA4]
  · isplitr; · iexact P4
    isplitl [HO]; · iexact HO
    iexact HA4
  iintro ⟨HO, HA4⟩
  iapply (st_wait_stage m K c 5 (credit_rows sM 5) (OR5 c) (recvOnly_OR5 c) _) $$ [HO HA5]
  · isplitr; · iexact P5
    isplitr; · iexact Hlev
    isplitl [HO]; · iexact HO
    iexact HA5
  iintro ⟨HO, HA5⟩
  iapply (st_send m K c 5 _ (dev15_eq c h2) (OR6 c) (O' := OR5 c) rfl _) $$ [HO HA5]
  · isplitr; · iexact P5
    isplitl [HO]; · iexact HO
    iexact HA5
  iintro ⟨HO, HA5⟩
  iapply (st_wait_stage m K c 6 (credit_rows sM 6) (OR6 c) (recvOnly_OR6 c) _) $$ [HO HA6]
  · isplitr; · iexact P6
    isplitr; · iexact Hlev
    isplitl [HO]; · iexact HO
    iexact HA6
  iintro ⟨HO, HA6⟩
  iapply Hk
  isplitl [HO]; · iexact HO
  isplitl [HA4]; · iexact HA4
  isplitl [HA5]; · iexact HA5
  iexact HA6

/-- Part 23: chunk 6 is sent, chunk 7's staging copy is waited for and chunk 7 sent: nothing is owed any more. -/
theorem part23_run (K : GSem nD τ sig → ℕ) (c : Dev nD) (v5 v8 v9 : BitVec 32) (h2 : k0_cond2 c = 1#1) (v211 : BitVec 32) (W : Waits sig Unit)
    {α : Type} {Q : α → sProp 𝕄} {k : PUnit → Prog (TpuEff nD τ sig (Elt F) Λ₀ .tc) α} :
    iprop((CP m K c 6 ∗ CP m K c 7) ∗ levAts L lv ∗ owes (c : Thread nD τ) (OR6 c) W
        ∗ (A2 m c 6 ∗ A1 (F := F) c 7)
        ∗ (∀ W' : Waits sig Unit, (owes (c : Thread nD τ) 0 W' ∗ A3 m c 6 ∗ A3 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part23 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 c v5 v8 v9 h2 v211) >>= k) Q := by
  rw [Gen.k0_part23_eq_skeleton]; unfold Gen.k0_part23_skel
  simp only [Prog.lift, Prog.bind_op, Prog.bind_ret, Prog.pure_eq_ret]
  iintro ⟨⟨#P6, #P7⟩, #Hlev, HO, ⟨HA6, HA7⟩, Hk⟩
  iapply (st_send m K c 6 _ (dev16_eq c h2) (OR7 c) (O' := OR6 c) rfl _) $$ [HO HA6]
  · isplitr; · iexact P6
    isplitl [HO]; · iexact HO
    iexact HA6
  iintro ⟨HO, HA6⟩
  iapply (st_wait_stage m K c 7 (credit_rows sM 7) (OR7 c) (recvOnly_OR7 c) _) $$ [HO HA7]
  · isplitr; · iexact P7
    isplitr; · iexact Hlev
    isplitl [HO]; · iexact HO
    iexact HA7
  iintro ⟨HO, HA7⟩
  iapply (st_send m K c 7 _ (dev17_eq c h2) 0 (O' := OR7 c) (zero_add _).symm _) $$ [HO HA7]
  · isplitr; · iexact P7
    isplitl [HO]; · iexact HO
    iexact HA7
  iintro ⟨HO, HA7⟩
  iapply Hk
  isplitl [HO]; · iexact HO
  isplitl [HA6]; · iexact HA6
  iexact HA7

/-- Part 24: the keeping copies of chunks 0 to 4 are waited for. -/
theorem part24_run (K : GSem nD τ sig → ℕ) (c : Dev nD) (W : Waits sig Unit)
    {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (B1 (F := F) c 0 ∗ B1 (F := F) c 1 ∗ B1 (F := F) c 2 ∗ B1 (F := F) c 3 ∗ B1 (F := F) c 4)
        ∗ (∀ W' : Waits sig Unit, (owes (c : Thread nD τ) 0 W' ∗ B2 m c 0 ∗ B2 m c 1 ∗ B2 m c 2 ∗ B2 m c 3 ∗ B2 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part24 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part24_eq_skeleton]; unfold Gen.k0_part24_skel
  simp only [Prog.lift, Prog.bind_op, Prog.bind_ret, Prog.pure_eq_ret]
  iintro ⟨⟨#P0, #P1, #P2, #P3, #P4⟩, #Hlev, HO, ⟨HB0, HB1, HB2, HB3, HB4⟩, Hk⟩
  iapply (st_wait_keep m K c 0 (credit_rows oM 0) 0 (recvOnly_zero c) _) $$ [HO HB0]
  · isplitr; · iexact P0
    isplitr; · iexact Hlev
    isplitl [HO]; · iexact HO
    iexact HB0
  iintro ⟨HO, HB0⟩
  iapply (st_wait_keep m K c 1 (credit_rows oM 1) 0 (recvOnly_zero c) _) $$ [HO HB1]
  · isplitr; · iexact P1
    isplitr; · iexact Hlev
    isplitl [HO]; · iexact HO
    iexact HB1
  iintro ⟨HO, HB1⟩
  iapply (st_wait_keep m K c 2 (credit_rows oM 2) 0 (recvOnly_zero c) _) $$ [HO HB2]
  · isplitr; · iexact P2
    isplitr; · iexact Hlev
    isplitl [HO]; · iexact HO
    iexact HB2
  iintro ⟨HO, HB2⟩
  iapply (st_wait_keep m K c 3 (credit_rows oM 3) 0 (recvOnly_zero c) _) $$ [HO HB3]
  · isplitr; · iexact P3
    isplitr; · iexact Hlev
    isplitl [HO]; · iexact HO
    iexact HB3
  iintro ⟨HO, HB3⟩
  iapply (st_wait_keep m K c 4 (credit_rows oM 4) 0 (recvOnly_zero c) _) $$ [HO HB4]
  · isplitr; · iexact P4
    isplitr; · iexact Hlev
    isplitl [HO]; · iexact HO
    iexact HB4
  iintro ⟨HO, HB4⟩
  iapply Hk
  isplitl [HO]; · iexact HO
  isplitl [HB0]; · iexact HB0
  isplitl [HB1]; · iexact HB1
  isplitl [HB2]; · iexact HB2
  isplitl [HB3]; · iexact HB3
  iexact HB4

/-- info: 'Cert.KernelIdeal.RS.part7_run' depends on axioms: [propext, Classical.choice, Quot.sound] -/
#guard_msgs in #print axioms part7_run

/-- info: 'Cert.KernelIdeal.RS.part8_run' depends on axioms: [propext, Classical.choice, Quot.sound] -/
#guard_msgs in #print axioms part8_run

/-- info: 'Cert.KernelIdeal.RS.part9_run' depends on axioms: [propext, Classical.choice, Quot.sound] -/
#guard_msgs in #print axioms part9_run

/-- info: 'Cert.KernelIdeal.RS.part22_run' depends on axioms: [propext, Classical.choice, Quot.sound] -/
#guard_msgs in #print axioms part22_run

/-- info: 'Cert.KernelIdeal.RS.part23_run' depends on axioms: [propext, Classical.choice, Quot.sound] -/
#guard_msgs in #print axioms part23_run

/-- info: 'Cert.KernelIdeal.RS.part24_run' depends on axioms: [propext, Classical.choice, Quot.sound] -/
#guard_msgs in #print axioms part24_run

end Cert.KernelIdeal.RS

end
-- ==== Proof.KernelIdeal.PartsD.lean ====
/-
  Six printed parts of one device's body, each stepped once from the chunks' states to the chunks' states.
  In either branch (the device keeps half 0 and sends half 1, or the other way round) the text is the same: the last
  three keeping copies are waited for; then, chunk after chunk, the partner's rows are waited for, the kept rows and
  the received rows are loaded through the whole buffers, and their sum is stored over the kept rows. A part that ends
  between a load and the store that uses it hands the loaded rows (or their sum) on to the next part as its value.
-/
import proofs.«901041_g7700000000001042_dist_rs_v7x_xyz2x4x4_x_m4096_n1024_f32_1_alg».proof.Proof.KernelIdeal.States
import proofs.«901041_g7700000000001042_dist_rs_v7x_xyz2x4x4_x_m4096_n1024_f32_1_alg».proof.Proof.KernelIdeal.Levels

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first branch: devices that keep half 0 -/

/-- Part 10: the keeping copies of chunks 5, 6, 7 have landed; the partner's rows of chunk 0 have arrived; the kept and the received rows of chunk 0 are loaded, and their sum is the part's value. -/
theorem part10_run (K : GSem nD τ sig → ℕ) (c : Dev nD) (v5 v8 v9 : BitVec 32) (W : Waits sig Unit)
    {α : Type} {Q : α → sProp 𝕄} {k : FVec F S512x1024 .f32 → Prog (TpuEff nD τ sig (Elt F) Λ₀ .tc) α} :
    iprop((CP m K c 0 ∗ CP m K c 5 ∗ CP m K c 6 ∗ CP m K c 7) ∗ levAts L lv ∗ owes (c : Thread nD τ) 0 W
        ∗ (B2 m c 0 ∗ B1 (F := F) c 5 ∗ B1 (F := F) c 6 ∗ B1 (F := F) c 7)
        ∗ (∀ W' : Waits sig Unit, (owes (c : Thread nD τ) 0 W' ∗ B3 m c 0 ∗ B2 m c 5 ∗ B2 m c 6 ∗ B2 m c 7)
            -∗ wp frame (wpE (defs₀ (F := F)) 𝒱₀ (c : Thread nD τ) none) Set.univ
                (k (addf ((rowCh (oM : Memref sig .tc .vmem S4096x1024 .f32) 0).view.read (Elt F) (keepFull m c))
                         ((rowCh (rM : Memref sig .tc .vmem S4096x1024 .f32) 0).view.read (Elt F) (recvFull m c)))) Q))
      ⊢ wp frame (wpE (defs₀ (F := F)) 𝒱₀ (c : Thread nD τ) none) Set.univ
          ((k0_part10 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  have e : ∀ v w : Vec F S512x1024 .f32, Gen.k0_pay1 v w = addf v w := fun v w => addf_cast v w _
  rw [Gen.k0_part10_eq_skeleton]; unfold Gen.k0_part10_skel
  simp only [Prog.lift, Prog.bind_op, Prog.bind_ret, Prog.pure_eq_ret, e]
  iintro ⟨⟨#P0, #P5, #P6, #P7⟩, #Hlev, HO, ⟨H0, H5, H6, H7⟩, Hk⟩
  iapply (st_wait_keep m K c 5 (credit_rows oM 5) 0 (recvOnly_zero c) _) $$ [HO H5]
  · isplitr; · iexact P5
    isplitr; · iexact Hlev
    isplitl [HO]; · iexact HO
    iexact H5
  iintro ⟨HO, H5⟩
  iapply (st_wait_keep m K c 6 (credit_rows oM 6) 0 (recvOnly_zero c) _) $$ [HO H6]
  · isplitr; · iexact P6
    isplitr; · iexact Hlev
    isplitl [HO]; · iexact HO
    iexact H6
  iintro ⟨HO, H6⟩
  iapply (st_wait_keep m K c 7 (credit_rows oM 7) 0 (recvOnly_zero c) _) $$ [HO H7]
  · isplitr; · iexact P7
    isplitr; · iexact Hlev
    isplitl [HO]; · iexact HO
    iexact H7
  iintro ⟨HO, H7⟩
  iapply (st_wait_recv m K c 0 (credit_rows rM 0) _) $$ [HO H0]
  · isplitr; · iexact P0
    isplitl [HO]; · iexact HO
    iexact H0
  iintro ⟨HO, H0⟩
  iapply (st_load_o m c 0) $$ [H0]
  · iexact H0
  iintro H0
  iapply (st_load_r m c 0) $$ [H0]
  · iexact H0
  iintro H0
  iapply (st_load_o m c 0) $$ [H0]
  · iexact H0
  iintro H0
  iapply Hk
  isplitl [HO]; · iexact HO
  isplitl [H0]; · iexact H0
  isplitl [H5]; · iexact H5
  isplitl [H6]; · iexact H6
  iexact H7

/-- Part 11: the sum of chunk 0 is stored; chunk 1 is received, loaded, summed and stored; chunk 2 is received and its kept rows loaded, which are the part's value. -/
theorem part11_run (K : GSem nD τ sig → ℕ) (c : Dev nD) (v5 v8 v9 : BitVec 32) (v292 : FVec F S512x1024 .f32)
    (hv : v292 = addf ((rowCh (oM : Memref sig .tc .vmem S4096x1024 .f32) 0).view.read (Elt F) (keepFull m c))
                      ((rowCh (rM : Memref sig .tc .vmem S4096x1024 .f32) 0).view.read (Elt F) (recvFull m c)))
    (W : Waits sig Unit) {α : Type} {Q : α → sProp 𝕄} {k : FVec F S512x1024 .f32 → Prog (TpuEff nD τ sig (Elt F) Λ₀ .tc) α} :
    iprop((CP m K c 0 ∗ CP m K c 1 ∗ CP m K c 2) ∗ levAts L lv ∗ owes (c : Thread nD τ) 0 W
        ∗ (B3 m c 0 ∗ B2 m c 1 ∗ B2 m c 2)
        ∗ (∀ W' : Waits sig Unit, (owes (c : Thread nD τ) 0 W' ∗ B4 m c 0 ∗ B4 m c 1 ∗ B3 m c 2)
            -∗ wp frame (wpE (defs₀ (F := F)) 𝒱₀ (c : Thread nD τ) none) Set.univ
                (k (Gen.k0_pay3 ((rowCh (oM : Memref sig .tc .vmem S4096x1024 .f32) 2).view.read (Elt F) (keepFull m c)))) Q))
      ⊢ wp frame (wpE (defs₀ (F := F)) 𝒱₀ (c : Thread nD τ) none) Set.univ
          ((k0_part11 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v292) >>= k) Q := by
  subst hv
  have e : ∀ v w : Vec F S512x1024 .f32, Gen.k0_pay2 v w = addf v w := fun v w => addf_cast v w _
  rw [Gen.k0_part11_eq_skeleton]; unfold Gen.k0_part11_skel
  simp only [Prog.lift, Prog.bind_op, Prog.bind_ret, Prog.pure_eq_ret, e]
  iintro ⟨⟨#P0, #P1, #P2⟩, #Hlev, HO, ⟨H0, H1, H2⟩, Hk⟩
  iapply (st_store m c 0 rfl) $$ [H0]
  · iexact H0
  iintro H0
  iapply (st_wait_recv m K c 1 (credit_rows rM 1) _) $$ [HO H1]
  · isplitr; · iexact P1
    isplitl [HO]; · iexact HO
    iexact H1
  iintro ⟨HO, H1⟩
  iapply (st_load_o m c 1) $$ [H1]
  · iexact H1
  iintro H1
  iapply (st_load_r m c 1) $$ [H1]
  · iexact H1
  iintro H1
  iapply (st_load_o m c 1) $$ [H1]
  · iexact H1
  iintro H1
  iapply (st_store m c 1 rfl) $$ [H1]
  · iexact H1
  iintro H1
  iapply (st_wait_recv m K c 2 (credit_rows rM 2) _) $$ [HO H2]
  · isplitr; · iexact P2
    isplitl [HO]; · iexact HO
    iexact H2
  iintro ⟨HO, H2⟩
  iapply (st_load_o m c 2) $$ [H2]
  · iexact H2
  iintro H2
  iapply Hk
  isplitl [HO]; · iexact HO
  isplitl [H0]; · iexact H0
  isplitl [H1]; · iexact H1
  iexact H2

/-- Part 12: the received rows of chunk 2 are loaded and its sum stored; chunk 3 is received, loaded, summed and stored. -/
theorem part12_run (K : GSem nD τ sig → ℕ) (c : Dev nD) (v5 v8 v9 : BitVec 32) (v320 : FVec F S512x1024 .f32)
    (hv : ∀ w, addf v320 w = addf ((rowCh (oM : Memref sig .tc .vmem S4096x1024 .f32) 2).view.read (Elt F) (keepFull m c)) w)
    (W : Waits sig Unit) {α : Type} {Q : α → sProp 𝕄} {k : PUnit → Prog (TpuEff nD τ sig (Elt F) Λ₀ .tc) α} :
    iprop((CP m K c 2 ∗ CP m K c 3) ∗ levAts L lv ∗ owes (c : Thread nD τ) 0 W
        ∗ (B3 m c 2 ∗ B2 m c 3)
        ∗ (∀ W' : Waits sig Unit, (owes (c : Thread nD τ) 0 W' ∗ B4 m c 2 ∗ B4 m c 3)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part12 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v320) >>= k) Q := by
  have e4 : ∀ v w : Vec F S512x1024 .f32, Gen.k0_pay4 v w = addf v w := fun _ _ => rfl
  have e5 : ∀ v w : Vec F S512x1024 .f32, Gen.k0_pay5 v w = addf v w := fun v w => addf_cast v w _
  rw [Gen.k0_part12_eq_skeleton]; unfold Gen.k0_part12_skel
  simp only [Prog.lift, Prog.bind_op, Prog.bind_ret, Prog.pure_eq_ret, e4, e5]
  iintro ⟨⟨#P2, #P3⟩, #Hlev, HO, ⟨H2, H3⟩, Hk⟩
  iapply (st_load_r m c 2) $$ [H2]
  · iexact H2
  iintro H2
  iapply (st_load_o m c 2) $$ [H2]
  · iexact H2
  iintro H2
  iapply (st_store m c 2 (hv _)) $$ [H2]
  · iexact H2
  iintro H2
  iapply (st_wait_recv m K c 3 (credit_rows rM 3) _) $$ [HO H3]
  · isplitr; · iexact P3
    isplitl [HO]; · iexact HO
    iexact H3
  iintro ⟨HO, H3⟩
  iapply (st_load_o m c 3) $$ [H3]
  · iexact H3
  iintro H3
  iapply (st_load_r m c 3) $$ [H3]
  · iexact H3
  iintro H3
  iapply (st_load_o m c 3) $$ [H3]
  · iexact H3
  iintro H3
  iapply (st_store m c 3 rfl) $$ [H3]
  · iexact H3
  iintro H3
  iapply Hk
  isplitl [HO]; · iexact HO
  isplitl [H2]; · iexact H2
  iexact H3

/-! ## The second branch: devices that keep half 1. The same steps on the same buffers. -/

/-- Part 25: as part 10. -/
theorem part25_run (K : GSem nD τ sig → ℕ) (c : Dev nD) (v5 v8 v9 : BitVec 32) (W : Waits sig Unit)
    {α : Type} {Q : α → sProp 𝕄} {k : FVec F S512x1024 .f32 → Prog (TpuEff nD τ sig (Elt F) Λ₀ .tc) α} :
    iprop((CP m K c 0 ∗ CP m K c 5 ∗ CP m K c 6 ∗ CP m K c 7) ∗ levAts L lv ∗ owes (c : Thread nD τ) 0 W
        ∗ (B2 m c 0 ∗ B1 (F := F) c 5 ∗ B1 (F := F) c 6 ∗ B1 (F := F) c 7)
        ∗ (∀ W' : Waits sig Unit, (owes (c : Thread nD τ) 0 W' ∗ B3 m c 0 ∗ B2 m c 5 ∗ B2 m c 6 ∗ B2 m c 7)
            -∗ wp frame (wpE (defs₀ (F := F)) 𝒱₀ (c : Thread nD τ) none) Set.univ
                (k (addf ((rowCh (oM : Memref sig .tc .vmem S4096x1024 .f32) 0).view.read (Elt F) (keepFull m c))
                         ((rowCh (rM : Memref sig .tc .vmem S4096x1024 .f32) 0).view.read (Elt F) (recvFull m c)))) Q))
      ⊢ wp frame (wpE (defs₀ (F := F)) 𝒱₀ (c : Thread nD τ) none) Set.univ
          ((k0_part25 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  have e : ∀ v w : Vec F S512x1024 .f32, Gen.k0_pay10 v w = addf v w := fun v w => addf_cast v w _
  rw [Gen.k0_part25_eq_skeleton]; unfold Gen.k0_part25_skel
  simp only [Prog.lift, Prog.bind_op, Prog.bind_ret, Prog.pure_eq_ret, e]
  iintro ⟨⟨#P0, #P5, #P6, #P7⟩, #Hlev, HO, ⟨H0, H5, H6, H7⟩, Hk⟩
  iapply (st_wait_keep m K c 5 (credit_rows oM 5) 0 (recvOnly_zero c) _) $$ [HO H5]
  · isplitr; · iexact P5
    isplitr; · iexact Hlev
    isplitl [HO]; · iexact HO
    iexact H5
  iintro ⟨HO, H5⟩
  iapply (st_wait_keep m K c 6 (credit_rows oM 6) 0 (recvOnly_zero c) _) $$ [HO H6]
  · isplitr; · iexact P6
    isplitr; · iexact Hlev
    isplitl [HO]; · iexact HO
    iexact H6
  iintro ⟨HO, H6⟩
  iapply (st_wait_keep m K c 7 (credit_rows oM 7) 0 (recvOnly_zero c) _) $$ [HO H7]
  · isplitr; · iexact P7
    isplitr; · iexact Hlev
    isplitl [HO]; · iexact HO
    iexact H7
  iintro ⟨HO, H7⟩
  iapply (st_wait_recv m K c 0 (credit_rows rM 0) _) $$ [HO H0]
  · isplitr; · iexact P0
    isplitl [HO]; · iexact HO
    iexact H0
  iintro ⟨HO, H0⟩
  iapply (st_load_o m c 0) $$ [H0]
  · iexact H0
  iintro H0
  iapply (st_load_r m c 0) $$ [H0]
  · iexact H0
  iintro H0
  iapply (st_load_o m c 0) $$ [H0]
  · iexact H0
  iintro H0
  iapply Hk
  isplitl [HO]; · iexact HO
  isplitl [H0]; · iexact H0
  isplitl [H5]; · iexact H5
  isplitl [H6]; · iexact H6
  iexact H7

/-- Part 26: as part 11. -/
theorem part26_run (K : GSem nD τ sig → ℕ) (c : Dev nD) (v5 v8 v9 : BitVec 32) (v292 : FVec F S512x1024 .f32)
    (hv : v292 = addf ((rowCh (oM : Memref sig .tc .vmem S4096x1024 .f32) 0).view.read (Elt F) (keepFull m c))
                      ((rowCh (rM : Memref sig .tc .vmem S4096x1024 .f32) 0).view.read (Elt F) (recvFull m c)))
    (W : Waits sig Unit) {α : Type} {Q : α → sProp 𝕄} {k : FVec F S512x1024 .f32 → Prog (TpuEff nD τ sig (Elt F) Λ₀ .tc) α} :
    iprop((CP m K c 0 ∗ CP m K c 1 ∗ CP m K c 2) ∗ levAts L lv ∗ owes (c : Thread nD τ) 0 W
        ∗ (B3 m c 0 ∗ B2 m c 1 ∗ B2 m c 2)
        ∗ (∀ W' : Waits sig Unit, (owes (c : Thread nD τ) 0 W' ∗ B4 m c 0 ∗ B4 m c 1 ∗ B3 m c 2)
            -∗ wp frame (wpE (defs₀ (F := F)) 𝒱₀ (c : Thread nD τ) none) Set.univ
                (k (Gen.k0_pay12 ((rowCh (oM : Memref sig .tc .vmem S4096x1024 .f32) 2).view.read (Elt F) (keepFull m c)))) Q))
      ⊢ wp frame (wpE (defs₀ (F := F)) 𝒱₀ (c : Thread nD τ) none) Set.univ
          ((k0_part26 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v292) >>= k) Q := by
  subst hv
  have e : ∀ v w : Vec F S512x1024 .f32, Gen.k0_pay11 v w = addf v w := fun v w => addf_cast v w _
  rw [Gen.k0_part26_eq_skeleton]; unfold Gen.k0_part26_skel
  simp only [Prog.lift, Prog.bind_op, Prog.bind_ret, Prog.pure_eq_ret, e]
  iintro ⟨⟨#P0, #P1, #P2⟩, #Hlev, HO, ⟨H0, H1, H2⟩, Hk⟩
  iapply (st_store m c 0 rfl) $$ [H0]
  · iexact H0
  iintro H0
  iapply (st_wait_recv m K c 1 (credit_rows rM 1) _) $$ [HO H1]
  · isplitr; · iexact P1
    isplitl [HO]; · iexact HO
    iexact H1
  iintro ⟨HO, H1⟩
  iapply (st_load_o m c 1) $$ [H1]
  · iexact H1
  iintro H1
  iapply (st_load_r m c 1) $$ [H1]
  · iexact H1
  iintro H1
  iapply (st_load_o m c 1) $$ [H1]
  · iexact H1
  iintro H1
  iapply (st_store m c 1 rfl) $$ [H1]
  · iexact H1
  iintro H1
  iapply (st_wait_recv m K c 2 (credit_rows rM 2) _) $$ [HO H2]
  · isplitr; · iexact P2
    isplitl [HO]; · iexact HO
    iexact H2
  iintro ⟨HO, H2⟩
  iapply (st_load_o m c 2) $$ [H2]
  · iexact H2
  iintro H2
  iapply Hk
  isplitl [HO]; · iexact HO
  isplitl [H0]; · iexact H0
  isplitl [H1]; · iexact H1
  iexact H2

/-- Part 27: as part 12. -/
theorem part27_run (K : GSem nD τ sig → ℕ) (c : Dev nD) (v5 v8 v9 : BitVec 32) (v320 : FVec F S512x1024 .f32)
    (hv : ∀ w, addf v320 w = addf ((rowCh (oM : Memref sig .tc .vmem S4096x1024 .f32) 2).view.read (Elt F) (keepFull m c)) w)
    (W : Waits sig Unit) {α : Type} {Q : α → sProp 𝕄} {k : PUnit → Prog (TpuEff nD τ sig (Elt F) Λ₀ .tc) α} :
    iprop((CP m K c 2 ∗ CP m K c 3) ∗ levAts L lv ∗ owes (c : Thread nD τ) 0 W
        ∗ (B3 m c 2 ∗ B2 m c 3)
        ∗ (∀ W' : Waits sig Unit, (owes (c : Thread nD τ) 0 W' ∗ B4 m c 2 ∗ B4 m c 3)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part27 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9 v320) >>= k) Q := by
  have e4 : ∀ v w : Vec F S512x1024 .f32, Gen.k0_pay13 v w = addf v w := fun _ _ => rfl
  have e5 : ∀ v w : Vec F S512x1024 .f32, Gen.k0_pay14 v w = addf v w := fun v w => addf_cast v w _
  rw [Gen.k0_part27_eq_skeleton]; unfold Gen.k0_part27_skel
  simp only [Prog.lift, Prog.bind_op, Prog.bind_ret, Prog.pure_eq_ret, e4, e5]
  iintro ⟨⟨#P2, #P3⟩, #Hlev, HO, ⟨H2, H3⟩, Hk⟩
  iapply (st_load_r m c 2) $$ [H2]
  · iexact H2
  iintro H2
  iapply (st_load_o m c 2) $$ [H2]
  · iexact H2
  iintro H2
  iapply (st_store m c 2 (hv _)) $$ [H2]
  · iexact H2
  iintro H2
  iapply (st_wait_recv m K c 3 (credit_rows rM 3) _) $$ [HO H3]
  · isplitr; · iexact P3
    isplitl [HO]; · iexact HO
    iexact H3
  iintro ⟨HO, H3⟩
  iapply (st_load_o m c 3) $$ [H3]
  · iexact H3
  iintro H3
  iapply (st_load_r m c 3) $$ [H3]
  · iexact H3
  iintro H3
  iapply (st_load_o m c 3) $$ [H3]
  · iexact H3
  iintro H3
  iapply (st_store m c 3 rfl) $$ [H3]
  · iexact H3
  iintro H3
  iapply Hk
  isplitl [HO]; · iexact HO
  isplitl [H2]; · iexact H2
  iexact H3

/-- info: 'Cert.KernelIdeal.RS.part10_run' depends on axioms: [propext, Classical.choice, Quot.sound] -/
#guard_msgs in #print axioms part10_run

/-- info: 'Cert.KernelIdeal.RS.part11_run' depends on axioms: [propext, Classical.choice, Quot.sound] -/
#guard_msgs in #print axioms part11_run

/-- info: 'Cert.KernelIdeal.RS.part12_run' depends on axioms: [propext, Classical.choice, Quot.sound] -/
#guard_msgs in #print axioms part12_run

/-- info: 'Cert.KernelIdeal.RS.part25_run' depends on axioms: [propext, Classical.choice, Quot.sound] -/
#guard_msgs in #print axioms part25_run

/-- info: 'Cert.KernelIdeal.RS.part26_run' depends on axioms: [propext, Classical.choice, Quot.sound] -/
#guard_msgs in #print axioms part26_run

/-- info: 'Cert.KernelIdeal.RS.part27_run' depends on axioms: [propext, Classical.choice, Quot.sound] -/
#guard_msgs in #print axioms part27_run

end Cert.KernelIdeal.RS

end
-- ==== Proof.KernelIdeal.PartsE.lean ====
/-
  The last three printed parts of each branch of one device's body.
  In each branch: the partner's rows of chunks 4 and 5, then of chunks 6 and 7, are waited for and added to the kept
  rows (wait on the receive cell, load the kept rows, load the received rows, store their sum); then the device waits
  for its own transfers of chunks 0 to 4 to have left. Nothing here depends on which half is kept, so the two
  branches' parts are proved by the same steps.
-/
import proofs.«901041_g7700000000001042_dist_rs_v7x_xyz2x4x4_x_m4096_n1024_f32_1_alg».proof.Proof.KernelIdeal.States
import proofs.«901041_g7700000000001042_dist_rs_v7x_xyz2x4x4_x_m4096_n1024_f32_1_alg».proof.Proof.KernelIdeal.Levels

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed sums -/

/-- Each printed sum of a part is the sum of the two vectors it is given: the cast of the first to its own shape changes nothing. -/
theorem pay6_eq (v w : Vec F S512x1024 .f32) : k0_pay6 v w = addf v w := addf_cast v w _
theorem pay7_eq (v w : Vec F S512x1024 .f32) : k0_pay7 v w = addf v w := addf_cast v w _
theorem pay8_eq (v w : Vec F S512x1024 .f32) : k0_pay8 v w = addf v w := addf_cast v w _
theorem pay9_eq (v w : Vec F S512x1024 .f32) : k0_pay9 v w = addf v w := addf_cast v w _
theorem pay15_eq (v w : Vec F S512x1024 .f32) : k0_pay15 v w = addf v w := addf_cast v w _
theorem pay16_eq (v w : Vec F S512x1024 .f32) : k0_pay16 v w = addf v w := addf_cast v w _
theorem pay17_eq (v w : Vec F S512x1024 .f32) : k0_pay17 v w = addf v w := addf_cast v w _
theorem pay18_eq (v w : Vec F S512x1024 .f32) : k0_pay18 v w = addf v w := addf_cast v w _

/-! ## The first branch -/

/-- The thirteenth part of the first branch: the partner's rows of chunks 4 and 5 are awaited and added to the kept rows. -/
theorem part13_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 4 ∗ CP m K c 5) ∗ levAts L lv ∗ owes (c : Thread nD τ) 0 W
        ∗ (B2 m c 4 ∗ B2 m c 5)
        ∗ (∀ W' : Waits sig Unit, (owes (c : Thread nD τ) 0 W' ∗ B4 m c 4 ∗ B4 m c 5)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part13 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part13_eq_skeleton]; unfold Gen.k0_part13_skel
  simp only [Prog.lift, Prog.bind_op, Prog.bind_ret, Prog.pure_eq_ret]
  iintro ⟨⟨#P4, #P5⟩, #Hlev, HO, ⟨H4, H5⟩, Hk⟩
  iapply (st_wait_recv m K c 4 (credit_rows rM 4) _) $$ [HO H4]
  · isplitr; · iexact P4
    isplitl [HO]; · iexact HO
    iexact H4
  iintro ⟨HO, H4⟩
  iapply (st_load_o m c 4) $$ [H4]
  · iexact H4
  iintro H4
  iapply (st_load_r m c 4) $$ [H4]
  · iexact H4
  iintro H4
  iapply (st_load_o m c 4) $$ [H4]
  · iexact H4
  iintro H4
  iapply (st_store m c 4 (pay6_eq _ _)) $$ [H4]
  · iexact H4
  iintro H4
  iapply (st_wait_recv m K c 5 (credit_rows rM 5) _) $$ [HO H5]
  · isplitr; · iexact P5
    isplitl [HO]; · iexact HO
    iexact H5
  iintro ⟨HO, H5⟩
  iapply (st_load_o m c 5) $$ [H5]
  · iexact H5
  iintro H5
  iapply (st_load_r m c 5) $$ [H5]
  · iexact H5
  iintro H5
  iapply (st_load_o m c 5) $$ [H5]
  · iexact H5
  iintro H5
  iapply (st_store m c 5 (pay7_eq _ _)) $$ [H5]
  · iexact H5
  iintro H5
  iapply Hk
  isplitl [HO]; · iexact HO
  isplitl [H4]; · iexact H4
  iexact H5

/-- The fourteenth part of the first branch: the same for chunks 6 and 7. -/
theorem part14_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 6 ∗ CP m K c 7) ∗ levAts L lv ∗ owes (c : Thread nD τ) 0 W
        ∗ (B2 m c 6 ∗ B2 m c 7)
        ∗ (∀ W' : Waits sig Unit, (owes (c : Thread nD τ) 0 W' ∗ B4 m c 6 ∗ B4 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part14 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part14_eq_skeleton]; unfold Gen.k0_part14_skel
  simp only [Prog.lift, Prog.bind_op, Prog.bind_ret, Prog.pure_eq_ret]
  iintro ⟨⟨#P6, #P7⟩, #Hlev, HO, ⟨H6, H7⟩, Hk⟩
  iapply (st_wait_recv m K c 6 (credit_rows rM 6) _) $$ [HO H6]
  · isplitr; · iexact P6
    isplitl [HO]; · iexact HO
    iexact H6
  iintro ⟨HO, H6⟩
  iapply (st_load_o m c 6) $$ [H6]
  · iexact H6
  iintro H6
  iapply (st_load_r m c 6) $$ [H6]
  · iexact H6
  iintro H6
  iapply (st_load_o m c 6) $$ [H6]
  · iexact H6
  iintro H6
  iapply (st_store m c 6 (pay8_eq _ _)) $$ [H6]
  · iexact H6
  iintro H6
  iapply (st_wait_recv m K c 7 (credit_rows rM 7) _) $$ [HO H7]
  · isplitr; · iexact P7
    isplitl [HO]; · iexact HO
    iexact H7
  iintro ⟨HO, H7⟩
  iapply (st_load_o m c 7) $$ [H7]
  · iexact H7
  iintro H7
  iapply (st_load_r m c 7) $$ [H7]
  · iexact H7
  iintro H7
  iapply (st_load_o m c 7) $$ [H7]
  · iexact H7
  iintro H7
  iapply (st_store m c 7 (pay9_eq _ _)) $$ [H7]
  · iexact H7
  iintro H7
  iapply Hk
  isplitl [HO]; · iexact HO
  isplitl [H6]; · iexact H6
  iexact H7

/-- The fifteenth part of the first branch: the device's own transfers of chunks 0 to 4 have left. -/
theorem part15_run (K : GSem nD τ sig → ℕ) (c : Dev nD)
    (W : Waits sig Unit) {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (A3 m c 0 ∗ A3 m c 1 ∗ A3 m c 2 ∗ A3 m c 3 ∗ A3 m c 4)
        ∗ (∀ W' : Waits sig Unit, (owes (c : Thread nD τ) 0 W' ∗ A4 m c 0 ∗ A4 m c 1 ∗ A4 m c 2 ∗ A4 m c 3 ∗ A4 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part15 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part15_eq_skeleton]; unfold Gen.k0_part15_skel
  simp only [Prog.lift, Prog.bind_op, Prog.bind_ret, Prog.pure_eq_ret]
  iintro ⟨⟨#P0, #P1, #P2, #P3, #P4⟩, #Hlev, HO, ⟨H0, H1, H2, H3, H4⟩, Hk⟩
  iapply (st_wait_send m K c 0 (credit_rows sM 0) 0 (recvOnly_zero c) _) $$ [HO H0]
  · isplitr; · iexact P0
    isplitr; · iexact Hlev
    isplitl [HO]; · iexact HO
    iexact H0
  iintro ⟨HO, H0⟩
  iapply (st_wait_send m K c 1 (credit_rows sM 1) 0 (recvOnly_zero c) _) $$ [HO H1]
  · isplitr; · iexact P1
    isplitr; · iexact Hlev
    isplitl [HO]; · iexact HO
    iexact H1
  iintro ⟨HO, H1⟩
  iapply (st_wait_send m K c 2 (credit_rows sM 2) 0 (recvOnly_zero c) _) $$ [HO H2]
  · isplitr; · iexact P2
    isplitr; · iexact Hlev
    isplitl [HO]; · iexact HO
    iexact H2
  iintro ⟨HO, H2⟩
  iapply (st_wait_send m K c 3 (credit_rows sM 3) 0 (recvOnly_zero c) _) $$ [HO H3]
  · isplitr; · iexact P3
    isplitr; · iexact Hlev
    isplitl [HO]; · iexact HO
    iexact H3
  iintro ⟨HO, H3⟩
  iapply (st_wait_send m K c 4 (credit_rows sM 4) 0 (recvOnly_zero c) _) $$ [HO H4]
  · isplitr; · iexact P4
    isplitr; · iexact Hlev
    isplitl [HO]; · iexact HO
    iexact H4
  iintro ⟨HO, H4⟩
  iapply Hk
  isplitl [HO]; · iexact HO
  isplitl [H0]; · iexact H0
  isplitl [H1]; · iexact H1
  isplitl [H2]; · iexact H2
  isplitl [H3]; · iexact H3
  iexact H4

/-! ## The second branch -/

/-- The thirteenth part of the second branch: the partner's rows of chunks 4 and 5 are awaited and added to the kept rows. -/
theorem part28_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 4 ∗ CP m K c 5) ∗ levAts L lv ∗ owes (c : Thread nD τ) 0 W
        ∗ (B2 m c 4 ∗ B2 m c 5)
        ∗ (∀ W' : Waits sig Unit, (owes (c : Thread nD τ) 0 W' ∗ B4 m c 4 ∗ B4 m c 5)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part28 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part28_eq_skeleton]; unfold Gen.k0_part28_skel
  simp only [Prog.lift, Prog.bind_op, Prog.bind_ret, Prog.pure_eq_ret]
  iintro ⟨⟨#P4, #P5⟩, #Hlev, HO, ⟨H4, H5⟩, Hk⟩
  iapply (st_wait_recv m K c 4 (credit_rows rM 4) _) $$ [HO H4]
  · isplitr; · iexact P4
    isplitl [HO]; · iexact HO
    iexact H4
  iintro ⟨HO, H4⟩
  iapply (st_load_o m c 4) $$ [H4]
  · iexact H4
  iintro H4
  iapply (st_load_r m c 4) $$ [H4]
  · iexact H4
  iintro H4
  iapply (st_load_o m c 4) $$ [H4]
  · iexact H4
  iintro H4
  iapply (st_store m c 4 (pay15_eq _ _)) $$ [H4]
  · iexact H4
  iintro H4
  iapply (st_wait_recv m K c 5 (credit_rows rM 5) _) $$ [HO H5]
  · isplitr; · iexact P5
    isplitl [HO]; · iexact HO
    iexact H5
  iintro ⟨HO, H5⟩
  iapply (st_load_o m c 5) $$ [H5]
  · iexact H5
  iintro H5
  iapply (st_load_r m c 5) $$ [H5]
  · iexact H5
  iintro H5
  iapply (st_load_o m c 5) $$ [H5]
  · iexact H5
  iintro H5
  iapply (st_store m c 5 (pay16_eq _ _)) $$ [H5]
  · iexact H5
  iintro H5
  iapply Hk
  isplitl [HO]; · iexact HO
  isplitl [H4]; · iexact H4
  iexact H5

/-- The fourteenth part of the second branch: the same for chunks 6 and 7. -/
theorem part29_run (K : GSem nD τ sig → ℕ) (c : Dev nD) (v5 v8 v9 : BitVec 32)
    (W : Waits sig Unit) {α : Type} {Q : α → sProp 𝕄} {k : PUnit → Prog (TpuEff nD τ sig (Elt F) Λ₀ .tc) α} :
    iprop((CP m K c 6 ∗ CP m K c 7) ∗ levAts L lv ∗ owes (c : Thread nD τ) 0 W
        ∗ (B2 m c 6 ∗ B2 m c 7)
        ∗ (∀ W' : Waits sig Unit, (owes (c : Thread nD τ) 0 W' ∗ B4 m c 6 ∗ B4 m c 7)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part29 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5 v5 v8 v9) >>= k) Q := by
  rw [Gen.k0_part29_eq_skeleton]; unfold Gen.k0_part29_skel
  simp only [Prog.lift, Prog.bind_op, Prog.bind_ret, Prog.pure_eq_ret]
  iintro ⟨⟨#P6, #P7⟩, #Hlev, HO, ⟨H6, H7⟩, Hk⟩
  iapply (st_wait_recv m K c 6 (credit_rows rM 6) _) $$ [HO H6]
  · isplitr; · iexact P6
    isplitl [HO]; · iexact HO
    iexact H6
  iintro ⟨HO, H6⟩
  iapply (st_load_o m c 6) $$ [H6]
  · iexact H6
  iintro H6
  iapply (st_load_r m c 6) $$ [H6]
  · iexact H6
  iintro H6
  iapply (st_load_o m c 6) $$ [H6]
  · iexact H6
  iintro H6
  iapply (st_store m c 6 (pay17_eq _ _)) $$ [H6]
  · iexact H6
  iintro H6
  iapply (st_wait_recv m K c 7 (credit_rows rM 7) _) $$ [HO H7]
  · isplitr; · iexact P7
    isplitl [HO]; · iexact HO
    iexact H7
  iintro ⟨HO, H7⟩
  iapply (st_load_o m c 7) $$ [H7]
  · iexact H7
  iintro H7
  iapply (st_load_r m c 7) $$ [H7]
  · iexact H7
  iintro H7
  iapply (st_load_o m c 7) $$ [H7]
  · iexact H7
  iintro H7
  iapply (st_store m c 7 (pay18_eq _ _)) $$ [H7]
  · iexact H7
  iintro H7
  iapply Hk
  isplitl [HO]; · iexact HO
  isplitl [H6]; · iexact H6
  iexact H7

/-- The fifteenth part of the second branch: the device's own transfers of chunks 0 to 4 have left. -/
theorem part30_run (K : GSem nD τ sig → ℕ) (c : Dev nD)
    (W : Waits sig Unit) {α : Type} {Q : α → sProp 𝕄} {k : PUnit → Prog (TpuEff nD τ sig (Elt F) Λ₀ .tc) α} :
    iprop((CP m K c 0 ∗ CP m K c 1 ∗ CP m K c 2 ∗ CP m K c 3 ∗ CP m K c 4) ∗ levAts L lv ∗ owes (c : Thread nD τ) 0 W
        ∗ (A3 m c 0 ∗ A3 m c 1 ∗ A3 m c 2 ∗ A3 m c 3 ∗ A3 m c 4)
        ∗ (∀ W' : Waits sig Unit, (owes (c : Thread nD τ) 0 W' ∗ A4 m c 0 ∗ A4 m c 1 ∗ A4 m c 2 ∗ A4 m c 3 ∗ A4 m c 4)
            -∗ wp frame (wpE (defs₀ (F := F)) 𝒱₀ (c : Thread nD τ) none) Set.univ (k ⟨⟩) Q))
      ⊢ wp frame (wpE (defs₀ (F := F)) 𝒱₀ (c : Thread nD τ) none) Set.univ
          ((k0_part30 (Memref.whole main_arg0) (Memref.isWhole_whole _) (Memref.whole cc0_stg0_0) (Memref.isWhole_whole _)
              (Memref.whole cc0_scratch0) (Memref.isWhole_whole _) (Memref.whole cc0_scratch1) (Memref.isWhole_whole _)
              cc0_scratch2 cc0_scratch3 cc0_scratch4 cc0_scratch5) >>= k) Q := by
  rw [Gen.k0_part30_eq_skeleton]; unfold Gen.k0_part30_skel
  simp only [Prog.lift, Prog.bind_op, Prog.bind_ret, Prog.pure_eq_ret]
  iintro ⟨⟨#P0, #P1, #P2, #P3, #P4⟩, #Hlev, HO, ⟨H0, H1, H2, H3, H4⟩, Hk⟩
  iapply (st_wait_send m K c 0 (credit_rows sM 0) 0 (recvOnly_zero c) _) $$ [HO H0]
  · isplitr; · iexact P0
    isplitr; · iexact Hlev
    isplitl [HO]; · iexact HO
    iexact H0
  iintro ⟨HO, H0⟩
  iapply (st_wait_send m K c 1 (credit_rows sM 1) 0 (recvOnly_zero c) _) $$ [HO H1]
  · isplitr; · iexact P1
    isplitr; · iexact Hlev
    isplitl [HO]; · iexact HO
    iexact H1
  iintro ⟨HO, H1⟩
  iapply (st_wait_send m K c 2 (credit_rows sM 2) 0 (recvOnly_zero c) _) $$ [HO H2]
  · isplitr; · iexact P2
    isplitr; · iexact Hlev
    isplitl [HO]; · iexact HO
    iexact H2
  iintro ⟨HO, H2⟩
  iapply (st_wait_send m K c 3 (credit_rows sM 3) 0 (recvOnly_zero c) _) $$ [HO H3]
  · isplitr; · iexact P3
    isplitr; · iexact Hlev
    isplitl [HO]; · iexact HO
    iexact H3
  iintro ⟨HO, H3⟩
  iapply (st_wait_send m K c 4 (credit_rows sM 4) 0 (recvOnly_zero c) _) $$ [HO H4]
  · isplitr; · iexact P4
    isplitr; · iexact Hlev
    isplitl [HO]; · iexact HO
    iexact H4
  iintro ⟨HO, H4⟩
  iapply Hk
  isplitl [HO]; · iexact HO
  isplitl [H0]; · iexact H0
  isplitl [H1]; · iexact H1
  isplitl [H2]; · iexact H2
  isplitl [H3]; · iexact H3
  iexact H4

/-- info: 'Cert.KernelIdeal.RS.part13_run' depends on axioms: [propext, Classical.choice, Quot.sound] -/
#guard_msgs in #print axioms part13_run

/-- info: 'Cert.KernelIdeal.RS.part14_run' depends on axioms: [propext, Classical.choice, Quot.sound] -/
#guard_msgs in #print axioms part14_run

/-- info: 'Cert.KernelIdeal.RS.part15_run' depends on axioms: [propext, Classical.choice, Quot.sound] -/
#guard_msgs in #print axioms part15_run

/-- info: 'Cert.KernelIdeal.RS.part28_run' depends on axioms: [propext, Classical.choice, Quot.sound] -/
#guard_msgs in #print axioms part28_run

/-- info: 'Cert.KernelIdeal.RS.part29_run' depends on axioms: [propext, Classical.choice, Quot.sound] -/
#guard_msgs in #print axioms part29_run

/-- info: 'Cert.KernelIdeal.RS.part30_run' depends on axioms: [propext, Classical.choice, Quot.sound] -/
#guard_msgs in #print axioms part30_run

end Cert.KernelIdeal.RS

end
-- ==== Proof.KernelIdeal.Body.lean ====
/-
  One device's body, from what it starts with to what it leaves.
  The device signals its partner's barrier cell and waits on its own; cuts its block into sixteen chunks and its three
  buffers into eight; issues the eight staging and the eight keeping copies; for each chunk waits for its staging copy
  and sends it to its partner; waits for the keeping copies; for each chunk waits for its partner's transfer, adds the
  received rows to the kept rows; waits for its own transfers to have left; and joins the chunks again.
-/
import proofs.«901041_g7700000000001042_dist_rs_v7x_xyz2x4x4_x_m4096_n1024_f32_1_alg».proof.Proof.KernelIdeal.Proto
import proofs.«901041_g7700000000001042_dist_rs_v7x_xyz2x4x4_x_m4096_n1024_f32_1_alg».proof.Proof.KernelIdeal.Landing
import proofs.«901041_g7700000000001042_dist_rs_v7x_xyz2x4x4_x_m4096_n1024_f32_1_alg».proof.Proof.KernelIdeal.Levels
import proofs.«901041_g7700000000001042_dist_rs_v7x_xyz2x4x4_x_m4096_n1024_f32_1_alg».proof.Proof.KernelIdeal.Steps
import proofs.«901041_g7700000000001042_dist_rs_v7x_xyz2x4x4_x_m4096_n1024_f32_1_alg».proof.Proof.KernelIdeal.States
import proofs.«901041_g7700000000001042_dist_rs_v7x_xyz2x4x4_x_m4096_n1024_f32_1_alg».proof.Proof.KernelIdeal.Exit
import proofs.«901041_g7700000000001042_dist_rs_v7x_xyz2x4x4_x_m4096_n1024_f32_1_alg».proof.Proof.KernelIdeal.PartsA
import proofs.«901041_g7700000000001042_dist_rs_v7x_xyz2x4x4_x_m4096_n1024_f32_1_alg».proof.Proof.KernelIdeal.PartsB
import proofs.«901041_g7700000000001042_dist_rs_v7x_xyz2x4x4_x_m4096_n1024_f32_1_alg».proof.Proof.KernelIdeal.PartsC
import proofs.«901041_g7700000000001042_dist_rs_v7x_xyz2x4x4_x_m4096_n1024_f32_1_alg».proof.Proof.KernelIdeal.PartsD
import proofs.«901041_g7700000000001042_dist_rs_v7x_xyz2x4x4_x_m4096_n1024_f32_1_alg».proof.Proof.KernelIdeal.PartsE
import proofs.«901041_g7700000000001042_dist_rs_v7x_xyz2x4x4_x_m4096_n1024_f32_1_alg».proof.Proof.Gen.KernelIdeal.Skeleton

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body starts from: the invariant before the point, what is owed, and the result's staging buffer. -/
def bodyPre (c : Dev nD) : sProp 𝕄 :=
  iprop(Φ₀ m c ∗ (dats (F := F) m ρ 0 c).owesAt () t₀.castSucc
    ∗ (∃ d, owns (c : Thread nD τ) (oM : Memref sig .tc .vmem S4096x1024 .f32) fullShare ((dats (F := F) m ρ 0 c).before (0 : Fin 1) t₀ d)))

/-- What it leaves: the invariant after the point, nothing owed, the staging buffer at the sum. -/
def bodyPost (c : Dev nD) : sProp 𝕄 :=
  iprop(Φ₁ m c ∗ (dats (F := F) m ρ 0 c).owesAt () t₀.succ
    ∗ owns (c : Thread nD τ) (oM : Memref sig .tc .vmem S4096x1024 .f32) fullShare (sumFull m c))

/-- A whole buffer held outright, as the elements of its whole memref. -/
theorem pointsTo_whole (c : Dev nD) (b : Ref sig .tc) (f : Buf (Elt F) ((c : Thread nD τ).loc b)) :
    ((c : Thread nD τ).loc b ↦{fullShare} f : sProp 𝕄)
      = ((Memref.whole b).view.loc (c : Thread nD τ) ↦[(Memref.whole b).view.set]{fullShare} f) := by
  simp only [Memref.view_whole, View.set_whole] <;> rfl

/-- The chunks of a buffer held at one contents are chunks held at some contents. -/
theorem piece_ex {sp : Space} (c : Dev nD) (M : Memref sig .tc sp S4096x1024 .f32) (i : Fin 8) (f : Buf (Elt F) (M.view.loc (c : Thread nD τ))) :
    piece (F := F) c M i f ⊢ iprop(∃ g, piece (F := F) c M i g) := by
  iintro H; iexists f; iexact H
theorem pieces_ex {sp : Space} (c : Dev nD) (M : Memref sig .tc sp S4096x1024 .f32) (f : Buf (Elt F) (M.view.loc (c : Thread nD τ))) :
    (bigSep Finset.univ fun i : Fin 8 => piece (F := F) c M i f) ⊢ bigSep Finset.univ fun i : Fin 8 => iprop(∃ g, piece (F := F) c M i g) :=
  bigSep_mono fun i _ => piece_ex c M i f

/-- The block of the array cut into the chunks of the half a device sends and those of the half it keeps. -/
theorem x_halves (c : Dev nD) :
    (xWhole m c : sProp 𝕄) ⊢ iprop((bigSep Finset.univ fun i : Fin 8 => xpiece m c (sdH c) i) ∗ (bigSep Finset.univ fun i : Fin 8 => xpiece m c (kpH c) i)) := by
  refine (split_x m c).1.trans ?_
  rw [bigSep_univ_prod, bigSep_univ_two]
  dsimp only
  rcases (by decide : ∀ c : Dev nD, (sdH c = 1 ∧ kpH c = 0) ∨ (sdH c = 0 ∧ kpH c = 1)) c with ⟨h1, h2⟩ | ⟨h1, h2⟩
  · rw [h1, h2]; exact sep_comm.1
  · rw [h1, h2]

/-- What the partner's barrier signal hands over, spelt out. -/
theorem barPay_def (c : Dev nD) :
    barPay (F := F) c = iprop((∃ f, (rM : Memref sig .tc .vmem S4096x1024 .f32).view.loc (peer c : Thread nD τ) ↦[(rM : Memref sig .tc .vmem S4096x1024 .f32).view.set]{fullShare} f)
      ∗ bigSep Finset.univ fun i : Fin 8 => reached ER (recvCell (peer c) i) 0) := rfl

/-- A finished program's postcondition, under the update it may still make. -/
theorem wp_ret_of (c : Dev nD) (Kt : PUnit → sProp 𝕄) :
    iprop(|={Set.univ}[frame]=> Kt ⟨⟩) ⊢ wp frame (wpE (defs₀ (F := F)) 𝒱₀ (c : Thread nD τ) none) Set.univ (Prog.ret PUnit.unit) Kt := by
  rw [wp_ret]

/-- What the body leaves, assembled: nothing owed, the block as launched, the own semaphores at zero, the scratch buffers,
    and the result's staging buffer at the sum. -/
theorem post_intro (c : Dev nD) (W : Waits sig Unit) :
    iprop(owes (c : Thread nD τ) 0 W ∗ xWhole m c
        ∗ Pipeline.ownSems0 (Ix := Unit) (Name := ℕ) (U := UU) (Lvl := ℕ) (Val := Elt F) (τ := τ) osem c ∗ scratches c
        ∗ owns (c : Thread nD τ) (oM : Memref sig .tc .vmem S4096x1024 .f32) fullShare (sumFull m c))
      ⊢ bodyPost m ρ c := by
  unfold bodyPost Φ₁
  iintro ⟨HO, Hx, Hsem, Hscr, Hout⟩
  isplitl [Hx Hsem Hscr]; · iframe
  isplitl [HO]
  · iexists W
    isplitr; · ipureintro; exact fun _ _ => Or.inl trivial
    iexact HO
  iexact Hout

set_option maxHeartbeats 1600000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [Gen.cc0_body_eq_skeleton]; unfold Gen.cc0_body_skel
  simp only [semSignalWord, semWaitWord, Prog.lift, Prog.bind_op, Prog.bind_ret, Prog.pure_eq_ret, wp_deviceId]
  unfold bodyPre Φ₀ start scratches ghost invs payToks own33 owns
  beta_reduce
  iintro ⟨⟨⟨⟨⟨⟨%K, ⟨⟨#IB, #IS, #IK, #ID, #IR⟩, ⟨#JB, #JS, #JK, #JD, #JR⟩⟩, ⟨aB, aS, aK, aD, aR⟩, ⟨#rB, #rS, #rK, #rD, #rR⟩, ⟨#qB, #qS, #qK, #qD, #qR⟩, tB, tR, tS, tK, tD⟩,
    HcB, HcR, #Hlev⟩, Hx⟩, ⟨⟨%fr, Hr⟩, ⟨%fs, Hs⟩⟩⟩, Ho, ⟨%d, %fo, %hfo, Hout⟩⟩, Hk⟩
  icases Ho with ⟨%W, %hW, HO⟩
  -- the signal to the partner's barrier cell hands over this device's receive buffer
  ihave Hr' := (Entails.of_eq (pointsTo_whole c cc0_scratch0 fr)) $$ Hr
  iapply (wp_signal_peer m c _ (dev1_eq c) (K (barCell (peer c))) (OR0 c) rfl) $$ [HO tB Hr']
  · isplitr; · iexact JB
    isplitl [HO]; · iexact HO
    isplitl [tB]; · iexact tB
    isplitl [Hr']
    · isplitl [Hr']
      · iexists fr; iexact Hr'
      · iexact rR
    iexact qB
  iintro HO
  -- the wait on one's own barrier cell brings the partner's receive buffer
  iapply (wp_wait_bar m c (K (barCell c)) (OR0 c) _) $$ [HcB HO aB]
  · isplitr; · iexact IB
    isplitl [HcB]; · iexact HcB
    isplitl [HO]; · iexact HO
    isplitr; · iapply (mayWait_bar c (OR0 c) (recvOnly_OR0 c)); iexact Hlev
    iexact aB
  iintro ⟨HO, aB, Hbp⟩
  ihave Hbp' := (Entails.of_eq (barPay_def c)) $$ Hbp
  icases Hbp' with ⟨⟨%fn, HrP⟩, -⟩
  -- the three buffers and the block, cut into chunks, and the state regrouped chunk by chunk
  ihave HrP' := ((split_rows (peer c) rM (Memref.isWhole_whole _) fn).1.trans (pieces_ex (peer c) rM fn)) $$ HrP
  ihave Hs' := ((Entails.of_eq (pointsTo_whole c cc0_scratch1 fs)).trans ((split_rows c sM (Memref.isWhole_whole _) fs).1.trans (pieces_ex c sM fs))) $$ Hs
  ihave Ho' := ((split_rows c oM (Memref.isWhole_whole _) fo).1.trans (pieces_ex c oM fo)) $$ Hout
  ihave Hx' := (x_halves m c) $$ Hx
  icases Hx' with ⟨Hxs, Hxk⟩
  ihave HA := ((mk_A0 m c).trans (Entails.of_eq (univ8 _))) $$ [aS aD tS tD tR Hs' HrP' Hxs]
  · iframe
  ihave HB := ((mk_B0 m c).trans (Entails.of_eq (univ8 _))) $$ [aK aR tK HcR Ho' Hxk]
  · iframe
  ihave HP := ((mk_CP m K c).trans (Entails.of_eq (univ8 _))) $$ []
  · iframe # ∗
  icases HA with ⟨HA0, HA1, HA2, HA3, HA4, HA5, HA6, HA7⟩
  icases HB with ⟨HB0, HB1, HB2, HB3, HB4, HB5, HB6, HB7⟩
  icases HP with ⟨#P0, #P1, #P2, #P3, #P4, #P5, #P6, #P7⟩

  by_cases hc : c.val < 16
  · have h1 : k0_cond1 c = 1#1 := (cond1_iff c).2 hc
    have h2 : ¬ (k0_cond2 c = 1#1) := fun h => absurd ((cond2_iff c).1 h) (by omega)
    have hs : (1 : Fin 2) = sdH c := Fin.ext (by show (1 : ℕ) = 1 - c.val / 16; omega)
    have hk : (0 : Fin 2) = kpH c := Fin.ext (by show (0 : ℕ) = c.val / 16; omega)
    simp only [h1, h2, ↓reduceDIte]
    -- the eight staging copies and the eight keeping copies are issued
    iapply (part1_run m K c hs)
    isplitr; · iframe #
    isplitl [HA0 HA1 HA2 HA3 HA4]; · iframe
    iintro ⟨HA0, HA1, HA2, HA3, HA4⟩
    iapply (part2_run m K c hs hk)
    isplitr; · iframe #
    isplitl [HA5 HA6 HA7 HB0 HB1]; · iframe
    iintro ⟨HA5, HA6, HA7, HB0, HB1⟩
    iapply (part3_run m K c hk)
    isplitr; · iframe #
    isplitl [HB2 HB3 HB4 HB5 HB6]; · iframe
    iintro ⟨HB2, HB3, HB4, HB5, HB6⟩
    -- each chunk's staging copy is awaited and the chunk sent to the partner
    iapply (part4_run m K c hk _ _ _ h1 _)
    isplitr; · iframe #
    isplitr; · iexact Hlev
    isplitl [HO]; · iexact HO
    isplitl [HA0 HA1 HB7]; · iframe
    iintro %W1 ⟨HO, HA0, HA1, HB7⟩
    iapply (part5_run m K c _ _ _ h1 _)
    isplitr; · iframe #
    isplitr; · iexact Hlev
    isplitl [HO]; · iexact HO
    isplitl [HA1 HA2]; · iframe
    iintro %W2 ⟨HO, HA1, HA2⟩
    iapply (part6_run m K c _ _ _ h1 _)
    isplitr; · iframe #
    isplitr; · iexact Hlev
    isplitl [HO]; · iexact HO
    isplitl [HA3 HA4]; · iframe
    iintro %W3 ⟨HO, HA3, HA4⟩
    iapply (part7_run m K c _ _ _ h1 _)
    isplitr; · iframe #
    isplitr; · iexact Hlev
    isplitl [HO]; · iexact HO
    isplitl [HA4 HA5 HA6]; · iframe
    iintro %W4 %r7 ⟨HO, HA4, HA5, HA6⟩
    iapply (part8_run m K c _ _ _ h1 _ _)
    isplitr; · iframe #
    isplitr; · iexact Hlev
    isplitl [HO]; · iexact HO
    isplitl [HA6 HA7]; · iframe
    iintro %W5 ⟨HO, HA6, HA7⟩
    -- the keeping copies are awaited; chunk by chunk the partner's rows are awaited, added to the kept rows and stored
    iapply (part9_run m K c _)
    isplitr; · iframe #
    isplitr; · iexact Hlev
    isplitl [HO]; · iexact HO
    isplitl [HB0 HB1 HB2 HB3 HB4]; · iframe
    iintro %W6 ⟨HO, HB0, HB1, HB2, HB3, HB4⟩
    iapply (part10_run m K c _ _ _ _)
    isplitr; · iframe #
    isplitr; · iexact Hlev
    isplitl [HO]; · iexact HO
    isplitl [HB0 HB5 HB6 HB7]; · iframe
    iintro %W7 ⟨HO, HB0, HB5, HB6, HB7⟩
    iapply (part11_run m K c _ _ _ _ rfl _)
    isplitr; · iframe #
    isplitr; · iexact Hlev
    isplitl [HO]; · iexact HO
    isplitl [HB0 HB1 HB2]; · iframe
    iintro %W8 ⟨HO, HB0, HB1, HB2⟩
    iapply (part12_run m K c _ _ _ _ (fun w => addf_cast _ w _) _)
    isplitr; · iframe #
    isplitr; · iexact Hlev
    isplitl [HO]; · iexact HO
    isplitl [HB2 HB3]; · iframe
    iintro %W9 ⟨HO, HB2, HB3⟩
    iapply (part13_run m K c _ _ _ _)
    isplitr; · iframe #
    isplitr; · iexact Hlev
    isplitl [HO]; · iexact HO
    isplitl [HB4 HB5]; · iframe
    iintro %W10 ⟨HO, HB4, HB5⟩
    iapply (part14_run m K c _ _ _ _)
    isplitr; · iframe #
    isplitr; · iexact Hlev
    isplitl [HO]; · iexact HO
    isplitl [HB6 HB7]; · iframe
    iintro %W11 ⟨HO, HB6, HB7⟩
    -- one's own transfers are awaited: the first five in the last part, the last three after it
    iapply (part15_run m K c _)
    isplitr; · iframe #
    isplitr; · iexact Hlev
    isplitl [HO]; · iexact HO
    isplitl [HA0 HA1 HA2 HA3 HA4]; · iframe
    iintro %W12 ⟨HO, HA0, HA1, HA2, HA3, HA4⟩
    iapply (st_wait_send m K c 5 (credit_rows sM 5) 0 (recvOnly_zero c) _) $$ [HO HA5]
    · isplitr; · iexact P5
      isplitr; · iexact Hlev
      isplitl [HO]; · iexact HO
      iexact HA5
    iintro ⟨HO, HA5⟩
    iapply (st_wait_send m K c 6 (credit_rows sM 6) 0 (recvOnly_zero c) _) $$ [HO HA6]
    · isplitr; · iexact P6
      isplitr; · iexact Hlev
      isplitl [HO]; · iexact HO
      iexact HA6
    iintro ⟨HO, HA6⟩
    iapply (st_wait_send m K c 7 (credit_rows sM 7) 0 (recvOnly_zero c) _) $$ [HO HA7]
    · isplitr; · iexact P7
      isplitr; · iexact Hlev
      isplitl [HO]; · iexact HO
      iexact HA7
    iintro ⟨HO, HA7⟩
    -- the cells close, the chunks join again, and what the body leaves is handed over
    imod (exit_chunks8 m K c) $$ [HA0 HA1 HA2 HA3 HA4 HA5 HA6 HA7 HB0 HB1 HB2 HB3 HB4 HB5 HB6 HB7] with ⟨Hx, Hsem, Hscr, Hout⟩
    · isplitl [HA0 HA1 HA2 HA3 HA4 HA5 HA6 HA7]; · iframe
      isplitl [HB0 HB1 HB2 HB3 HB4 HB5 HB6 HB7]; · iframe
      iframe #
    iapply (wp_ret_of c Kt)
    imodintro
    iapply Hk
    iapply (post_intro m ρ c _)
    iframe
  · have h1 : ¬ (k0_cond1 c = 1#1) := fun h => hc ((cond1_iff c).1 h)
    have h2 : k0_cond2 c = 1#1 := (cond2_iff c).2 (by omega)
    have hs : (0 : Fin 2) = sdH c := Fin.ext (by show (0 : ℕ) = 1 - c.val / 16; have : c.val < 32 := c.isLt; omega)
    have hk : (1 : Fin 2) = kpH c := Fin.ext (by show (1 : ℕ) = c.val / 16; have : c.val < 32 := c.isLt; omega)
    simp only [h1, h2, ↓reduceDIte]
    -- the eight staging copies and the eight keeping copies are issued
    iapply (part16_run m K c hs)
    isplitr; · iframe #
    isplitl [HA0 HA1 HA2 HA3 HA4]; · iframe
    iintro ⟨HA0, HA1, HA2, HA3, HA4⟩
    iapply (part17_run m K c hs hk)
    isplitr; · iframe #
    isplitl [HA5 HA6 HA7 HB0 HB1]; · iframe
    iintro ⟨HA5, HA6, HA7, HB0, HB1⟩
    iapply (part18_run m K c hk)
    isplitr; · iframe #
    isplitl [HB2 HB3 HB4 HB5 HB6]; · iframe
    iintro ⟨HB2, HB3, HB4, HB5, HB6⟩
    -- each chunk's staging copy is awaited and the chunk sent to the partner
    iapply (part19_run m K c hk _ _ _ h2 _)
    isplitr; · iframe #
    isplitr; · iexact Hlev
    isplitl [HO]; · iexact HO
    isplitl [HA0 HA1 HB7]; · iframe
    iintro %W1 ⟨HO, HA0, HA1, HB7⟩
    iapply (part20_run m K c _ _ _ h2 _)
    isplitr; · iframe #
    isplitr; · iexact Hlev
    isplitl [HO]; · iexact HO
    isplitl [HA1 HA2]; · iframe
    iintro %W2 ⟨HO, HA1, HA2⟩
    iapply (part21_run m K c _ _ _ h2 _)
    isplitr; · iframe #
    isplitr; · iexact Hlev
    isplitl [HO]; · iexact HO
    isplitl [HA3 HA4]; · iframe
    iintro %W3 ⟨HO, HA3, HA4⟩
    iapply (part22_run m K c _ _ _ h2 _)
    isplitr; · iframe #
    isplitr; · iexact Hlev
    isplitl [HO]; · iexact HO
    isplitl [HA4 HA5 HA6]; · iframe
    iintro %W4 %r7 ⟨HO, HA4, HA5, HA6⟩
    iapply (part23_run m K c _ _ _ h2 _ _)
    isplitr; · iframe #
    isplitr; · iexact Hlev
    isplitl [HO]; · iexact HO
    isplitl [HA6 HA7]; · iframe
    iintro %W5 ⟨HO, HA6, HA7⟩
    -- the keeping copies are awaited; chunk by chunk the partner's rows are awaited, added to the kept rows and stored
    iapply (part24_run m K c _)
    isplitr; · iframe #
    isplitr; · iexact Hlev
    isplitl [HO]; · iexact HO
    isplitl [HB0 HB1 HB2 HB3 HB4]; · iframe
    iintro %W6 ⟨HO, HB0, HB1, HB2, HB3, HB4⟩
    iapply (part25_run m K c _ _ _ _)
    isplitr; · iframe #
    isplitr; · iexact Hlev
    isplitl [HO]; · iexact HO
    isplitl [HB0 HB5 HB6 HB7]; · iframe
    iintro %W7 ⟨HO, HB0, HB5, HB6, HB7⟩
    iapply (part26_run m K c _ _ _ _ rfl _)
    isplitr; · iframe #
    isplitr; · iexact Hlev
    isplitl [HO]; · iexact HO
    isplitl [HB0 HB1 HB2]; · iframe
    iintro %W8 ⟨HO, HB0, HB1, HB2⟩
    iapply (part27_run m K c _ _ _ _ (fun w => addf_cast _ w _) _)
    isplitr; · iframe #
    isplitr; · iexact Hlev
    isplitl [HO]; · iexact HO
    isplitl [HB2 HB3]; · iframe
    iintro %W9 ⟨HO, HB2, HB3⟩
    iapply (part28_run m K c _ _ _ _)
    isplitr; · iframe #
    isplitr; · iexact Hlev
    isplitl [HO]; · iexact HO
    isplitl [HB4 HB5]; · iframe
    iintro %W10 ⟨HO, HB4, HB5⟩
    iapply (part29_run m K c _ _ _ _)
    isplitr; · iframe #
    isplitr; · iexact Hlev
    isplitl [HO]; · iexact HO
    isplitl [HB6 HB7]; · iframe
    iintro %W11 ⟨HO, HB6, HB7⟩
    -- one's own transfers are awaited: the first five in the last part, the last three after it
    iapply (part30_run m K c _)
    isplitr; · iframe #
    isplitr; · iexact Hlev
    isplitl [HO]; · iexact HO
    isplitl [HA0 HA1 HA2 HA3 HA4]; · iframe
    iintro %W12 ⟨HO, HA0, HA1, HA2, HA3, HA4⟩
    iapply (st_wait_send m K c 5 (credit_rows sM 5) 0 (recvOnly_zero c) _) $$ [HO HA5]
    · isplitr; · iexact P5
      isplitr; · iexact Hlev
      isplitl [HO]; · iexact HO
      iexact HA5
    iintro ⟨HO, HA5⟩
    iapply (st_wait_send m K c 6 (credit_rows sM 6) 0 (recvOnly_zero c) _) $$ [HO HA6]
    · isplitr; · iexact P6
      isplitr; · iexact Hlev
      isplitl [HO]; · iexact HO
      iexact HA6
    iintro ⟨HO, HA6⟩
    iapply (st_wait_send m K c 7 (credit_rows sM 7) 0 (recvOnly_zero c) _) $$ [HO HA7]
    · isplitr; · iexact P7
      isplitr; · iexact Hlev
      isplitl [HO]; · iexact HO
      iexact HA7
    iintro ⟨HO, HA7⟩
    -- the cells close, the chunks join again, and what the body leaves is handed over
    imod (exit_chunks8 m K c) $$ [HA0 HA1 HA2 HA3 HA4 HA5 HA6 HA7 HB0 HB1 HB2 HB3 HB4 HB5 HB6 HB7] with ⟨Hx, Hsem, Hscr, Hout⟩
    · isplitl [HA0 HA1 HA2 HA3 HA4 HA5 HA6 HA7]; · iframe
      isplitl [HB0 HB1 HB2 HB3 HB4 HB5 HB6 HB7]; · iframe
      iframe #
    iapply (wp_ret_of c Kt)
    imodintro
    iapply Hk
    iapply (post_intro m ρ c _)
    iframe

set_option maxRecDepth 4000 in
/-- The library's body obligation on device c. -/
theorem body_obligation (c : Dev nD) : BodyObligation (dats (F := F) m ρ 0 c) (defs₀ (F := F)) 𝒱₀ () Set.univ := fun t => by
  rw [fin_N t]
  rw [Gen.bigSep_W0, Gen.bigSep_W0]
  show bodyPre m ρ c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  iintro H
  iapply (sound_body m ρ c fun _ => bodyPost m ρ c)
  isplitl [H]
  · iexact H
  · iintro H; iexact H

/-- info: 'Cert.KernelIdeal.RS.body_obligation' depends on axioms: [propext, Classical.choice, Quot.sound] -/
#guard_msgs in #print axioms body_obligation

end Cert.KernelIdeal.RS

end
-- ==== Proof.KernelIdeal.Run.lean ====
/-
  The run of the whole program on the thirty-two devices: the launch applied to every device's body.
-/
import proofs.«901041_g7700000000001042_dist_rs_v7x_xyz2x4x4_x_m4096_n1024_f32_1_alg».proof.Proof.KernelIdeal.Launch
import proofs.«901041_g7700000000001042_dist_rs_v7x_xyz2x4x4_x_m4096_n1024_f32_1_alg».proof.Proof.KernelIdeal.Body

set_option maxRecDepth 16384

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every weakly fair execution terminates; each device's result array ends at its kept half plus its partner's sent
    half, and its block of the array as launched. -/
theorem run_main : θ_run defs (onTc (τ := τ) (main (F := F))) (s₀ m ρ) (QC m) :=
  run_main_of m ρ (body_obligation m ρ)

end Cert.KernelIdeal.RS

end
-- ==== Proof.Value.lean ====
/-
  Each device's result is its block of the reference's.
  The reference sums the whole array [2, 4096, 2048] over its first axis, from zero: entry (r, k) of its result is
  0 + X'(0, r, k) + X'(1, r, k). Device c holds block x(c) of the array along that axis, x(c) = c / 16, and its partner
  the other block; it ends with its kept half plus its partner's sent half, both columns [1024 x(c), 1024 x(c) + 1024):
  entry (r, k) is X'(x(c), r, k + 1024 x(c)) + X'(1 − x(c), r, k + 1024 x(c)), which is entry (r, k) of block x(c) of the
  reference's result along its second axis, addition of extended reals being commutative and zero its unit.
-/
import proofs.«901041_g7700000000001042_dist_rs_v7x_xyz2x4x4_x_m4096_n1024_f32_1_alg».proof.Defs
import proofs.«901041_g7700000000001042_dist_rs_v7x_xyz2x4x4_x_m4096_n1024_f32_1_alg».proof.Proof.KernelIdeal.Proto
import proofs.«901041_g7700000000001042_dist_rs_v7x_xyz2x4x4_x_m4096_n1024_f32_1_alg».proof.Proof.Gen.ReferenceIdeal.Run
import proofs.«901041_g7700000000001042_dist_rs_v7x_xyz2x4x4_x_m4096_n1024_f32_1_alg».proof.Proof.Gen.ReferenceIdeal.Read
import Idealize.ShloMosaic.Lib.Layout
import Idealize.ShloMosaic.Lib.ValueIdx

set_option maxRecDepth 16384

noncomputable section

namespace Cert.Proof.RSValue

open Idealize.ShloMosaic Idealize.ShloMosaic.TcCoe Idealize.SL.Sem

open Cert.KernelIdeal Cert.KernelIdeal.RS Idealize.ShloMosaic.ValueIdx

/-! ## Where the devices sit on the mesh

  On the mesh [2, 4, 4], numbered row-major, device c has coordinate c / 16 on the first axis. A dimension cut by that
  axis alone gives device c block c / 16; a dimension that is not cut gives it block 0. The partner's coordinate is the
  other one. -/

theorem in_blk0 (c : Dev nD) : ((Layout.meshBlock [2, 4, 4] ![[0], [], []] c) 0).val = c.val / 16 := by revert c; decide
theorem in_blk1 (c : Dev nD) : ((Layout.meshBlock [2, 4, 4] ![[0], [], []] c) 1).val = 0 := rfl
theorem in_blk2 (c : Dev nD) : ((Layout.meshBlock [2, 4, 4] ![[0], [], []] c) 2).val = 0 := rfl
theorem out_blk0 (c : Dev nD) : ((Layout.meshBlock [2, 4, 4] ![[], [0]] c) 0).val = 0 := rfl
theorem out_blk1 (c : Dev nD) : ((Layout.meshBlock [2, 4, 4] ![[], [0]] c) 1).val = c.val / 16 := by revert c; decide

theorem peer_div (c : Dev nD) : (peer c).val / 16 = 1 - c.val / 16 := by revert c; decide

/-- A device keeps half 0 and sends half 1, or the other way round. -/
theorem kp_sd (c : Dev nD) : (kpH c = 0 ∧ sdH c = 1) ∨ (kpH c = 1 ∧ sdH c = 0) := by revert c; decide

/-! ## Both sides at an index of the whole array -/

/-- The index (e, r, l + 1024 k) of the whole array, for (r, l) an index of a 4096 × 1024 half. -/
def pt (e k : Fin 2) (j : S4096x1024.Idx) : Cert.ReferenceIdeal.S2x4096x2048.Idx :=
  ix3 e (j 0) (⟨(j 1).val + 1024 * k.val, by have := idx2_lt1 j; have := k.isLt; omega⟩ : Fin 2048)

/-- Column half k of the block of a device with first coordinate e, at (r, l): the whole array at (e, r, l + 1024 k). -/
theorem halfOf_block (X' : Cert.ReferenceIdeal.S2x4096x2048.Idx → EReal) (d : Dev nD) (k e : Fin 2) (he : d.val / 16 = e.val)
    (j : S4096x1024.Idx) (hT) :
    halfOf (F := Ideal) k (Layout.blockN ⟨3, ![1, 4096, 2048]⟩ ⟨3, ![2, 4096, 2048]⟩ (Layout.meshBlock [2, 4, 4] ![[0], [], []] d) X' hT) j
      = X' (pt e k j) := by
  unfold halfOf
  rw [Layout.blockN_apply]
  refine congrArg X' (funext fun a => ?_)
  match a with
  | ⟨0, _⟩ =>
    exact Fin.ext (show ((Layout.meshBlock [2, 4, 4] ![[0], [], []] d) 0).val * 1 + 0 = e.val by
      have := in_blk0 d; omega)
  | ⟨1, _⟩ =>
    exact Fin.ext (show ((Layout.meshBlock [2, 4, 4] ![[0], [], []] d) 1).val * 4096 + (j 0).val = (j 0).val by
      have := in_blk1 d; omega)
  | ⟨2, _⟩ =>
    exact Fin.ext (show ((Layout.meshBlock [2, 4, 4] ![[0], [], []] d) 2).val * 2048 + ((j 1).val + 1024 * k.val)
        = (j 1).val + 1024 * k.val by
      have := in_blk2 d; omega)

/-- Layer e of the whole array under the index (r, l) of block k = c / 16 of the columns: the index (e, r, l + 1024 k). -/
theorem idx_pt (c : Dev nD) (k : Fin 2) (hk : c.val / 16 = k.val) (j : S4096x1024.Idx)
    (hT : Layout.TilesN ⟨2, ![4096, 1024]⟩ ⟨2, ![4096, 2048]⟩ fun b => Layout.cutSize [2, 4, 4] ((![[], [0]] : Fin 2 → List Nat) b)) (e : Fin 2) :
    Cert.ReferenceIdeal.Read.idx_main_v0 (hT.idx (Layout.meshBlock [2, 4, 4] ![[], [0]] c) j) e = pt e k j := by
  funext a
  match a with
  | ⟨0, _⟩ => rfl
  | ⟨1, _⟩ =>
    exact Fin.ext (show ((Layout.meshBlock [2, 4, 4] ![[], [0]] c) 0).val * 4096 + (j 0).val = (j 0).val by
      have := out_blk0 c; omega)
  | ⟨2, _⟩ =>
    exact Fin.ext (show ((Layout.meshBlock [2, 4, 4] ![[], [0]] c) 1).val * 1024 + (j 1).val = (j 1).val + 1024 * k.val by
      have := out_blk1 c; omega)

/-- Block k = c / 16 of the reference's sum along its columns, at (r, l): the two layers of the whole array at
    (r, l + 1024 k), added from zero. -/
theorem ref_block (X' : Cert.ReferenceIdeal.S2x4096x2048.Idx → EReal) (c : Dev nD) (k : Fin 2) (hk : c.val / 16 = k.val)
    (j : S4096x1024.Idx) (hT) :
    (Layout.blockN ⟨2, ![4096, 1024]⟩ ⟨2, ![4096, 2048]⟩ (Layout.meshBlock [2, 4, 4] ![[], [0]] c)
        (Cert.ReferenceIdeal.Read.val_main_v0 (F := Ideal) X') hT) j
      = X' (pt 0 k j) + X' (pt 1 k j) := by
  rw [Layout.blockN_apply, Cert.ReferenceIdeal.Read.val_main_v0_apply, Fin.sum_univ_two,
    Cert.ReferenceIdeal.Read.val_main_cst_apply]
  rw [idx_pt c k hk j hT 0, idx_pt c k hk j hT 1]
  rw [show (FloatOps.ofBits FTy.f32 0x00000000#32 : Ideal .f32) = (0 : EReal) from Ideal.ofBits_zero_f32, zero_add]

/-- Device `c`'s sum is block `c` (along the second axis, by the mesh's first axis) of the reference's sum of the whole
    array, when every device's block of the array is its block (along the first axis) of the whole array. -/
theorem sumFull_block
    (m : (ℓ : Loc Cert.KernelIdeal.nD Cert.KernelIdeal.τ Cert.KernelIdeal.sig) → Buf (Elt Ideal) ℓ)
    (X' : Buf (Elt Ideal) (((0 : Dev Cert.ReferenceIdeal.nD).tc : Thread Cert.ReferenceIdeal.nD Cert.ReferenceIdeal.τ).loc Cert.ReferenceIdeal.main_arg0))
    (hblk : ∀ c : Dev Cert.KernelIdeal.nD,
      m ((c.tc : Thread Cert.KernelIdeal.nD Cert.KernelIdeal.τ).loc Cert.KernelIdeal.main_arg0)
        = Layout.blockN ⟨3, ![1, 4096, 2048]⟩ ⟨3, ![2, 4096, 2048]⟩ (Layout.meshBlock [2, 4, 4] ![[0], [], []] c) X')
    (c : Dev Cert.KernelIdeal.nD) :
    (Cert.KernelIdeal.RS.sumFull (F := Ideal) m c : Buf (Elt Ideal) ((c.tc : Thread Cert.KernelIdeal.nD Cert.KernelIdeal.τ).loc Cert.KernelIdeal.main_v1))
      = Layout.blockN ⟨2, ![4096, 1024]⟩ ⟨2, ![4096, 2048]⟩ (Layout.meshBlock [2, 4, 4] ![[], [0]] c)
          (Cert.ReferenceIdeal.Read.val_main_v0 (F := Ideal) X') := by
  funext j
  have h1 : keepFull (F := Ideal) m c j = X' (pt (kpH c) (kpH c) j) :=
    (congrArg (fun X => halfOf (F := Ideal) (kpH c) X j) (hblk c)).trans (halfOf_block X' c (kpH c) (kpH c) rfl j _)
  have h2 : recvFull (F := Ideal) m c j = X' (pt (sdH c) (kpH c) j) := by
    unfold recvFull; rw [sdH_peer]
    exact (congrArg (fun X => halfOf (F := Ideal) (kpH c) X j) (hblk (peer c))).trans
      (halfOf_block X' (peer c) (kpH c) (sdH c) (peer_div c) j _)
  have h3 := ref_block X' c (kpH c) rfl j (by decide)
  show FloatOps.addf (keepFull m c j) (recvFull m c j) = _
  rw [h1, h2]
  refine Eq.trans ?_ h3.symm
  rw [Ideal.addf_def]
  rcases kp_sd c with ⟨e1, e2⟩ | ⟨e1, e2⟩ <;> rw [e1, e2]
  exact add_comm (G := EReal) _ _

/-- info: 'Cert.Proof.RSValue.sumFull_block' depends on axioms: [propext, Classical.choice, Quot.sound] -/
#guard_msgs in #print axioms sumFull_block

end Cert.Proof.RSValue

end
-- ==== Proof.lean ====
/-
  The certificate of the reduce-scatter between partner devices on the 2 × 4 × 4 mesh.

  On each of the thirty-two devices the kernel keeps one column half of its block [1, 4096, 2048] of the array, sends
  the other half to the device with the other coordinate on the mesh's first axis, and adds what it receives from that
  device to what it kept; the reference sums the whole array [2, 4096, 2048] over its first axis. The run of the whole
  program (every weakly fair execution of all devices' threads terminates; each device's result array ends at its kept
  half plus its partner's sent half; its block of the array is untouched) is proved once, generic in the float
  instance: at the word level it gives the kernel's frame, at the extended reals the idealized kernel's frame and, with
  the block equation (a device's sum is its block, along the second axis, of the reference's sum, addition of extended
  reals being commutative with unit zero), the equivalence. The reference's frame is its run with the value dropped.
  The ideal pass rewrote nothing, so there is nothing to preserve.
-/
import proofs.«901041_g7700000000001042_dist_rs_v7x_xyz2x4x4_x_m4096_n1024_f32_1_alg».proof.Defs
import proofs.«901041_g7700000000001042_dist_rs_v7x_xyz2x4x4_x_m4096_n1024_f32_1_alg».proof.Proof.Gen.Kernel
import proofs.«901041_g7700000000001042_dist_rs_v7x_xyz2x4x4_x_m4096_n1024_f32_1_alg».proof.Proof.Gen.KernelIdeal
import proofs.«901041_g7700000000001042_dist_rs_v7x_xyz2x4x4_x_m4096_n1024_f32_1_alg».proof.Proof.Gen.ReferenceIdeal
import proofs.«901041_g7700000000001042_dist_rs_v7x_xyz2x4x4_x_m4096_n1024_f32_1_alg».proof.Proof.Gen.ReferenceIdeal.Run
import proofs.«901041_g7700000000001042_dist_rs_v7x_xyz2x4x4_x_m4096_n1024_f32_1_alg».proof.Proof.Gen.ReferenceIdeal.Read
import proofs.«901041_g7700000000001042_dist_rs_v7x_xyz2x4x4_x_m4096_n1024_f32_1_alg».proof.Proof.Gen.Pre_finite_inputs_Kernel
import proofs.«901041_g7700000000001042_dist_rs_v7x_xyz2x4x4_x_m4096_n1024_f32_1_alg».proof.Proof.Gen.Pre_finite_inputs_ReferenceIdeal
import proofs.«901041_g7700000000001042_dist_rs_v7x_xyz2x4x4_x_m4096_n1024_f32_1_alg».proof.Proof.Kernel.Run
import proofs.«901041_g7700000000001042_dist_rs_v7x_xyz2x4x4_x_m4096_n1024_f32_1_alg».proof.Proof.KernelIdeal.Run
import proofs.«901041_g7700000000001042_dist_rs_v7x_xyz2x4x4_x_m4096_n1024_f32_1_alg».proof.Proof.Value

noncomputable section

namespace Cert.Proof

open Idealize.ShloMosaic Idealize.SL.Sem

/-- The kernel at the word level: the run, its values dropped. -/
theorem frame_kernel : Cert.frame_Kernel := fun m ρ _ =>
  (θ_run (Cert.Kernel.defs (F := Bits)) _ _).mono (fun _ h c => (h c).2) (Cert.Kernel.RS.run_main (F := Bits) m ρ)

/-- The idealized kernel: the same run at the extended reals. -/
theorem frame_kernelIdeal : Cert.frame_KernelIdeal := fun m ρ _ =>
  (θ_run (Cert.KernelIdeal.defs (F := Ideal)) _ _).mono (fun _ h c => (h c).2) (Cert.KernelIdeal.RS.run_main (F := Ideal) m ρ)

/-- The reference: its run with the result dropped. -/
theorem frame_referenceIdeal : Cert.frame_ReferenceIdeal := fun m ρ _ =>
  (θ_run (Cert.ReferenceIdeal.defs (F := Ideal)) _ _).mono (fun _ h c => (h c).2) (Cert.ReferenceIdeal.Value.run (F := Ideal) m ρ)

/-- Nothing was rewritten. -/
theorem preserves : Cert.preserves_Kernel_KernelIdeal := trivial

/-- Both run; the reference's result is the sum over the first axis of the whole array, and every device's result
    is its block of that sum. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.Proof.RSValue.sumFull_block m _ hagree c), (h c).2⟩)
      (Cert.KernelIdeal.RS.run_main (F := Ideal) m ρ)
  · exact (θ_run (Cert.ReferenceIdeal.defs (F := Ideal)) _ _).mono
      (fun _ h => ⟨(h 0).1.trans (Cert.ReferenceIdeal.Read.val_main_v0_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_kernel, frame_kernelIdeal, frame_referenceIdeal, preserves, algebraic⟩

end Cert.Proof

end
